-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v195)) (v1 : (c : Dev Cert.KernelIdeal.nD) → Buf (Elt Ideal) ((c.tc : Thread Cert.KernelIdeal.nD Cert.KernelIdeal.τ).loc Cert.KernelIdeal.main_v194)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v195) = v0 c
          ∧ r.2.mem ((c.tc : Thread Cert.KernelIdeal.nD Cert.KernelIdeal.τ).loc Cert.KernelIdeal.main_v194) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_v232) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64 : Shape := ⟨2, ![128, 64]⟩
abbrev S8192x3 : Shape := ⟨2, ![8192, 3]⟩
abbrev S2x85342 : Shape := ⟨2, ![2, 85342]⟩
abbrev S488691 : Shape := ⟨1, ![488691]⟩
abbrev S128x512 : Shape := ⟨2, ![128, 512]⟩
abbrev S64 : Shape := ⟨1, ![64]⟩
abbrev S1x32 : Shape := ⟨2, ![1, 32]⟩
abbrev S32 : Shape := ⟨1, ![32]⟩
abbrev S32x32 : Shape := ⟨2, ![32, 32]⟩
abbrev S4x96x512 : Shape := ⟨3, ![4, 96, 512]⟩
abbrev S4x512 : Shape := ⟨2, ![4, 512]⟩
abbrev S4x512x512 : Shape := ⟨3, ![4, 512, 512]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S64 : S_.BroadcastsInDim S64 (![] : Fin 0 → Fin S64.rank)
  reducesTo_S64_S_d0 : S64.ReducesTo [0] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S4x96x512 : S_.BroadcastsInDim S4x96x512 (![] : Fin 0 → Fin S4x96x512.rank)
  reducesTo_S4x96x512_S_d0_1_2 : S4x96x512.ReducesTo [0, 1, 2] S_
  bcast_S_S4x512 : S_.BroadcastsInDim S4x512 (![] : Fin 0 → Fin S4x512.rank)
  reducesTo_S4x512_S_d0_1 : S4x512.ReducesTo [0, 1] S_
  bcast_S_S4x512x512 : S_.BroadcastsInDim S4x512x512 (![] : Fin 0 → Fin S4x512x512.rank)
  reducesTo_S4x512x512_S_d0_1_2 : S4x512x512.ReducesTo [0, 1, 2] S_
  bcast_S_S128x64 : S_.BroadcastsInDim S128x64 (![] : Fin 0 → Fin S128x64.rank)
  reducesTo_S128x64_S_d0_1 : S128x64.ReducesTo [0, 1] S_

variable [Facts]

def fn_part4 {F : FTy → Type} [FloatOps F] (main_arg0 : IVec S128x64 32) (main_v67 : IVec S_ 1) : IVec S_ 1 :=
  let main_c_26 : IVec S_ 32 := constantI S_ 32 128#32
  let main_v68 : IVec S128x64 32 := broadcastInDim S128x64 ![] bcast_S_S128x64 main_c_26
  let main_v69 : IVec S128x64 1 := cmpi .slt main_arg0 main_v68
  let main_c_27 : IVec S_ 1 := constantI S_ 1 1#1
  let main_v70 : IVec S_ 1 := (fun x v => Host.reduce IntOp.andi x v reducesTo_S128x64_S_d0_1 h_S_) main_v69 main_c_27
  let main_v71 : IVec S_ 1 := andi main_v67 main_v70
  main_v71

def fn_part3 {F : FTy → Type} [FloatOps F] (main_arg0 : IVec S128x64 32) (main_arg15 : FVec F S4x512x512 .f32) (main_arg16 : FVec F S4x512 .f32) (main_v48 : IVec S_ 1) (main_v49 : FVec F S4x512 .f32) (main_v50 : FVec F S4x512 .f32) : IVec S_ 1 :=
  let main_v51 : IVec S4x512 1 := cmpf .olt main_v49 main_v50
  let main_c_19 : IVec S_ 1 := constantI S_ 1 1#1
  let main_v52 : IVec S_ 1 := (fun x v => Host.reduce IntOp.andi x v reducesTo_S4x512_S_d0_1 h_S_) main_v51 main_c_19
  let main_v53 : IVec S_ 1 := andi main_v48 main_v52
  let main_v54 : FVec F S4x512x512 .f32 := Host.absf main_arg15
  let main_cst_20 : FVec F S_ .f32 := constant S_ .f32 0x7F800000#32
  let main_v55 : FVec F S4x512x512 .f32 := broadcastInDim S4x512x512 ![] bcast_S_S4x512x512 main_cst_20
  let main_v56 : IVec S4x512x512 1 := cmpf .olt main_v54 main_v55
  let main_c_21 : IVec S_ 1 := constantI S_ 1 1#1
  let main_v57 : IVec S_ 1 := (fun x v => Host.reduce IntOp.andi x v reducesTo_S4x512x512_S_d0_1_2 h_S_) main_v56 main_c_21
  let main_v58 : IVec S_ 1 := andi main_v53 main_v57
  let main_v59 : FVec F S4x512 .f32 := Host.absf main_arg16
  let main_cst_22 : FVec F S_ .f32 := constant S_ .f32 0x7F800000#32
  let main_v60 : FVec F S4x512 .f32 := broadcastInDim S4x512 ![] bcast_S_S4x512 main_cst_22
  let main_v61 : IVec S4x512 1 := cmpf .olt main_v59 main_v60
  let main_c_23 : IVec S_ 1 := constantI S_ 1 1#1
  let main_v62 : IVec S_ 1 := (fun x v => Host.reduce IntOp.andi x v reducesTo_S4x512_S_d0_1 h_S_) main_v61 main_c_23
  let main_v63 : IVec S_ 1 := andi main_v58 main_v62
  let main_c_24 : IVec S_ 32 := constantI S_ 32 0#32
  let main_v64 : IVec S128x64 32 := broadcastInDim S128x64 ![] bcast_S_S128x64 main_c_24
  let main_v65 : IVec S128x64 1 := cmpi .sge main_arg0 main_v64
  let main_c_25 : IVec S_ 1 := constantI S_ 1 1#1
  let main_v66 : IVec S_ 1 := (fun x v => Host.reduce IntOp.andi x v reducesTo_S128x64_S_d0_1 h_S_) main_v65 main_c_25
  let main_v67 : IVec S_ 1 := andi main_v63 main_v66
  fn_part4 (F := F) main_arg0 main_v67

def fn_part2 {F : FTy → Type} [FloatOps F] (main_arg0 : IVec S128x64 32) (main_arg11 : FVec F S4x96x512 .f32) (main_arg12 : FVec F S4x512 .f32) (main_arg13 : FVec F S4x512x512 .f32) (main_arg14 : FVec F S4x512 .f32) (main_arg15 : FVec F S4x512x512 .f32) (main_arg16 : FVec F S4x512 .f32) (main_v33 : IVec S_ 1) : IVec S_ 1 :=
  let main_v34 : FVec F S4x96x512 .f32 := Host.absf main_arg11
  let main_cst_12 : FVec F S_ .f32 := constant S_ .f32 0x7F800000#32
  let main_v35 : FVec F S4x96x512 .f32 := broadcastInDim S4x96x512 ![] bcast_S_S4x96x512 main_cst_12
  let main_v36 : IVec S4x96x512 1 := cmpf .olt main_v34 main_v35
  let main_c_13 : IVec S_ 1 := constantI S_ 1 1#1
  let main_v37 : IVec S_ 1 := (fun x v => Host.reduce IntOp.andi x v reducesTo_S4x96x512_S_d0_1_2 h_S_) main_v36 main_c_13
  let main_v38 : IVec S_ 1 := andi main_v33 main_v37
  let main_v39 : FVec F S4x512 .f32 := Host.absf main_arg12
  let main_cst_14 : FVec F S_ .f32 := constant S_ .f32 0x7F800000#32
  let main_v40 : FVec F S4x512 .f32 := broadcastInDim S4x512 ![] bcast_S_S4x512 main_cst_14
  let main_v41 : IVec S4x512 1 := cmpf .olt main_v39 main_v40
  let main_c_15 : IVec S_ 1 := constantI S_ 1 1#1
  let main_v42 : IVec S_ 1 := (fun x v => Host.reduce IntOp.andi x v reducesTo_S4x512_S_d0_1 h_S_) main_v41 main_c_15
  let main_v43 : IVec S_ 1 := andi main_v38 main_v42
  let main_v44 : FVec F S4x512x512 .f32 := Host.absf main_arg13
  let main_cst_16 : FVec F S_ .f32 := constant S_ .f32 0x7F800000#32
  let main_v45 : FVec F S4x512x512 .f32 := broadcastInDim S4x512x512 ![] bcast_S_S4x512x512 main_cst_16
  let main_v46 : IVec S4x512x512 1 := cmpf .olt main_v44 main_v45
  let main_c_17 : IVec S_ 1 := constantI S_ 1 1#1
  let main_v47 : IVec S_ 1 := (fun x v => Host.reduce IntOp.andi x v reducesTo_S4x512x512_S_d0_1_2 h_S_) main_v46 main_c_17
  let main_v48 : IVec S_ 1 := andi main_v43 main_v47
  let main_v49 : FVec F S4x512 .f32 := Host.absf main_arg14
  let main_cst_18 : FVec F S_ .f32 := constant S_ .f32 0x7F800000#32
  let main_v50 : FVec F S4x512 .f32 := broadcastInDim S4x512 ![] bcast_S_S4x512 main_cst_18
  fn_part3 (F := F) main_arg0 main_arg15 main_arg16 main_v48 main_v49 main_v50

def fn_part1 {F : FTy → Type} [FloatOps F] (main_arg0 : IVec S128x64 32) (main_arg8 : FVec F S32 .f32) (main_arg9 : FVec F S32x32 .f32) (main_arg10 : FVec F S32 .f32) (main_arg11 : FVec F S4x96x512 .f32) (main_arg12 : FVec F S4x512 .f32) (main_arg13 : FVec F S4x512x512 .f32) (main_arg14 : FVec F S4x512 .f32) (main_arg15 : FVec F S4x512x512 .f32) (main_arg16 : FVec F S4x512 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S32 .f32 := Host.absf main_arg8
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg9
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg10
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg0 main_arg11 main_arg12 main_arg13 main_arg14 main_arg15 main_arg16 main_v33

def fn {F : FTy → Type} [FloatOps F] (main_arg0 : IVec S128x64 32) (main_arg1 : FVec F S8192x3 .f32) (main_arg2 : IVec S2x85342 32) (main_arg3 : IVec S488691 32) (main_arg4 : IVec S488691 32) (main_arg5 : FVec F S128x512 .f32) (main_arg6 : FVec F S64 .f32) (main_arg7 : FVec F S1x32 .f32) (main_arg8 : FVec F S32 .f32) (main_arg9 : FVec F S32x32 .f32) (main_arg10 : FVec F S32 .f32) (main_arg11 : FVec F S4x96x512 .f32) (main_arg12 : FVec F S4x512 .f32) (main_arg13 : FVec F S4x512x512 .f32) (main_arg14 : FVec F S4x512 .f32) (main_arg15 : FVec F S4x512x512 .f32) (main_arg16 : FVec F S4x512 .f32) : IVec S_ 1 :=
  let main_v0 : FVec F S8192x3 .f32 := Host.absf main_arg1
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S128x512 .f32 := Host.absf main_arg5
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x32 .f32 := Host.absf main_arg7
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg0 main_arg8 main_arg9 main_arg10 main_arg11 main_arg12 main_arg13 main_arg14 main_arg15 main_arg16 main_v13 main_v16
-- ==== Kernel.lean ====
abbrev S128x64 : Shape := ⟨2, ![128, 64]⟩
abbrev S8192x3 : Shape := ⟨2, ![8192, 3]⟩
abbrev S2x85342 : Shape := ⟨2, ![2, 85342]⟩
abbrev S488691 : Shape := ⟨1, ![488691]⟩
abbrev S128x512 : Shape := ⟨2, ![128, 512]⟩
abbrev S64 : Shape := ⟨1, ![64]⟩
abbrev S1x32 : Shape := ⟨2, ![1, 32]⟩
abbrev S32 : Shape := ⟨1, ![32]⟩
abbrev S32x32 : Shape := ⟨2, ![32, 32]⟩
abbrev S4x96x512 : Shape := ⟨3, ![4, 96, 512]⟩
abbrev S4x512 : Shape := ⟨2, ![4, 512]⟩
abbrev S4x512x512 : Shape := ⟨3, ![4, 512, 512]⟩
abbrev S8192x1 : Shape := ⟨2, ![8192, 1]⟩
abbrev S8192x512 : Shape := ⟨2, ![8192, 512]⟩
abbrev S1024x1 : Shape := ⟨2, ![1024, 1]⟩
abbrev S1024x512 : Shape := ⟨2, ![1024, 512]⟩
abbrev S1024x128 : Shape := ⟨2, ![1024, 128]⟩
abbrev S1x85342 : Shape := ⟨2, ![1, 85342]⟩
abbrev S85342 : Shape := ⟨1, ![85342]⟩
abbrev S_ : Shape := ⟨0, ![]⟩
abbrev S85342x1 : Shape := ⟨2, ![85342, 1]⟩
abbrev S85342x3 : Shape := ⟨2, ![85342, 3]⟩
abbrev S1x64 : Shape := ⟨2, ![1, 64]⟩
abbrev S85342x64 : Shape := ⟨2, ![85342, 64]⟩
abbrev S488691x1 : Shape := ⟨2, ![488691, 1]⟩
abbrev S488691x3 : Shape := ⟨2, ![488691, 3]⟩
abbrev S491520x1 : Shape := ⟨2, ![491520, 1]⟩
abbrev S491520x32 : Shape := ⟨2, ![491520, 32]⟩
abbrev S6144x1 : Shape := ⟨2, ![6144, 1]⟩
abbrev S6144x32 : Shape := ⟨2, ![6144, 32]⟩
abbrev S488691x32 : Shape := ⟨2, ![488691, 32]⟩
abbrev S85342x32 : Shape := ⟨2, ![85342, 32]⟩
abbrev S85342x96 : Shape := ⟨2, ![85342, 96]⟩
abbrev S1x512 : Shape := ⟨2, ![1, 512]⟩
abbrev S512 : Shape := ⟨1, ![512]⟩
abbrev S1x96x512 : Shape := ⟨3, ![1, 96, 512]⟩
abbrev S96x512 : Shape := ⟨2, ![96, 512]⟩
abbrev S90000x96 : Shape := ⟨2, ![90000, 96]⟩
abbrev S90000x512 : Shape := ⟨2, ![90000, 512]⟩
abbrev S5000x96 : Shape := ⟨2, ![5000, 96]⟩
abbrev S5000x512 : Shape := ⟨2, ![5000, 512]⟩
abbrev S85342x512 : Shape := ⟨2, ![85342, 512]⟩
abbrev S1x512x512 : Shape := ⟨3, ![1, 512, 512]⟩
abbrev S512x512 : Shape := ⟨2, ![512, 512]⟩
abbrev S128x64x512 : Shape := ⟨3, ![128, 64, 512]⟩

abbrev nBuf : Space → Nat
  | .hbm => 267
  | .vmem => 77
  | .smem => 0
  | _ => 0

abbrev hbmTy0_0 (i : Nat) : BufTy := match i % 128 with
  | 0 => ⟨S128x64, .i32⟩
  | 1 => ⟨S8192x3, .f32⟩
  | 2 => ⟨S2x85342, .i32⟩
  | 3 => ⟨S488691, .i32⟩
  | 4 => ⟨S488691, .i32⟩
  | 5 => ⟨S128x512, .f32⟩
  | 6 => ⟨S64, .f32⟩
  | 7 => ⟨S1x32, .f32⟩
  | 8 => ⟨S32, .f32⟩
  | 9 => ⟨S32x32, .f32⟩
  | 10 => ⟨S32, .f32⟩
  | 11 => ⟨S4x96x512, .f32⟩
  | 12 => ⟨S4x512, .f32⟩
  | 13 => ⟨S4x512x512, .f32⟩
  | 14 => ⟨S4x512, .f32⟩
  | 15 => ⟨S4x512x512, .f32⟩
  | 16 => ⟨S4x512, .f32⟩
  | 17 => ⟨S8192x1, .i32⟩
  | 18 => ⟨S8192x512, .f32⟩
  | 19 => ⟨S1x85342, .i32⟩
  | 20 => ⟨S85342, .i32⟩
  | 21 => ⟨S1x85342, .i32⟩
  | 22 => ⟨S85342, .i32⟩
  | 23 => ⟨S_, .i32⟩
  | 24 => ⟨S85342, .i32⟩
  | 25 => ⟨S85342, .i1⟩
  | 26 => ⟨S_, .i32⟩
  | 27 => ⟨S85342, .i32⟩
  | 28 => ⟨S85342, .i32⟩
  | 29 => ⟨S85342, .i32⟩
  | 30 => ⟨S85342x1, .i32⟩
  | 31 => ⟨S85342x3, .f32⟩
  | 32 => ⟨S_, .i32⟩
  | 33 => ⟨S85342, .i32⟩
  | 34 => ⟨S85342, .i1⟩
  | 35 => ⟨S_, .i32⟩
  | 36 => ⟨S85342, .i32⟩
  | 37 => ⟨S85342, .i32⟩
  | 38 => ⟨S85342, .i32⟩
  | 39 => ⟨S85342x1, .i32⟩
  | 40 => ⟨S85342x3, .f32⟩
  | 41 => ⟨S85342x3, .f32⟩
  | 42 => ⟨S85342x3, .f32⟩
  | 43 => ⟨S_, .f32⟩
  | 44 => ⟨S85342, .f32⟩
  | 45 => ⟨S85342, .f32⟩
  | 46 => ⟨S85342x1, .f32⟩
  | 47 => ⟨S1x64, .f32⟩
  | 48 => ⟨S85342x64, .f32⟩
  | 49 => ⟨S85342x64, .f32⟩
  | 50 => ⟨S85342x64, .f32⟩
  | 51 => ⟨S85342x64, .f32⟩
  | 52 => ⟨S_, .f32⟩
  | 53 => ⟨S85342x64, .f32⟩
  | 54 => ⟨S85342x64, .f32⟩
  | 55 => ⟨S85342x64, .f32⟩
  | 56 => ⟨S_, .i32⟩
  | 57 => ⟨S488691, .i32⟩
  | 58 => ⟨S488691, .i1⟩
  | 59 => ⟨S_, .i32⟩
  | 60 => ⟨S488691, .i32⟩
  | 61 => ⟨S488691, .i32⟩
  | 62 => ⟨S488691, .i32⟩
  | 63 => ⟨S488691x1, .i32⟩
  | 64 => ⟨S488691, .i32⟩
  | 65 => ⟨S_, .i32⟩
  | 66 => ⟨S488691, .i32⟩
  | 67 => ⟨S488691, .i1⟩
  | 68 => ⟨S_, .i32⟩
  | 69 => ⟨S488691, .i32⟩
  | 70 => ⟨S488691, .i32⟩
  | 71 => ⟨S488691, .i32⟩
  | 72 => ⟨S488691x1, .i32⟩
  | 73 => ⟨S488691, .i32⟩
  | 74 => ⟨S_, .i32⟩
  | 75 => ⟨S488691, .i32⟩
  | 76 => ⟨S488691, .i1⟩
  | 77 => ⟨S_, .i32⟩
  | 78 => ⟨S488691, .i32⟩
  | 79 => ⟨S488691, .i32⟩
  | 80 => ⟨S488691, .i32⟩
  | 81 => ⟨S488691x1, .i32⟩
  | 82 => ⟨S488691, .i32⟩
  | 83 => ⟨S_, .i32⟩
  | 84 => ⟨S488691, .i32⟩
  | 85 => ⟨S488691, .i1⟩
  | 86 => ⟨S_, .i32⟩
  | 87 => ⟨S488691, .i32⟩
  | 88 => ⟨S488691, .i32⟩
  | 89 => ⟨S488691, .i32⟩
  | 90 => ⟨S488691x1, .i32⟩
  | 91 => ⟨S488691x3, .f32⟩
  | 92 => ⟨S_, .i32⟩
  | 93 => ⟨S488691, .i32⟩
  | 94 => ⟨S488691, .i1⟩
  | 95 => ⟨S_, .i32⟩
  | 96 => ⟨S488691, .i32⟩
  | 97 => ⟨S488691, .i32⟩
  | 98 => ⟨S488691, .i32⟩
  | 99 => ⟨S488691x1, .i32⟩
  | 100 => ⟨S488691x3, .f32⟩
  | 101 => ⟨S488691x3, .f32⟩
  | 102 => ⟨S_, .i32⟩
  | 103 => ⟨S488691, .i32⟩
  | 104 => ⟨S488691, .i1⟩
  | 105 => ⟨S_, .i32⟩
  | 106 => ⟨S488691, .i32⟩
  | 107 => ⟨S488691, .i32⟩
  | 108 => ⟨S488691, .i32⟩
  | 109 => ⟨S488691x1, .i32⟩
  | 110 => ⟨S488691x3, .f32⟩
  | 111 => ⟨S_, .i32⟩
  | 112 => ⟨S488691, .i32⟩
  | 113 => ⟨S488691, .i1⟩
  | 114 => ⟨S_, .i32⟩
  | 115 => ⟨S488691, .i32⟩
  | 116 => ⟨S488691, .i32⟩
  | 117 => ⟨S488691, .i32⟩
  | 118 => ⟨S488691x1, .i32⟩
  | 119 => ⟨S488691x3, .f32⟩
  | 120 => ⟨S488691x3, .f32⟩
  | 121 => ⟨S488691x3, .f32⟩
  | 122 => ⟨S_, .f32⟩
  | 123 => ⟨S488691, .f32⟩
  | 124 => ⟨S488691, .f32⟩
  | 125 => ⟨S488691x3, .f32⟩
  | 126 => ⟨S_, .f32⟩
  | 127 => ⟨S488691, .f32⟩
  | _ => ⟨S128x64, .i32⟩

abbrev hbmTy0_1 (i : Nat) : BufTy := match i % 128 with
  | 0 => ⟨S488691, .f32⟩
  | 1 => ⟨S488691, .f32⟩
  | 2 => ⟨S_, .f32⟩
  | 3 => ⟨S488691, .f32⟩
  | 4 => ⟨S488691, .f32⟩
  | 5 => ⟨S488691x3, .f32⟩
  | 6 => ⟨S_, .f32⟩
  | 7 => ⟨S488691, .f32⟩
  | 8 => ⟨S488691, .f32⟩
  | 9 => ⟨S_, .f32⟩
  | 10 => ⟨S_, .f32⟩
  | 11 => ⟨S_, .f32⟩
  | 12 => ⟨S488691, .f32⟩
  | 13 => ⟨S488691, .f32⟩
  | 14 => ⟨S_, .f32⟩
  | 15 => ⟨S488691, .f32⟩
  | 16 => ⟨S488691, .f32⟩
  | 17 => ⟨S488691x1, .f32⟩
  | 18 => ⟨S1x32, .f32⟩
  | 19 => ⟨S1x32, .f32⟩
  | 20 => ⟨S_, .i32⟩
  | 21 => ⟨S_, .f32⟩
  | 22 => ⟨S491520x1, .f32⟩
  | 23 => ⟨S491520x32, .f32⟩
  | 24 => ⟨S488691x32, .f32⟩
  | 25 => ⟨S_, .f32⟩
  | 26 => ⟨S85342x32, .f32⟩
  | 27 => ⟨S488691x1, .i32⟩
  | 28 => ⟨S85342x32, .f32⟩
  | 29 => ⟨S_, .f32⟩
  | 30 => ⟨S85342x32, .f32⟩
  | 31 => ⟨S488691x1, .i32⟩
  | 32 => ⟨S85342x32, .f32⟩
  | 33 => ⟨S85342x32, .f32⟩
  | 34 => ⟨S85342x96, .f32⟩
  | 35 => ⟨S1x512, .f32⟩
  | 36 => ⟨S512, .f32⟩
  | 37 => ⟨S1x512, .f32⟩
  | 38 => ⟨S1x96x512, .f32⟩
  | 39 => ⟨S96x512, .f32⟩
  | 40 => ⟨S_, .i32⟩
  | 41 => ⟨S_, .f32⟩
  | 42 => ⟨S90000x96, .f32⟩
  | 43 => ⟨S90000x512, .f32⟩
  | 44 => ⟨S85342x512, .f32⟩
  | 45 => ⟨S_, .f32⟩
  | 46 => ⟨S8192x512, .f32⟩
  | 47 => ⟨S85342x1, .i32⟩
  | 48 => ⟨S8192x512, .f32⟩
  | 49 => ⟨S1x512, .f32⟩
  | 50 => ⟨S512, .f32⟩
  | 51 => ⟨S1x512, .f32⟩
  | 52 => ⟨S1x512, .f32⟩
  | 53 => ⟨S512, .f32⟩
  | 54 => ⟨S1x512, .f32⟩
  | 55 => ⟨S1x512x512, .f32⟩
  | 56 => ⟨S512x512, .f32⟩
  | 57 => ⟨S1x512x512, .f32⟩
  | 58 => ⟨S512x512, .f32⟩
  | 59 => ⟨S8192x512, .f32⟩
  | 60 => ⟨S1x512, .f32⟩
  | 61 => ⟨S512, .f32⟩
  | 62 => ⟨S1x512, .f32⟩
  | 63 => ⟨S1x96x512, .f32⟩
  | 64 => ⟨S96x512, .f32⟩
  | 65 => ⟨S_, .i32⟩
  | 66 => ⟨S_, .f32⟩
  | 67 => ⟨S90000x96, .f32⟩
  | 68 => ⟨S90000x512, .f32⟩
  | 69 => ⟨S85342x512, .f32⟩
  | 70 => ⟨S_, .f32⟩
  | 71 => ⟨S8192x512, .f32⟩
  | 72 => ⟨S85342x1, .i32⟩
  | 73 => ⟨S8192x512, .f32⟩
  | 74 => ⟨S1x512, .f32⟩
  | 75 => ⟨S512, .f32⟩
  | 76 => ⟨S1x512, .f32⟩
  | 77 => ⟨S1x512, .f32⟩
  | 78 => ⟨S512, .f32⟩
  | 79 => ⟨S1x512, .f32⟩
  | 80 => ⟨S1x512x512, .f32⟩
  | 81 => ⟨S512x512, .f32⟩
  | 82 => ⟨S1x512x512, .f32⟩
  | 83 => ⟨S512x512, .f32⟩
  | 84 => ⟨S8192x512, .f32⟩
  | 85 => ⟨S1x512, .f32⟩
  | 86 => ⟨S512, .f32⟩
  | 87 => ⟨S1x512, .f32⟩
  | 88 => ⟨S1x96x512, .f32⟩
  | 89 => ⟨S96x512, .f32⟩
  | 90 => ⟨S_, .i32⟩
  | 91 => ⟨S_, .f32⟩
  | 92 => ⟨S90000x96, .f32⟩
  | 93 => ⟨S90000x512, .f32⟩
  | 94 => ⟨S85342x512, .f32⟩
  | 95 => ⟨S_, .f32⟩
  | 96 => ⟨S8192x512, .f32⟩
  | 97 => ⟨S85342x1, .i32⟩
  | 98 => ⟨S8192x512, .f32⟩
  | 99 => ⟨S1x512, .f32⟩
  | 100 => ⟨S512, .f32⟩
  | 101 => ⟨S1x512, .f32⟩
  | 102 => ⟨S1x512, .f32⟩
  | 103 => ⟨S512, .f32⟩
  | 104 => ⟨S1x512, .f32⟩
  | 105 => ⟨S1x512x512, .f32⟩
  | 106 => ⟨S512x512, .f32⟩
  | 107 => ⟨S1x512x512, .f32⟩
  | 108 => ⟨S512x512, .f32⟩
  | 109 => ⟨S8192x512, .f32⟩
  | 110 => ⟨S1x512, .f32⟩
  | 111 => ⟨S512, .f32⟩
  | 112 => ⟨S1x512, .f32⟩
  | 113 => ⟨S1x96x512, .f32⟩
  | 114 => ⟨S96x512, .f32⟩
  | 115 => ⟨S_, .i32⟩
  | 116 => ⟨S_, .f32⟩
  | 117 => ⟨S90000x96, .f32⟩
  | 118 => ⟨S90000x512, .f32⟩
  | 119 => ⟨S85342x512, .f32⟩
  | 120 => ⟨S_, .f32⟩
  | 121 => ⟨S8192x512, .f32⟩
  | 122 => ⟨S85342x1, .i32⟩
  | 123 => ⟨S8192x512, .f32⟩
  | 124 => ⟨S1x512, .f32⟩
  | 125 => ⟨S512, .f32⟩
  | 126 => ⟨S1x512, .f32⟩
  | 127 => ⟨S1x512, .f32⟩
  | _ => ⟨S128x64, .i32⟩

abbrev hbmTy0_2 (i : Nat) : BufTy := match i % 128 with
  | 0 => ⟨S512, .f32⟩
  | 1 => ⟨S1x512, .f32⟩
  | 2 => ⟨S1x512x512, .f32⟩
  | 3 => ⟨S512x512, .f32⟩
  | 4 => ⟨S1x512x512, .f32⟩
  | 5 => ⟨S512x512, .f32⟩
  | 6 => ⟨S8192x512, .f32⟩
  | 7 => ⟨S_, .i32⟩
  | 8 => ⟨S128x64, .i32⟩
  | 9 => ⟨S128x64, .i1⟩
  | 10 => ⟨S128x64x512, .f32⟩
  | _ => ⟨S128x64, .i32⟩

abbrev hbmTy (i : Nat) : BufTy := match i / 128 with
  | 0 => hbmTy0_0 i
  | 1 => hbmTy0_1 i
  | 2 => hbmTy0_2 i
  | _ => ⟨S128x64, .i32⟩

abbrev bufTy : (tb : Table) → Fin (tcTables nBuf tb) → BufTy
  | .hbm, ⟨i, _⟩ => hbmTy i
  | .local _ .vmem, ⟨0, _⟩ => ⟨S1024x1, .i32⟩
  | .local _ .vmem, ⟨1, _⟩ => ⟨S1024x1, .i32⟩
  | .local _ .vmem, ⟨2, _⟩ => ⟨S128x512, .f32⟩
  | .local _ .vmem, ⟨3, _⟩ => ⟨S1024x512, .f32⟩
  | .local _ .vmem, ⟨4, _⟩ => ⟨S1024x512, .f32⟩
  | .local _ .vmem, ⟨5, _⟩ => ⟨S6144x1, .f32⟩
  | .local _ .vmem, ⟨6, _⟩ => ⟨S6144x1, .f32⟩
  | .local _ .vmem, ⟨7, _⟩ => ⟨S1x32, .f32⟩
  | .local _ .vmem, ⟨8, _⟩ => ⟨S1x32, .f32⟩
  | .local _ .vmem, ⟨9, _⟩ => ⟨S32x32, .f32⟩
  | .local _ .vmem, ⟨10, _⟩ => ⟨S1x32, .f32⟩
  | .local _ .vmem, ⟨11, _⟩ => ⟨S6144x32, .f32⟩
  | .local _ .vmem, ⟨12, _⟩ => ⟨S6144x32, .f32⟩
  | .local _ .vmem, ⟨13, _⟩ => ⟨S5000x96, .f32⟩
  | .local _ .vmem, ⟨14, _⟩ => ⟨S5000x96, .f32⟩
  | .local _ .vmem, ⟨15, _⟩ => ⟨S96x512, .f32⟩
  | .local _ .vmem, ⟨16, _⟩ => ⟨S1x512, .f32⟩
  | .local _ .vmem, ⟨17, _⟩ => ⟨S5000x512, .f32⟩
  | .local _ .vmem, ⟨18, _⟩ => ⟨S5000x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S512x512, .f32⟩
  | .local _ .vmem, ⟨24, _⟩ => ⟨S1x512, .f32⟩
  | .local _ .vmem, ⟨25, _⟩ => ⟨S512x512, .f32⟩
  | .local _ .vmem, ⟨26, _⟩ => ⟨S1x512, .f32⟩
  | .local _ .vmem, ⟨27, _⟩ => ⟨S1024x512, .f32⟩
  | .local _ .vmem, ⟨28, _⟩ => ⟨S1024x512, .f32⟩
  | .local _ .vmem, ⟨29, _⟩ => ⟨S5000x96, .f32⟩
  | .local _ .vmem, ⟨30, _⟩ => ⟨S5000x96, .f32⟩
  | .local _ .vmem, ⟨31, _⟩ => ⟨S96x512, .f32⟩
  | .local _ .vmem, ⟨32, _⟩ => ⟨S1x512, .f32⟩
  | .local _ .vmem, ⟨33, _⟩ => ⟨S5000x512, .f32⟩
  | .local _ .vmem, ⟨34, _⟩ => ⟨S5000x512, .f32⟩
  | .local _ .vmem, ⟨35, _⟩ => ⟨S1024x512, .f32⟩
  | .local _ .vmem, ⟨36, _⟩ => ⟨S1024x512, .f32⟩
  | .local _ .vmem, ⟨37, _⟩ => ⟨S1024x512, .f32⟩
  | .local _ .vmem, ⟨38, _⟩ => ⟨S1024x512, .f32⟩
  | .local _ .vmem, ⟨39, _⟩ => ⟨S512x512, .f32⟩
  | .local _ .vmem, ⟨40, _⟩ => ⟨S1x512, .f32⟩
  | .local _ .vmem, ⟨41, _⟩ => ⟨S512x512, .f32⟩
  | .local _ .vmem, ⟨42, _⟩ => ⟨S1x512, .f32⟩
  | .local _ .vmem, ⟨43, _⟩ => ⟨S1024x512, .f32⟩
  | .local _ .vmem, ⟨44, _⟩ => ⟨S1024x512, .f32⟩
  | .local _ .vmem, ⟨45, _⟩ => ⟨S5000x96, .f32⟩
  | .local _ .vmem, ⟨46, _⟩ => ⟨S5000x96, .f32⟩
  | .local _ .vmem, ⟨47, _⟩ => ⟨S96x512, .f32⟩
  | .local _ .vmem, ⟨48, _⟩ => ⟨S1x512, .f32⟩
  | .local _ .vmem, ⟨49, _⟩ => ⟨S5000x512, .f32⟩
  | .local _ .vmem, ⟨50, _⟩ => ⟨S5000x512, .f32⟩
  | .local _ .vmem, ⟨51, _⟩ => ⟨S1024x512, .f32⟩
  | .local _ .vmem, ⟨52, _⟩ => ⟨S1024x512, .f32⟩
  | .local _ .vmem, ⟨53, _⟩ => ⟨S1024x512, .f32⟩
  | .local _ .vmem, ⟨54, _⟩ => ⟨S1024x512, .f32⟩
  | .local _ .vmem, ⟨55, _⟩ => ⟨S512x512, .f32⟩
  | .local _ .vmem, ⟨56, _⟩ => ⟨S1x512, .f32⟩
  | .local _ .vmem, ⟨57, _⟩ => ⟨S512x512, .f32⟩
  | .local _ .vmem, ⟨58, _⟩ => ⟨S1x512, .f32⟩
  | .local _ .vmem, ⟨59, _⟩ => ⟨S1024x512, .f32⟩
  | .local _ .vmem, ⟨60, _⟩ => ⟨S1024x512, .f32⟩
  | .local _ .vmem, ⟨61, _⟩ => ⟨S5000x96, .f32⟩
  | .local _ .vmem, ⟨62, _⟩ => ⟨S5000x96, .f32⟩
  | .local _ .vmem, ⟨63, _⟩ => ⟨S96x512, .f32⟩
  | .local _ .vmem, ⟨64, _⟩ => ⟨S1x512, .f32⟩
  | .local _ .vmem, ⟨65, _⟩ => ⟨S5000x512, .f32⟩
  | .local _ .vmem, ⟨66, _⟩ => ⟨S5000x512, .f32⟩
  | .local _ .vmem, ⟨67, _⟩ => ⟨S1024x512, .f32⟩
  | .local _ .vmem, ⟨68, _⟩ => ⟨S1024x512, .f32⟩
  | .local _ .vmem, ⟨69, _⟩ => ⟨S1024x512, .f32⟩
  | .local _ .vmem, ⟨70, _⟩ => ⟨S1024x512, .f32⟩
  | .local _ .vmem, ⟨71, _⟩ => ⟨S512x512, .f32⟩
  | .local _ .vmem, ⟨72, _⟩ => ⟨S1x512, .f32⟩
  | .local _ .vmem, ⟨73, _⟩ => ⟨S512x512, .f32⟩
  | .local _ .vmem, ⟨74, _⟩ => ⟨S1x512, .f32⟩
  | .local _ .vmem, ⟨75, _⟩ => ⟨S1024x512, .f32⟩
  | .local _ .vmem, ⟨76, _⟩ => ⟨S1024x512, .f32⟩
  | _, _ => ⟨S128x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call0_v0 : Ref sig .tc := ⟨.hbm, 42, rfl⟩
abbrev main_call0_cst : Ref sig .tc := ⟨.hbm, 43, rfl⟩
abbrev main_call0_v1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_3 : Ref sig .tc := ⟨.hbm, 56, rfl⟩
abbrev main_v31 : Ref sig .tc := ⟨.hbm, 57, rfl⟩
abbrev main_v32 : Ref sig .tc := ⟨.hbm, 58, rfl⟩
abbrev main_c_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_5 : Ref sig .tc := ⟨.hbm, 65, rfl⟩
abbrev main_v38 : Ref sig .tc := ⟨.hbm, 66, rfl⟩
abbrev main_v39 : Ref sig .tc := ⟨.hbm, 67, rfl⟩
abbrev main_c_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_7 : Ref sig .tc := ⟨.hbm, 74, rfl⟩
abbrev main_v45 : Ref sig .tc := ⟨.hbm, 75, rfl⟩
abbrev main_v46 : Ref sig .tc := ⟨.hbm, 76, rfl⟩
abbrev main_c_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_9 : Ref sig .tc := ⟨.hbm, 83, rfl⟩
abbrev main_v52 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_c_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_13 : Ref sig .tc := ⟨.hbm, 102, rfl⟩
abbrev main_v67 : Ref sig .tc := ⟨.hbm, 103, rfl⟩
abbrev main_v68 : Ref sig .tc := ⟨.hbm, 104, rfl⟩
abbrev main_c_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_15 : Ref sig .tc := ⟨.hbm, 111, rfl⟩
abbrev main_v74 : Ref sig .tc := ⟨.hbm, 112, rfl⟩
abbrev main_v75 : Ref sig .tc := ⟨.hbm, 113, rfl⟩
abbrev main_c_16 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call1_v0 : Ref sig .tc := ⟨.hbm, 121, rfl⟩
abbrev main_call1_cst : Ref sig .tc := ⟨.hbm, 122, rfl⟩
abbrev main_call1_v1 : Ref sig .tc := ⟨.hbm, 123, rfl⟩
abbrev main_v82 : Ref sig .tc := ⟨.hbm, 124, rfl⟩
abbrev main_call2_v0 : Ref sig .tc := ⟨.hbm, 125, rfl⟩
abbrev main_call2_cst : Ref sig .tc := ⟨.hbm, 126, rfl⟩
abbrev main_call2_v1 : Ref sig .tc := ⟨.hbm, 127, rfl⟩
abbrev main_v83 : Ref sig .tc := ⟨.hbm, 128, rfl⟩
abbrev main_v84 : Ref sig .tc := ⟨.hbm, 129, rfl⟩
abbrev main_cst_17 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_18 : Ref sig .tc := ⟨.hbm, 134, rfl⟩
abbrev main_v88 : Ref sig .tc := ⟨.hbm, 135, rfl⟩
abbrev main_v89 : Ref sig .tc := ⟨.hbm, 136, rfl⟩
abbrev main_cst_19 : Ref sig .tc := ⟨.hbm, 137, rfl⟩
abbrev main_cst_20 : Ref sig .tc := ⟨.hbm, 138, rfl⟩
abbrev main_call3_v0 : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_c_21 : Ref sig .tc := ⟨.hbm, 148, rfl⟩
abbrev main_call4_v0 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_22 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_23 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_c_24 : Ref sig .tc := ⟨.hbm, 168, rfl⟩
abbrev main_call5_v0 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_cst_25 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_c_26 : Ref sig .tc := ⟨.hbm, 193, rfl⟩
abbrev main_call6_v0 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_cst_27 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_c_28 : Ref sig .tc := ⟨.hbm, 218, rfl⟩
abbrev main_call7_v0 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_cst_29 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_c_30 : Ref sig .tc := ⟨.hbm, 243, rfl⟩
abbrev main_call8_v0 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_cst_31 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_c_32 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg6_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg3_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc7_stg6_0 : Ref sig .tc := ⟨.vmem, 59, rfl⟩
abbrev cc7_stg6_1 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg2_0 : Ref sig .tc := ⟨.vmem, 64, rfl⟩
abbrev cc8_stg3_0 : Ref sig .tc := ⟨.vmem, 65, rfl⟩
abbrev cc8_stg3_1 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg1_1 : Ref sig .tc := ⟨.vmem, 70, rfl⟩
abbrev cc9_stg2_0 : Ref sig .tc := ⟨.vmem, 71, rfl⟩
abbrev cc9_stg3_0 : Ref sig .tc := ⟨.vmem, 72, rfl⟩
abbrev cc9_stg4_0 : Ref sig .tc := ⟨.vmem, 73, rfl⟩
abbrev cc9_stg5_0 : Ref sig .tc := ⟨.vmem, 74, rfl⟩
abbrev cc9_stg6_0 : Ref sig .tc := ⟨.vmem, 75, rfl⟩
abbrev cc9_stg6_1 : Ref sig .tc := ⟨.vmem, 76, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem6_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem3_0 : DmaSem sig := 49
abbrev cc6_sem3_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem3_0 : DmaSem sig := 56
abbrev cc7_sem4_0 : DmaSem sig := 57
abbrev cc7_sem5_0 : DmaSem sig := 58
abbrev cc7_sem6_0 : DmaSem sig := 59
abbrev cc7_sem6_1 : DmaSem sig := 60
abbrev cc8_sem0_0 : DmaSem sig := 61
abbrev cc8_sem0_1 : DmaSem sig := 62
abbrev cc8_sem1_0 : DmaSem sig := 63
abbrev cc8_sem2_0 : DmaSem sig := 64
abbrev cc8_sem3_0 : DmaSem sig := 65
abbrev cc8_sem3_1 : DmaSem sig := 66
abbrev cc9_sem0_0 : DmaSem sig := 67
abbrev cc9_sem0_1 : DmaSem sig := 68
abbrev cc9_sem1_0 : DmaSem sig := 69
abbrev cc9_sem1_1 : DmaSem sig := 70
abbrev cc9_sem2_0 : DmaSem sig := 71
abbrev cc9_sem3_0 : DmaSem sig := 72
abbrev cc9_sem4_0 : DmaSem sig := 73
abbrev cc9_sem5_0 : DmaSem sig := 74
abbrev cc9_sem6_0 : DmaSem sig := 75
abbrev cc9_sem6_1 : DmaSem sig := 76

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6144x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6144x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![18], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1024x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![18], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S512x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1024x512 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![18], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S96x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S512x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S512x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x512 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S1024x512 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![18], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x96 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S96x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x512 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1024x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1024x512 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S512x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x512 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S512x512 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x512 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S1024x512 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

class Facts₀ : Prop where
  shapeCasts_S128x64_S8192x1 : S128x64.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x128_d1_w32 : S1024x128.Iotas .tc 32 [1]
  broadcasts_S1024x1_S1024x128 : S1024x1.Broadcasts S1024x128
  natLt_1_32 : 1 < 32
  inb_S128x512_S128x512_0_0 : ∀ a, (![0, 0] : Fin 2 → Nat) a + S128x512.size a ≤ S128x512.size a
  h_S128x512 : 0 < S128x512.numel
  inb_S1024x512_S1024x512_0_0 : ∀ a, (![0, 0] : Fin 2 → Nat) a + S1024x512.size a ≤ S1024x512.size a
  h_S1024x512 : 0 < S1024x512.numel
  slices_S2x85342_S1x85342_0_0 : S2x85342.Slices ![0, 0] S1x85342
  shapeCasts_S1x85342_S85342 : S1x85342.ShapeCasts S85342
  slices_S2x85342_S1x85342_1_0 : S2x85342.Slices ![1, 0] S1x85342
  bcast_S_S85342 : S_.BroadcastsInDim S85342 (![] : Fin 0 → Fin S85342.rank)
  bcast_S85342_S85342x1_0 : S85342.BroadcastsInDim S85342x1 (![0] : Fin 1 → Fin S85342x1.rank)
  reducesTo_S85342x3_S85342_d1 : S85342x3.ReducesTo [1] S85342
  h_S_ : 0 < S_.numel
  bcast_S64_S1x64_1 : S64.BroadcastsInDim S1x64 (![1] : Fin 1 → Fin S1x64.rank)
  bcast_S85342x1_S85342x64_0_1 : S85342x1.BroadcastsInDim S85342x64 (![0, 1] : Fin 2 → Fin S85342x64.rank)
  bcast_S1x64_S85342x64_0_1 : S1x64.BroadcastsInDim S85342x64 (![0, 1] : Fin 2 → Fin S85342x64.rank)
  bcast_S_S85342x64 : S_.BroadcastsInDim S85342x64 (![] : Fin 0 → Fin S85342x64.rank)
  bcast_S_S488691 : S_.BroadcastsInDim S488691 (![] : Fin 0 → Fin S488691.rank)
  bcast_S488691_S488691x1_0 : S488691.BroadcastsInDim S488691x1 (![0] : Fin 1 → Fin S488691x1.rank)
  reducesTo_S488691x3_S488691_d1 : S488691x3.ReducesTo [1] S488691
  shapeCasts_S488691_S488691x1 : S488691.ShapeCasts S488691x1
  shapeCasts_S32_S1x32 : S32.ShapeCasts S1x32
  pads_S488691x1_S491520x1_028290_000 : S488691x1.Pads (![0, 0] : Fin 2 → Nat) ![2829, 0] ![0, 0] S491520x1
  inb_S6144x1_S6144x1_0_0 : ∀ a, (![0, 0] : Fin 2 → Nat) a + S6144x1.size a ≤ S6144x1.size a
  h_S6144x1 : 0 < S6144x1.numel
  shapeCasts_S6144x1_S6144x1 : S6144x1.ShapeCasts S6144x1
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6144x32 : S1x32.Broadcasts S6144x32
  inb_S32x32_S32x32_0_0 : ∀ a, (![0, 0] : Fin 2 → Nat) a + S32x32.size a ≤ S32x32.size a
  h_S32x32 : 0 < S32x32.numel
  inb_S6144x32_S6144x32_0_0 : ∀ a, (![0, 0] : Fin 2 → Nat) a + S6144x32.size a ≤ S6144x32.size a
  h_S6144x32 : 0 < S6144x32.numel
  slices_S491520x32_S488691x32_0_0 : S491520x32.Slices ![0, 0] S488691x32
  bcast_S_S85342x32 : S_.BroadcastsInDim S85342x32 (![] : Fin 0 → Fin S85342x32.rank)
  concatenates_S85342x64_S85342x32_S85342x96_d1 : Shape.Concatenates [S85342x64, S85342x32] S85342x96 1
  slices_S4x512_S1x512_0_0 : S4x512.Slices ![0, 0] S1x512
  shapeCasts_S1x512_S512 : S1x512.ShapeCasts S512
  shapeCasts_S512_S1x512 : S512.ShapeCasts S1x512
  slices_S4x96x512_S1x96x512_0_0_0 : S4x96x512.Slices ![0, 0, 0] S1x96x512
  shapeCasts_S1x96x512_S96x512 : S1x96x512.ShapeCasts S96x512
  pads_S85342x96_S90000x96_046580_000 : S85342x96.Pads (![0, 0] : Fin 2 → Nat) ![4658, 0] ![0, 0] S90000x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x512_S96x512_0_0 : ∀ a, (![0, 0] : Fin 2 → Nat) a + S96x512.size a ≤ S96x512.size a
  h_S96x512 : 0 < S96x512.numel
  shapeCasts_S96x512_S96x512 : S96x512.ShapeCasts S96x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  inb_S5000x512_S5000x512_0_0 : ∀ a, (![0, 0] : Fin 2 → Nat) a + S5000x512.size a ≤ S5000x512.size a
  h_S5000x512 : 0 < S5000x512.numel
  slices_S90000x512_S85342x512_0_0 : S90000x512.Slices ![0, 0] S85342x512
  bcast_S_S8192x512 : S_.BroadcastsInDim S8192x512 (![] : Fin 0 → Fin S8192x512.rank)
  slices_S4x512x512_S1x512x512_0_0_0 : S4x512x512.Slices ![0, 0, 0] S1x512x512
  shapeCasts_S1x512x512_S512x512 : S1x512x512.ShapeCasts S512x512
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S1024x512 : S1x512.Broadcasts S1024x512
  slices_S4x512_S1x512_1_0 : S4x512.Slices ![1, 0] S1x512
  slices_S4x96x512_S1x96x512_1_0_0 : S4x96x512.Slices ![1, 0, 0] S1x96x512
  slices_S4x512x512_S1x512x512_1_0_0 : S4x512x512.Slices ![1, 0, 0] S1x512x512
  slices_S4x512_S1x512_2_0 : S4x512.Slices ![2, 0] S1x512
  slices_S4x96x512_S1x96x512_2_0_0 : S4x96x512.Slices ![2, 0, 0] S1x96x512
  slices_S4x512x512_S1x512x512_2_0_0 : S4x512x512.Slices ![2, 0, 0] S1x512x512
  slices_S4x512_S1x512_3_0 : S4x512.Slices ![3, 0] S1x512
  slices_S4x96x512_S1x96x512_3_0_0 : S4x96x512.Slices ![3, 0, 0] S1x96x512
  slices_S4x512x512_S1x512x512_3_0_0 : S4x512x512.Slices ![3, 0, 0] S1x512x512
  bcast_S_S128x64 : S_.BroadcastsInDim S128x64 (![] : Fin 0 → Fin S128x64.rank)
  shapeCasts_S8192x512_S128x64x512 : S8192x512.ShapeCasts S128x64x512
  dot_S1024x128_S128x512_S1024x512_1_0_0_1_n_n_wf : DotDims.WF S1024x128 S128x512 S1024x512 [1] [0] [0] [1] [] []
  gather_S8192x3_S85342x1_S85342x3_1_0_n_n_0_1_13_wf : GatherDims.WF S8192x3 S85342x1 S85342x3 [1] [0] [] [0] [] 1 ![1, 3]
  gather_S85342_S488691x1_S488691_n_0_n_n_0_1_1_wf : GatherDims.WF S85342 S488691x1 S488691 [] [0] [] [0] [] 1 ![1]
  gather_S8192x3_S488691x1_S488691x3_1_0_n_n_0_1_13_wf : GatherDims.WF S8192x3 S488691x1 S488691x3 [1] [0] [] [0] [] 1 ![1, 3]
  dot_S6144x1_S1x32_S6144x32_1_0_0_1_n_n_wf : DotDims.WF S6144x1 S1x32 S6144x32 [1] [0] [0] [1] [] []
  dot_S6144x32_S32x32_S6144x32_1_0_0_1_n_n_wf : DotDims.WF S6144x32 S32x32 S6144x32 [1] [0] [0] [1] [] []
  scatter_S85342x32_S488691x1_S488691x32_1_0_0_1_wf : ScatterDims.WF S85342x32 S488691x1 S488691x32 [1] [0] [0] 1
  dot_S5000x96_S96x512_S5000x512_1_0_0_1_n_n_wf : DotDims.WF S5000x96 S96x512 S5000x512 [1] [0] [0] [1] [] []
  scatter_S8192x512_S85342x1_S85342x512_1_0_0_1_wf : ScatterDims.WF S8192x512 S85342x1 S85342x512 [1] [0] [0] 1
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .i32 = 32 ∨ (Rect.block (s := S8192x1) S1024x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6144x1.size a ≤ S491520x1.size a
  hwx1_0 : ∀ i : grid1.Coords, EltTy.bits .f32 = 32 ∨ (Rect.block (s := S491520x1) S6144x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6144x32.size a ≤ S491520x32.size a
  hwx1_5 : ∀ i : grid1.Coords, EltTy.bits .f32 = 32 ∨ (Rect.block (s := S491520x32) S6144x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S90000x96.size a
  hwx2_0 : ∀ i : grid2.Coords, EltTy.bits .f32 = 32 ∨ (Rect.block (s := S90000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x512.size a ≤ S96x512.size a
  hwx2_1 : ∀ i : grid2.Coords, EltTy.bits .f32 = 32 ∨ (Rect.block (s := S96x512) S96x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x512.size a ≤ S90000x512.size a
  hwx2_3 : ∀ i : grid2.Coords, EltTy.bits .f32 = 32 ∨ (Rect.block (s := S90000x512) S5000x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S8192x512.size a
  hwx3_0 : ∀ i : grid3.Coords, EltTy.bits .f32 = 32 ∨ (Rect.block (s := S8192x512) S1024x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S8192x512.size a
  hwx3_1 : ∀ i : grid3.Coords, EltTy.bits .f32 = 32 ∨ (Rect.block (s := S8192x512) S1024x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .f32 = 32 ∨ (Rect.block (s := S512x512) S512x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S512x512.size a
  hwx3_4 : ∀ i : grid3.Coords, EltTy.bits .f32 = 32 ∨ (Rect.block (s := S512x512) S512x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x512.size a ≤ S1x512.size a
  hwx3_5 : ∀ i : grid3.Coords, EltTy.bits .f32 = 32 ∨ (Rect.block (s := S1x512) S1x512.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x512.size a ≤ S8192x512.size a
  hwx3_6 : ∀ i : grid3.Coords, EltTy.bits .f32 = 32 ∨ (Rect.block (s := S8192x512) S1024x512.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S90000x96.size a
  hwx4_0 : ∀ i : grid4.Coords, EltTy.bits .f32 = 32 ∨ (Rect.block (s := S90000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x512.size a ≤ S96x512.size a
  hwx4_1 : ∀ i : grid4.Coords, EltTy.bits .f32 = 32 ∨ (Rect.block (s := S96x512) S96x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x512.size a ≤ S90000x512.size a
  hwx4_3 : ∀ i : grid4.Coords, EltTy.bits .f32 = 32 ∨ (Rect.block (s := S90000x512) S5000x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x512.size a ≤ S8192x512.size a
  hwx5_0 : ∀ i : grid5.Coords, EltTy.bits .f32 = 32 ∨ (Rect.block (s := S8192x512) S1024x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x512.size a ≤ S8192x512.size a
  hwx5_1 : ∀ i : grid5.Coords, EltTy.bits .f32 = 32 ∨ (Rect.block (s := S8192x512) S1024x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x512.size a ≤ S512x512.size a
  hwx5_2 : ∀ i : grid5.Coords, EltTy.bits .f32 = 32 ∨ (Rect.block (s := S512x512) S512x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S512x512.size a ≤ S512x512.size a
  hwx5_4 : ∀ i : grid5.Coords, EltTy.bits .f32 = 32 ∨ (Rect.block (s := S512x512) S512x512.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x512.size a ≤ S1x512.size a
  hwx5_5 : ∀ i : grid5.Coords, EltTy.bits .f32 = 32 ∨ (Rect.block (s := S1x512) S1x512.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1024x512.size a ≤ S8192x512.size a
  hwx5_6 : ∀ i : grid5.Coords, EltTy.bits .f32 = 32 ∨ (Rect.block (s := S8192x512) S1024x512.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x96.size a ≤ S90000x96.size a
  hwx6_0 : ∀ i : grid6.Coords, EltTy.bits .f32 = 32 ∨ (Rect.block (s := S90000x96) S5000x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S96x512.size a ≤ S96x512.size a
  hwx6_1 : ∀ i : grid6.Coords, EltTy.bits .f32 = 32 ∨ (Rect.block (s := S96x512) S96x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x512.size a ≤ S90000x512.size a
  hwx6_3 : ∀ i : grid6.Coords, EltTy.bits .f32 = 32 ∨ (Rect.block (s := S90000x512) S5000x512.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x512.size a ≤ S8192x512.size a
  hwx7_0 : ∀ i : grid7.Coords, EltTy.bits .f32 = 32 ∨ (Rect.block (s := S8192x512) S1024x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x512.size a ≤ S8192x512.size a
  hwx7_1 : ∀ i : grid7.Coords, EltTy.bits .f32 = 32 ∨ (Rect.block (s := S8192x512) S1024x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512x512.size a ≤ S512x512.size a
  hwx7_2 : ∀ i : grid7.Coords, EltTy.bits .f32 = 32 ∨ (Rect.block (s := S512x512) S512x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x512.size a ≤ S1x512.size a
  hwx7_3 : ∀ i : grid7.Coords, EltTy.bits .f32 = 32 ∨ (Rect.block (s := S1x512) S1x512.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S512x512.size a ≤ S512x512.size a
  hwx7_4 : ∀ i : grid7.Coords, EltTy.bits .f32 = 32 ∨ (Rect.block (s := S512x512) S512x512.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x512.size a ≤ S1x512.size a
  hwx7_5 : ∀ i : grid7.Coords, EltTy.bits .f32 = 32 ∨ (Rect.block (s := S1x512) S1x512.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1024x512.size a ≤ S8192x512.size a
  hwx7_6 : ∀ i : grid7.Coords, EltTy.bits .f32 = 32 ∨ (Rect.block (s := S8192x512) S1024x512.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x96.size a ≤ S90000x96.size a
  hwx8_0 : ∀ i : grid8.Coords, EltTy.bits .f32 = 32 ∨ (Rect.block (s := S90000x96) S5000x96.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S96x512.size a ≤ S96x512.size a
  hwx8_1 : ∀ i : grid8.Coords, EltTy.bits .f32 = 32 ∨ (Rect.block (s := S96x512) S96x512.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x512.size a ≤ S90000x512.size a
  hwx8_3 : ∀ i : grid8.Coords, EltTy.bits .f32 = 32 ∨ (Rect.block (s := S90000x512) S5000x512.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x512.size a ≤ S8192x512.size a
  hwx9_0 : ∀ i : grid9.Coords, EltTy.bits .f32 = 32 ∨ (Rect.block (s := S8192x512) S1024x512.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1024x512.size a ≤ S8192x512.size a
  hwx9_1 : ∀ i : grid9.Coords, EltTy.bits .f32 = 32 ∨ (Rect.block (s := S8192x512) S1024x512.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S512x512.size a ≤ S512x512.size a
  hwx9_2 : ∀ i : grid9.Coords, EltTy.bits .f32 = 32 ∨ (Rect.block (s := S512x512) S512x512.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x512.size a ≤ S1x512.size a
  hwx9_3 : ∀ i : grid9.Coords, EltTy.bits .f32 = 32 ∨ (Rect.block (s := S1x512) S1x512.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S512x512.size a ≤ S512x512.size a
  hwx9_4 : ∀ i : grid9.Coords, EltTy.bits .f32 = 32 ∨ (Rect.block (s := S512x512) S512x512.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x512.size a ≤ S1x512.size a
  hwx9_5 : ∀ i : grid9.Coords, EltTy.bits .f32 = 32 ∨ (Rect.block (s := S1x512) S1x512.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1024x512.size a ≤ S8192x512.size a
  hwx9_6 : ∀ i : grid9.Coords, EltTy.bits .f32 = 32 ∨ (Rect.block (s := S8192x512) S1024x512.size (cc9_transform_6 i) (hinb9_6 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def gather_S8192x3_S85342x1_S85342x3_1_0_n_n_0_1_13 : GatherDims S8192x3 S85342x1 S85342x3 where
  offsetDims := [1]
  collapsedSliceDims := [0]
  operandBatchingDims := []
  startIndicesBatchingDims := []
  startIndexMap := [0]
  indexVectorDim := 1
  sliceSizes := ![1, 3]
  wf := gather_S8192x3_S85342x1_S85342x3_1_0_n_n_0_1_13_wf
def gather_S85342_S488691x1_S488691_n_0_n_n_0_1_1 : GatherDims S85342 S488691x1 S488691 where
  offsetDims := []
  collapsedSliceDims := [0]
  operandBatchingDims := []
  startIndicesBatchingDims := []
  startIndexMap := [0]
  indexVectorDim := 1
  sliceSizes := ![1]
  wf := gather_S85342_S488691x1_S488691_n_0_n_n_0_1_1_wf
def gather_S8192x3_S488691x1_S488691x3_1_0_n_n_0_1_13 : GatherDims S8192x3 S488691x1 S488691x3 where
  offsetDims := [1]
  collapsedSliceDims := [0]
  operandBatchingDims := []
  startIndicesBatchingDims := []
  startIndexMap := [0]
  indexVectorDim := 1
  sliceSizes := ![1, 3]
  wf := gather_S8192x3_S488691x1_S488691x3_1_0_n_n_0_1_13_wf
def dot_S6144x1_S1x32_S6144x32_1_0_0_1_n_n : DotDims S6144x1 S1x32 S6144x32 where
  lhsContracting := [1]
  rhsContracting := [0]
  lhsNonContracting := [0]
  rhsNonContracting := [1]
  lhsBatch := []
  rhsBatch := []
  wf := dot_S6144x1_S1x32_S6144x32_1_0_0_1_n_n_wf
def dot_S6144x32_S32x32_S6144x32_1_0_0_1_n_n : DotDims S6144x32 S32x32 S6144x32 where
  lhsContracting := [1]
  rhsContracting := [0]
  lhsNonContracting := [0]
  rhsNonContracting := [1]
  lhsBatch := []
  rhsBatch := []
  wf := dot_S6144x32_S32x32_S6144x32_1_0_0_1_n_n_wf
def scatter_S85342x32_S488691x1_S488691x32_1_0_0_1 : ScatterDims S85342x32 S488691x1 S488691x32 where
  updateWindowDims := [1]
  insertedWindowDims := [0]
  scatterDimsToOperandDims := [0]
  indexVectorDim := 1
  wf := scatter_S85342x32_S488691x1_S488691x32_1_0_0_1_wf
def dot_S5000x96_S96x512_S5000x512_1_0_0_1_n_n : DotDims S5000x96 S96x512 S5000x512 where
  lhsContracting := [1]
  rhsContracting := [0]
  lhsNonContracting := [0]
  rhsNonContracting := [1]
  lhsBatch := []
  rhsBatch := []
  wf := dot_S5000x96_S96x512_S5000x512_1_0_0_1_n_n_wf
def scatter_S8192x512_S85342x1_S85342x512_1_0_0_1 : ScatterDims S8192x512 S85342x1 S85342x512 where
  updateWindowDims := [1]
  insertedWindowDims := [0]
  scatterDimsToOperandDims := [0]
  indexVectorDim := 1
  wf := scatter_S8192x512_S85342x1_S85342x512_1_0_0_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v94) S6144x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v92) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v93) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v95) S6144x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v110) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v109) S96x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v107) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v111) S5000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v115) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v123) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v118) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v125) S512x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v121) S1x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v126) S1024x512.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v132) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v131) S96x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v129) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v133) S5000x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v126) S1024x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v137) S1024x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v145) S512x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v140) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v147) S512x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v143) S1x512.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v148) S1024x512.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v154) S5000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v153) S96x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v151) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v155) S5000x512.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v148) S1024x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v159) S1024x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v167) S512x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v162) S1x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v169) S512x512.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v165) S1x512.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v170) S1024x512.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v176) S5000x96.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v175) S96x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v173) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v177) S5000x512.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v170) S1024x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v181) S1024x512.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v189) S512x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v184) S1x512.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v191) S512x512.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v187) S1x512.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v192) S1024x512.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

class Facts : Prop extends Facts₀ where
  halias3_6 : Pipeline.Aliased win3 0 6
  halias5_6 : Pipeline.Aliased win5 0 6
  halias7_6 : Pipeline.Aliased win7 0 6
  halias9_6 : Pipeline.Aliased win9 0 6

variable [Facts]
-- ==== ReferenceIdeal.lean ====
abbrev S128x64 : Shape := ⟨2, ![128, 64]⟩
abbrev S8192x3 : Shape := ⟨2, ![8192, 3]⟩
abbrev S2x85342 : Shape := ⟨2, ![2, 85342]⟩
abbrev S488691 : Shape := ⟨1, ![488691]⟩
abbrev S128x512 : Shape := ⟨2, ![128, 512]⟩
abbrev S64 : Shape := ⟨1, ![64]⟩
abbrev S1x32 : Shape := ⟨2, ![1, 32]⟩
abbrev S32 : Shape := ⟨1, ![32]⟩
abbrev S32x32 : Shape := ⟨2, ![32, 32]⟩
abbrev S4x96x512 : Shape := ⟨3, ![4, 96, 512]⟩
abbrev S4x512 : Shape := ⟨2, ![4, 512]⟩
abbrev S4x512x512 : Shape := ⟨3, ![4, 512, 512]⟩
abbrev S_ : Shape := ⟨0, ![]⟩
abbrev S128x64x1 : Shape := ⟨3, ![128, 64, 1]⟩
abbrev S128x64x512 : Shape := ⟨3, ![128, 64, 512]⟩
abbrev S8192x512 : Shape := ⟨2, ![8192, 512]⟩
abbrev S1x85342 : Shape := ⟨2, ![1, 85342]⟩
abbrev S85342 : Shape := ⟨1, ![85342]⟩
abbrev S85342x1 : Shape := ⟨2, ![85342, 1]⟩
abbrev S85342x3 : Shape := ⟨2, ![85342, 3]⟩
abbrev S1x64 : Shape := ⟨2, ![1, 64]⟩
abbrev S85342x64 : Shape := ⟨2, ![85342, 64]⟩
abbrev S488691x1 : Shape := ⟨2, ![488691, 1]⟩
abbrev S488691x3 : Shape := ⟨2, ![488691, 3]⟩
abbrev S488691x32 : Shape := ⟨2, ![488691, 32]⟩
abbrev S85342x32 : Shape := ⟨2, ![85342, 32]⟩
abbrev S85342x96 : Shape := ⟨2, ![85342, 96]⟩
abbrev S1x96x512 : Shape := ⟨3, ![1, 96, 512]⟩
abbrev S96x512 : Shape := ⟨2, ![96, 512]⟩
abbrev S85342x512 : Shape := ⟨2, ![85342, 512]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩

abbrev nBuf : Space → Nat
  | .hbm => 307
  | .vmem => 0
  | .smem => 0
  | _ => 0

abbrev hbmTy0_0 (i : Nat) : BufTy := match i % 128 with
  | 0 => ⟨S128x64, .i32⟩
  | 1 => ⟨S8192x3, .f32⟩
  | 2 => ⟨S2x85342, .i32⟩
  | 3 => ⟨S488691, .i32⟩
  | 4 => ⟨S488691, .i32⟩
  | 5 => ⟨S128x512, .f32⟩
  | 6 => ⟨S64, .f32⟩
  | 7 => ⟨S1x32, .f32⟩
  | 8 => ⟨S32, .f32⟩
  | 9 => ⟨S32x32, .f32⟩
  | 10 => ⟨S32, .f32⟩
  | 11 => ⟨S4x96x512, .f32⟩
  | 12 => ⟨S4x512, .f32⟩
  | 13 => ⟨S4x512x512, .f32⟩
  | 14 => ⟨S4x512, .f32⟩
  | 15 => ⟨S4x512x512, .f32⟩
  | 16 => ⟨S4x512, .f32⟩
  | 17 => ⟨S_, .i32⟩
  | 18 => ⟨S128x64, .i32⟩
  | 19 => ⟨S128x64, .i1⟩
  | 20 => ⟨S_, .i32⟩
  | 21 => ⟨S128x64, .i32⟩
  | 22 => ⟨S128x64, .i32⟩
  | 23 => ⟨S128x64, .i32⟩
  | 24 => ⟨S128x64x1, .i32⟩
  | 25 => ⟨S128x64x512, .f32⟩
  | 26 => ⟨S8192x512, .f32⟩
  | 27 => ⟨S1x85342, .i32⟩
  | 28 => ⟨S85342, .i32⟩
  | 29 => ⟨S1x85342, .i32⟩
  | 30 => ⟨S85342, .i32⟩
  | 31 => ⟨S_, .i32⟩
  | 32 => ⟨S85342, .i32⟩
  | 33 => ⟨S85342, .i1⟩
  | 34 => ⟨S_, .i32⟩
  | 35 => ⟨S85342, .i32⟩
  | 36 => ⟨S85342, .i32⟩
  | 37 => ⟨S85342, .i32⟩
  | 38 => ⟨S85342x1, .i32⟩
  | 39 => ⟨S85342x3, .f32⟩
  | 40 => ⟨S_, .i32⟩
  | 41 => ⟨S85342, .i32⟩
  | 42 => ⟨S85342, .i1⟩
  | 43 => ⟨S_, .i32⟩
  | 44 => ⟨S85342, .i32⟩
  | 45 => ⟨S85342, .i32⟩
  | 46 => ⟨S85342, .i32⟩
  | 47 => ⟨S85342x1, .i32⟩
  | 48 => ⟨S85342x3, .f32⟩
  | 49 => ⟨S85342x3, .f32⟩
  | 50 => ⟨S85342x3, .f32⟩
  | 51 => ⟨S_, .f32⟩
  | 52 => ⟨S85342, .f32⟩
  | 53 => ⟨S85342, .f32⟩
  | 54 => ⟨S85342x1, .f32⟩
  | 55 => ⟨S1x64, .f32⟩
  | 56 => ⟨S85342x64, .f32⟩
  | 57 => ⟨S85342x64, .f32⟩
  | 58 => ⟨S85342x64, .f32⟩
  | 59 => ⟨S85342x64, .f32⟩
  | 60 => ⟨S_, .f32⟩
  | 61 => ⟨S85342x64, .f32⟩
  | 62 => ⟨S85342x64, .f32⟩
  | 63 => ⟨S85342x64, .f32⟩
  | 64 => ⟨S_, .i32⟩
  | 65 => ⟨S488691, .i32⟩
  | 66 => ⟨S488691, .i1⟩
  | 67 => ⟨S_, .i32⟩
  | 68 => ⟨S488691, .i32⟩
  | 69 => ⟨S488691, .i32⟩
  | 70 => ⟨S488691, .i32⟩
  | 71 => ⟨S488691x1, .i32⟩
  | 72 => ⟨S488691, .i32⟩
  | 73 => ⟨S_, .i32⟩
  | 74 => ⟨S488691, .i32⟩
  | 75 => ⟨S488691, .i1⟩
  | 76 => ⟨S_, .i32⟩
  | 77 => ⟨S488691, .i32⟩
  | 78 => ⟨S488691, .i32⟩
  | 79 => ⟨S488691, .i32⟩
  | 80 => ⟨S488691x1, .i32⟩
  | 81 => ⟨S488691, .i32⟩
  | 82 => ⟨S_, .i32⟩
  | 83 => ⟨S488691, .i32⟩
  | 84 => ⟨S488691, .i1⟩
  | 85 => ⟨S_, .i32⟩
  | 86 => ⟨S488691, .i32⟩
  | 87 => ⟨S488691, .i32⟩
  | 88 => ⟨S488691, .i32⟩
  | 89 => ⟨S488691x1, .i32⟩
  | 90 => ⟨S488691, .i32⟩
  | 91 => ⟨S_, .i32⟩
  | 92 => ⟨S488691, .i32⟩
  | 93 => ⟨S488691, .i1⟩
  | 94 => ⟨S_, .i32⟩
  | 95 => ⟨S488691, .i32⟩
  | 96 => ⟨S488691, .i32⟩
  | 97 => ⟨S488691, .i32⟩
  | 98 => ⟨S488691x1, .i32⟩
  | 99 => ⟨S488691x3, .f32⟩
  | 100 => ⟨S_, .i32⟩
  | 101 => ⟨S488691, .i32⟩
  | 102 => ⟨S488691, .i1⟩
  | 103 => ⟨S_, .i32⟩
  | 104 => ⟨S488691, .i32⟩
  | 105 => ⟨S488691, .i32⟩
  | 106 => ⟨S488691, .i32⟩
  | 107 => ⟨S488691x1, .i32⟩
  | 108 => ⟨S488691x3, .f32⟩
  | 109 => ⟨S488691x3, .f32⟩
  | 110 => ⟨S_, .i32⟩
  | 111 => ⟨S488691, .i32⟩
  | 112 => ⟨S488691, .i1⟩
  | 113 => ⟨S_, .i32⟩
  | 114 => ⟨S488691, .i32⟩
  | 115 => ⟨S488691, .i32⟩
  | 116 => ⟨S488691, .i32⟩
  | 117 => ⟨S488691x1, .i32⟩
  | 118 => ⟨S488691x3, .f32⟩
  | 119 => ⟨S_, .i32⟩
  | 120 => ⟨S488691, .i32⟩
  | 121 => ⟨S488691, .i1⟩
  | 122 => ⟨S_, .i32⟩
  | 123 => ⟨S488691, .i32⟩
  | 124 => ⟨S488691, .i32⟩
  | 125 => ⟨S488691, .i32⟩
  | 126 => ⟨S488691x1, .i32⟩
  | 127 => ⟨S488691x3, .f32⟩
  | _ => ⟨S128x64, .i32⟩

abbrev hbmTy0_1 (i : Nat) : BufTy := match i % 128 with
  | 0 => ⟨S488691x3, .f32⟩
  | 1 => ⟨S488691x3, .f32⟩
  | 2 => ⟨S_, .f32⟩
  | 3 => ⟨S488691, .f32⟩
  | 4 => ⟨S488691, .f32⟩
  | 5 => ⟨S488691x3, .f32⟩
  | 6 => ⟨S_, .f32⟩
  | 7 => ⟨S488691, .f32⟩
  | 8 => ⟨S488691, .f32⟩
  | 9 => ⟨S488691, .f32⟩
  | 10 => ⟨S_, .f32⟩
  | 11 => ⟨S488691, .f32⟩
  | 12 => ⟨S488691, .f32⟩
  | 13 => ⟨S488691x3, .f32⟩
  | 14 => ⟨S_, .f32⟩
  | 15 => ⟨S488691, .f32⟩
  | 16 => ⟨S488691, .f32⟩
  | 17 => ⟨S_, .f32⟩
  | 18 => ⟨S_, .f32⟩
  | 19 => ⟨S_, .f32⟩
  | 20 => ⟨S488691, .f32⟩
  | 21 => ⟨S488691, .f32⟩
  | 22 => ⟨S_, .f32⟩
  | 23 => ⟨S488691, .f32⟩
  | 24 => ⟨S488691, .f32⟩
  | 25 => ⟨S488691x1, .f32⟩
  | 26 => ⟨S488691x32, .f32⟩
  | 27 => ⟨S1x32, .f32⟩
  | 28 => ⟨S488691x32, .f32⟩
  | 29 => ⟨S488691x32, .f32⟩
  | 30 => ⟨S_, .f32⟩
  | 31 => ⟨S488691x32, .f32⟩
  | 32 => ⟨S488691x32, .f32⟩
  | 33 => ⟨S488691x32, .f32⟩
  | 34 => ⟨S1x32, .f32⟩
  | 35 => ⟨S488691x32, .f32⟩
  | 36 => ⟨S488691x32, .f32⟩
  | 37 => ⟨S_, .f32⟩
  | 38 => ⟨S85342x32, .f32⟩
  | 39 => ⟨S488691x1, .i32⟩
  | 40 => ⟨S85342x32, .f32⟩
  | 41 => ⟨S_, .f32⟩
  | 42 => ⟨S85342x32, .f32⟩
  | 43 => ⟨S488691x1, .i32⟩
  | 44 => ⟨S85342x32, .f32⟩
  | 45 => ⟨S85342x32, .f32⟩
  | 46 => ⟨S85342x96, .f32⟩
  | 47 => ⟨S1x96x512, .f32⟩
  | 48 => ⟨S96x512, .f32⟩
  | 49 => ⟨S85342x512, .f32⟩
  | 50 => ⟨S1x512, .f32⟩
  | 51 => ⟨S512, .f32⟩
  | 52 => ⟨S1x512, .f32⟩
  | 53 => ⟨S85342x512, .f32⟩
  | 54 => ⟨S85342x512, .f32⟩
  | 55 => ⟨S_, .f32⟩
  | 56 => ⟨S8192x512, .f32⟩
  | 57 => ⟨S85342x1, .i32⟩
  | 58 => ⟨S8192x512, .f32⟩
  | 59 => ⟨S1x512x512, .f32⟩
  | 60 => ⟨S512x512, .f32⟩
  | 61 => ⟨S8192x512, .f32⟩
  | 62 => ⟨S1x512, .f32⟩
  | 63 => ⟨S512, .f32⟩
  | 64 => ⟨S1x512, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S1x512x512, .f32⟩
  | 71 => ⟨S512x512, .f32⟩
  | 72 => ⟨S8192x512, .f32⟩
  | 73 => ⟨S8192x512, .f32⟩
  | 74 => ⟨S1x512, .f32⟩
  | 75 => ⟨S512, .f32⟩
  | 76 => ⟨S1x512, .f32⟩
  | 77 => ⟨S8192x512, .f32⟩
  | 78 => ⟨S8192x512, .f32⟩
  | 79 => ⟨S1x96x512, .f32⟩
  | 80 => ⟨S96x512, .f32⟩
  | 81 => ⟨S85342x512, .f32⟩
  | 82 => ⟨S1x512, .f32⟩
  | 83 => ⟨S512, .f32⟩
  | 84 => ⟨S1x512, .f32⟩
  | 85 => ⟨S85342x512, .f32⟩
  | 86 => ⟨S85342x512, .f32⟩
  | 87 => ⟨S_, .f32⟩
  | 88 => ⟨S8192x512, .f32⟩
  | 89 => ⟨S85342x1, .i32⟩
  | 90 => ⟨S8192x512, .f32⟩
  | 91 => ⟨S1x512x512, .f32⟩
  | 92 => ⟨S512x512, .f32⟩
  | 93 => ⟨S8192x512, .f32⟩
  | 94 => ⟨S1x512, .f32⟩
  | 95 => ⟨S512, .f32⟩
  | 96 => ⟨S1x512, .f32⟩
  | 97 => ⟨S8192x512, .f32⟩
  | 98 => ⟨S8192x512, .f32⟩
  | 99 => ⟨S_, .f32⟩
  | 100 => ⟨S8192x512, .f32⟩
  | 101 => ⟨S8192x512, .f32⟩
  | 102 => ⟨S1x512x512, .f32⟩
  | 103 => ⟨S512x512, .f32⟩
  | 104 => ⟨S8192x512, .f32⟩
  | 105 => ⟨S8192x512, .f32⟩
  | 106 => ⟨S1x512, .f32⟩
  | 107 => ⟨S512, .f32⟩
  | 108 => ⟨S1x512, .f32⟩
  | 109 => ⟨S8192x512, .f32⟩
  | 110 => ⟨S8192x512, .f32⟩
  | 111 => ⟨S1x96x512, .f32⟩
  | 112 => ⟨S96x512, .f32⟩
  | 113 => ⟨S85342x512, .f32⟩
  | 114 => ⟨S1x512, .f32⟩
  | 115 => ⟨S512, .f32⟩
  | 116 => ⟨S1x512, .f32⟩
  | 117 => ⟨S85342x512, .f32⟩
  | 118 => ⟨S85342x512, .f32⟩
  | 119 => ⟨S_, .f32⟩
  | 120 => ⟨S8192x512, .f32⟩
  | 121 => ⟨S85342x1, .i32⟩
  | 122 => ⟨S8192x512, .f32⟩
  | 123 => ⟨S1x512x512, .f32⟩
  | 124 => ⟨S512x512, .f32⟩
  | 125 => ⟨S8192x512, .f32⟩
  | 126 => ⟨S1x512, .f32⟩
  | 127 => ⟨S512, .f32⟩
  | _ => ⟨S128x64, .i32⟩

abbrev hbmTy0_2 (i : Nat) : BufTy := match i % 128 with
  | 0 => ⟨S1x512, .f32⟩
  | 1 => ⟨S8192x512, .f32⟩
  | 2 => ⟨S8192x512, .f32⟩
  | 3 => ⟨S_, .f32⟩
  | 4 => ⟨S8192x512, .f32⟩
  | 5 => ⟨S8192x512, .f32⟩
  | 6 => ⟨S1x512x512, .f32⟩
  | 7 => ⟨S512x512, .f32⟩
  | 8 => ⟨S8192x512, .f32⟩
  | 9 => ⟨S8192x512, .f32⟩
  | 10 => ⟨S1x512, .f32⟩
  | 11 => ⟨S512, .f32⟩
  | 12 => ⟨S1x512, .f32⟩
  | 13 => ⟨S8192x512, .f32⟩
  | 14 => ⟨S8192x512, .f32⟩
  | 15 => ⟨S1x96x512, .f32⟩
  | 16 => ⟨S96x512, .f32⟩
  | 17 => ⟨S85342x512, .f32⟩
  | 18 => ⟨S1x512, .f32⟩
  | 19 => ⟨S512, .f32⟩
  | 20 => ⟨S1x512, .f32⟩
  | 21 => ⟨S85342x512, .f32⟩
  | 22 => ⟨S85342x512, .f32⟩
  | 23 => ⟨S_, .f32⟩
  | 24 => ⟨S8192x512, .f32⟩
  | 25 => ⟨S85342x1, .i32⟩
  | 26 => ⟨S8192x512, .f32⟩
  | 27 => ⟨S1x512x512, .f32⟩
  | 28 => ⟨S512x512, .f32⟩
  | 29 => ⟨S8192x512, .f32⟩
  | 30 => ⟨S1x512, .f32⟩
  | 31 => ⟨S512, .f32⟩
  | 32 => ⟨S1x512, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S1x512x512, .f32⟩
  | 39 => ⟨S512x512, .f32⟩
  | 40 => ⟨S8192x512, .f32⟩
  | 41 => ⟨S8192x512, .f32⟩
  | 42 => ⟨S1x512, .f32⟩
  | 43 => ⟨S512, .f32⟩
  | 44 => ⟨S1x512, .f32⟩
  | 45 => ⟨S8192x512, .f32⟩
  | 46 => ⟨S8192x512, .f32⟩
  | 47 => ⟨S_, .i32⟩
  | 48 => ⟨S128x64, .i32⟩
  | 49 => ⟨S128x64, .i1⟩
  | 50 => ⟨S128x64x512, .f32⟩
  | _ => ⟨S128x64, .i32⟩

abbrev hbmTy (i : Nat) : BufTy := match i / 128 with
  | 0 => hbmTy0_0 i
  | 1 => hbmTy0_1 i
  | 2 => hbmTy0_2 i
  | _ => ⟨S128x64, .i32⟩

abbrev bufTy : (tb : Table) → Fin (tcTables nBuf tb) → BufTy
  | .hbm, ⟨i, _⟩ => hbmTy i
  | _, _ => ⟨S128x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call0_v0 : Ref sig .tc := ⟨.hbm, 50, rfl⟩
abbrev main_call0_cst : Ref sig .tc := ⟨.hbm, 51, rfl⟩
abbrev main_call0_v1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_5 : Ref sig .tc := ⟨.hbm, 64, rfl⟩
abbrev main_v37 : Ref sig .tc := ⟨.hbm, 65, rfl⟩
abbrev main_v38 : Ref sig .tc := ⟨.hbm, 66, rfl⟩
abbrev main_c_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_7 : Ref sig .tc := ⟨.hbm, 73, rfl⟩
abbrev main_v44 : Ref sig .tc := ⟨.hbm, 74, rfl⟩
abbrev main_v45 : Ref sig .tc := ⟨.hbm, 75, rfl⟩
abbrev main_c_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_9 : Ref sig .tc := ⟨.hbm, 82, rfl⟩
abbrev main_v51 : Ref sig .tc := ⟨.hbm, 83, rfl⟩
abbrev main_v52 : Ref sig .tc := ⟨.hbm, 84, rfl⟩
abbrev main_c_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_11 : Ref sig .tc := ⟨.hbm, 91, rfl⟩
abbrev main_v58 : Ref sig .tc := ⟨.hbm, 92, rfl⟩
abbrev main_v59 : Ref sig .tc := ⟨.hbm, 93, rfl⟩
abbrev main_c_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_13 : Ref sig .tc := ⟨.hbm, 100, rfl⟩
abbrev main_v65 : Ref sig .tc := ⟨.hbm, 101, rfl⟩
abbrev main_v66 : Ref sig .tc := ⟨.hbm, 102, rfl⟩
abbrev main_c_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_15 : Ref sig .tc := ⟨.hbm, 110, rfl⟩
abbrev main_v73 : Ref sig .tc := ⟨.hbm, 111, rfl⟩
abbrev main_v74 : Ref sig .tc := ⟨.hbm, 112, rfl⟩
abbrev main_c_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_17 : Ref sig .tc := ⟨.hbm, 119, rfl⟩
abbrev main_v80 : Ref sig .tc := ⟨.hbm, 120, rfl⟩
abbrev main_v81 : Ref sig .tc := ⟨.hbm, 121, rfl⟩
abbrev main_c_18 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call1_v0 : Ref sig .tc := ⟨.hbm, 129, rfl⟩
abbrev main_call1_cst : Ref sig .tc := ⟨.hbm, 130, rfl⟩
abbrev main_call1_v1 : Ref sig .tc := ⟨.hbm, 131, rfl⟩
abbrev main_v88 : Ref sig .tc := ⟨.hbm, 132, rfl⟩
abbrev main_call2_v0 : Ref sig .tc := ⟨.hbm, 133, rfl⟩
abbrev main_call2_cst : Ref sig .tc := ⟨.hbm, 134, rfl⟩
abbrev main_call2_v1 : Ref sig .tc := ⟨.hbm, 135, rfl⟩
abbrev main_v89 : Ref sig .tc := ⟨.hbm, 136, rfl⟩
abbrev main_v90 : Ref sig .tc := ⟨.hbm, 137, rfl⟩
abbrev main_cst_19 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_20 : Ref sig .tc := ⟨.hbm, 142, rfl⟩
abbrev main_v94 : Ref sig .tc := ⟨.hbm, 143, rfl⟩
abbrev main_v95 : Ref sig .tc := ⟨.hbm, 144, rfl⟩
abbrev main_cst_21 : Ref sig .tc := ⟨.hbm, 145, rfl⟩
abbrev main_cst_22 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_call4_cst : Ref sig .tc := ⟨.hbm, 158, rfl⟩
abbrev main_call4_v0 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_cst_23 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_cst_24 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_25 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_call5_cst : Ref sig .tc := ⟨.hbm, 195, rfl⟩
abbrev main_call5_v0 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_cst_26 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_call6_cst : Ref sig .tc := ⟨.hbm, 227, rfl⟩
abbrev main_call6_v0 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_cst_27 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_call7_cst : Ref sig .tc := ⟨.hbm, 259, rfl⟩
abbrev main_call7_v0 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_cst_28 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_call8_cst : Ref sig .tc := ⟨.hbm, 291, rfl⟩
abbrev main_call8_v0 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_c_29 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩

abbrev nD : Nat := 1
abbrev τ : Topo := Topo.v7x

variable {F : FTy → Type} [FloatOps F]

class Facts₀ : Prop where
  bcast_S_S128x64 : S_.BroadcastsInDim S128x64 (![] : Fin 0 → Fin S128x64.rank)
  bcast_S128x64_S128x64x1_0_1 : S128x64.BroadcastsInDim S128x64x1 (![0, 1] : Fin 2 → Fin S128x64x1.rank)
  shapeCasts_S128x64x512_S8192x512 : S128x64x512.ShapeCasts S8192x512
  slices_S2x85342_S1x85342_0_0 : S2x85342.Slices ![0, 0] S1x85342
  shapeCasts_S1x85342_S85342 : S1x85342.ShapeCasts S85342
  slices_S2x85342_S1x85342_1_0 : S2x85342.Slices ![1, 0] S1x85342
  bcast_S_S85342 : S_.BroadcastsInDim S85342 (![] : Fin 0 → Fin S85342.rank)
  bcast_S85342_S85342x1_0 : S85342.BroadcastsInDim S85342x1 (![0] : Fin 1 → Fin S85342x1.rank)
  reducesTo_S85342x3_S85342_d1 : S85342x3.ReducesTo [1] S85342
  h_S_ : 0 < S_.numel
  bcast_S64_S1x64_1 : S64.BroadcastsInDim S1x64 (![1] : Fin 1 → Fin S1x64.rank)
  bcast_S85342x1_S85342x64_0_1 : S85342x1.BroadcastsInDim S85342x64 (![0, 1] : Fin 2 → Fin S85342x64.rank)
  bcast_S1x64_S85342x64_0_1 : S1x64.BroadcastsInDim S85342x64 (![0, 1] : Fin 2 → Fin S85342x64.rank)
  bcast_S_S85342x64 : S_.BroadcastsInDim S85342x64 (![] : Fin 0 → Fin S85342x64.rank)
  bcast_S_S488691 : S_.BroadcastsInDim S488691 (![] : Fin 0 → Fin S488691.rank)
  bcast_S488691_S488691x1_0 : S488691.BroadcastsInDim S488691x1 (![0] : Fin 1 → Fin S488691x1.rank)
  reducesTo_S488691x3_S488691_d1 : S488691x3.ReducesTo [1] S488691
  bcast_S32_S1x32_1 : S32.BroadcastsInDim S1x32 (![1] : Fin 1 → Fin S1x32.rank)
  bcast_S1x32_S488691x32_0_1 : S1x32.BroadcastsInDim S488691x32 (![0, 1] : Fin 2 → Fin S488691x32.rank)
  bcast_S_S488691x32 : S_.BroadcastsInDim S488691x32 (![] : Fin 0 → Fin S488691x32.rank)
  bcast_S_S85342x32 : S_.BroadcastsInDim S85342x32 (![] : Fin 0 → Fin S85342x32.rank)
  concatenates_S85342x64_S85342x32_S85342x96_d1 : Shape.Concatenates [S85342x64, S85342x32] S85342x96 1
  slices_S4x96x512_S1x96x512_0_0_0 : S4x96x512.Slices ![0, 0, 0] S1x96x512
  shapeCasts_S1x96x512_S96x512 : S1x96x512.ShapeCasts S96x512
  slices_S4x512_S1x512_0_0 : S4x512.Slices ![0, 0] S1x512
  shapeCasts_S1x512_S512 : S1x512.ShapeCasts S512
  bcast_S512_S1x512_1 : S512.BroadcastsInDim S1x512 (![1] : Fin 1 → Fin S1x512.rank)
  bcast_S1x512_S85342x512_0_1 : S1x512.BroadcastsInDim S85342x512 (![0, 1] : Fin 2 → Fin S85342x512.rank)
  bcast_S_S8192x512 : S_.BroadcastsInDim S8192x512 (![] : Fin 0 → Fin S8192x512.rank)
  slices_S4x512x512_S1x512x512_0_0_0 : S4x512x512.Slices ![0, 0, 0] S1x512x512
  shapeCasts_S1x512x512_S512x512 : S1x512x512.ShapeCasts S512x512
  bcast_S1x512_S8192x512_0_1 : S1x512.BroadcastsInDim S8192x512 (![0, 1] : Fin 2 → Fin S8192x512.rank)
  slices_S4x96x512_S1x96x512_1_0_0 : S4x96x512.Slices ![1, 0, 0] S1x96x512
  slices_S4x512_S1x512_1_0 : S4x512.Slices ![1, 0] S1x512
  slices_S4x512x512_S1x512x512_1_0_0 : S4x512x512.Slices ![1, 0, 0] S1x512x512
  slices_S4x96x512_S1x96x512_2_0_0 : S4x96x512.Slices ![2, 0, 0] S1x96x512
  slices_S4x512_S1x512_2_0 : S4x512.Slices ![2, 0] S1x512
  slices_S4x512x512_S1x512x512_2_0_0 : S4x512x512.Slices ![2, 0, 0] S1x512x512
  slices_S4x96x512_S1x96x512_3_0_0 : S4x96x512.Slices ![3, 0, 0] S1x96x512
  slices_S4x512_S1x512_3_0 : S4x512.Slices ![3, 0] S1x512
  slices_S4x512x512_S1x512x512_3_0_0 : S4x512x512.Slices ![3, 0, 0] S1x512x512
  shapeCasts_S8192x512_S128x64x512 : S8192x512.ShapeCasts S128x64x512
  gather_S128x512_S128x64x1_S128x64x512_2_0_n_n_0_2_1512_wf : GatherDims.WF S128x512 S128x64x1 S128x64x512 [2] [0] [] [0] [] 2 ![1, 512]
  gather_S8192x3_S85342x1_S85342x3_1_0_n_n_0_1_13_wf : GatherDims.WF S8192x3 S85342x1 S85342x3 [1] [0] [] [0] [] 1 ![1, 3]
  gather_S85342_S488691x1_S488691_n_0_n_n_0_1_1_wf : GatherDims.WF S85342 S488691x1 S488691 [] [0] [] [0] [] 1 ![1]
  gather_S8192x3_S488691x1_S488691x3_1_0_n_n_0_1_13_wf : GatherDims.WF S8192x3 S488691x1 S488691x3 [1] [0] [] [0] [] 1 ![1, 3]
  dot_S488691x1_S1x32_S488691x32_1_0_0_1_n_n_wf : DotDims.WF S488691x1 S1x32 S488691x32 [1] [0] [0] [1] [] []
  dot_S488691x32_S32x32_S488691x32_1_0_0_1_n_n_wf : DotDims.WF S488691x32 S32x32 S488691x32 [1] [0] [0] [1] [] []
  scatter_S85342x32_S488691x1_S488691x32_1_0_0_1_wf : ScatterDims.WF S85342x32 S488691x1 S488691x32 [1] [0] [0] 1
  dot_S85342x96_S96x512_S85342x512_1_0_0_1_n_n_wf : DotDims.WF S85342x96 S96x512 S85342x512 [1] [0] [0] [1] [] []
  scatter_S8192x512_S85342x1_S85342x512_1_0_0_1_wf : ScatterDims.WF S8192x512 S85342x1 S85342x512 [1] [0] [0] 1
  dot_S8192x512_S512x512_S8192x512_1_0_0_1_n_n_wf : DotDims.WF S8192x512 S512x512 S8192x512 [1] [0] [0] [1] [] []

variable [Facts₀]

def gather_S128x512_S128x64x1_S128x64x512_2_0_n_n_0_2_1512 : GatherDims S128x512 S128x64x1 S128x64x512 where
  offsetDims := [2]
  collapsedSliceDims := [0]
  operandBatchingDims := []
  startIndicesBatchingDims := []
  startIndexMap := [0]
  indexVectorDim := 2
  sliceSizes := ![1, 512]
  wf := gather_S128x512_S128x64x1_S128x64x512_2_0_n_n_0_2_1512_wf
def gather_S8192x3_S85342x1_S85342x3_1_0_n_n_0_1_13 : GatherDims S8192x3 S85342x1 S85342x3 where
  offsetDims := [1]
  collapsedSliceDims := [0]
  operandBatchingDims := []
  startIndicesBatchingDims := []
  startIndexMap := [0]
  indexVectorDim := 1
  sliceSizes := ![1, 3]
  wf := gather_S8192x3_S85342x1_S85342x3_1_0_n_n_0_1_13_wf
def gather_S85342_S488691x1_S488691_n_0_n_n_0_1_1 : GatherDims S85342 S488691x1 S488691 where
  offsetDims := []
  collapsedSliceDims := [0]
  operandBatchingDims := []
  startIndicesBatchingDims := []
  startIndexMap := [0]
  indexVectorDim := 1
  sliceSizes := ![1]
  wf := gather_S85342_S488691x1_S488691_n_0_n_n_0_1_1_wf
def gather_S8192x3_S488691x1_S488691x3_1_0_n_n_0_1_13 : GatherDims S8192x3 S488691x1 S488691x3 where
  offsetDims := [1]
  collapsedSliceDims := [0]
  operandBatchingDims := []
  startIndicesBatchingDims := []
  startIndexMap := [0]
  indexVectorDim := 1
  sliceSizes := ![1, 3]
  wf := gather_S8192x3_S488691x1_S488691x3_1_0_n_n_0_1_13_wf
def dot_S488691x1_S1x32_S488691x32_1_0_0_1_n_n : DotDims S488691x1 S1x32 S488691x32 where
  lhsContracting := [1]
  rhsContracting := [0]
  lhsNonContracting := [0]
  rhsNonContracting := [1]
  lhsBatch := []
  rhsBatch := []
  wf := dot_S488691x1_S1x32_S488691x32_1_0_0_1_n_n_wf
def dot_S488691x32_S32x32_S488691x32_1_0_0_1_n_n : DotDims S488691x32 S32x32 S488691x32 where
  lhsContracting := [1]
  rhsContracting := [0]
  lhsNonContracting := [0]
  rhsNonContracting := [1]
  lhsBatch := []
  rhsBatch := []
  wf := dot_S488691x32_S32x32_S488691x32_1_0_0_1_n_n_wf
def scatter_S85342x32_S488691x1_S488691x32_1_0_0_1 : ScatterDims S85342x32 S488691x1 S488691x32 where
  updateWindowDims := [1]
  insertedWindowDims := [0]
  scatterDimsToOperandDims := [0]
  indexVectorDim := 1
  wf := scatter_S85342x32_S488691x1_S488691x32_1_0_0_1_wf
def dot_S85342x96_S96x512_S85342x512_1_0_0_1_n_n : DotDims S85342x96 S96x512 S85342x512 where
  lhsContracting := [1]
  rhsContracting := [0]
  lhsNonContracting := [0]
  rhsNonContracting := [1]
  lhsBatch := []
  rhsBatch := []
  wf := dot_S85342x96_S96x512_S85342x512_1_0_0_1_n_n_wf
def scatter_S8192x512_S85342x1_S85342x512_1_0_0_1 : ScatterDims S8192x512 S85342x1 S85342x512 where
  updateWindowDims := [1]
  insertedWindowDims := [0]
  scatterDimsToOperandDims := [0]
  indexVectorDim := 1
  wf := scatter_S8192x512_S85342x1_S85342x512_1_0_0_1_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.FoldB.lean ====
import proofs.«430973_j37220186587498_2_alg».proof.Proof.RunB
import proofs.«430973_j37220186587498_2_alg».proof.Proof.ReadB
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

/-! # The reference's @main as a fold, read chunk by chunk

@main is a list of host operations; what a buffer holds after all of them is the fold of their results over the
starting contents. The list is cut into consecutive chunks. For each chunk: the references it writes (so that any
other reference is unchanged across it), and, for each buffer a later chunk or the result reads, its contents after
the chunk as the reference's own stage function of the arguments' starting contents, given the same for the buffers
the chunk reads. Chained, this gives the two results and every argument after the whole list. -/

namespace Cert.ReferenceIdeal.FoldB

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-! ## The chunks -/

/-- Operations 0 to 13 of @main, in order. -/
abbrev chunk1 : List (HloOp τ sig (Elt F)) :=
  [ nullary main_c (constantI S_ 32 0#32),
    unary main_c main_v0 (broadcastInDim S128x64 ![] bcast_S_S128x64 : (⟨S_, .i32⟩ : BufTy).Contents (Elt F) → (⟨S128x64, .i32⟩ : BufTy).Contents (Elt F)),
    binary main_arg0 main_v0 main_v1 (cmpi .slt : (⟨S128x64, .i32⟩ : BufTy).Contents (Elt F) → (⟨S128x64, .i32⟩ : BufTy).Contents (Elt F) → (⟨S128x64, .i1⟩ : BufTy).Contents (Elt F)),
    nullary main_c_0 (constantI S_ 32 128#32),
    unary main_c_0 main_v2 (broadcastInDim S128x64 ![] bcast_S_S128x64 : (⟨S_, .i32⟩ : BufTy).Contents (Elt F) → (⟨S128x64, .i32⟩ : BufTy).Contents (Elt F)),
    binary main_arg0 main_v2 main_v3 (addi : (⟨S128x64, .i32⟩ : BufTy).Contents (Elt F) → (⟨S128x64, .i32⟩ : BufTy).Contents (Elt F) → (⟨S128x64, .i32⟩ : BufTy).Contents (Elt F)),
    ternary main_v1 main_v3 main_arg0 main_v4 (select : (⟨S128x64, .i1⟩ : BufTy).Contents (Elt F) → (⟨S128x64, .i32⟩ : BufTy).Contents (Elt F) → (⟨S128x64, .i32⟩ : BufTy).Contents (Elt F) → (⟨S128x64, .i32⟩ : BufTy).Contents (Elt F)),
    unary main_v4 main_v5 (broadcastInDim S128x64x1 ![0, 1] bcast_S128x64_S128x64x1_0_1 : (⟨S128x64, .i32⟩ : BufTy).Contents (Elt F) → (⟨S128x64x1, .i32⟩ : BufTy).Contents (Elt F)),
    binary main_arg5 main_v5 main_v6 ((fun x i => Host.gather gather_S128x512_S128x64x1_S128x64x512_2_0_n_n_0_2_1512 x i) : (⟨S128x512, .f32⟩ : BufTy).Contents (Elt F) → (⟨S128x64x1, .i32⟩ : BufTy).Contents (Elt F) → (⟨S128x64x512, .f32⟩ : BufTy).Contents (Elt F)),
    reshape main_v6 main_v7 rfl shapeCasts_S128x64x512_S8192x512,
    unary main_arg2 main_v8 ((extractStridedSlice S1x85342 ![0, 0] · slices_S2x85342_S1x85342_0_0) : (⟨S2x85342, .i32⟩ : BufTy).Contents (Elt F) → (⟨S1x85342, .i32⟩ : BufTy).Contents (Elt F)),
    reshape main_v8 main_v9 rfl shapeCasts_S1x85342_S85342,
    unary main_arg2 main_v10 ((extractStridedSlice S1x85342 ![1, 0] · slices_S2x85342_S1x85342_1_0) : (⟨S2x85342, .i32⟩ : BufTy).Contents (Elt F) → (⟨S1x85342, .i32⟩ : BufTy).Contents (Elt F)),
    reshape main_v10 main_v11 rfl shapeCasts_S1x85342_S85342 ]

/-- Operations 14 to 46 of @main, in order. -/
abbrev chunk2 : List (HloOp τ sig (Elt F)) :=
  [ nullary main_c_1 (constantI S_ 32 0#32),
    unary main_c_1 main_v12 (broadcastInDim S85342 ![] bcast_S_S85342 : (⟨S_, .i32⟩ : BufTy).Contents (Elt F) → (⟨S85342, .i32⟩ : BufTy).Contents (Elt F)),
    binary main_v9 main_v12 main_v13 (cmpi .slt : (⟨S85342, .i32⟩ : BufTy).Contents (Elt F) → (⟨S85342, .i32⟩ : BufTy).Contents (Elt F) → (⟨S85342, .i1⟩ : BufTy).Contents (Elt F)),
    nullary main_c_2 (constantI S_ 32 8192#32),
    unary main_c_2 main_v14 (broadcastInDim S85342 ![] bcast_S_S85342 : (⟨S_, .i32⟩ : BufTy).Contents (Elt F) → (⟨S85342, .i32⟩ : BufTy).Contents (Elt F)),
    binary main_v9 main_v14 main_v15 (addi : (⟨S85342, .i32⟩ : BufTy).Contents (Elt F) → (⟨S85342, .i32⟩ : BufTy).Contents (Elt F) → (⟨S85342, .i32⟩ : BufTy).Contents (Elt F)),
    ternary main_v13 main_v15 main_v9 main_v16 (select : (⟨S85342, .i1⟩ : BufTy).Contents (Elt F) → (⟨S85342, .i32⟩ : BufTy).Contents (Elt F) → (⟨S85342, .i32⟩ : BufTy).Contents (Elt F) → (⟨S85342, .i32⟩ : BufTy).Contents (Elt F)),
    unary main_v16 main_v17 (broadcastInDim S85342x1 ![0] bcast_S85342_S85342x1_0 : (⟨S85342, .i32⟩ : BufTy).Contents (Elt F) → (⟨S85342x1, .i32⟩ : BufTy).Contents (Elt F)),
    binary main_arg1 main_v17 main_v18 ((fun x i => Host.gather gather_S8192x3_S85342x1_S85342x3_1_0_n_n_0_1_13 x i) : (⟨S8192x3, .f32⟩ : BufTy).Contents (Elt F) → (⟨S85342x1, .i32⟩ : BufTy).Contents (Elt F) → (⟨S85342x3, .f32⟩ : BufTy).Contents (Elt F)),
    nullary main_c_3 (constantI S_ 32 0#32),
    unary main_c_3 main_v19 (broadcastInDim S85342 ![] bcast_S_S85342 : (⟨S_, .i32⟩ : BufTy).Contents (Elt F) → (⟨S85342, .i32⟩ : BufTy).Contents (Elt F)),
    binary main_v11 main_v19 main_v20 (cmpi .slt : (⟨S85342, .i32⟩ : BufTy).Contents (Elt F) → (⟨S85342, .i32⟩ : BufTy).Contents (Elt F) → (⟨S85342, .i1⟩ : BufTy).Contents (Elt F)),
    nullary main_c_4 (constantI S_ 32 8192#32),
    unary main_c_4 main_v21 (broadcastInDim S85342 ![] bcast_S_S85342 : (⟨S_, .i32⟩ : BufTy).Contents (Elt F) → (⟨S85342, .i32⟩ : BufTy).Contents (Elt F)),
    binary main_v11 main_v21 main_v22 (addi : (⟨S85342, .i32⟩ : BufTy).Contents (Elt F) → (⟨S85342, .i32⟩ : BufTy).Contents (Elt F) → (⟨S85342, .i32⟩ : BufTy).Contents (Elt F)),
    ternary main_v20 main_v22 main_v11 main_v23 (select : (⟨S85342, .i1⟩ : BufTy).Contents (Elt F) → (⟨S85342, .i32⟩ : BufTy).Contents (Elt F) → (⟨S85342, .i32⟩ : BufTy).Contents (Elt F) → (⟨S85342, .i32⟩ : BufTy).Contents (Elt F)),
    unary main_v23 main_v24 (broadcastInDim S85342x1 ![0] bcast_S85342_S85342x1_0 : (⟨S85342, .i32⟩ : BufTy).Contents (Elt F) → (⟨S85342x1, .i32⟩ : BufTy).Contents (Elt F)),
    binary main_arg1 main_v24 main_v25 ((fun x i => Host.gather gather_S8192x3_S85342x1_S85342x3_1_0_n_n_0_1_13 x i) : (⟨S8192x3, .f32⟩ : BufTy).Contents (Elt F) → (⟨S85342x1, .i32⟩ : BufTy).Contents (Elt F) → (⟨S85342x3, .f32⟩ : BufTy).Contents (Elt F)),
    binary main_v18 main_v25 main_v26 (subf : (⟨S85342x3, .f32⟩ : BufTy).Contents (Elt F) → (⟨S85342x3, .f32⟩ : BufTy).Contents (Elt F) → (⟨S85342x3, .f32⟩ : BufTy).Contents (Elt F)),
    TRef.binary (TRef.of (T := ⟨S85342x3, .f32⟩) main_v26) (TRef.of (T := ⟨S85342x3, .f32⟩) main_v26) (TRef.of (T := ⟨S85342x3, .f32⟩) main_call0_v0) mulf,
    TRef.nullary (TRef.of (T := ⟨S_, .f32⟩) main_call0_cst) (constant S_ .f32 0x00000000#32),
    TRef.binary (TRef.of (T := ⟨S85342x3, .f32⟩) main_call0_v0) (TRef.of (T := ⟨S_, .f32⟩) main_call0_cst) (TRef.of (T := ⟨S85342, .f32⟩) main_call0_v1) (fun x v => Host.reduceAdd x v reducesTo_S85342x3_S85342_d1 h_S_),
    TRef.unary (TRef.of (T := ⟨S85342, .f32⟩) main_call0_v1) (TRef.of (T := ⟨S85342, .f32⟩) main_v27) Host.sqrt,
    unary main_v27 main_v28 (broadcastInDim S85342x1 ![0] bcast_S85342_S85342x1_0 : (⟨S85342, .f32⟩ : BufTy).Contents (Elt F) → (⟨S85342x1, .f32⟩ : BufTy).Contents (Elt F)),
    unary main_arg6 main_v29 (broadcastInDim S1x64 ![1] bcast_S64_S1x64_1 : (⟨S64, .f32⟩ : BufTy).Contents (Elt F) → (⟨S1x64, .f32⟩ : BufTy).Contents (Elt F)),
    unary main_v28 main_v30 (broadcastInDim S85342x64 ![0, 1] bcast_S85342x1_S85342x64_0_1 : (⟨S85342x1, .f32⟩ : BufTy).Contents (Elt F) → (⟨S85342x64, .f32⟩ : BufTy).Contents (Elt F)),
    unary main_v29 main_v31 (broadcastInDim S85342x64 ![0, 1] bcast_S1x64_S85342x64_0_1 : (⟨S1x64, .f32⟩ : BufTy).Contents (Elt F) → (⟨S85342x64, .f32⟩ : BufTy).Contents (Elt F)),
    binary main_v30 main_v31 main_v32 (subf : (⟨S85342x64, .f32⟩ : BufTy).Contents (Elt F) → (⟨S85342x64, .f32⟩ : BufTy).Contents (Elt F) → (⟨S85342x64, .f32⟩ : BufTy).Contents (Elt F)),
    binary main_v32 main_v32 main_v33 (mulf : (⟨S85342x64, .f32⟩ : BufTy).Contents (Elt F) → (⟨S85342x64, .f32⟩ : BufTy).Contents (Elt F) → (⟨S85342x64, .f32⟩ : BufTy).Contents (Elt F)),
    nullary main_cst (constant S_ .f32 0xC1200000#32),
    unary main_cst main_v34 (broadcastInDim S85342x64 ![] bcast_S_S85342x64 : (⟨S_, .f32⟩ : BufTy).Contents (Elt F) → (⟨S85342x64, .f32⟩ : BufTy).Contents (Elt F)),
    binary main_v34 main_v33 main_v35 (mulf : (⟨S85342x64, .f32⟩ : BufTy).Contents (Elt F) → (⟨S85342x64, .f32⟩ : BufTy).Contents (Elt F) → (⟨S85342x64, .f32⟩ : BufTy).Contents (Elt F)),
    unary main_v35 main_v36 (Host.exp : (⟨S85342x64, .f32⟩ : BufTy).Contents (Elt F) → (⟨S85342x64, .f32⟩ : BufTy).Contents (Elt F)) ]

/-- Operations 47 to 111 of @main, in order. -/
abbrev chunk3 : List (HloOp τ sig (Elt F)) :=
  [ nullary main_c_5 (constantI S_ 32 0#32),
    unary main_c_5 main_v37 (broadcastInDim S488691 ![] bcast_S_S488691 : (⟨S_, .i32⟩ : BufTy).Contents (Elt F) → (⟨S488691, .i32⟩ : BufTy).Contents (Elt F)),
    binary main_arg3 main_v37 main_v38 (cmpi .slt : (⟨S488691, .i32⟩ : BufTy).Contents (Elt F) → (⟨S488691, .i32⟩ : BufTy).Contents (Elt F) → (⟨S488691, .i1⟩ : BufTy).Contents (Elt F)),
    nullary main_c_6 (constantI S_ 32 85342#32),
    unary main_c_6 main_v39 (broadcastInDim S488691 ![] bcast_S_S488691 : (⟨S_, .i32⟩ : BufTy).Contents (Elt F) → (⟨S488691, .i32⟩ : BufTy).Contents (Elt F)),
    binary main_arg3 main_v39 main_v40 (addi : (⟨S488691, .i32⟩ : BufTy).Contents (Elt F) → (⟨S488691, .i32⟩ : BufTy).Contents (Elt F) → (⟨S488691, .i32⟩ : BufTy).Contents (Elt F)),
    ternary main_v38 main_v40 main_arg3 main_v41 (select : (⟨S488691, .i1⟩ : BufTy).Contents (Elt F) → (⟨S488691, .i32⟩ : BufTy).Contents (Elt F) → (⟨S488691, .i32⟩ : BufTy).Contents (Elt F) → (⟨S488691, .i32⟩ : BufTy).Contents (Elt F)),
    unary main_v41 main_v42 (broadcastInDim S488691x1 ![0] bcast_S488691_S488691x1_0 : (⟨S488691, .i32⟩ : BufTy).Contents (Elt F) → (⟨S488691x1, .i32⟩ : BufTy).Contents (Elt F)),
    binary main_v9 main_v42 main_v43 ((fun x i => Host.gather gather_S85342_S488691x1_S488691_n_0_n_n_0_1_1 x i) : (⟨S85342, .i32⟩ : BufTy).Contents (Elt F) → (⟨S488691x1, .i32⟩ : BufTy).Contents (Elt F) → (⟨S488691, .i32⟩ : BufTy).Contents (Elt F)),
    nullary main_c_7 (constantI S_ 32 0#32),
    unary main_c_7 main_v44 (broadcastInDim S488691 ![] bcast_S_S488691 : (⟨S_, .i32⟩ : BufTy).Contents (Elt F) → (⟨S488691, .i32⟩ : BufTy).Contents (Elt F)),
    binary main_arg3 main_v44 main_v45 (cmpi .slt : (⟨S488691, .i32⟩ : BufTy).Contents (Elt F) → (⟨S488691, .i32⟩ : BufTy).Contents (Elt F) → (⟨S488691, .i1⟩ : BufTy).Contents (Elt F)),
    nullary main_c_8 (constantI S_ 32 85342#32),
    unary main_c_8 main_v46 (broadcastInDim S488691 ![] bcast_S_S488691 : (⟨S_, .i32⟩ : BufTy).Contents (Elt F) → (⟨S488691, .i32⟩ : BufTy).Contents (Elt F)),
    binary main_arg3 main_v46 main_v47 (addi : (⟨S488691, .i32⟩ : BufTy).Contents (Elt F) → (⟨S488691, .i32⟩ : BufTy).Contents (Elt F) → (⟨S488691, .i32⟩ : BufTy).Contents (Elt F)),
    ternary main_v45 main_v47 main_arg3 main_v48 (select : (⟨S488691, .i1⟩ : BufTy).Contents (Elt F) → (⟨S488691, .i32⟩ : BufTy).Contents (Elt F) → (⟨S488691, .i32⟩ : BufTy).Contents (Elt F) → (⟨S488691, .i32⟩ : BufTy).Contents (Elt F)),
    unary main_v48 main_v49 (broadcastInDim S488691x1 ![0] bcast_S488691_S488691x1_0 : (⟨S488691, .i32⟩ : BufTy).Contents (Elt F) → (⟨S488691x1, .i32⟩ : BufTy).Contents (Elt F)),
    binary main_v11 main_v49 main_v50 ((fun x i => Host.gather gather_S85342_S488691x1_S488691_n_0_n_n_0_1_1 x i) : (⟨S85342, .i32⟩ : BufTy).Contents (Elt F) → (⟨S488691x1, .i32⟩ : BufTy).Contents (Elt F) → (⟨S488691, .i32⟩ : BufTy).Contents (Elt F)),
    nullary main_c_9 (constantI S_ 32 0#32),
    unary main_c_9 main_v51 (broadcastInDim S488691 ![] bcast_S_S488691 : (⟨S_, .i32⟩ : BufTy).Contents (Elt F) → (⟨S488691, .i32⟩ : BufTy).Contents (Elt F)),
    binary main_arg4 main_v51 main_v52 (cmpi .slt : (⟨S488691, .i32⟩ : BufTy).Contents (Elt F) → (⟨S488691, .i32⟩ : BufTy).Contents (Elt F) → (⟨S488691, .i1⟩ : BufTy).Contents (Elt F)),
    nullary main_c_10 (constantI S_ 32 85342#32),
    unary main_c_10 main_v53 (broadcastInDim S488691 ![] bcast_S_S488691 : (⟨S_, .i32⟩ : BufTy).Contents (Elt F) → (⟨S488691, .i32⟩ : BufTy).Contents (Elt F)),
    binary main_arg4 main_v53 main_v54 (addi : (⟨S488691, .i32⟩ : BufTy).Contents (Elt F) → (⟨S488691, .i32⟩ : BufTy).Contents (Elt F) → (⟨S488691, .i32⟩ : BufTy).Contents (Elt F)),
    ternary main_v52 main_v54 main_arg4 main_v55 (select : (⟨S488691, .i1⟩ : BufTy).Contents (Elt F) → (⟨S488691, .i32⟩ : BufTy).Contents (Elt F) → (⟨S488691, .i32⟩ : BufTy).Contents (Elt F) → (⟨S488691, .i32⟩ : BufTy).Contents (Elt F)),
    unary main_v55 main_v56 (broadcastInDim S488691x1 ![0] bcast_S488691_S488691x1_0 : (⟨S488691, .i32⟩ : BufTy).Contents (Elt F) → (⟨S488691x1, .i32⟩ : BufTy).Contents (Elt F)),
    binary main_v11 main_v56 main_v57 ((fun x i => Host.gather gather_S85342_S488691x1_S488691_n_0_n_n_0_1_1 x i) : (⟨S85342, .i32⟩ : BufTy).Contents (Elt F) → (⟨S488691x1, .i32⟩ : BufTy).Contents (Elt F) → (⟨S488691, .i32⟩ : BufTy).Contents (Elt F)),
    nullary main_c_11 (constantI S_ 32 0#32),
    unary main_c_11 main_v58 (broadcastInDim S488691 ![] bcast_S_S488691 : (⟨S_, .i32⟩ : BufTy).Contents (Elt F) → (⟨S488691, .i32⟩ : BufTy).Contents (Elt F)),
    binary main_v50 main_v58 main_v59 (cmpi .slt : (⟨S488691, .i32⟩ : BufTy).Contents (Elt F) → (⟨S488691, .i32⟩ : BufTy).Contents (Elt F) → (⟨S488691, .i1⟩ : BufTy).Contents (Elt F)),
    nullary main_c_12 (constantI S_ 32 8192#32),
    unary main_c_12 main_v60 (broadcastInDim S488691 ![] bcast_S_S488691 : (⟨S_, .i32⟩ : BufTy).Contents (Elt F) → (⟨S488691, .i32⟩ : BufTy).Contents (Elt F)),
    binary main_v50 main_v60 main_v61 (addi : (⟨S488691, .i32⟩ : BufTy).Contents (Elt F) → (⟨S488691, .i32⟩ : BufTy).Contents (Elt F) → (⟨S488691, .i32⟩ : BufTy).Contents (Elt F)),
    ternary main_v59 main_v61 main_v50 main_v62 (select : (⟨S488691, .i1⟩ : BufTy).Contents (Elt F) → (⟨S488691, .i32⟩ : BufTy).Contents (Elt F) → (⟨S488691, .i32⟩ : BufTy).Contents (Elt F) → (⟨S488691, .i32⟩ : BufTy).Contents (Elt F)),
    unary main_v62 main_v63 (broadcastInDim S488691x1 ![0] bcast_S488691_S488691x1_0 : (⟨S488691, .i32⟩ : BufTy).Contents (Elt F) → (⟨S488691x1, .i32⟩ : BufTy).Contents (Elt F)),
    binary main_arg1 main_v63 main_v64 ((fun x i => Host.gather gather_S8192x3_S488691x1_S488691x3_1_0_n_n_0_1_13 x i) : (⟨S8192x3, .f32⟩ : BufTy).Contents (Elt F) → (⟨S488691x1, .i32⟩ : BufTy).Contents (Elt F) → (⟨S488691x3, .f32⟩ : BufTy).Contents (Elt F)),
    nullary main_c_13 (constantI S_ 32 0#32),
    unary main_c_13 main_v65 (broadcastInDim S488691 ![] bcast_S_S488691 : (⟨S_, .i32⟩ : BufTy).Contents (Elt F) → (⟨S488691, .i32⟩ : BufTy).Contents (Elt F)),
    binary main_v43 main_v65 main_v66 (cmpi .slt : (⟨S488691, .i32⟩ : BufTy).Contents (Elt F) → (⟨S488691, .i32⟩ : BufTy).Contents (Elt F) → (⟨S488691, .i1⟩ : BufTy).Contents (Elt F)),
    nullary main_c_14 (constantI S_ 32 8192#32),
    unary main_c_14 main_v67 (broadcastInDim S488691 ![] bcast_S_S488691 : (⟨S_, .i32⟩ : BufTy).Contents (Elt F) → (⟨S488691, .i32⟩ : BufTy).Contents (Elt F)),
    binary main_v43 main_v67 main_v68 (addi : (⟨S488691, .i32⟩ : BufTy).Contents (Elt F) → (⟨S488691, .i32⟩ : BufTy).Contents (Elt F) → (⟨S488691, .i32⟩ : BufTy).Contents (Elt F)),
    ternary main_v66 main_v68 main_v43 main_v69 (select : (⟨S488691, .i1⟩ : BufTy).Contents (Elt F) → (⟨S488691, .i32⟩ : BufTy).Contents (Elt F) → (⟨S488691, .i32⟩ : BufTy).Contents (Elt F) → (⟨S488691, .i32⟩ : BufTy).Contents (Elt F)),
    unary main_v69 main_v70 (broadcastInDim S488691x1 ![0] bcast_S488691_S488691x1_0 : (⟨S488691, .i32⟩ : BufTy).Contents (Elt F) → (⟨S488691x1, .i32⟩ : BufTy).Contents (Elt F)),
    binary main_arg1 main_v70 main_v71 ((fun x i => Host.gather gather_S8192x3_S488691x1_S488691x3_1_0_n_n_0_1_13 x i) : (⟨S8192x3, .f32⟩ : BufTy).Contents (Elt F) → (⟨S488691x1, .i32⟩ : BufTy).Contents (Elt F) → (⟨S488691x3, .f32⟩ : BufTy).Contents (Elt F)),
    binary main_v64 main_v71 main_v72 (subf : (⟨S488691x3, .f32⟩ : BufTy).Contents (Elt F) → (⟨S488691x3, .f32⟩ : BufTy).Contents (Elt F) → (⟨S488691x3, .f32⟩ : BufTy).Contents (Elt F)),
    nullary main_c_15 (constantI S_ 32 0#32),
    unary main_c_15 main_v73 (broadcastInDim S488691 ![] bcast_S_S488691 : (⟨S_, .i32⟩ : BufTy).Contents (Elt F) → (⟨S488691, .i32⟩ : BufTy).Contents (Elt F)),
    binary main_v57 main_v73 main_v74 (cmpi .slt : (⟨S488691, .i32⟩ : BufTy).Contents (Elt F) → (⟨S488691, .i32⟩ : BufTy).Contents (Elt F) → (⟨S488691, .i1⟩ : BufTy).Contents (Elt F)),
    nullary main_c_16 (constantI S_ 32 8192#32),
    unary main_c_16 main_v75 (broadcastInDim S488691 ![] bcast_S_S488691 : (⟨S_, .i32⟩ : BufTy).Contents (Elt F) → (⟨S488691, .i32⟩ : BufTy).Contents (Elt F)),
    binary main_v57 main_v75 main_v76 (addi : (⟨S488691, .i32⟩ : BufTy).Contents (Elt F) → (⟨S488691, .i32⟩ : BufTy).Contents (Elt F) → (⟨S488691, .i32⟩ : BufTy).Contents (Elt F)),
    ternary main_v74 main_v76 main_v57 main_v77 (select : (⟨S488691, .i1⟩ : BufTy).Contents (Elt F) → (⟨S488691, .i32⟩ : BufTy).Contents (Elt F) → (⟨S488691, .i32⟩ : BufTy).Contents (Elt F) → (⟨S488691, .i32⟩ : BufTy).Contents (Elt F)),
    unary main_v77 main_v78 (broadcastInDim S488691x1 ![0] bcast_S488691_S488691x1_0 : (⟨S488691, .i32⟩ : BufTy).Contents (Elt F) → (⟨S488691x1, .i32⟩ : BufTy).Contents (Elt F)),
    binary main_arg1 main_v78 main_v79 ((fun x i => Host.gather gather_S8192x3_S488691x1_S488691x3_1_0_n_n_0_1_13 x i) : (⟨S8192x3, .f32⟩ : BufTy).Contents (Elt F) → (⟨S488691x1, .i32⟩ : BufTy).Contents (Elt F) → (⟨S488691x3, .f32⟩ : BufTy).Contents (Elt F)),
    nullary main_c_17 (constantI S_ 32 0#32),
    unary main_c_17 main_v80 (broadcastInDim S488691 ![] bcast_S_S488691 : (⟨S_, .i32⟩ : BufTy).Contents (Elt F) → (⟨S488691, .i32⟩ : BufTy).Contents (Elt F)),
    binary main_v43 main_v80 main_v81 (cmpi .slt : (⟨S488691, .i32⟩ : BufTy).Contents (Elt F) → (⟨S488691, .i32⟩ : BufTy).Contents (Elt F) → (⟨S488691, .i1⟩ : BufTy).Contents (Elt F)),
    nullary main_c_18 (constantI S_ 32 8192#32),
    unary main_c_18 main_v82 (broadcastInDim S488691 ![] bcast_S_S488691 : (⟨S_, .i32⟩ : BufTy).Contents (Elt F) → (⟨S488691, .i32⟩ : BufTy).Contents (Elt F)),
    binary main_v43 main_v82 main_v83 (addi : (⟨S488691, .i32⟩ : BufTy).Contents (Elt F) → (⟨S488691, .i32⟩ : BufTy).Contents (Elt F) → (⟨S488691, .i32⟩ : BufTy).Contents (Elt F)),
    ternary main_v81 main_v83 main_v43 main_v84 (select : (⟨S488691, .i1⟩ : BufTy).Contents (Elt F) → (⟨S488691, .i32⟩ : BufTy).Contents (Elt F) → (⟨S488691, .i32⟩ : BufTy).Contents (Elt F) → (⟨S488691, .i32⟩ : BufTy).Contents (Elt F)),
    unary main_v84 main_v85 (broadcastInDim S488691x1 ![0] bcast_S488691_S488691x1_0 : (⟨S488691, .i32⟩ : BufTy).Contents (Elt F) → (⟨S488691x1, .i32⟩ : BufTy).Contents (Elt F)),
    binary main_arg1 main_v85 main_v86 ((fun x i => Host.gather gather_S8192x3_S488691x1_S488691x3_1_0_n_n_0_1_13 x i) : (⟨S8192x3, .f32⟩ : BufTy).Contents (Elt F) → (⟨S488691x1, .i32⟩ : BufTy).Contents (Elt F) → (⟨S488691x3, .f32⟩ : BufTy).Contents (Elt F)),
    binary main_v79 main_v86 main_v87 (subf : (⟨S488691x3, .f32⟩ : BufTy).Contents (Elt F) → (⟨S488691x3, .f32⟩ : BufTy).Contents (Elt F) → (⟨S488691x3, .f32⟩ : BufTy).Contents (Elt F)) ]

/-- Operations 112 to 135 of @main, in order. -/
abbrev chunk4 : List (HloOp τ sig (Elt F)) :=
  [ TRef.binary (TRef.of (T := ⟨S488691x3, .f32⟩) main_v72) (TRef.of (T := ⟨S488691x3, .f32⟩) main_v72) (TRef.of (T := ⟨S488691x3, .f32⟩) main_call1_v0) mulf,
    TRef.nullary (TRef.of (T := ⟨S_, .f32⟩) main_call1_cst) (constant S_ .f32 0x00000000#32),
    TRef.binary (TRef.of (T := ⟨S488691x3, .f32⟩) main_call1_v0) (TRef.of (T := ⟨S_, .f32⟩) main_call1_cst) (TRef.of (T := ⟨S488691, .f32⟩) main_call1_v1) (fun x v => Host.reduceAdd x v reducesTo_S488691x3_S488691_d1 h_S_),
    TRef.unary (TRef.of (T := ⟨S488691, .f32⟩) main_call1_v1) (TRef.of (T := ⟨S488691, .f32⟩) main_v88) Host.sqrt,
    TRef.binary (TRef.of (T := ⟨S488691x3, .f32⟩) main_v87) (TRef.of (T := ⟨S488691x3, .f32⟩) main_v87) (TRef.of (T := ⟨S488691x3, .f32⟩) main_call2_v0) mulf,
    TRef.nullary (TRef.of (T := ⟨S_, .f32⟩) main_call2_cst) (constant S_ .f32 0x00000000#32),
    TRef.binary (TRef.of (T := ⟨S488691x3, .f32⟩) main_call2_v0) (TRef.of (T := ⟨S_, .f32⟩) main_call2_cst) (TRef.of (T := ⟨S488691, .f32⟩) main_call2_v1) (fun x v => Host.reduceAdd x v reducesTo_S488691x3_S488691_d1 h_S_),
    TRef.unary (TRef.of (T := ⟨S488691, .f32⟩) main_call2_v1) (TRef.of (T := ⟨S488691, .f32⟩) main_v89) Host.sqrt,
    binary main_v88 main_v89 main_v90 (mulf : (⟨S488691, .f32⟩ : BufTy).Contents (Elt F) → (⟨S488691, .f32⟩ : BufTy).Contents (Elt F) → (⟨S488691, .f32⟩ : BufTy).Contents (Elt F)),
    nullary main_cst_19 (constant S_ .f32 0x322BCC77#32),
    unary main_cst_19 main_v91 (broadcastInDim S488691 ![] bcast_S_S488691 : (⟨S_, .f32⟩ : BufTy).Contents (Elt F) → (⟨S488691, .f32⟩ : BufTy).Contents (Elt F)),
    binary main_v90 main_v91 main_v92 (maximumf : (⟨S488691, .f32⟩ : BufTy).Contents (Elt F) → (⟨S488691, .f32⟩ : BufTy).Contents (Elt F) → (⟨S488691, .f32⟩ : BufTy).Contents (Elt F)),
    binary main_v72 main_v87 main_v93 (mulf : (⟨S488691x3, .f32⟩ : BufTy).Contents (Elt F) → (⟨S488691x3, .f32⟩ : BufTy).Contents (Elt F) → (⟨S488691x3, .f32⟩ : BufTy).Contents (Elt F)),
    nullary main_cst_20 (constant S_ .f32 0x00000000#32),
    binary main_v93 main_cst_20 main_v94 ((fun x v => Host.reduceAdd x v reducesTo_S488691x3_S488691_d1 h_S_) : (⟨S488691x3, .f32⟩ : BufTy).Contents (Elt F) → (⟨S_, .f32⟩ : BufTy).Contents (Elt F) → (⟨S488691, .f32⟩ : BufTy).Contents (Elt F)),
    binary main_v94 main_v92 main_v95 (Host.divf : (⟨S488691, .f32⟩ : BufTy).Contents (Elt F) → (⟨S488691, .f32⟩ : BufTy).Contents (Elt F) → (⟨S488691, .f32⟩ : BufTy).Contents (Elt F)),
    nullary main_cst_21 (constant S_ .f32 0xBF800000#32),
    nullary main_cst_22 (constant S_ .f32 0x3F800000#32),
    TRef.unary (TRef.of (T := ⟨S_, .f32⟩) main_cst_21) (TRef.of (T := ⟨S_, .f32⟩) main_call3_v0) id,
    TRef.unary (TRef.of (T := ⟨S_, .f32⟩) main_call3_v0) (TRef.of (T := ⟨S488691, .f32⟩) main_call3_v1) (broadcastInDim S488691 ![] bcast_S_S488691),
    TRef.binary (TRef.of (T := ⟨S488691, .f32⟩) main_call3_v1) (TRef.of (T := ⟨S488691, .f32⟩) main_v95) (TRef.of (T := ⟨S488691, .f32⟩) main_call3_v2) maximumf,
    TRef.unary (TRef.of (T := ⟨S_, .f32⟩) main_cst_22) (TRef.of (T := ⟨S_, .f32⟩) main_call3_v3) id,
    TRef.unary (TRef.of (T := ⟨S_, .f32⟩) main_call3_v3) (TRef.of (T := ⟨S488691, .f32⟩) main_call3_v4) (broadcastInDim S488691 ![] bcast_S_S488691),
    TRef.binary (TRef.of (T := ⟨S488691, .f32⟩) main_call3_v4) (TRef.of (T := ⟨S488691, .f32⟩) main_call3_v2) (TRef.of (T := ⟨S488691, .f32⟩) main_v96) minimumf ]

/-- Operations 136 to 156 of @main, in order. -/
abbrev chunk5 : List (HloOp τ sig (Elt F)) :=
  [ unary main_v96 main_v97 (broadcastInDim S488691x1 ![0] bcast_S488691_S488691x1_0 : (⟨S488691, .f32⟩ : BufTy).Contents (Elt F) → (⟨S488691x1, .f32⟩ : BufTy).Contents (Elt F)),
    binary main_v97 main_arg7 main_v98 ((fun l r => Host.dotGeneral dot_S488691x1_S1x32_S488691x32_1_0_0_1_n_n none l r) : (⟨S488691x1, .f32⟩ : BufTy).Contents (Elt F) → (⟨S1x32, .f32⟩ : BufTy).Contents (Elt F) → (⟨S488691x32, .f32⟩ : BufTy).Contents (Elt F)),
    unary main_arg8 main_v99 (broadcastInDim S1x32 ![1] bcast_S32_S1x32_1 : (⟨S32, .f32⟩ : BufTy).Contents (Elt F) → (⟨S1x32, .f32⟩ : BufTy).Contents (Elt F)),
    unary main_v99 main_v100 (broadcastInDim S488691x32 ![0, 1] bcast_S1x32_S488691x32_0_1 : (⟨S1x32, .f32⟩ : BufTy).Contents (Elt F) → (⟨S488691x32, .f32⟩ : BufTy).Contents (Elt F)),
    binary main_v98 main_v100 main_v101 (addf : (⟨S488691x32, .f32⟩ : BufTy).Contents (Elt F) → (⟨S488691x32, .f32⟩ : BufTy).Contents (Elt F) → (⟨S488691x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S488691x32, .f32⟩) main_call4_v0) (broadcastInDim S488691x32 ![] bcast_S_S488691x32),
    TRef.binary (TRef.of (T := ⟨S488691x32, .f32⟩) main_v101) (TRef.of (T := ⟨S488691x32, .f32⟩) main_call4_v0) (TRef.of (T := ⟨S488691x32, .f32⟩) main_v102) maximumf,
    binary main_v102 main_arg9 main_v103 ((fun l r => Host.dotGeneral dot_S488691x32_S32x32_S488691x32_1_0_0_1_n_n none l r) : (⟨S488691x32, .f32⟩ : BufTy).Contents (Elt F) → (⟨S32x32, .f32⟩ : BufTy).Contents (Elt F) → (⟨S488691x32, .f32⟩ : BufTy).Contents (Elt F)),
    unary main_arg10 main_v104 (broadcastInDim S1x32 ![1] bcast_S32_S1x32_1 : (⟨S32, .f32⟩ : BufTy).Contents (Elt F) → (⟨S1x32, .f32⟩ : BufTy).Contents (Elt F)),
    unary main_v104 main_v105 (broadcastInDim S488691x32 ![0, 1] bcast_S1x32_S488691x32_0_1 : (⟨S1x32, .f32⟩ : BufTy).Contents (Elt F) → (⟨S488691x32, .f32⟩ : BufTy).Contents (Elt F)),
    binary main_v103 main_v105 main_v106 (addf : (⟨S488691x32, .f32⟩ : BufTy).Contents (Elt F) → (⟨S488691x32, .f32⟩ : BufTy).Contents (Elt F) → (⟨S488691x32, .f32⟩ : BufTy).Contents (Elt F)),
    nullary main_cst_23 (constant S_ .f32 0x00000000#32),
    unary main_cst_23 main_v107 (broadcastInDim S85342x32 ![] bcast_S_S85342x32 : (⟨S_, .f32⟩ : BufTy).Contents (Elt F) → (⟨S85342x32, .f32⟩ : BufTy).Contents (Elt F)),
    unary main_arg3 main_v108 (broadcastInDim S488691x1 ![0] bcast_S488691_S488691x1_0 : (⟨S488691, .i32⟩ : BufTy).Contents (Elt F) → (⟨S488691x1, .i32⟩ : BufTy).Contents (Elt F)),
    ternary main_v107 main_v108 main_v106 main_v109 ((fun x i u => Host.scatterAdd scatter_S85342x32_S488691x1_S488691x32_1_0_0_1 x i u) : (⟨S85342x32, .f32⟩ : BufTy).Contents (Elt F) → (⟨S488691x1, .i32⟩ : BufTy).Contents (Elt F) → (⟨S488691x32, .f32⟩ : BufTy).Contents (Elt F) → (⟨S85342x32, .f32⟩ : BufTy).Contents (Elt F)),
    nullary main_cst_24 (constant S_ .f32 0x00000000#32),
    unary main_cst_24 main_v110 (broadcastInDim S85342x32 ![] bcast_S_S85342x32 : (⟨S_, .f32⟩ : BufTy).Contents (Elt F) → (⟨S85342x32, .f32⟩ : BufTy).Contents (Elt F)),
    unary main_arg4 main_v111 (broadcastInDim S488691x1 ![0] bcast_S488691_S488691x1_0 : (⟨S488691, .i32⟩ : BufTy).Contents (Elt F) → (⟨S488691x1, .i32⟩ : BufTy).Contents (Elt F)),
    ternary main_v110 main_v111 main_v106 main_v112 ((fun x i u => Host.scatterAdd scatter_S85342x32_S488691x1_S488691x32_1_0_0_1 x i u) : (⟨S85342x32, .f32⟩ : BufTy).Contents (Elt F) → (⟨S488691x1, .i32⟩ : BufTy).Contents (Elt F) → (⟨S488691x32, .f32⟩ : BufTy).Contents (Elt F) → (⟨S85342x32, .f32⟩ : BufTy).Contents (Elt F)),
    binary main_v109 main_v112 main_v113 (addf : (⟨S85342x32, .f32⟩ : BufTy).Contents (Elt F) → (⟨S85342x32, .f32⟩ : BufTy).Contents (Elt F) → (⟨S85342x32, .f32⟩ : BufTy).Contents (Elt F)) ]

/-- Operations 157 to 157 of @main, in order. -/
abbrev chunk6 : List (HloOp τ sig (Elt F)) :=
  [ binary main_v36 main_v113 main_v114 ((fun a b => concatenate S85342x96 1 [⟨S85342x64, a⟩, ⟨S85342x32, b⟩] concatenates_S85342x64_S85342x32_S85342x96_d1) : (⟨S85342x64, .f32⟩ : BufTy).Contents (Elt F) → (⟨S85342x32, .f32⟩ : BufTy).Contents (Elt F) → (⟨S85342x96, .f32⟩ : BufTy).Contents (Elt F)) ]

/-- Operations 158 to 189 of @main, in order. -/
abbrev chunk7 : List (HloOp τ sig (Elt F)) :=
  [ unary main_arg11 main_v115 ((extractStridedSlice S1x96x512 ![0, 0, 0] · slices_S4x96x512_S1x96x512_0_0_0) : (⟨S4x96x512, .f32⟩ : BufTy).Contents (Elt F) → (⟨S1x96x512, .f32⟩ : BufTy).Contents (Elt F)),
    reshape main_v115 main_v116 rfl shapeCasts_S1x96x512_S96x512,
    binary main_v114 main_v116 main_v117 ((fun l r => Host.dotGeneral dot_S85342x96_S96x512_S85342x512_1_0_0_1_n_n none l r) : (⟨S85342x96, .f32⟩ : BufTy).Contents (Elt F) → (⟨S96x512, .f32⟩ : BufTy).Contents (Elt F) → (⟨S85342x512, .f32⟩ : BufTy).Contents (Elt F)),
    unary main_arg12 main_v118 ((extractStridedSlice S1x512 ![0, 0] · slices_S4x512_S1x512_0_0) : (⟨S4x512, .f32⟩ : BufTy).Contents (Elt F) → (⟨S1x512, .f32⟩ : BufTy).Contents (Elt F)),
    reshape main_v118 main_v119 rfl shapeCasts_S1x512_S512,
    unary main_v119 main_v120 (broadcastInDim S1x512 ![1] bcast_S512_S1x512_1 : (⟨S512, .f32⟩ : BufTy).Contents (Elt F) → (⟨S1x512, .f32⟩ : BufTy).Contents (Elt F)),
    unary main_v120 main_v121 (broadcastInDim S85342x512 ![0, 1] bcast_S1x512_S85342x512_0_1 : (⟨S1x512, .f32⟩ : BufTy).Contents (Elt F) → (⟨S85342x512, .f32⟩ : BufTy).Contents (Elt F)),
    binary main_v117 main_v121 main_v122 (addf : (⟨S85342x512, .f32⟩ : BufTy).Contents (Elt F) → (⟨S85342x512, .f32⟩ : BufTy).Contents (Elt F) → (⟨S85342x512, .f32⟩ : BufTy).Contents (Elt F)),
    nullary main_cst_25 (constant S_ .f32 0x00000000#32),
    unary main_cst_25 main_v123 (broadcastInDim S8192x512 ![] bcast_S_S8192x512 : (⟨S_, .f32⟩ : BufTy).Contents (Elt F) → (⟨S8192x512, .f32⟩ : BufTy).Contents (Elt F)),
    unary main_v9 main_v124 (broadcastInDim S85342x1 ![0] bcast_S85342_S85342x1_0 : (⟨S85342, .i32⟩ : BufTy).Contents (Elt F) → (⟨S85342x1, .i32⟩ : BufTy).Contents (Elt F)),
    ternary main_v123 main_v124 main_v122 main_v125 ((fun x i u => Host.scatterAdd scatter_S8192x512_S85342x1_S85342x512_1_0_0_1 x i u) : (⟨S8192x512, .f32⟩ : BufTy).Contents (Elt F) → (⟨S85342x1, .i32⟩ : BufTy).Contents (Elt F) → (⟨S85342x512, .f32⟩ : BufTy).Contents (Elt F) → (⟨S8192x512, .f32⟩ : BufTy).Contents (Elt F)),
    unary main_arg13 main_v126 ((extractStridedSlice S1x512x512 ![0, 0, 0] · slices_S4x512x512_S1x512x512_0_0_0) : (⟨S4x512x512, .f32⟩ : BufTy).Contents (Elt F) → (⟨S1x512x512, .f32⟩ : BufTy).Contents (Elt F)),
    reshape main_v126 main_v127 rfl shapeCasts_S1x512x512_S512x512,
    binary main_v125 main_v127 main_v128 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_arg14 main_v129 ((extractStridedSlice S1x512 ![0, 0] · slices_S4x512_S1x512_0_0) : (⟨S4x512, .f32⟩ : BufTy).Contents (Elt F) → (⟨S1x512, .f32⟩ : BufTy).Contents (Elt F)),
    reshape main_v129 main_v130 rfl shapeCasts_S1x512_S512,
    unary main_v130 main_v131 (broadcastInDim S1x512 ![1] bcast_S512_S1x512_1 : (⟨S512, .f32⟩ : BufTy).Contents (Elt F) → (⟨S1x512, .f32⟩ : BufTy).Contents (Elt F)),
    unary main_v131 main_v132 (broadcastInDim S8192x512 ![0, 1] bcast_S1x512_S8192x512_0_1 : (⟨S1x512, .f32⟩ : BufTy).Contents (Elt F) → (⟨S8192x512, .f32⟩ : BufTy).Contents (Elt F)),
    binary main_v128 main_v132 main_v133 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8192x512, .f32⟩) main_call5_v0) (broadcastInDim S8192x512 ![] bcast_S_S8192x512),
    TRef.binary (TRef.of (T := ⟨S8192x512, .f32⟩) main_v133) (TRef.of (T := ⟨S8192x512, .f32⟩) main_call5_v0) (TRef.of (T := ⟨S8192x512, .f32⟩) main_v134) maximumf,
    unary main_arg15 main_v135 ((extractStridedSlice S1x512x512 ![0, 0, 0] · slices_S4x512x512_S1x512x512_0_0_0) : (⟨S4x512x512, .f32⟩ : BufTy).Contents (Elt F) → (⟨S1x512x512, .f32⟩ : BufTy).Contents (Elt F)),
    reshape main_v135 main_v136 rfl shapeCasts_S1x512x512_S512x512,
    binary main_v134 main_v136 main_v137 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    binary main_v7 main_v137 main_v138 (addf : (⟨S8192x512, .f32⟩ : BufTy).Contents (Elt F) → (⟨S8192x512, .f32⟩ : BufTy).Contents (Elt F) → (⟨S8192x512, .f32⟩ : BufTy).Contents (Elt F)),
    unary main_arg16 main_v139 ((extractStridedSlice S1x512 ![0, 0] · slices_S4x512_S1x512_0_0) : (⟨S4x512, .f32⟩ : BufTy).Contents (Elt F) → (⟨S1x512, .f32⟩ : BufTy).Contents (Elt F)),
    reshape main_v139 main_v140 rfl shapeCasts_S1x512_S512,
    unary main_v140 main_v141 (broadcastInDim S1x512 ![1] bcast_S512_S1x512_1 : (⟨S512, .f32⟩ : BufTy).Contents (Elt F) → (⟨S1x512, .f32⟩ : BufTy).Contents (Elt F)),
    unary main_v141 main_v142 (broadcastInDim S8192x512 ![0, 1] bcast_S1x512_S8192x512_0_1 : (⟨S1x512, .f32⟩ : BufTy).Contents (Elt F) → (⟨S8192x512, .f32⟩ : BufTy).Contents (Elt F)),
    binary main_v138 main_v142 main_v143 (addf : (⟨S8192x512, .f32⟩ : BufTy).Contents (Elt F) → (⟨S8192x512, .f32⟩ : BufTy).Contents (Elt F) → (⟨S8192x512, .f32⟩ : BufTy).Contents (Elt F)) ]

/-- Operations 190 to 221 of @main, in order. -/
abbrev chunk8 : List (HloOp τ sig (Elt F)) :=
  [ unary main_arg11 main_v144 ((extractStridedSlice S1x96x512 ![1, 0, 0] · slices_S4x96x512_S1x96x512_1_0_0) : (⟨S4x96x512, .f32⟩ : BufTy).Contents (Elt F) → (⟨S1x96x512, .f32⟩ : BufTy).Contents (Elt F)),
    reshape main_v144 main_v145 rfl shapeCasts_S1x96x512_S96x512,
    binary main_v114 main_v145 main_v146 ((fun l r => Host.dotGeneral dot_S85342x96_S96x512_S85342x512_1_0_0_1_n_n none l r) : (⟨S85342x96, .f32⟩ : BufTy).Contents (Elt F) → (⟨S96x512, .f32⟩ : BufTy).Contents (Elt F) → (⟨S85342x512, .f32⟩ : BufTy).Contents (Elt F)),
    unary main_arg12 main_v147 ((extractStridedSlice S1x512 ![1, 0] · slices_S4x512_S1x512_1_0) : (⟨S4x512, .f32⟩ : BufTy).Contents (Elt F) → (⟨S1x512, .f32⟩ : BufTy).Contents (Elt F)),
    reshape main_v147 main_v148 rfl shapeCasts_S1x512_S512,
    unary main_v148 main_v149 (broadcastInDim S1x512 ![1] bcast_S512_S1x512_1 : (⟨S512, .f32⟩ : BufTy).Contents (Elt F) → (⟨S1x512, .f32⟩ : BufTy).Contents (Elt F)),
    unary main_v149 main_v150 (broadcastInDim S85342x512 ![0, 1] bcast_S1x512_S85342x512_0_1 : (⟨S1x512, .f32⟩ : BufTy).Contents (Elt F) → (⟨S85342x512, .f32⟩ : BufTy).Contents (Elt F)),
    binary main_v146 main_v150 main_v151 (addf : (⟨S85342x512, .f32⟩ : BufTy).Contents (Elt F) → (⟨S85342x512, .f32⟩ : BufTy).Contents (Elt F) → (⟨S85342x512, .f32⟩ : BufTy).Contents (Elt F)),
    nullary main_cst_26 (constant S_ .f32 0x00000000#32),
    unary main_cst_26 main_v152 (broadcastInDim S8192x512 ![] bcast_S_S8192x512 : (⟨S_, .f32⟩ : BufTy).Contents (Elt F) → (⟨S8192x512, .f32⟩ : BufTy).Contents (Elt F)),
    unary main_v9 main_v153 (broadcastInDim S85342x1 ![0] bcast_S85342_S85342x1_0 : (⟨S85342, .i32⟩ : BufTy).Contents (Elt F) → (⟨S85342x1, .i32⟩ : BufTy).Contents (Elt F)),
    ternary main_v152 main_v153 main_v151 main_v154 ((fun x i u => Host.scatterAdd scatter_S8192x512_S85342x1_S85342x512_1_0_0_1 x i u) : (⟨S8192x512, .f32⟩ : BufTy).Contents (Elt F) → (⟨S85342x1, .i32⟩ : BufTy).Contents (Elt F) → (⟨S85342x512, .f32⟩ : BufTy).Contents (Elt F) → (⟨S8192x512, .f32⟩ : BufTy).Contents (Elt F)),
    unary main_arg13 main_v155 ((extractStridedSlice S1x512x512 ![1, 0, 0] · slices_S4x512x512_S1x512x512_1_0_0) : (⟨S4x512x512, .f32⟩ : BufTy).Contents (Elt F) → (⟨S1x512x512, .f32⟩ : BufTy).Contents (Elt F)),
    reshape main_v155 main_v156 rfl shapeCasts_S1x512x512_S512x512,
    binary main_v154 main_v156 main_v157 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_arg14 main_v158 ((extractStridedSlice S1x512 ![1, 0] · slices_S4x512_S1x512_1_0) : (⟨S4x512, .f32⟩ : BufTy).Contents (Elt F) → (⟨S1x512, .f32⟩ : BufTy).Contents (Elt F)),
    reshape main_v158 main_v159 rfl shapeCasts_S1x512_S512,
    unary main_v159 main_v160 (broadcastInDim S1x512 ![1] bcast_S512_S1x512_1 : (⟨S512, .f32⟩ : BufTy).Contents (Elt F) → (⟨S1x512, .f32⟩ : BufTy).Contents (Elt F)),
    unary main_v160 main_v161 (broadcastInDim S8192x512 ![0, 1] bcast_S1x512_S8192x512_0_1 : (⟨S1x512, .f32⟩ : BufTy).Contents (Elt F) → (⟨S8192x512, .f32⟩ : BufTy).Contents (Elt F)),
    binary main_v157 main_v161 main_v162 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8192x512, .f32⟩) main_call6_v0) (broadcastInDim S8192x512 ![] bcast_S_S8192x512),
    TRef.binary (TRef.of (T := ⟨S8192x512, .f32⟩) main_v162) (TRef.of (T := ⟨S8192x512, .f32⟩) main_call6_v0) (TRef.of (T := ⟨S8192x512, .f32⟩) main_v163) maximumf,
    unary main_arg15 main_v164 ((extractStridedSlice S1x512x512 ![1, 0, 0] · slices_S4x512x512_S1x512x512_1_0_0) : (⟨S4x512x512, .f32⟩ : BufTy).Contents (Elt F) → (⟨S1x512x512, .f32⟩ : BufTy).Contents (Elt F)),
    reshape main_v164 main_v165 rfl shapeCasts_S1x512x512_S512x512,
    binary main_v163 main_v165 main_v166 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    binary main_v143 main_v166 main_v167 (addf : (⟨S8192x512, .f32⟩ : BufTy).Contents (Elt F) → (⟨S8192x512, .f32⟩ : BufTy).Contents (Elt F) → (⟨S8192x512, .f32⟩ : BufTy).Contents (Elt F)),
    unary main_arg16 main_v168 ((extractStridedSlice S1x512 ![1, 0] · slices_S4x512_S1x512_1_0) : (⟨S4x512, .f32⟩ : BufTy).Contents (Elt F) → (⟨S1x512, .f32⟩ : BufTy).Contents (Elt F)),
    reshape main_v168 main_v169 rfl shapeCasts_S1x512_S512,
    unary main_v169 main_v170 (broadcastInDim S1x512 ![1] bcast_S512_S1x512_1 : (⟨S512, .f32⟩ : BufTy).Contents (Elt F) → (⟨S1x512, .f32⟩ : BufTy).Contents (Elt F)),
    unary main_v170 main_v171 (broadcastInDim S8192x512 ![0, 1] bcast_S1x512_S8192x512_0_1 : (⟨S1x512, .f32⟩ : BufTy).Contents (Elt F) → (⟨S8192x512, .f32⟩ : BufTy).Contents (Elt F)),
    binary main_v167 main_v171 main_v172 (addf : (⟨S8192x512, .f32⟩ : BufTy).Contents (Elt F) → (⟨S8192x512, .f32⟩ : BufTy).Contents (Elt F) → (⟨S8192x512, .f32⟩ : BufTy).Contents (Elt F)) ]

/-- Operations 222 to 253 of @main, in order. -/
abbrev chunk9 : List (HloOp τ sig (Elt F)) :=
  [ unary main_arg11 main_v173 ((extractStridedSlice S1x96x512 ![2, 0, 0] · slices_S4x96x512_S1x96x512_2_0_0) : (⟨S4x96x512, .f32⟩ : BufTy).Contents (Elt F) → (⟨S1x96x512, .f32⟩ : BufTy).Contents (Elt F)),
    reshape main_v173 main_v174 rfl shapeCasts_S1x96x512_S96x512,
    binary main_v114 main_v174 main_v175 ((fun l r => Host.dotGeneral dot_S85342x96_S96x512_S85342x512_1_0_0_1_n_n none l r) : (⟨S85342x96, .f32⟩ : BufTy).Contents (Elt F) → (⟨S96x512, .f32⟩ : BufTy).Contents (Elt F) → (⟨S85342x512, .f32⟩ : BufTy).Contents (Elt F)),
    unary main_arg12 main_v176 ((extractStridedSlice S1x512 ![2, 0] · slices_S4x512_S1x512_2_0) : (⟨S4x512, .f32⟩ : BufTy).Contents (Elt F) → (⟨S1x512, .f32⟩ : BufTy).Contents (Elt F)),
    reshape main_v176 main_v177 rfl shapeCasts_S1x512_S512,
    unary main_v177 main_v178 (broadcastInDim S1x512 ![1] bcast_S512_S1x512_1 : (⟨S512, .f32⟩ : BufTy).Contents (Elt F) → (⟨S1x512, .f32⟩ : BufTy).Contents (Elt F)),
    unary main_v178 main_v179 (broadcastInDim S85342x512 ![0, 1] bcast_S1x512_S85342x512_0_1 : (⟨S1x512, .f32⟩ : BufTy).Contents (Elt F) → (⟨S85342x512, .f32⟩ : BufTy).Contents (Elt F)),
    binary main_v175 main_v179 main_v180 (addf : (⟨S85342x512, .f32⟩ : BufTy).Contents (Elt F) → (⟨S85342x512, .f32⟩ : BufTy).Contents (Elt F) → (⟨S85342x512, .f32⟩ : BufTy).Contents (Elt F)),
    nullary main_cst_27 (constant S_ .f32 0x00000000#32),
    unary main_cst_27 main_v181 (broadcastInDim S8192x512 ![] bcast_S_S8192x512 : (⟨S_, .f32⟩ : BufTy).Contents (Elt F) → (⟨S8192x512, .f32⟩ : BufTy).Contents (Elt F)),
    unary main_v9 main_v182 (broadcastInDim S85342x1 ![0] bcast_S85342_S85342x1_0 : (⟨S85342, .i32⟩ : BufTy).Contents (Elt F) → (⟨S85342x1, .i32⟩ : BufTy).Contents (Elt F)),
    ternary main_v181 main_v182 main_v180 main_v183 ((fun x i u => Host.scatterAdd scatter_S8192x512_S85342x1_S85342x512_1_0_0_1 x i u) : (⟨S8192x512, .f32⟩ : BufTy).Contents (Elt F) → (⟨S85342x1, .i32⟩ : BufTy).Contents (Elt F) → (⟨S85342x512, .f32⟩ : BufTy).Contents (Elt F) → (⟨S8192x512, .f32⟩ : BufTy).Contents (Elt F)),
    unary main_arg13 main_v184 ((extractStridedSlice S1x512x512 ![2, 0, 0] · slices_S4x512x512_S1x512x512_2_0_0) : (⟨S4x512x512, .f32⟩ : BufTy).Contents (Elt F) → (⟨S1x512x512, .f32⟩ : BufTy).Contents (Elt F)),
    reshape main_v184 main_v185 rfl shapeCasts_S1x512x512_S512x512,
    binary main_v183 main_v185 main_v186 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_arg14 main_v187 ((extractStridedSlice S1x512 ![2, 0] · slices_S4x512_S1x512_2_0) : (⟨S4x512, .f32⟩ : BufTy).Contents (Elt F) → (⟨S1x512, .f32⟩ : BufTy).Contents (Elt F)),
    reshape main_v187 main_v188 rfl shapeCasts_S1x512_S512,
    unary main_v188 main_v189 (broadcastInDim S1x512 ![1] bcast_S512_S1x512_1 : (⟨S512, .f32⟩ : BufTy).Contents (Elt F) → (⟨S1x512, .f32⟩ : BufTy).Contents (Elt F)),
    unary main_v189 main_v190 (broadcastInDim S8192x512 ![0, 1] bcast_S1x512_S8192x512_0_1 : (⟨S1x512, .f32⟩ : BufTy).Contents (Elt F) → (⟨S8192x512, .f32⟩ : BufTy).Contents (Elt F)),
    binary main_v186 main_v190 main_v191 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8192x512, .f32⟩) main_call7_v0) (broadcastInDim S8192x512 ![] bcast_S_S8192x512),
    TRef.binary (TRef.of (T := ⟨S8192x512, .f32⟩) main_v191) (TRef.of (T := ⟨S8192x512, .f32⟩) main_call7_v0) (TRef.of (T := ⟨S8192x512, .f32⟩) main_v192) maximumf,
    unary main_arg15 main_v193 ((extractStridedSlice S1x512x512 ![2, 0, 0] · slices_S4x512x512_S1x512x512_2_0_0) : (⟨S4x512x512, .f32⟩ : BufTy).Contents (Elt F) → (⟨S1x512x512, .f32⟩ : BufTy).Contents (Elt F)),
    reshape main_v193 main_v194 rfl shapeCasts_S1x512x512_S512x512,
    binary main_v192 main_v194 main_v195 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    binary main_v172 main_v195 main_v196 (addf : (⟨S8192x512, .f32⟩ : BufTy).Contents (Elt F) → (⟨S8192x512, .f32⟩ : BufTy).Contents (Elt F) → (⟨S8192x512, .f32⟩ : BufTy).Contents (Elt F)),
    unary main_arg16 main_v197 ((extractStridedSlice S1x512 ![2, 0] · slices_S4x512_S1x512_2_0) : (⟨S4x512, .f32⟩ : BufTy).Contents (Elt F) → (⟨S1x512, .f32⟩ : BufTy).Contents (Elt F)),
    reshape main_v197 main_v198 rfl shapeCasts_S1x512_S512,
    unary main_v198 main_v199 (broadcastInDim S1x512 ![1] bcast_S512_S1x512_1 : (⟨S512, .f32⟩ : BufTy).Contents (Elt F) → (⟨S1x512, .f32⟩ : BufTy).Contents (Elt F)),
    unary main_v199 main_v200 (broadcastInDim S8192x512 ![0, 1] bcast_S1x512_S8192x512_0_1 : (⟨S1x512, .f32⟩ : BufTy).Contents (Elt F) → (⟨S8192x512, .f32⟩ : BufTy).Contents (Elt F)),
    binary main_v196 main_v200 main_v201 (addf : (⟨S8192x512, .f32⟩ : BufTy).Contents (Elt F) → (⟨S8192x512, .f32⟩ : BufTy).Contents (Elt F) → (⟨S8192x512, .f32⟩ : BufTy).Contents (Elt F)) ]

/-- Operations 254 to 285 of @main, in order. -/
abbrev chunk10 : List (HloOp τ sig (Elt F)) :=
  [ unary main_arg11 main_v202 ((extractStridedSlice S1x96x512 ![3, 0, 0] · slices_S4x96x512_S1x96x512_3_0_0) : (⟨S4x96x512, .f32⟩ : BufTy).Contents (Elt F) → (⟨S1x96x512, .f32⟩ : BufTy).Contents (Elt F)),
    reshape main_v202 main_v203 rfl shapeCasts_S1x96x512_S96x512,
    binary main_v114 main_v203 main_v204 ((fun l r => Host.dotGeneral dot_S85342x96_S96x512_S85342x512_1_0_0_1_n_n none l r) : (⟨S85342x96, .f32⟩ : BufTy).Contents (Elt F) → (⟨S96x512, .f32⟩ : BufTy).Contents (Elt F) → (⟨S85342x512, .f32⟩ : BufTy).Contents (Elt F)),
    unary main_arg12 main_v205 ((extractStridedSlice S1x512 ![3, 0] · slices_S4x512_S1x512_3_0) : (⟨S4x512, .f32⟩ : BufTy).Contents (Elt F) → (⟨S1x512, .f32⟩ : BufTy).Contents (Elt F)),
    reshape main_v205 main_v206 rfl shapeCasts_S1x512_S512,
    unary main_v206 main_v207 (broadcastInDim S1x512 ![1] bcast_S512_S1x512_1 : (⟨S512, .f32⟩ : BufTy).Contents (Elt F) → (⟨S1x512, .f32⟩ : BufTy).Contents (Elt F)),
    unary main_v207 main_v208 (broadcastInDim S85342x512 ![0, 1] bcast_S1x512_S85342x512_0_1 : (⟨S1x512, .f32⟩ : BufTy).Contents (Elt F) → (⟨S85342x512, .f32⟩ : BufTy).Contents (Elt F)),
    binary main_v204 main_v208 main_v209 (addf : (⟨S85342x512, .f32⟩ : BufTy).Contents (Elt F) → (⟨S85342x512, .f32⟩ : BufTy).Contents (Elt F) → (⟨S85342x512, .f32⟩ : BufTy).Contents (Elt F)),
    nullary main_cst_28 (constant S_ .f32 0x00000000#32),
    unary main_cst_28 main_v210 (broadcastInDim S8192x512 ![] bcast_S_S8192x512 : (⟨S_, .f32⟩ : BufTy).Contents (Elt F) → (⟨S8192x512, .f32⟩ : BufTy).Contents (Elt F)),
    unary main_v9 main_v211 (broadcastInDim S85342x1 ![0] bcast_S85342_S85342x1_0 : (⟨S85342, .i32⟩ : BufTy).Contents (Elt F) → (⟨S85342x1, .i32⟩ : BufTy).Contents (Elt F)),
    ternary main_v210 main_v211 main_v209 main_v212 ((fun x i u => Host.scatterAdd scatter_S8192x512_S85342x1_S85342x512_1_0_0_1 x i u) : (⟨S8192x512, .f32⟩ : BufTy).Contents (Elt F) → (⟨S85342x1, .i32⟩ : BufTy).Contents (Elt F) → (⟨S85342x512, .f32⟩ : BufTy).Contents (Elt F) → (⟨S8192x512, .f32⟩ : BufTy).Contents (Elt F)),
    unary main_arg13 main_v213 ((extractStridedSlice S1x512x512 ![3, 0, 0] · slices_S4x512x512_S1x512x512_3_0_0) : (⟨S4x512x512, .f32⟩ : BufTy).Contents (Elt F) → (⟨S1x512x512, .f32⟩ : BufTy).Contents (Elt F)),
    reshape main_v213 main_v214 rfl shapeCasts_S1x512x512_S512x512,
    binary main_v212 main_v214 main_v215 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_arg14 main_v216 ((extractStridedSlice S1x512 ![3, 0] · slices_S4x512_S1x512_3_0) : (⟨S4x512, .f32⟩ : BufTy).Contents (Elt F) → (⟨S1x512, .f32⟩ : BufTy).Contents (Elt F)),
    reshape main_v216 main_v217 rfl shapeCasts_S1x512_S512,
    unary main_v217 main_v218 (broadcastInDim S1x512 ![1] bcast_S512_S1x512_1 : (⟨S512, .f32⟩ : BufTy).Contents (Elt F) → (⟨S1x512, .f32⟩ : BufTy).Contents (Elt F)),
    unary main_v218 main_v219 (broadcastInDim S8192x512 ![0, 1] bcast_S1x512_S8192x512_0_1 : (⟨S1x512, .f32⟩ : BufTy).Contents (Elt F) → (⟨S8192x512, .f32⟩ : BufTy).Contents (Elt F)),
    binary main_v215 main_v219 main_v220 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S8192x512, .f32⟩) main_call8_v0) (broadcastInDim S8192x512 ![] bcast_S_S8192x512),
    TRef.binary (TRef.of (T := ⟨S8192x512, .f32⟩) main_v220) (TRef.of (T := ⟨S8192x512, .f32⟩) main_call8_v0) (TRef.of (T := ⟨S8192x512, .f32⟩) main_v221) maximumf,
    unary main_arg15 main_v222 ((extractStridedSlice S1x512x512 ![3, 0, 0] · slices_S4x512x512_S1x512x512_3_0_0) : (⟨S4x512x512, .f32⟩ : BufTy).Contents (Elt F) → (⟨S1x512x512, .f32⟩ : BufTy).Contents (Elt F)),
    reshape main_v222 main_v223 rfl shapeCasts_S1x512x512_S512x512,
    binary main_v221 main_v223 main_v224 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    binary main_v201 main_v224 main_v225 (addf : (⟨S8192x512, .f32⟩ : BufTy).Contents (Elt F) → (⟨S8192x512, .f32⟩ : BufTy).Contents (Elt F) → (⟨S8192x512, .f32⟩ : BufTy).Contents (Elt F)),
    unary main_arg16 main_v226 ((extractStridedSlice S1x512 ![3, 0] · slices_S4x512_S1x512_3_0) : (⟨S4x512, .f32⟩ : BufTy).Contents (Elt F) → (⟨S1x512, .f32⟩ : BufTy).Contents (Elt F)),
    reshape main_v226 main_v227 rfl shapeCasts_S1x512_S512,
    unary main_v227 main_v228 (broadcastInDim S1x512 ![1] bcast_S512_S1x512_1 : (⟨S512, .f32⟩ : BufTy).Contents (Elt F) → (⟨S1x512, .f32⟩ : BufTy).Contents (Elt F)),
    unary main_v228 main_v229 (broadcastInDim S8192x512 ![0, 1] bcast_S1x512_S8192x512_0_1 : (⟨S1x512, .f32⟩ : BufTy).Contents (Elt F) → (⟨S8192x512, .f32⟩ : BufTy).Contents (Elt F)),
    binary main_v225 main_v229 main_v230 (addf : (⟨S8192x512, .f32⟩ : BufTy).Contents (Elt F) → (⟨S8192x512, .f32⟩ : BufTy).Contents (Elt F) → (⟨S8192x512, .f32⟩ : BufTy).Contents (Elt F)) ]

/-- Operations 286 to 289 of @main, in order. -/
abbrev chunk11 : List (HloOp τ sig (Elt F)) :=
  [ nullary main_c_29 (constantI S_ 32 0#32),
    unary main_c_29 main_v231 (broadcastInDim S128x64 ![] bcast_S_S128x64 : (⟨S_, .i32⟩ : BufTy).Contents (Elt F) → (⟨S128x64, .i32⟩ : BufTy).Contents (Elt F)),
    binary main_arg0 main_v231 main_v232 (cmpi .eq : (⟨S128x64, .i32⟩ : BufTy).Contents (Elt F) → (⟨S128x64, .i32⟩ : BufTy).Contents (Elt F) → (⟨S128x64, .i1⟩ : BufTy).Contents (Elt F)),
    reshape main_v230 main_v233 rfl shapeCasts_S8192x512_S128x64x512 ]

/-! ## What each chunk writes -/

/-- A single result reference that is on a list lies in the list's set of device buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references `chunk1` writes: each operation's result, in order. -/
abbrev written1 : List (Ref sig .tc) :=
  [main_c, main_v0, main_v1, main_c_0, main_v2, main_v3, main_v4, main_v5, main_v6, main_v7, main_v8, main_v9, main_v10, main_v11]

set_option maxHeartbeats 4000000 in
theorem writes_chunk1 : (chunk1 : List (HloOp τ sig (Elt F))).Forall fun op =>
    op.writes ⊆ (written1.map (Proc.devRef (τ := τ) .tc)).toFinset := by
  simp only [chunk1, List.Forall, nullary_writes, unary_writes, binary_writes, ternary_writes, reshape_writes]
  repeat' apply And.intro
  all_goals exact single_sub (by decide)

/-- A reference `chunk1` does not write keeps its contents across it. -/
theorem keep_chunk1 (V : Valuation τ sig (Elt F)) (b : Ref sig .tc) (hb : b ∉ written1) :
    after chunk1 V (Proc.devRef .tc b) = V (Proc.devRef .tc b) :=
  after_of_writes_sub chunk1 V writes_chunk1 hb

/-- The references `chunk2` writes: each operation's result, in order. -/
abbrev written2 : List (Ref sig .tc) :=
  [main_c_1, main_v12, main_v13, main_c_2, main_v14, main_v15, main_v16, main_v17, main_v18, main_c_3, main_v19, main_v20, main_c_4, main_v21, main_v22, main_v23, main_v24, main_v25, main_v26, main_call0_v0, main_call0_cst, main_call0_v1, main_v27, main_v28, main_v29, main_v30, main_v31, main_v32, main_v33, main_cst, main_v34, main_v35, main_v36]

set_option maxHeartbeats 4000000 in
theorem writes_chunk2 : (chunk2 : List (HloOp τ sig (Elt F))).Forall fun op =>
    op.writes ⊆ (written2.map (Proc.devRef (τ := τ) .tc)).toFinset := by
  simp only [chunk2, List.Forall, nullary_writes, unary_writes, binary_writes, ternary_writes, reshape_writes]
  repeat' apply And.intro
  all_goals exact single_sub (by decide)

/-- A reference `chunk2` does not write keeps its contents across it. -/
theorem keep_chunk2 (V : Valuation τ sig (Elt F)) (b : Ref sig .tc) (hb : b ∉ written2) :
    after chunk2 V (Proc.devRef .tc b) = V (Proc.devRef .tc b) :=
  after_of_writes_sub chunk2 V writes_chunk2 hb

/-- The references `chunk3` writes: each operation's result, in order. -/
abbrev written3 : List (Ref sig .tc) :=
  [main_c_5, main_v37, main_v38, main_c_6, main_v39, main_v40, main_v41, main_v42, main_v43, main_c_7, main_v44, main_v45, main_c_8, main_v46, main_v47, main_v48, main_v49, main_v50, main_c_9, main_v51, main_v52, main_c_10, main_v53, main_v54, main_v55, main_v56, main_v57, main_c_11, main_v58, main_v59, main_c_12, main_v60, main_v61, main_v62, main_v63, main_v64, main_c_13, main_v65, main_v66, main_c_14, main_v67, main_v68, main_v69, main_v70, main_v71, main_v72, main_c_15, main_v73, main_v74, main_c_16, main_v75, main_v76, main_v77, main_v78, main_v79, main_c_17, main_v80, main_v81, main_c_18, main_v82, main_v83, main_v84, main_v85, main_v86, main_v87]

set_option maxHeartbeats 4000000 in
theorem writes_chunk3 : (chunk3 : List (HloOp τ sig (Elt F))).Forall fun op =>
    op.writes ⊆ (written3.map (Proc.devRef (τ := τ) .tc)).toFinset := by
  simp only [chunk3, List.Forall, nullary_writes, unary_writes, binary_writes, ternary_writes, reshape_writes]
  repeat' apply And.intro
  all_goals exact single_sub (by decide)

/-- A reference `chunk3` does not write keeps its contents across it. -/
theorem keep_chunk3 (V : Valuation τ sig (Elt F)) (b : Ref sig .tc) (hb : b ∉ written3) :
    after chunk3 V (Proc.devRef .tc b) = V (Proc.devRef .tc b) :=
  after_of_writes_sub chunk3 V writes_chunk3 hb

/-- The references `chunk4` writes: each operation's result, in order. -/
abbrev written4 : List (Ref sig .tc) :=
  [main_call1_v0, main_call1_cst, main_call1_v1, main_v88, main_call2_v0, main_call2_cst, main_call2_v1, main_v89, main_v90, main_cst_19, main_v91, main_v92, main_v93, main_cst_20, main_v94, main_v95, main_cst_21, main_cst_22, main_call3_v0, main_call3_v1, main_call3_v2, main_call3_v3, main_call3_v4, main_v96]

set_option maxHeartbeats 4000000 in
theorem writes_chunk4 : (chunk4 : List (HloOp τ sig (Elt F))).Forall fun op =>
    op.writes ⊆ (written4.map (Proc.devRef (τ := τ) .tc)).toFinset := by
  simp only [chunk4, List.Forall, nullary_writes, unary_writes, binary_writes, ternary_writes, reshape_writes]
  repeat' apply And.intro
  all_goals exact single_sub (by decide)

/-- A reference `chunk4` does not write keeps its contents across it. -/
theorem keep_chunk4 (V : Valuation τ sig (Elt F)) (b : Ref sig .tc) (hb : b ∉ written4) :
    after chunk4 V (Proc.devRef .tc b) = V (Proc.devRef .tc b) :=
  after_of_writes_sub chunk4 V writes_chunk4 hb

/-- The references `chunk5` writes: each operation's result, in order. -/
abbrev written5 : List (Ref sig .tc) :=
  [main_v97, main_v98, main_v99, main_v100, main_v101, main_call4_cst, main_call4_v0, main_v102, main_v103, main_v104, main_v105, main_v106, main_cst_23, main_v107, main_v108, main_v109, main_cst_24, main_v110, main_v111, main_v112, main_v113]

set_option maxHeartbeats 4000000 in
theorem writes_chunk5 : (chunk5 : List (HloOp τ sig (Elt F))).Forall fun op =>
    op.writes ⊆ (written5.map (Proc.devRef (τ := τ) .tc)).toFinset := by
  simp only [chunk5, List.Forall, nullary_writes, unary_writes, binary_writes, ternary_writes, reshape_writes]
  repeat' apply And.intro
  all_goals exact single_sub (by decide)

/-- A reference `chunk5` does not write keeps its contents across it. -/
theorem keep_chunk5 (V : Valuation τ sig (Elt F)) (b : Ref sig .tc) (hb : b ∉ written5) :
    after chunk5 V (Proc.devRef .tc b) = V (Proc.devRef .tc b) :=
  after_of_writes_sub chunk5 V writes_chunk5 hb

/-- The references `chunk6` writes: each operation's result, in order. -/
abbrev written6 : List (Ref sig .tc) :=
  [main_v114]

set_option maxHeartbeats 4000000 in
theorem writes_chunk6 : (chunk6 : List (HloOp τ sig (Elt F))).Forall fun op =>
    op.writes ⊆ (written6.map (Proc.devRef (τ := τ) .tc)).toFinset := by
  simp only [chunk6, List.Forall, nullary_writes, unary_writes, binary_writes, ternary_writes, reshape_writes]
  repeat' apply And.intro
  all_goals exact single_sub (by decide)

/-- A reference `chunk6` does not write keeps its contents across it. -/
theorem keep_chunk6 (V : Valuation τ sig (Elt F)) (b : Ref sig .tc) (hb : b ∉ written6) :
    after chunk6 V (Proc.devRef .tc b) = V (Proc.devRef .tc b) :=
  after_of_writes_sub chunk6 V writes_chunk6 hb

/-- The references `chunk7` writes: each operation's result, in order. -/
abbrev written7 : List (Ref sig .tc) :=
  [main_v115, main_v116, main_v117, main_v118, main_v119, main_v120, main_v121, main_v122, main_cst_25, main_v123, main_v124, main_v125, main_v126, main_v127, main_v128, main_v129, main_v130, main_v131, main_v132, main_v133, main_call5_cst, main_call5_v0, main_v134, main_v135, main_v136, main_v137, main_v138, main_v139, main_v140, main_v141, main_v142, main_v143]

set_option maxHeartbeats 4000000 in
theorem writes_chunk7 : (chunk7 : List (HloOp τ sig (Elt F))).Forall fun op =>
    op.writes ⊆ (written7.map (Proc.devRef (τ := τ) .tc)).toFinset := by
  simp only [chunk7, List.Forall, nullary_writes, unary_writes, binary_writes, ternary_writes, reshape_writes]
  repeat' apply And.intro
  all_goals exact single_sub (by decide)

/-- A reference `chunk7` does not write keeps its contents across it. -/
theorem keep_chunk7 (V : Valuation τ sig (Elt F)) (b : Ref sig .tc) (hb : b ∉ written7) :
    after chunk7 V (Proc.devRef .tc b) = V (Proc.devRef .tc b) :=
  after_of_writes_sub chunk7 V writes_chunk7 hb

/-- The references `chunk8` writes: each operation's result, in order. -/
abbrev written8 : List (Ref sig .tc) :=
  [main_v144, main_v145, main_v146, main_v147, main_v148, main_v149, main_v150, main_v151, main_cst_26, main_v152, main_v153, main_v154, main_v155, main_v156, main_v157, main_v158, main_v159, main_v160, main_v161, main_v162, main_call6_cst, main_call6_v0, main_v163, main_v164, main_v165, main_v166, main_v167, main_v168, main_v169, main_v170, main_v171, main_v172]

set_option maxHeartbeats 4000000 in
theorem writes_chunk8 : (chunk8 : List (HloOp τ sig (Elt F))).Forall fun op =>
    op.writes ⊆ (written8.map (Proc.devRef (τ := τ) .tc)).toFinset := by
  simp only [chunk8, List.Forall, nullary_writes, unary_writes, binary_writes, ternary_writes, reshape_writes]
  repeat' apply And.intro
  all_goals exact single_sub (by decide)

/-- A reference `chunk8` does not write keeps its contents across it. -/
theorem keep_chunk8 (V : Valuation τ sig (Elt F)) (b : Ref sig .tc) (hb : b ∉ written8) :
    after chunk8 V (Proc.devRef .tc b) = V (Proc.devRef .tc b) :=
  after_of_writes_sub chunk8 V writes_chunk8 hb

/-- The references `chunk9` writes: each operation's result, in order. -/
abbrev written9 : List (Ref sig .tc) :=
  [main_v173, main_v174, main_v175, main_v176, main_v177, main_v178, main_v179, main_v180, main_cst_27, main_v181, main_v182, main_v183, main_v184, main_v185, main_v186, main_v187, main_v188, main_v189, main_v190, main_v191, main_call7_cst, main_call7_v0, main_v192, main_v193, main_v194, main_v195, main_v196, main_v197, main_v198, main_v199, main_v200, main_v201]

set_option maxHeartbeats 4000000 in
theorem writes_chunk9 : (chunk9 : List (HloOp τ sig (Elt F))).Forall fun op =>
    op.writes ⊆ (written9.map (Proc.devRef (τ := τ) .tc)).toFinset := by
  simp only [chunk9, List.Forall, nullary_writes, unary_writes, binary_writes, ternary_writes, reshape_writes]
  repeat' apply And.intro
  all_goals exact single_sub (by decide)

/-- A reference `chunk9` does not write keeps its contents across it. -/
theorem keep_chunk9 (V : Valuation τ sig (Elt F)) (b : Ref sig .tc) (hb : b ∉ written9) :
    after chunk9 V (Proc.devRef .tc b) = V (Proc.devRef .tc b) :=
  after_of_writes_sub chunk9 V writes_chunk9 hb

/-- The references `chunk10` writes: each operation's result, in order. -/
abbrev written10 : List (Ref sig .tc) :=
  [main_v202, main_v203, main_v204, main_v205, main_v206, main_v207, main_v208, main_v209, main_cst_28, main_v210, main_v211, main_v212, main_v213, main_v214, main_v215, main_v216, main_v217, main_v218, main_v219, main_v220, main_call8_cst, main_call8_v0, main_v221, main_v222, main_v223, main_v224, main_v225, main_v226, main_v227, main_v228, main_v229, main_v230]

set_option maxHeartbeats 4000000 in
theorem writes_chunk10 : (chunk10 : List (HloOp τ sig (Elt F))).Forall fun op =>
    op.writes ⊆ (written10.map (Proc.devRef (τ := τ) .tc)).toFinset := by
  simp only [chunk10, List.Forall, nullary_writes, unary_writes, binary_writes, ternary_writes, reshape_writes]
  repeat' apply And.intro
  all_goals exact single_sub (by decide)

/-- A reference `chunk10` does not write keeps its contents across it. -/
theorem keep_chunk10 (V : Valuation τ sig (Elt F)) (b : Ref sig .tc) (hb : b ∉ written10) :
    after chunk10 V (Proc.devRef .tc b) = V (Proc.devRef .tc b) :=
  after_of_writes_sub chunk10 V writes_chunk10 hb

/-- The references `chunk11` writes: each operation's result, in order. -/
abbrev written11 : List (Ref sig .tc) :=
  [main_c_29, main_v231, main_v232, main_v233]

set_option maxHeartbeats 4000000 in
theorem writes_chunk11 : (chunk11 : List (HloOp τ sig (Elt F))).Forall fun op =>
    op.writes ⊆ (written11.map (Proc.devRef (τ := τ) .tc)).toFinset := by
  simp only [chunk11, List.Forall, nullary_writes, unary_writes, binary_writes, ternary_writes, reshape_writes]
  repeat' apply And.intro
  all_goals exact single_sub (by decide)

/-- A reference `chunk11` does not write keeps its contents across it. -/
theorem keep_chunk11 (V : Valuation τ sig (Elt F)) (b : Ref sig .tc) (hb : b ∉ written11) :
    after chunk11 V (Proc.devRef .tc b) = V (Proc.devRef .tc b) :=
  after_of_writes_sub chunk11 V writes_chunk11 hb

/-! ## One chunk at a time, from any contents `V` at its entry -/

section Steps

variable (V : Valuation τ sig (Elt Ideal))
variable (x0 : (⟨S128x64, .i32⟩ : BufTy).Contents (Elt Ideal)) (x1 : (⟨S8192x3, .f32⟩ : BufTy).Contents (Elt Ideal)) (x2 : (⟨S2x85342, .i32⟩ : BufTy).Contents (Elt Ideal)) (x3 : (⟨S488691, .i32⟩ : BufTy).Contents (Elt Ideal)) (x4 : (⟨S488691, .i32⟩ : BufTy).Contents (Elt Ideal)) (x5 : (⟨S128x512, .f32⟩ : BufTy).Contents (Elt Ideal)) (x6 : (⟨S64, .f32⟩ : BufTy).Contents (Elt Ideal)) (x7 : (⟨S1x32, .f32⟩ : BufTy).Contents (Elt Ideal)) (x8 : (⟨S32, .f32⟩ : BufTy).Contents (Elt Ideal)) (x9 : (⟨S32x32, .f32⟩ : BufTy).Contents (Elt Ideal)) (x10 : (⟨S32, .f32⟩ : BufTy).Contents (Elt Ideal)) (x11 : (⟨S4x96x512, .f32⟩ : BufTy).Contents (Elt Ideal)) (x12 : (⟨S4x512, .f32⟩ : BufTy).Contents (Elt Ideal)) (x13 : (⟨S4x512x512, .f32⟩ : BufTy).Contents (Elt Ideal)) (x14 : (⟨S4x512, .f32⟩ : BufTy).Contents (Elt Ideal)) (x15 : (⟨S4x512x512, .f32⟩ : BufTy).Contents (Elt Ideal)) (x16 : (⟨S4x512, .f32⟩ : BufTy).Contents (Elt Ideal))

/-- Reading back, at a value's type, what was stored at its buffer's type gives the value. -/
theorem ofBuf_toBuf {T : BufTy} (x : TRef sig T) (v : T.Contents (Elt Ideal)) : x.ofBuf (x.toBuf v) = v := by
  obtain ⟨r, h, h2, h3⟩ := x
  subst h
  rfl

set_option maxHeartbeats 32000000 in
/-- What `main_v7` holds after `chunk1`, from what the chunk reads. -/
theorem step1_v7
    (hx5 : V (Proc.devRef .tc main_arg5) = x5)
    (hx0 : V (Proc.devRef .tc main_arg0) = x0) :
    after chunk1 V (Proc.devRef .tc main_v7) = val_main_v7 (F := Ideal) x0 x5 := by
  dsimp only [chunk1]
  after_results_simp
  rw [hx5, hx0]
  unfold val_main_v7 val_main_v6 val_main_v5 val_main_v4 val_main_v3 val_main_v2 val_main_c_0 val_main_v1 val_main_v0 val_main_c
  rfl

set_option maxHeartbeats 32000000 in
/-- What `main_v9` holds after `chunk1`, from what the chunk reads. -/
theorem step1_v9
    (hx2 : V (Proc.devRef .tc main_arg2) = x2) :
    after chunk1 V (Proc.devRef .tc main_v9) = val_main_v9 (F := Ideal) x2 := by
  dsimp only [chunk1]
  after_results_simp
  rw [hx2]
  unfold val_main_v9 val_main_v8
  rfl

set_option maxHeartbeats 32000000 in
/-- What `main_v11` holds after `chunk1`, from what the chunk reads. -/
theorem step1_v11
    (hx2 : V (Proc.devRef .tc main_arg2) = x2) :
    after chunk1 V (Proc.devRef .tc main_v11) = val_main_v11 (F := Ideal) x2 := by
  dsimp only [chunk1]
  after_results_simp
  rw [hx2]
  unfold val_main_v11 val_main_v10
  rfl

set_option maxHeartbeats 32000000 in
/-- What `main_v36` holds after `chunk2`, from what the chunk reads. -/
theorem step2_v36
    (hx1 : V (Proc.devRef .tc main_arg1) = x1)
    (h_v9 : V (Proc.devRef .tc main_v9) = (val_main_v9 (F := Ideal) x2))
    (h_v11 : V (Proc.devRef .tc main_v11) = (val_main_v11 (F := Ideal) x2))
    (hx6 : V (Proc.devRef .tc main_arg6) = x6) :
    after chunk2 V (Proc.devRef .tc main_v36) = val_main_v36 (F := Ideal) x1 x2 x6 := by
  dsimp only [chunk2]
  after_results_simp
  simp only [ofBuf_toBuf]
  rw [hx1, h_v9, h_v11, hx6]
  unfold val_main_v36 val_main_v35 val_main_v34 val_main_cst val_main_v33 val_main_v32 val_main_v31 val_main_v30 val_main_v29 val_main_v28 val_main_v27 val_main_call0_v1 val_main_call0_cst val_main_call0_v0 val_main_v26 val_main_v25 val_main_v24 val_main_v23 val_main_v22 val_main_v21 val_main_c_4 val_main_v20 val_main_v19 val_main_c_3 val_main_v18 val_main_v17 val_main_v16 val_main_v15 val_main_v14 val_main_c_2 val_main_v13 val_main_v12 val_main_c_1
  generalize val_main_v9 (F := Ideal) x2 = y0
  generalize val_main_v11 (F := Ideal) x2 = y1
  rfl

set_option maxHeartbeats 32000000 in
/-- What `main_v72` holds after `chunk3`, from what the chunk reads. -/
theorem step3_v72
    (hx1 : V (Proc.devRef .tc main_arg1) = x1)
    (h_v11 : V (Proc.devRef .tc main_v11) = (val_main_v11 (F := Ideal) x2))
    (hx3 : V (Proc.devRef .tc main_arg3) = x3)
    (h_v9 : V (Proc.devRef .tc main_v9) = (val_main_v9 (F := Ideal) x2)) :
    after chunk3 V (Proc.devRef .tc main_v72) = val_main_v72 (F := Ideal) x1 x2 x3 := by
  dsimp only [chunk3]
  after_results_simp
  rw [hx1, h_v11, hx3, h_v9]
  unfold val_main_v72 val_main_v71 val_main_v70 val_main_v69 val_main_v68 val_main_v67 val_main_c_14 val_main_v66 val_main_v65 val_main_c_13 val_main_v64 val_main_v63 val_main_v62 val_main_v61 val_main_v60 val_main_c_12 val_main_v59 val_main_v58 val_main_c_11 val_main_v50 val_main_v49 val_main_v48 val_main_v47 val_main_v46 val_main_c_8 val_main_v45 val_main_v44 val_main_c_7 val_main_v43 val_main_v42 val_main_v41 val_main_v40 val_main_v39 val_main_c_6 val_main_v38 val_main_v37 val_main_c_5
  generalize val_main_v11 (F := Ideal) x2 = y0
  generalize val_main_v9 (F := Ideal) x2 = y1
  rfl

set_option maxHeartbeats 32000000 in
/-- What `main_v87` holds after `chunk3`, from what the chunk reads. -/
theorem step3_v87
    (hx1 : V (Proc.devRef .tc main_arg1) = x1)
    (h_v11 : V (Proc.devRef .tc main_v11) = (val_main_v11 (F := Ideal) x2))
    (hx4 : V (Proc.devRef .tc main_arg4) = x4)
    (h_v9 : V (Proc.devRef .tc main_v9) = (val_main_v9 (F := Ideal) x2))
    (hx3 : V (Proc.devRef .tc main_arg3) = x3) :
    after chunk3 V (Proc.devRef .tc main_v87) = val_main_v87 (F := Ideal) x1 x2 x3 x4 := by
  dsimp only [chunk3]
  after_results_simp
  rw [hx1, h_v11, hx4, h_v9, hx3]
  unfold val_main_v87 val_main_v86 val_main_v85 val_main_v84 val_main_v83 val_main_v82 val_main_c_18 val_main_v81 val_main_v80 val_main_c_17 val_main_v79 val_main_v78 val_main_v77 val_main_v76 val_main_v75 val_main_c_16 val_main_v74 val_main_v73 val_main_c_15 val_main_v57 val_main_v56 val_main_v55 val_main_v54 val_main_v53 val_main_c_10 val_main_v52 val_main_v51 val_main_c_9 val_main_v43 val_main_v42 val_main_v41 val_main_v40 val_main_v39 val_main_c_6 val_main_v38 val_main_v37 val_main_c_5
  generalize val_main_v11 (F := Ideal) x2 = y0
  generalize val_main_v9 (F := Ideal) x2 = y1
  rfl

set_option maxHeartbeats 32000000 in
/-- What `main_v96` holds after `chunk4`, from what the chunk reads. -/
theorem step4_v96
    (h_v72 : V (Proc.devRef .tc main_v72) = (val_main_v72 (F := Ideal) x1 x2 x3))
    (h_v87 : V (Proc.devRef .tc main_v87) = (val_main_v87 (F := Ideal) x1 x2 x3 x4)) :
    after chunk4 V (Proc.devRef .tc main_v96) = val_main_v96 (F := Ideal) x1 x2 x3 x4 := by
  dsimp only [chunk4]
  after_results_simp
  simp only [ofBuf_toBuf]
  rw [h_v72, h_v87]
  unfold val_main_v96 val_main_call3_v4 val_main_call3_v3 val_main_call3_v2 val_main_call3_v1 val_main_call3_v0 val_main_cst_22 val_main_cst_21 val_main_v95 val_main_v94 val_main_cst_20 val_main_v93 val_main_v92 val_main_v91 val_main_cst_19 val_main_v90 val_main_v89 val_main_call2_v1 val_main_call2_cst val_main_call2_v0 val_main_v88 val_main_call1_v1 val_main_call1_cst val_main_call1_v0
  generalize val_main_v72 (F := Ideal) x1 x2 x3 = y0
  generalize val_main_v87 (F := Ideal) x1 x2 x3 x4 = y1
  rfl

set_option maxHeartbeats 32000000 in
/-- What `main_v113` holds after `chunk5`, from what the chunk reads. -/
theorem step5_v113
    (hx3 : V (Proc.devRef .tc main_arg3) = x3)
    (h_v96 : V (Proc.devRef .tc main_v96) = (val_main_v96 (F := Ideal) x1 x2 x3 x4))
    (hx7 : V (Proc.devRef .tc main_arg7) = x7)
    (hx8 : V (Proc.devRef .tc main_arg8) = x8)
    (hx9 : V (Proc.devRef .tc main_arg9) = x9)
    (hx10 : V (Proc.devRef .tc main_arg10) = x10)
    (hx4 : V (Proc.devRef .tc main_arg4) = x4) :
    after chunk5 V (Proc.devRef .tc main_v113) = val_main_v113 (F := Ideal) x1 x2 x3 x4 x7 x8 x9 x10 := by
  dsimp only [chunk5]
  after_results_simp
  simp only [ofBuf_toBuf]
  rw [hx3, h_v96, hx7, hx8, hx9, hx10, hx4]
  unfold val_main_v113 val_main_v112 val_main_v111 val_main_v110 val_main_cst_24 val_main_v109 val_main_v108 val_main_v107 val_main_cst_23 val_main_v106 val_main_v105 val_main_v104 val_main_v103 val_main_v102 val_main_call4_v0 val_main_call4_cst val_main_v101 val_main_v100 val_main_v99 val_main_v98 val_main_v97
  generalize val_main_v96 (F := Ideal) x1 x2 x3 x4 = y0
  rfl

set_option maxHeartbeats 32000000 in
/-- What `main_v114` holds after `chunk6`, from what the chunk reads. -/
theorem step6_v114
    (h_v36 : V (Proc.devRef .tc main_v36) = (val_main_v36 (F := Ideal) x1 x2 x6))
    (h_v113 : V (Proc.devRef .tc main_v113) = (val_main_v113 (F := Ideal) x1 x2 x3 x4 x7 x8 x9 x10)) :
    after chunk6 V (Proc.devRef .tc main_v114) = val_main_v114 (F := Ideal) x1 x2 x3 x4 x6 x7 x8 x9 x10 := by
  dsimp only [chunk6]
  after_results_simp
  rw [h_v36, h_v113]
  unfold val_main_v114
  generalize val_main_v36 (F := Ideal) x1 x2 x6 = y0
  generalize val_main_v113 (F := Ideal) x1 x2 x3 x4 x7 x8 x9 x10 = y1
  rfl

set_option maxHeartbeats 32000000 in
/-- What `main_v143` holds after `chunk7`, from what the chunk reads. -/
theorem step7_v143
    (h_v7 : V (Proc.devRef .tc main_v7) = (val_main_v7 (F := Ideal) x0 x5))
    (h_v9 : V (Proc.devRef .tc main_v9) = (val_main_v9 (F := Ideal) x2))
    (h_v114 : V (Proc.devRef .tc main_v114) = (val_main_v114 (F := Ideal) x1 x2 x3 x4 x6 x7 x8 x9 x10))
    (hx11 : V (Proc.devRef .tc main_arg11) = x11)
    (hx12 : V (Proc.devRef .tc main_arg12) = x12)
    (hx13 : V (Proc.devRef .tc main_arg13) = x13)
    (hx14 : V (Proc.devRef .tc main_arg14) = x14)
    (hx15 : V (Proc.devRef .tc main_arg15) = x15)
    (hx16 : V (Proc.devRef .tc main_arg16) = x16) :
    after chunk7 V (Proc.devRef .tc main_v143) = val_main_v143 (F := Ideal) x0 x1 x2 x3 x4 x5 x6 x7 x8 x9 x10 x11 x12 x13 x14 x15 x16 := by
  dsimp only [chunk7]
  after_results_simp
  simp only [ofBuf_toBuf]
  rw [h_v7, h_v9, h_v114, hx11, hx12, hx13, hx14, hx15, hx16]
  unfold val_main_v143 val_main_v142 val_main_v141 val_main_v140 val_main_v139 val_main_v138 val_main_v137 val_main_v136 val_main_v135 val_main_v134 val_main_call5_v0 val_main_call5_cst val_main_v133 val_main_v132 val_main_v131 val_main_v130 val_main_v129 val_main_v128 val_main_v127 val_main_v126 val_main_v125 val_main_v124 val_main_v123 val_main_cst_25 val_main_v122 val_main_v121 val_main_v120 val_main_v119 val_main_v118 val_main_v117 val_main_v116 val_main_v115
  generalize val_main_v7 (F := Ideal) x0 x5 = y0
  generalize val_main_v9 (F := Ideal) x2 = y1
  generalize val_main_v114 (F := Ideal) x1 x2 x3 x4 x6 x7 x8 x9 x10 = y2
  rfl

set_option maxHeartbeats 32000000 in
/-- What `main_v172` holds after `chunk8`, from what the chunk reads. -/
theorem step8_v172
    (h_v143 : V (Proc.devRef .tc main_v143) = (val_main_v143 (F := Ideal) x0 x1 x2 x3 x4 x5 x6 x7 x8 x9 x10 x11 x12 x13 x14 x15 x16))
    (h_v9 : V (Proc.devRef .tc main_v9) = (val_main_v9 (F := Ideal) x2))
    (h_v114 : V (Proc.devRef .tc main_v114) = (val_main_v114 (F := Ideal) x1 x2 x3 x4 x6 x7 x8 x9 x10))
    (hx11 : V (Proc.devRef .tc main_arg11) = x11)
    (hx12 : V (Proc.devRef .tc main_arg12) = x12)
    (hx13 : V (Proc.devRef .tc main_arg13) = x13)
    (hx14 : V (Proc.devRef .tc main_arg14) = x14)
    (hx15 : V (Proc.devRef .tc main_arg15) = x15)
    (hx16 : V (Proc.devRef .tc main_arg16) = x16) :
    after chunk8 V (Proc.devRef .tc main_v172) = val_main_v172 (F := Ideal) x0 x1 x2 x3 x4 x5 x6 x7 x8 x9 x10 x11 x12 x13 x14 x15 x16 := by
  dsimp only [chunk8]
  after_results_simp
  simp only [ofBuf_toBuf]
  rw [h_v143, h_v9, h_v114, hx11, hx12, hx13, hx14, hx15, hx16]
  unfold val_main_v172 val_main_v171 val_main_v170 val_main_v169 val_main_v168 val_main_v167 val_main_v166 val_main_v165 val_main_v164 val_main_v163 val_main_call6_v0 val_main_call6_cst val_main_v162 val_main_v161 val_main_v160 val_main_v159 val_main_v158 val_main_v157 val_main_v156 val_main_v155 val_main_v154 val_main_v153 val_main_v152 val_main_cst_26 val_main_v151 val_main_v150 val_main_v149 val_main_v148 val_main_v147 val_main_v146 val_main_v145 val_main_v144
  generalize val_main_v143 (F := Ideal) x0 x1 x2 x3 x4 x5 x6 x7 x8 x9 x10 x11 x12 x13 x14 x15 x16 = y0
  generalize val_main_v9 (F := Ideal) x2 = y1
  generalize val_main_v114 (F := Ideal) x1 x2 x3 x4 x6 x7 x8 x9 x10 = y2
  rfl

set_option maxHeartbeats 32000000 in
/-- What `main_v201` holds after `chunk9`, from what the chunk reads. -/
theorem step9_v201
    (h_v172 : V (Proc.devRef .tc main_v172) = (val_main_v172 (F := Ideal) x0 x1 x2 x3 x4 x5 x6 x7 x8 x9 x10 x11 x12 x13 x14 x15 x16))
    (h_v9 : V (Proc.devRef .tc main_v9) = (val_main_v9 (F := Ideal) x2))
    (h_v114 : V (Proc.devRef .tc main_v114) = (val_main_v114 (F := Ideal) x1 x2 x3 x4 x6 x7 x8 x9 x10))
    (hx11 : V (Proc.devRef .tc main_arg11) = x11)
    (hx12 : V (Proc.devRef .tc main_arg12) = x12)
    (hx13 : V (Proc.devRef .tc main_arg13) = x13)
    (hx14 : V (Proc.devRef .tc main_arg14) = x14)
    (hx15 : V (Proc.devRef .tc main_arg15) = x15)
    (hx16 : V (Proc.devRef .tc main_arg16) = x16) :
    after chunk9 V (Proc.devRef .tc main_v201) = val_main_v201 (F := Ideal) x0 x1 x2 x3 x4 x5 x6 x7 x8 x9 x10 x11 x12 x13 x14 x15 x16 := by
  dsimp only [chunk9]
  after_results_simp
  simp only [ofBuf_toBuf]
  rw [h_v172, h_v9, h_v114, hx11, hx12, hx13, hx14, hx15, hx16]
  unfold val_main_v201 val_main_v200 val_main_v199 val_main_v198 val_main_v197 val_main_v196 val_main_v195 val_main_v194 val_main_v193 val_main_v192 val_main_call7_v0 val_main_call7_cst val_main_v191 val_main_v190 val_main_v189 val_main_v188 val_main_v187 val_main_v186 val_main_v185 val_main_v184 val_main_v183 val_main_v182 val_main_v181 val_main_cst_27 val_main_v180 val_main_v179 val_main_v178 val_main_v177 val_main_v176 val_main_v175 val_main_v174 val_main_v173
  generalize val_main_v172 (F := Ideal) x0 x1 x2 x3 x4 x5 x6 x7 x8 x9 x10 x11 x12 x13 x14 x15 x16 = y0
  generalize val_main_v9 (F := Ideal) x2 = y1
  generalize val_main_v114 (F := Ideal) x1 x2 x3 x4 x6 x7 x8 x9 x10 = y2
  rfl

set_option maxHeartbeats 32000000 in
/-- What `main_v230` holds after `chunk10`, from what the chunk reads. -/
theorem step10_v230
    (h_v201 : V (Proc.devRef .tc main_v201) = (val_main_v201 (F := Ideal) x0 x1 x2 x3 x4 x5 x6 x7 x8 x9 x10 x11 x12 x13 x14 x15 x16))
    (h_v9 : V (Proc.devRef .tc main_v9) = (val_main_v9 (F := Ideal) x2))
    (h_v114 : V (Proc.devRef .tc main_v114) = (val_main_v114 (F := Ideal) x1 x2 x3 x4 x6 x7 x8 x9 x10))
    (hx11 : V (Proc.devRef .tc main_arg11) = x11)
    (hx12 : V (Proc.devRef .tc main_arg12) = x12)
    (hx13 : V (Proc.devRef .tc main_arg13) = x13)
    (hx14 : V (Proc.devRef .tc main_arg14) = x14)
    (hx15 : V (Proc.devRef .tc main_arg15) = x15)
    (hx16 : V (Proc.devRef .tc main_arg16) = x16) :
    after chunk10 V (Proc.devRef .tc main_v230) = val_main_v230 (F := Ideal) x0 x1 x2 x3 x4 x5 x6 x7 x8 x9 x10 x11 x12 x13 x14 x15 x16 := by
  dsimp only [chunk10]
  after_results_simp
  simp only [ofBuf_toBuf]
  rw [h_v201, h_v9, h_v114, hx11, hx12, hx13, hx14, hx15, hx16]
  unfold val_main_v230 val_main_v229 val_main_v228 val_main_v227 val_main_v226 val_main_v225 val_main_v224 val_main_v223 val_main_v222 val_main_v221 val_main_call8_v0 val_main_call8_cst val_main_v220 val_main_v219 val_main_v218 val_main_v217 val_main_v216 val_main_v215 val_main_v214 val_main_v213 val_main_v212 val_main_v211 val_main_v210 val_main_cst_28 val_main_v209 val_main_v208 val_main_v207 val_main_v206 val_main_v205 val_main_v204 val_main_v203 val_main_v202
  generalize val_main_v201 (F := Ideal) x0 x1 x2 x3 x4 x5 x6 x7 x8 x9 x10 x11 x12 x13 x14 x15 x16 = y0
  generalize val_main_v9 (F := Ideal) x2 = y1
  generalize val_main_v114 (F := Ideal) x1 x2 x3 x4 x6 x7 x8 x9 x10 = y2
  rfl

set_option maxHeartbeats 32000000 in
/-- What `main_v232` holds after `chunk11`, from what the chunk reads. -/
theorem step11_v232
    (hx0 : V (Proc.devRef .tc main_arg0) = x0) :
    after chunk11 V (Proc.devRef .tc main_v232) = val_main_v232 (F := Ideal) x0 := by
  dsimp only [chunk11]
  after_results_simp
  rw [hx0]
  unfold val_main_v232 val_main_v231 val_main_c_29
  rfl

set_option maxHeartbeats 32000000 in
/-- What `main_v233` holds after `chunk11`, from what the chunk reads. -/
theorem step11_v233
    (h_v230 : V (Proc.devRef .tc main_v230) = (val_main_v230 (F := Ideal) x0 x1 x2 x3 x4 x5 x6 x7 x8 x9 x10 x11 x12 x13 x14 x15 x16)) :
    after chunk11 V (Proc.devRef .tc main_v233) = val_main_v233 (F := Ideal) x0 x1 x2 x3 x4 x5 x6 x7 x8 x9 x10 x11 x12 x13 x14 x15 x16 := by
  dsimp only [chunk11]
  after_results_simp
  rw [h_v230]
  unfold val_main_v233
  generalize val_main_v230 (F := Ideal) x0 x1 x2 x3 x4 x5 x6 x7 x8 x9 x10 x11 x12 x13 x14 x15 x16 = y0
  rfl

end Steps

/-! ## The fold over all of @main's operations, chunk by chunk -/

theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem not_mem_left {α : Type} {a : α} {s t : List α} (h : a ∉ s ++ t) : a ∉ s :=
  fun hs => h (List.mem_append.mpr (Or.inl hs))
theorem not_mem_right {α : Type} {a : α} {s t : List α} (h : a ∉ s ++ t) : a ∉ t :=
  fun ht => h (List.mem_append.mpr (Or.inr ht))

section Chain

variable (V₀ : Valuation τ sig (Elt Ideal))

/-- The contents after the first `k` chunks. -/
abbrev S1 : Valuation τ sig (Elt Ideal) := after chunk1 V₀
abbrev S2 : Valuation τ sig (Elt Ideal) := after chunk2 (S1 V₀)
abbrev S3 : Valuation τ sig (Elt Ideal) := after chunk3 (S2 V₀)
abbrev S4 : Valuation τ sig (Elt Ideal) := after chunk4 (S3 V₀)
abbrev S5 : Valuation τ sig (Elt Ideal) := after chunk5 (S4 V₀)
abbrev S6 : Valuation τ sig (Elt Ideal) := after chunk6 (S5 V₀)
abbrev S7 : Valuation τ sig (Elt Ideal) := after chunk7 (S6 V₀)
abbrev S8 : Valuation τ sig (Elt Ideal) := after chunk8 (S7 V₀)
abbrev S9 : Valuation τ sig (Elt Ideal) := after chunk9 (S8 V₀)
abbrev S10 : Valuation τ sig (Elt Ideal) := after chunk10 (S9 V₀)
abbrev S11 : Valuation τ sig (Elt Ideal) := after chunk11 (S10 V₀)

/-- The references the first `k` chunks write. -/
abbrev wr1 : List (Ref sig .tc) := written1
abbrev wr2 : List (Ref sig .tc) := wr1 ++ written2
abbrev wr3 : List (Ref sig .tc) := wr2 ++ written3
abbrev wr4 : List (Ref sig .tc) := wr3 ++ written4
abbrev wr5 : List (Ref sig .tc) := wr4 ++ written5
abbrev wr6 : List (Ref sig .tc) := wr5 ++ written6
abbrev wr7 : List (Ref sig .tc) := wr6 ++ written7
abbrev wr8 : List (Ref sig .tc) := wr7 ++ written8
abbrev wr9 : List (Ref sig .tc) := wr8 ++ written9
abbrev wr10 : List (Ref sig .tc) := wr9 ++ written10
abbrev wr11 : List (Ref sig .tc) := wr10 ++ written11

/-- A reference none of the first `k` chunks writes holds after them what it held at the start. -/
theorem argAt1 (b : Ref sig .tc) (hb : b ∉ wr1) : S1 V₀ (Proc.devRef .tc b) = V₀ (Proc.devRef .tc b) :=
  keep_chunk1 _ b hb
theorem argAt2 (b : Ref sig .tc) (hb : b ∉ wr2) : S2 V₀ (Proc.devRef .tc b) = V₀ (Proc.devRef .tc b) :=
  (keep_chunk2 _ b (not_mem_right hb)).trans (argAt1 V₀ b (not_mem_left hb))
theorem argAt3 (b : Ref sig .tc) (hb : b ∉ wr3) : S3 V₀ (Proc.devRef .tc b) = V₀ (Proc.devRef .tc b) :=
  (keep_chunk3 _ b (not_mem_right hb)).trans (argAt2 V₀ b (not_mem_left hb))
theorem argAt4 (b : Ref sig .tc) (hb : b ∉ wr4) : S4 V₀ (Proc.devRef .tc b) = V₀ (Proc.devRef .tc b) :=
  (keep_chunk4 _ b (not_mem_right hb)).trans (argAt3 V₀ b (not_mem_left hb))
theorem argAt5 (b : Ref sig .tc) (hb : b ∉ wr5) : S5 V₀ (Proc.devRef .tc b) = V₀ (Proc.devRef .tc b) :=
  (keep_chunk5 _ b (not_mem_right hb)).trans (argAt4 V₀ b (not_mem_left hb))
theorem argAt6 (b : Ref sig .tc) (hb : b ∉ wr6) : S6 V₀ (Proc.devRef .tc b) = V₀ (Proc.devRef .tc b) :=
  (keep_chunk6 _ b (not_mem_right hb)).trans (argAt5 V₀ b (not_mem_left hb))
theorem argAt7 (b : Ref sig .tc) (hb : b ∉ wr7) : S7 V₀ (Proc.devRef .tc b) = V₀ (Proc.devRef .tc b) :=
  (keep_chunk7 _ b (not_mem_right hb)).trans (argAt6 V₀ b (not_mem_left hb))
theorem argAt8 (b : Ref sig .tc) (hb : b ∉ wr8) : S8 V₀ (Proc.devRef .tc b) = V₀ (Proc.devRef .tc b) :=
  (keep_chunk8 _ b (not_mem_right hb)).trans (argAt7 V₀ b (not_mem_left hb))
theorem argAt9 (b : Ref sig .tc) (hb : b ∉ wr9) : S9 V₀ (Proc.devRef .tc b) = V₀ (Proc.devRef .tc b) :=
  (keep_chunk9 _ b (not_mem_right hb)).trans (argAt8 V₀ b (not_mem_left hb))
theorem argAt10 (b : Ref sig .tc) (hb : b ∉ wr10) : S10 V₀ (Proc.devRef .tc b) = V₀ (Proc.devRef .tc b) :=
  (keep_chunk10 _ b (not_mem_right hb)).trans (argAt9 V₀ b (not_mem_left hb))
theorem argAt11 (b : Ref sig .tc) (hb : b ∉ wr11) : S11 V₀ (Proc.devRef .tc b) = V₀ (Proc.devRef .tc b) :=
  (keep_chunk11 _ b (not_mem_right hb)).trans (argAt10 V₀ b (not_mem_left hb))

/-! After chunk 1 -/
theorem at1_v7 :
    S1 V₀ (Proc.devRef .tc main_v7) = val_main_v7 (F := Ideal) (V₀ (Proc.devRef .tc main_arg0)) (V₀ (Proc.devRef .tc main_arg5)) :=
  step1_v7 V₀ _ _ rfl rfl
theorem at1_v9 :
    S1 V₀ (Proc.devRef .tc main_v9) = val_main_v9 (F := Ideal) (V₀ (Proc.devRef .tc main_arg2)) :=
  step1_v9 V₀ _ rfl
theorem at1_v11 :
    S1 V₀ (Proc.devRef .tc main_v11) = val_main_v11 (F := Ideal) (V₀ (Proc.devRef .tc main_arg2)) :=
  step1_v11 V₀ _ rfl

/-! After chunk 2 -/
theorem at2_v7 :
    S2 V₀ (Proc.devRef .tc main_v7) = val_main_v7 (F := Ideal) (V₀ (Proc.devRef .tc main_arg0)) (V₀ (Proc.devRef .tc main_arg5)) :=
  (keep_chunk2 _ main_v7 (by decide)).trans (at1_v7 V₀)
theorem at2_v9 :
    S2 V₀ (Proc.devRef .tc main_v9) = val_main_v9 (F := Ideal) (V₀ (Proc.devRef .tc main_arg2)) :=
  (keep_chunk2 _ main_v9 (by decide)).trans (at1_v9 V₀)
theorem at2_v11 :
    S2 V₀ (Proc.devRef .tc main_v11) = val_main_v11 (F := Ideal) (V₀ (Proc.devRef .tc main_arg2)) :=
  (keep_chunk2 _ main_v11 (by decide)).trans (at1_v11 V₀)
theorem at2_v36 :
    S2 V₀ (Proc.devRef .tc main_v36) = val_main_v36 (F := Ideal) (V₀ (Proc.devRef .tc main_arg1)) (V₀ (Proc.devRef .tc main_arg2)) (V₀ (Proc.devRef .tc main_arg6)) :=
  step2_v36 (S1 V₀) _ _ _ (argAt1 V₀ main_arg1 (by decide)) (at1_v9 V₀) (at1_v11 V₀) (argAt1 V₀ main_arg6 (by decide))

/-! After chunk 3 -/
theorem at3_v7 :
    S3 V₀ (Proc.devRef .tc main_v7) = val_main_v7 (F := Ideal) (V₀ (Proc.devRef .tc main_arg0)) (V₀ (Proc.devRef .tc main_arg5)) :=
  (keep_chunk3 _ main_v7 (by decide)).trans (at2_v7 V₀)
theorem at3_v9 :
    S3 V₀ (Proc.devRef .tc main_v9) = val_main_v9 (F := Ideal) (V₀ (Proc.devRef .tc main_arg2)) :=
  (keep_chunk3 _ main_v9 (by decide)).trans (at2_v9 V₀)
theorem at3_v36 :
    S3 V₀ (Proc.devRef .tc main_v36) = val_main_v36 (F := Ideal) (V₀ (Proc.devRef .tc main_arg1)) (V₀ (Proc.devRef .tc main_arg2)) (V₀ (Proc.devRef .tc main_arg6)) :=
  (keep_chunk3 _ main_v36 (by decide)).trans (at2_v36 V₀)
theorem at3_v72 :
    S3 V₀ (Proc.devRef .tc main_v72) = val_main_v72 (F := Ideal) (V₀ (Proc.devRef .tc main_arg1)) (V₀ (Proc.devRef .tc main_arg2)) (V₀ (Proc.devRef .tc main_arg3)) :=
  step3_v72 (S2 V₀) _ _ _ (argAt2 V₀ main_arg1 (by decide)) (at2_v11 V₀) (argAt2 V₀ main_arg3 (by decide)) (at2_v9 V₀)
theorem at3_v87 :
    S3 V₀ (Proc.devRef .tc main_v87) = val_main_v87 (F := Ideal) (V₀ (Proc.devRef .tc main_arg1)) (V₀ (Proc.devRef .tc main_arg2)) (V₀ (Proc.devRef .tc main_arg3)) (V₀ (Proc.devRef .tc main_arg4)) :=
  step3_v87 (S2 V₀) _ _ _ _ (argAt2 V₀ main_arg1 (by decide)) (at2_v11 V₀) (argAt2 V₀ main_arg4 (by decide)) (at2_v9 V₀) (argAt2 V₀ main_arg3 (by decide))

/-! After chunk 4 -/
theorem at4_v7 :
    S4 V₀ (Proc.devRef .tc main_v7) = val_main_v7 (F := Ideal) (V₀ (Proc.devRef .tc main_arg0)) (V₀ (Proc.devRef .tc main_arg5)) :=
  (keep_chunk4 _ main_v7 (by decide)).trans (at3_v7 V₀)
theorem at4_v9 :
    S4 V₀ (Proc.devRef .tc main_v9) = val_main_v9 (F := Ideal) (V₀ (Proc.devRef .tc main_arg2)) :=
  (keep_chunk4 _ main_v9 (by decide)).trans (at3_v9 V₀)
theorem at4_v36 :
    S4 V₀ (Proc.devRef .tc main_v36) = val_main_v36 (F := Ideal) (V₀ (Proc.devRef .tc main_arg1)) (V₀ (Proc.devRef .tc main_arg2)) (V₀ (Proc.devRef .tc main_arg6)) :=
  (keep_chunk4 _ main_v36 (by decide)).trans (at3_v36 V₀)
theorem at4_v96 :
    S4 V₀ (Proc.devRef .tc main_v96) = val_main_v96 (F := Ideal) (V₀ (Proc.devRef .tc main_arg1)) (V₀ (Proc.devRef .tc main_arg2)) (V₀ (Proc.devRef .tc main_arg3)) (V₀ (Proc.devRef .tc main_arg4)) :=
  step4_v96 (S3 V₀) _ _ _ _ (at3_v72 V₀) (at3_v87 V₀)

/-! After chunk 5 -/
theorem at5_v7 :
    S5 V₀ (Proc.devRef .tc main_v7) = val_main_v7 (F := Ideal) (V₀ (Proc.devRef .tc main_arg0)) (V₀ (Proc.devRef .tc main_arg5)) :=
  (keep_chunk5 _ main_v7 (by decide)).trans (at4_v7 V₀)
theorem at5_v9 :
    S5 V₀ (Proc.devRef .tc main_v9) = val_main_v9 (F := Ideal) (V₀ (Proc.devRef .tc main_arg2)) :=
  (keep_chunk5 _ main_v9 (by decide)).trans (at4_v9 V₀)
theorem at5_v36 :
    S5 V₀ (Proc.devRef .tc main_v36) = val_main_v36 (F := Ideal) (V₀ (Proc.devRef .tc main_arg1)) (V₀ (Proc.devRef .tc main_arg2)) (V₀ (Proc.devRef .tc main_arg6)) :=
  (keep_chunk5 _ main_v36 (by decide)).trans (at4_v36 V₀)
theorem at5_v113 :
    S5 V₀ (Proc.devRef .tc main_v113) = val_main_v113 (F := Ideal) (V₀ (Proc.devRef .tc main_arg1)) (V₀ (Proc.devRef .tc main_arg2)) (V₀ (Proc.devRef .tc main_arg3)) (V₀ (Proc.devRef .tc main_arg4)) (V₀ (Proc.devRef .tc main_arg7)) (V₀ (Proc.devRef .tc main_arg8)) (V₀ (Proc.devRef .tc main_arg9)) (V₀ (Proc.devRef .tc main_arg10)) :=
  step5_v113 (S4 V₀) _ _ _ _ _ _ _ _ (argAt4 V₀ main_arg3 (by decide)) (at4_v96 V₀) (argAt4 V₀ main_arg7 (by decide)) (argAt4 V₀ main_arg8 (by decide)) (argAt4 V₀ main_arg9 (by decide)) (argAt4 V₀ main_arg10 (by decide)) (argAt4 V₀ main_arg4 (by decide))

/-! After chunk 6 -/
theorem at6_v7 :
    S6 V₀ (Proc.devRef .tc main_v7) = val_main_v7 (F := Ideal) (V₀ (Proc.devRef .tc main_arg0)) (V₀ (Proc.devRef .tc main_arg5)) :=
  (keep_chunk6 _ main_v7 (by decide)).trans (at5_v7 V₀)
theorem at6_v9 :
    S6 V₀ (Proc.devRef .tc main_v9) = val_main_v9 (F := Ideal) (V₀ (Proc.devRef .tc main_arg2)) :=
  (keep_chunk6 _ main_v9 (by decide)).trans (at5_v9 V₀)
theorem at6_v114 :
    S6 V₀ (Proc.devRef .tc main_v114) = val_main_v114 (F := Ideal) (V₀ (Proc.devRef .tc main_arg1)) (V₀ (Proc.devRef .tc main_arg2)) (V₀ (Proc.devRef .tc main_arg3)) (V₀ (Proc.devRef .tc main_arg4)) (V₀ (Proc.devRef .tc main_arg6)) (V₀ (Proc.devRef .tc main_arg7)) (V₀ (Proc.devRef .tc main_arg8)) (V₀ (Proc.devRef .tc main_arg9)) (V₀ (Proc.devRef .tc main_arg10)) :=
  step6_v114 (S5 V₀) _ _ _ _ _ _ _ _ _ (at5_v36 V₀) (at5_v113 V₀)

/-! After chunk 7 -/
theorem at7_v9 :
    S7 V₀ (Proc.devRef .tc main_v9) = val_main_v9 (F := Ideal) (V₀ (Proc.devRef .tc main_arg2)) :=
  (keep_chunk7 _ main_v9 (by decide)).trans (at6_v9 V₀)
theorem at7_v114 :
    S7 V₀ (Proc.devRef .tc main_v114) = val_main_v114 (F := Ideal) (V₀ (Proc.devRef .tc main_arg1)) (V₀ (Proc.devRef .tc main_arg2)) (V₀ (Proc.devRef .tc main_arg3)) (V₀ (Proc.devRef .tc main_arg4)) (V₀ (Proc.devRef .tc main_arg6)) (V₀ (Proc.devRef .tc main_arg7)) (V₀ (Proc.devRef .tc main_arg8)) (V₀ (Proc.devRef .tc main_arg9)) (V₀ (Proc.devRef .tc main_arg10)) :=
  (keep_chunk7 _ main_v114 (by decide)).trans (at6_v114 V₀)
theorem at7_v143 :
    S7 V₀ (Proc.devRef .tc main_v143) = val_main_v143 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg10)) (V₀ (Proc.devRef .tc main_arg11)) (V₀ (Proc.devRef .tc main_arg12)) (V₀ (Proc.devRef .tc main_arg13)) (V₀ (Proc.devRef .tc main_arg14)) (V₀ (Proc.devRef .tc main_arg15)) (V₀ (Proc.devRef .tc main_arg16)) :=
  step7_v143 (S6 V₀) _ _ _ _ _ _ _ _ _ _ _ _ _ _ _ _ _ (at6_v7 V₀) (at6_v9 V₀) (at6_v114 V₀) (argAt6 V₀ main_arg11 (by decide)) (argAt6 V₀ main_arg12 (by decide)) (argAt6 V₀ main_arg13 (by decide)) (argAt6 V₀ main_arg14 (by decide)) (argAt6 V₀ main_arg15 (by decide)) (argAt6 V₀ main_arg16 (by decide))

/-! After chunk 8 -/
theorem at8_v9 :
    S8 V₀ (Proc.devRef .tc main_v9) = val_main_v9 (F := Ideal) (V₀ (Proc.devRef .tc main_arg2)) :=
  (keep_chunk8 _ main_v9 (by decide)).trans (at7_v9 V₀)
theorem at8_v114 :
    S8 V₀ (Proc.devRef .tc main_v114) = val_main_v114 (F := Ideal) (V₀ (Proc.devRef .tc main_arg1)) (V₀ (Proc.devRef .tc main_arg2)) (V₀ (Proc.devRef .tc main_arg3)) (V₀ (Proc.devRef .tc main_arg4)) (V₀ (Proc.devRef .tc main_arg6)) (V₀ (Proc.devRef .tc main_arg7)) (V₀ (Proc.devRef .tc main_arg8)) (V₀ (Proc.devRef .tc main_arg9)) (V₀ (Proc.devRef .tc main_arg10)) :=
  (keep_chunk8 _ main_v114 (by decide)).trans (at7_v114 V₀)
theorem at8_v172 :
    S8 V₀ (Proc.devRef .tc main_v172) = val_main_v172 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg10)) (V₀ (Proc.devRef .tc main_arg11)) (V₀ (Proc.devRef .tc main_arg12)) (V₀ (Proc.devRef .tc main_arg13)) (V₀ (Proc.devRef .tc main_arg14)) (V₀ (Proc.devRef .tc main_arg15)) (V₀ (Proc.devRef .tc main_arg16)) :=
  step8_v172 (S7 V₀) _ _ _ _ _ _ _ _ _ _ _ _ _ _ _ _ _ (at7_v143 V₀) (at7_v9 V₀) (at7_v114 V₀) (argAt7 V₀ main_arg11 (by decide)) (argAt7 V₀ main_arg12 (by decide)) (argAt7 V₀ main_arg13 (by decide)) (argAt7 V₀ main_arg14 (by decide)) (argAt7 V₀ main_arg15 (by decide)) (argAt7 V₀ main_arg16 (by decide))

/-! After chunk 9 -/
theorem at9_v9 :
    S9 V₀ (Proc.devRef .tc main_v9) = val_main_v9 (F := Ideal) (V₀ (Proc.devRef .tc main_arg2)) :=
  (keep_chunk9 _ main_v9 (by decide)).trans (at8_v9 V₀)
theorem at9_v114 :
    S9 V₀ (Proc.devRef .tc main_v114) = val_main_v114 (F := Ideal) (V₀ (Proc.devRef .tc main_arg1)) (V₀ (Proc.devRef .tc main_arg2)) (V₀ (Proc.devRef .tc main_arg3)) (V₀ (Proc.devRef .tc main_arg4)) (V₀ (Proc.devRef .tc main_arg6)) (V₀ (Proc.devRef .tc main_arg7)) (V₀ (Proc.devRef .tc main_arg8)) (V₀ (Proc.devRef .tc main_arg9)) (V₀ (Proc.devRef .tc main_arg10)) :=
  (keep_chunk9 _ main_v114 (by decide)).trans (at8_v114 V₀)
theorem at9_v201 :
    S9 V₀ (Proc.devRef .tc main_v201) = val_main_v201 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg10)) (V₀ (Proc.devRef .tc main_arg11)) (V₀ (Proc.devRef .tc main_arg12)) (V₀ (Proc.devRef .tc main_arg13)) (V₀ (Proc.devRef .tc main_arg14)) (V₀ (Proc.devRef .tc main_arg15)) (V₀ (Proc.devRef .tc main_arg16)) :=
  step9_v201 (S8 V₀) _ _ _ _ _ _ _ _ _ _ _ _ _ _ _ _ _ (at8_v172 V₀) (at8_v9 V₀) (at8_v114 V₀) (argAt8 V₀ main_arg11 (by decide)) (argAt8 V₀ main_arg12 (by decide)) (argAt8 V₀ main_arg13 (by decide)) (argAt8 V₀ main_arg14 (by decide)) (argAt8 V₀ main_arg15 (by decide)) (argAt8 V₀ main_arg16 (by decide))

/-! After chunk 10 -/
theorem at10_v230 :
    S10 V₀ (Proc.devRef .tc main_v230) = val_main_v230 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg10)) (V₀ (Proc.devRef .tc main_arg11)) (V₀ (Proc.devRef .tc main_arg12)) (V₀ (Proc.devRef .tc main_arg13)) (V₀ (Proc.devRef .tc main_arg14)) (V₀ (Proc.devRef .tc main_arg15)) (V₀ (Proc.devRef .tc main_arg16)) :=
  step10_v230 (S9 V₀) _ _ _ _ _ _ _ _ _ _ _ _ _ _ _ _ _ (at9_v201 V₀) (at9_v9 V₀) (at9_v114 V₀) (argAt9 V₀ main_arg11 (by decide)) (argAt9 V₀ main_arg12 (by decide)) (argAt9 V₀ main_arg13 (by decide)) (argAt9 V₀ main_arg14 (by decide)) (argAt9 V₀ main_arg15 (by decide)) (argAt9 V₀ main_arg16 (by decide))

/-! After chunk 11 -/
theorem at11_v232 :
    S11 V₀ (Proc.devRef .tc main_v232) = val_main_v232 (F := Ideal) (V₀ (Proc.devRef .tc main_arg0)) :=
  step11_v232 (S10 V₀) _ (argAt10 V₀ main_arg0 (by decide))
theorem at11_v233 :
    S11 V₀ (Proc.devRef .tc main_v233) = val_main_v233 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg10)) (V₀ (Proc.devRef .tc main_arg11)) (V₀ (Proc.devRef .tc main_arg12)) (V₀ (Proc.devRef .tc main_arg13)) (V₀ (Proc.devRef .tc main_arg14)) (V₀ (Proc.devRef .tc main_arg15)) (V₀ (Proc.devRef .tc main_arg16)) :=
  step11_v233 (S10 V₀) _ _ _ _ _ _ _ _ _ _ _ _ _ _ _ _ _ (at10_v230 V₀)

/-! ## All of @main -/

set_option maxRecDepth 16384 in
set_option maxHeartbeats 16000000 in
/-- @main's operations are the chunks, in order. -/
theorem ops_split : (Cert.ReferenceIdeal.ValueB.ops : List (HloOp τ sig (Elt Ideal))) = chunk1 ++ chunk2 ++ chunk3 ++ chunk4 ++ chunk5 ++ chunk6 ++ chunk7 ++ chunk8 ++ chunk9 ++ chunk10 ++ chunk11 := rfl

theorem after_ops : after (Cert.ReferenceIdeal.ValueB.ops (F := Ideal)) V₀ = S11 V₀ := by
  rw [ops_split]
  simp only [after_append]

/-- The first result: the reference's own value of the arguments' starting contents. -/
theorem fold_v233 :
    after (Cert.ReferenceIdeal.ValueB.ops (F := Ideal)) V₀ (Proc.devRef .tc main_v233) = val_main_v233 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg10)) (V₀ (Proc.devRef .tc main_arg11)) (V₀ (Proc.devRef .tc main_arg12)) (V₀ (Proc.devRef .tc main_arg13)) (V₀ (Proc.devRef .tc main_arg14)) (V₀ (Proc.devRef .tc main_arg15)) (V₀ (Proc.devRef .tc main_arg16)) := by
  rw [after_ops]; exact at11_v233 V₀

/-- The second result. -/
theorem fold_v232 :
    after (Cert.ReferenceIdeal.ValueB.ops (F := Ideal)) V₀ (Proc.devRef .tc main_v232) = val_main_v232 (F := Ideal) (V₀ (Proc.devRef .tc main_arg0)) := by
  rw [after_ops]; exact at11_v232 V₀

/-- A reference no operation of @main writes (each argument is one) ends as it started. -/
theorem fold_keep (b : Ref sig .tc) (hb : b ∉ wr11) :
    after (Cert.ReferenceIdeal.ValueB.ops (F := Ideal)) V₀ (Proc.devRef .tc b) = V₀ (Proc.devRef .tc b) := by
  rw [after_ops]; exact argAt11 V₀ b hb

end Chain

end Cert.ReferenceIdeal.FoldB
-- ==== Proof.TokOk.lean ====
/-
  The range condition on the token array that the embedding stage needs: every token names a row of the
  [128, 512] embedding table. Stated on the unsigned value of the 32-bit word: below 128 unsigned is the same as
  lying in [0, 128) signed.
-/
import Idealize.ShloMosaic.PureOps
import Idealize.ShloMosaic.PureOps.Ideal

noncomputable section

namespace Cert.KernelIdeal.Tok

open Idealize.ShloMosaic

/-- Every token is a row of the table: its word, read unsigned, is below 128. -/
def TokOk (x0 : (⟨⟨2, ![128, 64]⟩, .i32⟩ : BufTy).Contents (Elt Ideal)) : Prop :=
  ∀ i, (x0 i).toNat < 128

theorem ofBool_eq_one (b : Bool) : BitVec.ofBool b = 1#1 ↔ b = true := by cases b <;> decide

/-- A word in [0, 128) signed is below 128 unsigned. -/
theorem toNat_lt_of_signed (w : BitVec 32) (h0 : IntOp.cmpi .sge w (0#32) = 1#1) (h1 : IntOp.cmpi .slt w (128#32) = 1#1) :
    w.toNat < 128 := by
  unfold IntOp.cmpi at h0 h1
  rw [ofBool_eq_one] at h0 h1
  simp only [BitVec.slt, BitVec.sle, decide_eq_true_eq] at h0 h1
  have h32 := w.isLt
  unfold BitVec.toInt at h0 h1
  split at h1 <;> simp at h0 h1 <;> omega

/-- A word below 128 unsigned has that value signed. -/
theorem toInt_eq_toNat (w : BitVec 32) (h : w.toNat < 128) : w.toInt = (w.toNat : Int) := by
  unfold BitVec.toInt
  rw [if_pos (by omega)]

end Cert.KernelIdeal.Tok

end
-- ==== Proof.PreTok.lean ====
/-
  The precondition decoded for the token array: `finite_inputs` ends in "every token ≥ 0" and "every token < 128"
  (two reductions by `and` of signed comparisons against a broadcast constant, joined to the chain of conjunctions),
  so every token word, read unsigned, is below 128.
-/
import proofs.«430973_j37220186587498_2_alg».proof.Defs
import proofs.«430973_j37220186587498_2_alg».proof.Proof.TokOk
import Idealize.ShloMosaic.Lib.ReduceAll
import Idealize.ShloMosaic.Lib.ValueIdx

set_option maxRecDepth 16384

noncomputable section

namespace Cert.KernelIdeal.PreTok

open Idealize.ShloMosaic Idealize.SL.Sem
open Cert.KernelIdeal.Tok

/-- The shape of a scalar has one index. -/
instance : Subsingleton Cert.Pre_finite_inputs.S_.Idx := ⟨fun a b => funext fun d => d.elim0⟩

/-- A conjunction of two `i1` scalars that is 1 has both 1. -/
theorem andi_apply {s : Shape} (x y : IVec s 1) (i : s.Idx) (e : andi x y i = 1#1) : x i = 1#1 ∧ y i = 1#1 :=
  IntOp.andi_eq_one.1 e

theorem tokOk_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    TokOk (m ((c.tc : Thread Cert.KernelIdeal.nD Cert.KernelIdeal.τ).loc Cert.KernelIdeal.main_arg0)) := by
  intro i
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨h67, h70⟩ := andi_apply _ _ _ e
  obtain ⟨-, h66⟩ := andi_apply _ _ _ h67
  have hge := Host.reduce_andi_all _ _ _ _ _ h66 i
  have hlt := Host.reduce_andi_all _ _ _ _ _ h70 i
  exact toNat_lt_of_signed _ hge hlt

end Cert.KernelIdeal.PreTok

end
-- ==== Proof.Carry.lean ====
import proofs.«430973_j37220186587498_2_alg».proof.Proof.Gen.KernelIdeal.Launch
import Idealize.ShloMosaic.Lib.StableHlo.Run

set_option maxRecDepth 4096

noncomputable section

/-! # Carrying a buffer across a stretch of host operations

Each stretch of host operations of @main writes a fixed, finite set of references: the result reference of each of
its operations. A reference outside that set holds after the stretch what it held before it. For each stretch the
set is written out as a list (in the operations' order), so that "outside the set" is a decidable statement about
references. -/

namespace Cert.KernelIdeal.Carry

open Idealize.ShloMosaic Idealize.ShloMosaic.TcCoe
open Cert.KernelIdeal Cert.KernelIdeal.Gen

variable {F : FTy → Type} [FloatOps F]

/-- A single result reference that is on a list lies in the list's set of device buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references `hostOps0` writes: each operation's result, in order. -/
abbrev written_hostOps0 : List (Ref sig .tc) :=
  [main_v0]

set_option maxHeartbeats 4000000 in
/-- Every operation of `hostOps0` writes only a reference on the list. -/
theorem writes_hostOps0 : (hostOps0 : List (HloOp τ sig (Elt F))).Forall fun op =>
    op.writes ⊆ (written_hostOps0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact single_sub (by decide)

/-- A reference `hostOps0` does not write keeps its contents across it. -/
theorem keep_hostOps0 (V : Valuation τ sig (Elt F)) (b : Ref sig .tc) (hb : b ∉ written_hostOps0) :
    StableHlo.after hostOps0 V (Proc.devRef .tc b) = V (Proc.devRef .tc b) :=
  StableHlo.after_of_writes_sub hostOps0 V writes_hostOps0 hb

/-- The references `hostOps1` writes: each operation's result, in order. -/
abbrev written_hostOps1 : List (Ref sig .tc) :=
  [main_v2, main_v3, main_v4, main_v5, main_c, main_v6, main_v7, main_c_0, main_v8, main_v9, main_v10, main_v11, main_v12, main_c_1, main_v13, main_v14, main_c_2, main_v15, main_v16, main_v17, main_v18, main_v19, main_v20]

set_option maxHeartbeats 4000000 in
/-- Every operation of `hostOps1` writes only a reference on the list. -/
theorem writes_hostOps1 : (hostOps1 : List (HloOp τ sig (Elt F))).Forall fun op =>
    op.writes ⊆ (written_hostOps1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact single_sub (by decide)

/-- A reference `hostOps1` does not write keeps its contents across it. -/
theorem keep_hostOps1 (V : Valuation τ sig (Elt F)) (b : Ref sig .tc) (hb : b ∉ written_hostOps1) :
    StableHlo.after hostOps1 V (Proc.devRef .tc b) = V (Proc.devRef .tc b) :=
  StableHlo.after_of_writes_sub hostOps1 V writes_hostOps1 hb

/-- The references `hostOps1_1` writes: each operation's result, in order. -/
abbrev written_hostOps1_1 : List (Ref sig .tc) :=
  [main_call0_v0, main_call0_cst, main_call0_v1, main_v21]

set_option maxHeartbeats 4000000 in
/-- Every operation of `hostOps1_1` writes only a reference on the list. -/
theorem writes_hostOps1_1 : (hostOps1_1 : List (HloOp τ sig (Elt F))).Forall fun op =>
    op.writes ⊆ (written_hostOps1_1.map (Proc.devRef (τ := τ) .tc)).toFinset := by
  simp only [hostOps1_1, List.Forall, StableHlo.nullary_writes, StableHlo.unary_writes, StableHlo.binary_writes,
    StableHlo.ternary_writes, StableHlo.reshape_writes]
  repeat' apply And.intro
  all_goals exact single_sub (by decide)

/-- A reference `hostOps1_1` does not write keeps its contents across it. -/
theorem keep_hostOps1_1 (V : Valuation τ sig (Elt F)) (b : Ref sig .tc) (hb : b ∉ written_hostOps1_1) :
    StableHlo.after hostOps1_1 V (Proc.devRef .tc b) = V (Proc.devRef .tc b) :=
  StableHlo.after_of_writes_sub hostOps1_1 V writes_hostOps1_1 hb

/-- The references `hostOps1_2` writes: each operation's result, in order. -/
abbrev written_hostOps1_2 : List (Ref sig .tc) :=
  [main_v22, main_v23, main_v24, main_v25, main_v26, main_v27, main_cst, main_v28, main_v29, main_v30, main_c_3, main_v31, main_v32, main_c_4, main_v33, main_v34, main_v35, main_v36, main_v37, main_c_5, main_v38, main_v39, main_c_6, main_v40, main_v41, main_v42, main_v43, main_v44, main_c_7, main_v45, main_v46, main_c_8, main_v47, main_v48, main_v49, main_v50, main_v51, main_c_9, main_v52, main_v53, main_c_10, main_v54, main_v55, main_v56, main_v57, main_v58, main_c_11, main_v59, main_v60, main_c_12, main_v61, main_v62, main_v63, main_v64, main_v65, main_v66, main_c_13, main_v67, main_v68, main_c_14, main_v69, main_v70, main_v71, main_v72, main_v73, main_c_15, main_v74, main_v75, main_c_16, main_v76, main_v77, main_v78, main_v79, main_v80, main_v81]

set_option maxHeartbeats 4000000 in
/-- Every operation of `hostOps1_2` writes only a reference on the list. -/
theorem writes_hostOps1_2 : (hostOps1_2 : List (HloOp τ sig (Elt F))).Forall fun op =>
    op.writes ⊆ (written_hostOps1_2.map (Proc.devRef (τ := τ) .tc)).toFinset := by
  simp only [hostOps1_2, List.Forall, StableHlo.nullary_writes, StableHlo.unary_writes, StableHlo.binary_writes,
    StableHlo.ternary_writes, StableHlo.reshape_writes]
  repeat' apply And.intro
  all_goals exact single_sub (by decide)

/-- A reference `hostOps1_2` does not write keeps its contents across it. -/
theorem keep_hostOps1_2 (V : Valuation τ sig (Elt F)) (b : Ref sig .tc) (hb : b ∉ written_hostOps1_2) :
    StableHlo.after hostOps1_2 V (Proc.devRef .tc b) = V (Proc.devRef .tc b) :=
  StableHlo.after_of_writes_sub hostOps1_2 V writes_hostOps1_2 hb

/-- The references `hostOps1_3` writes: each operation's result, in order. -/
abbrev written_hostOps1_3 : List (Ref sig .tc) :=
  [main_call1_v0, main_call1_cst, main_call1_v1, main_v82]

set_option maxHeartbeats 4000000 in
/-- Every operation of `hostOps1_3` writes only a reference on the list. -/
theorem writes_hostOps1_3 : (hostOps1_3 : List (HloOp τ sig (Elt F))).Forall fun op =>
    op.writes ⊆ (written_hostOps1_3.map (Proc.devRef (τ := τ) .tc)).toFinset := by
  simp only [hostOps1_3, List.Forall, StableHlo.nullary_writes, StableHlo.unary_writes, StableHlo.binary_writes,
    StableHlo.ternary_writes, StableHlo.reshape_writes]
  repeat' apply And.intro
  all_goals exact single_sub (by decide)

/-- A reference `hostOps1_3` does not write keeps its contents across it. -/
theorem keep_hostOps1_3 (V : Valuation τ sig (Elt F)) (b : Ref sig .tc) (hb : b ∉ written_hostOps1_3) :
    StableHlo.after hostOps1_3 V (Proc.devRef .tc b) = V (Proc.devRef .tc b) :=
  StableHlo.after_of_writes_sub hostOps1_3 V writes_hostOps1_3 hb

/-- The references `hostOps1_4` writes: each operation's result, in order. -/
abbrev written_hostOps1_4 : List (Ref sig .tc) :=
  [main_call2_v0, main_call2_cst, main_call2_v1, main_v83]

set_option maxHeartbeats 4000000 in
/-- Every operation of `hostOps1_4` writes only a reference on the list. -/
theorem writes_hostOps1_4 : (hostOps1_4 : List (HloOp τ sig (Elt F))).Forall fun op =>
    op.writes ⊆ (written_hostOps1_4.map (Proc.devRef (τ := τ) .tc)).toFinset := by
  simp only [hostOps1_4, List.Forall, StableHlo.nullary_writes, StableHlo.unary_writes, StableHlo.binary_writes,
    StableHlo.ternary_writes, StableHlo.reshape_writes]
  repeat' apply And.intro
  all_goals exact single_sub (by decide)

/-- A reference `hostOps1_4` does not write keeps its contents across it. -/
theorem keep_hostOps1_4 (V : Valuation τ sig (Elt F)) (b : Ref sig .tc) (hb : b ∉ written_hostOps1_4) :
    StableHlo.after hostOps1_4 V (Proc.devRef .tc b) = V (Proc.devRef .tc b) :=
  StableHlo.after_of_writes_sub hostOps1_4 V writes_hostOps1_4 hb

/-- The references `hostOps1_5` writes: each operation's result, in order. -/
abbrev written_hostOps1_5 : List (Ref sig .tc) :=
  [main_v84, main_cst_17, main_v85, main_v86, main_v87, main_cst_18, main_v88, main_v89, main_cst_19, main_cst_20]

set_option maxHeartbeats 4000000 in
/-- Every operation of `hostOps1_5` writes only a reference on the list. -/
theorem writes_hostOps1_5 : (hostOps1_5 : List (HloOp τ sig (Elt F))).Forall fun op =>
    op.writes ⊆ (written_hostOps1_5.map (Proc.devRef (τ := τ) .tc)).toFinset := by
  simp only [hostOps1_5, List.Forall, StableHlo.nullary_writes, StableHlo.unary_writes, StableHlo.binary_writes,
    StableHlo.ternary_writes, StableHlo.reshape_writes]
  repeat' apply And.intro
  all_goals exact single_sub (by decide)

/-- A reference `hostOps1_5` does not write keeps its contents across it. -/
theorem keep_hostOps1_5 (V : Valuation τ sig (Elt F)) (b : Ref sig .tc) (hb : b ∉ written_hostOps1_5) :
    StableHlo.after hostOps1_5 V (Proc.devRef .tc b) = V (Proc.devRef .tc b) :=
  StableHlo.after_of_writes_sub hostOps1_5 V writes_hostOps1_5 hb

/-- The references `hostOps1_6` writes: each operation's result, in order. -/
abbrev written_hostOps1_6 : List (Ref sig .tc) :=
  [main_call3_v0, main_call3_v1, main_call3_v2, main_call3_v3, main_call3_v4, main_v90]

set_option maxHeartbeats 4000000 in
/-- Every operation of `hostOps1_6` writes only a reference on the list. -/
theorem writes_hostOps1_6 : (hostOps1_6 : List (HloOp τ sig (Elt F))).Forall fun op =>
    op.writes ⊆ (written_hostOps1_6.map (Proc.devRef (τ := τ) .tc)).toFinset := by
  simp only [hostOps1_6, List.Forall, StableHlo.nullary_writes, StableHlo.unary_writes, StableHlo.binary_writes,
    StableHlo.ternary_writes, StableHlo.reshape_writes]
  repeat' apply And.intro
  all_goals exact single_sub (by decide)

/-- A reference `hostOps1_6` does not write keeps its contents across it. -/
theorem keep_hostOps1_6 (V : Valuation τ sig (Elt F)) (b : Ref sig .tc) (hb : b ∉ written_hostOps1_6) :
    StableHlo.after hostOps1_6 V (Proc.devRef .tc b) = V (Proc.devRef .tc b) :=
  StableHlo.after_of_writes_sub hostOps1_6 V writes_hostOps1_6 hb

/-- The references `hostOps1_7` writes: each operation's result, in order. -/
abbrev written_hostOps1_7 : List (Ref sig .tc) :=
  [main_v91, main_v92, main_v93, main_c_21]

set_option maxHeartbeats 4000000 in
/-- Every operation of `hostOps1_7` writes only a reference on the list. -/
theorem writes_hostOps1_7 : (hostOps1_7 : List (HloOp τ sig (Elt F))).Forall fun op =>
    op.writes ⊆ (written_hostOps1_7.map (Proc.devRef (τ := τ) .tc)).toFinset := by
  simp only [hostOps1_7, List.Forall, StableHlo.nullary_writes, StableHlo.unary_writes, StableHlo.binary_writes,
    StableHlo.ternary_writes, StableHlo.reshape_writes]
  repeat' apply And.intro
  all_goals exact single_sub (by decide)

/-- A reference `hostOps1_7` does not write keeps its contents across it. -/
theorem keep_hostOps1_7 (V : Valuation τ sig (Elt F)) (b : Ref sig .tc) (hb : b ∉ written_hostOps1_7) :
    StableHlo.after hostOps1_7 V (Proc.devRef .tc b) = V (Proc.devRef .tc b) :=
  StableHlo.after_of_writes_sub hostOps1_7 V writes_hostOps1_7 hb

/-- The references `hostOps1_8` writes: each operation's result, in order. -/
abbrev written_hostOps1_8 : List (Ref sig .tc) :=
  [main_call4_v0, main_v94]

set_option maxHeartbeats 4000000 in
/-- Every operation of `hostOps1_8` writes only a reference on the list. -/
theorem writes_hostOps1_8 : (hostOps1_8 : List (HloOp τ sig (Elt F))).Forall fun op =>
    op.writes ⊆ (written_hostOps1_8.map (Proc.devRef (τ := τ) .tc)).toFinset := by
  simp only [hostOps1_8, List.Forall, StableHlo.nullary_writes, StableHlo.unary_writes, StableHlo.binary_writes,
    StableHlo.ternary_writes, StableHlo.reshape_writes]
  repeat' apply And.intro
  all_goals exact single_sub (by decide)

/-- A reference `hostOps1_8` does not write keeps its contents across it. -/
theorem keep_hostOps1_8 (V : Valuation τ sig (Elt F)) (b : Ref sig .tc) (hb : b ∉ written_hostOps1_8) :
    StableHlo.after hostOps1_8 V (Proc.devRef .tc b) = V (Proc.devRef .tc b) :=
  StableHlo.after_of_writes_sub hostOps1_8 V writes_hostOps1_8 hb

/-- The references `hostOps2` writes: each operation's result, in order. -/
abbrev written_hostOps2 : List (Ref sig .tc) :=
  [main_v96, main_cst_22, main_v97, main_v98, main_v99, main_cst_23, main_v100, main_v101, main_v102, main_v103, main_v104, main_v105, main_v106, main_v107, main_v108, main_v109, main_c_24]

set_option maxHeartbeats 4000000 in
/-- Every operation of `hostOps2` writes only a reference on the list. -/
theorem writes_hostOps2 : (hostOps2 : List (HloOp τ sig (Elt F))).Forall fun op =>
    op.writes ⊆ (written_hostOps2.map (Proc.devRef (τ := τ) .tc)).toFinset := by
  simp only [hostOps2, List.Forall, StableHlo.nullary_writes, StableHlo.unary_writes, StableHlo.binary_writes,
    StableHlo.ternary_writes, StableHlo.reshape_writes]
  repeat' apply And.intro
  all_goals exact single_sub (by decide)

/-- A reference `hostOps2` does not write keeps its contents across it. -/
theorem keep_hostOps2 (V : Valuation τ sig (Elt F)) (b : Ref sig .tc) (hb : b ∉ written_hostOps2) :
    StableHlo.after hostOps2 V (Proc.devRef .tc b) = V (Proc.devRef .tc b) :=
  StableHlo.after_of_writes_sub hostOps2 V writes_hostOps2 hb

/-- The references `hostOps2_1` writes: each operation's result, in order. -/
abbrev written_hostOps2_1 : List (Ref sig .tc) :=
  [main_call5_v0, main_v110]

set_option maxHeartbeats 4000000 in
/-- Every operation of `hostOps2_1` writes only a reference on the list. -/
theorem writes_hostOps2_1 : (hostOps2_1 : List (HloOp τ sig (Elt F))).Forall fun op =>
    op.writes ⊆ (written_hostOps2_1.map (Proc.devRef (τ := τ) .tc)).toFinset := by
  simp only [hostOps2_1, List.Forall, StableHlo.nullary_writes, StableHlo.unary_writes, StableHlo.binary_writes,
    StableHlo.ternary_writes, StableHlo.reshape_writes]
  repeat' apply And.intro
  all_goals exact single_sub (by decide)

/-- A reference `hostOps2_1` does not write keeps its contents across it. -/
theorem keep_hostOps2_1 (V : Valuation τ sig (Elt F)) (b : Ref sig .tc) (hb : b ∉ written_hostOps2_1) :
    StableHlo.after hostOps2_1 V (Proc.devRef .tc b) = V (Proc.devRef .tc b) :=
  StableHlo.after_of_writes_sub hostOps2_1 V writes_hostOps2_1 hb

/-- The references `hostOps3` writes: each operation's result, in order. -/
abbrev written_hostOps3 : List (Ref sig .tc) :=
  [main_v112, main_cst_25, main_v113, main_v114, main_v115, main_v116, main_v117, main_v118, main_v119, main_v120, main_v121, main_v122, main_v123, main_v124, main_v125, main_v126]

set_option maxHeartbeats 4000000 in
/-- Every operation of `hostOps3` writes only a reference on the list. -/
theorem writes_hostOps3 : (hostOps3 : List (HloOp τ sig (Elt F))).Forall fun op =>
    op.writes ⊆ (written_hostOps3.map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals exact single_sub (by decide)

/-- A reference `hostOps3` does not write keeps its contents across it. -/
theorem keep_hostOps3 (V : Valuation τ sig (Elt F)) (b : Ref sig .tc) (hb : b ∉ written_hostOps3) :
    StableHlo.after hostOps3 V (Proc.devRef .tc b) = V (Proc.devRef .tc b) :=
  StableHlo.after_of_writes_sub hostOps3 V writes_hostOps3 hb

/-- The references `hostOps4` writes: each operation's result, in order. -/
abbrev written_hostOps4 : List (Ref sig .tc) :=
  [main_v127, main_v128, main_v129, main_v130, main_v131, main_c_26]

set_option maxHeartbeats 4000000 in
/-- Every operation of `hostOps4` writes only a reference on the list. -/
theorem writes_hostOps4 : (hostOps4 : List (HloOp τ sig (Elt F))).Forall fun op =>
    op.writes ⊆ (written_hostOps4.map (Proc.devRef (τ := τ) .tc)).toFinset := by
  simp only [hostOps4, List.Forall, StableHlo.nullary_writes, StableHlo.unary_writes, StableHlo.binary_writes,
    StableHlo.ternary_writes, StableHlo.reshape_writes]
  repeat' apply And.intro
  all_goals exact single_sub (by decide)

/-- A reference `hostOps4` does not write keeps its contents across it. -/
theorem keep_hostOps4 (V : Valuation τ sig (Elt F)) (b : Ref sig .tc) (hb : b ∉ written_hostOps4) :
    StableHlo.after hostOps4 V (Proc.devRef .tc b) = V (Proc.devRef .tc b) :=
  StableHlo.after_of_writes_sub hostOps4 V writes_hostOps4 hb

/-- The references `hostOps4_1` writes: each operation's result, in order. -/
abbrev written_hostOps4_1 : List (Ref sig .tc) :=
  [main_call6_v0, main_v132]

set_option maxHeartbeats 4000000 in
/-- Every operation of `hostOps4_1` writes only a reference on the list. -/
theorem writes_hostOps4_1 : (hostOps4_1 : List (HloOp τ sig (Elt F))).Forall fun op =>
    op.writes ⊆ (written_hostOps4_1.map (Proc.devRef (τ := τ) .tc)).toFinset := by
  simp only [hostOps4_1, List.Forall, StableHlo.nullary_writes, StableHlo.unary_writes, StableHlo.binary_writes,
    StableHlo.ternary_writes, StableHlo.reshape_writes]
  repeat' apply And.intro
  all_goals exact single_sub (by decide)

/-- A reference `hostOps4_1` does not write keeps its contents across it. -/
theorem keep_hostOps4_1 (V : Valuation τ sig (Elt F)) (b : Ref sig .tc) (hb : b ∉ written_hostOps4_1) :
    StableHlo.after hostOps4_1 V (Proc.devRef .tc b) = V (Proc.devRef .tc b) :=
  StableHlo.after_of_writes_sub hostOps4_1 V writes_hostOps4_1 hb

/-- The references `hostOps5` writes: each operation's result, in order. -/
abbrev written_hostOps5 : List (Ref sig .tc) :=
  [main_v134, main_cst_27, main_v135, main_v136, main_v137, main_v138, main_v139, main_v140, main_v141, main_v142, main_v143, main_v144, main_v145, main_v146, main_v147, main_v148]

set_option maxHeartbeats 4000000 in
/-- Every operation of `hostOps5` writes only a reference on the list. -/
theorem writes_hostOps5 : (hostOps5 : List (HloOp τ sig (Elt F))).Forall fun op =>
    op.writes ⊆ (written_hostOps5.map (Proc.devRef (τ := τ) .tc)).toFinset := by
  simp only [hostOps5, List.Forall, StableHlo.nullary_writes, StableHlo.unary_writes, StableHlo.binary_writes,
    StableHlo.ternary_writes, StableHlo.reshape_writes]
  repeat' apply And.intro
  all_goals exact single_sub (by decide)

/-- A reference `hostOps5` does not write keeps its contents across it. -/
theorem keep_hostOps5 (V : Valuation τ sig (Elt F)) (b : Ref sig .tc) (hb : b ∉ written_hostOps5) :
    StableHlo.after hostOps5 V (Proc.devRef .tc b) = V (Proc.devRef .tc b) :=
  StableHlo.after_of_writes_sub hostOps5 V writes_hostOps5 hb

/-- The references `hostOps6` writes: each operation's result, in order. -/
abbrev written_hostOps6 : List (Ref sig .tc) :=
  [main_v149, main_v150, main_v151, main_v152, main_v153, main_c_28]

set_option maxHeartbeats 4000000 in
/-- Every operation of `hostOps6` writes only a reference on the list. -/
theorem writes_hostOps6 : (hostOps6 : List (HloOp τ sig (Elt F))).Forall fun op =>
    op.writes ⊆ (written_hostOps6.map (Proc.devRef (τ := τ) .tc)).toFinset := by
  simp only [hostOps6, List.Forall, StableHlo.nullary_writes, StableHlo.unary_writes, StableHlo.binary_writes,
    StableHlo.ternary_writes, StableHlo.reshape_writes]
  repeat' apply And.intro
  all_goals exact single_sub (by decide)

/-- A reference `hostOps6` does not write keeps its contents across it. -/
theorem keep_hostOps6 (V : Valuation τ sig (Elt F)) (b : Ref sig .tc) (hb : b ∉ written_hostOps6) :
    StableHlo.after hostOps6 V (Proc.devRef .tc b) = V (Proc.devRef .tc b) :=
  StableHlo.after_of_writes_sub hostOps6 V writes_hostOps6 hb

/-- The references `hostOps6_1` writes: each operation's result, in order. -/
abbrev written_hostOps6_1 : List (Ref sig .tc) :=
  [main_call7_v0, main_v154]

set_option maxHeartbeats 4000000 in
/-- Every operation of `hostOps6_1` writes only a reference on the list. -/
theorem writes_hostOps6_1 : (hostOps6_1 : List (HloOp τ sig (Elt F))).Forall fun op =>
    op.writes ⊆ (written_hostOps6_1.map (Proc.devRef (τ := τ) .tc)).toFinset := by
  simp only [hostOps6_1, List.Forall, StableHlo.nullary_writes, StableHlo.unary_writes, StableHlo.binary_writes,
    StableHlo.ternary_writes, StableHlo.reshape_writes]
  repeat' apply And.intro
  all_goals exact single_sub (by decide)

/-- A reference `hostOps6_1` does not write keeps its contents across it. -/
theorem keep_hostOps6_1 (V : Valuation τ sig (Elt F)) (b : Ref sig .tc) (hb : b ∉ written_hostOps6_1) :
    StableHlo.after hostOps6_1 V (Proc.devRef .tc b) = V (Proc.devRef .tc b) :=
  StableHlo.after_of_writes_sub hostOps6_1 V writes_hostOps6_1 hb

/-- The references `hostOps7` writes: each operation's result, in order. -/
abbrev written_hostOps7 : List (Ref sig .tc) :=
  [main_v156, main_cst_29, main_v157, main_v158, main_v159, main_v160, main_v161, main_v162, main_v163, main_v164, main_v165, main_v166, main_v167, main_v168, main_v169, main_v170]

set_option maxHeartbeats 4000000 in
/-- Every operation of `hostOps7` writes only a reference on the list. -/
theorem writes_hostOps7 : (hostOps7 : List (HloOp τ sig (Elt F))).Forall fun op =>
    op.writes ⊆ (written_hostOps7.map (Proc.devRef (τ := τ) .tc)).toFinset := by
  simp only [hostOps7, List.Forall, StableHlo.nullary_writes, StableHlo.unary_writes, StableHlo.binary_writes,
    StableHlo.ternary_writes, StableHlo.reshape_writes]
  repeat' apply And.intro
  all_goals exact single_sub (by decide)

/-- A reference `hostOps7` does not write keeps its contents across it. -/
theorem keep_hostOps7 (V : Valuation τ sig (Elt F)) (b : Ref sig .tc) (hb : b ∉ written_hostOps7) :
    StableHlo.after hostOps7 V (Proc.devRef .tc b) = V (Proc.devRef .tc b) :=
  StableHlo.after_of_writes_sub hostOps7 V writes_hostOps7 hb

/-- The references `hostOps8` writes: each operation's result, in order. -/
abbrev written_hostOps8 : List (Ref sig .tc) :=
  [main_v171, main_v172, main_v173, main_v174, main_v175, main_c_30]

set_option maxHeartbeats 4000000 in
/-- Every operation of `hostOps8` writes only a reference on the list. -/
theorem writes_hostOps8 : (hostOps8 : List (HloOp τ sig (Elt F))).Forall fun op =>
    op.writes ⊆ (written_hostOps8.map (Proc.devRef (τ := τ) .tc)).toFinset := by
  simp only [hostOps8, List.Forall, StableHlo.nullary_writes, StableHlo.unary_writes, StableHlo.binary_writes,
    StableHlo.ternary_writes, StableHlo.reshape_writes]
  repeat' apply And.intro
  all_goals exact single_sub (by decide)

/-- A reference `hostOps8` does not write keeps its contents across it. -/
theorem keep_hostOps8 (V : Valuation τ sig (Elt F)) (b : Ref sig .tc) (hb : b ∉ written_hostOps8) :
    StableHlo.after hostOps8 V (Proc.devRef .tc b) = V (Proc.devRef .tc b) :=
  StableHlo.after_of_writes_sub hostOps8 V writes_hostOps8 hb

/-- The references `hostOps8_1` writes: each operation's result, in order. -/
abbrev written_hostOps8_1 : List (Ref sig .tc) :=
  [main_call8_v0, main_v176]

set_option maxHeartbeats 4000000 in
/-- Every operation of `hostOps8_1` writes only a reference on the list. -/
theorem writes_hostOps8_1 : (hostOps8_1 : List (HloOp τ sig (Elt F))).Forall fun op =>
    op.writes ⊆ (written_hostOps8_1.map (Proc.devRef (τ := τ) .tc)).toFinset := by
  simp only [hostOps8_1, List.Forall, StableHlo.nullary_writes, StableHlo.unary_writes, StableHlo.binary_writes,
    StableHlo.ternary_writes, StableHlo.reshape_writes]
  repeat' apply And.intro
  all_goals exact single_sub (by decide)

/-- A reference `hostOps8_1` does not write keeps its contents across it. -/
theorem keep_hostOps8_1 (V : Valuation τ sig (Elt F)) (b : Ref sig .tc) (hb : b ∉ written_hostOps8_1) :
    StableHlo.after hostOps8_1 V (Proc.devRef .tc b) = V (Proc.devRef .tc b) :=
  StableHlo.after_of_writes_sub hostOps8_1 V writes_hostOps8_1 hb

/-- The references `hostOps9` writes: each operation's result, in order. -/
abbrev written_hostOps9 : List (Ref sig .tc) :=
  [main_v178, main_cst_31, main_v179, main_v180, main_v181, main_v182, main_v183, main_v184, main_v185, main_v186, main_v187, main_v188, main_v189, main_v190, main_v191, main_v192]

set_option maxHeartbeats 4000000 in
/-- Every operation of `hostOps9` writes only a reference on the list. -/
theorem writes_hostOps9 : (hostOps9 : List (HloOp τ sig (Elt F))).Forall fun op =>
    op.writes ⊆ (written_hostOps9.map (Proc.devRef (τ := τ) .tc)).toFinset := by
  simp only [hostOps9, List.Forall, StableHlo.nullary_writes, StableHlo.unary_writes, StableHlo.binary_writes,
    StableHlo.ternary_writes, StableHlo.reshape_writes]
  repeat' apply And.intro
  all_goals exact single_sub (by decide)

/-- A reference `hostOps9` does not write keeps its contents across it. -/
theorem keep_hostOps9 (V : Valuation τ sig (Elt F)) (b : Ref sig .tc) (hb : b ∉ written_hostOps9) :
    StableHlo.after hostOps9 V (Proc.devRef .tc b) = V (Proc.devRef .tc b) :=
  StableHlo.after_of_writes_sub hostOps9 V writes_hostOps9 hb

/-- The references `hostOps10` writes: each operation's result, in order. -/
abbrev written_hostOps10 : List (Ref sig .tc) :=
  [main_c_32, main_v193, main_v194, main_v195]

set_option maxHeartbeats 4000000 in
/-- Every operation of `hostOps10` writes only a reference on the list. -/
theorem writes_hostOps10 : (hostOps10 : List (HloOp τ sig (Elt F))).Forall fun op =>
    op.writes ⊆ (written_hostOps10.map (Proc.devRef (τ := τ) .tc)).toFinset := by
  simp only [hostOps10, List.Forall, StableHlo.nullary_writes, StableHlo.unary_writes, StableHlo.binary_writes,
    StableHlo.ternary_writes, StableHlo.reshape_writes]
  repeat' apply And.intro
  all_goals exact single_sub (by decide)

/-- A reference `hostOps10` does not write keeps its contents across it. -/
theorem keep_hostOps10 (V : Valuation τ sig (Elt F)) (b : Ref sig .tc) (hb : b ∉ written_hostOps10) :
    StableHlo.after hostOps10 V (Proc.devRef .tc b) = V (Proc.devRef .tc b) :=
  StableHlo.after_of_writes_sub hostOps10 V writes_hostOps10 hb

end Cert.KernelIdeal.Carry
-- ==== Proof.Glue1.lean ====
import proofs.«430973_j37220186587498_2_alg».proof.Proof.Gen.KernelIdeal.Frame
import proofs.«430973_j37220186587498_2_alg».proof.Proof.ReadB
import proofs.«430973_j37220186587498_2_alg».proof.Proof.Carry
import Idealize.ShloMosaic.Lib.StableHlo.Run
import Idealize.ShloMosaic.PureOps.Ideal.Laws

set_option maxRecDepth 16384

noncomputable section

/-! # The host operations of @main from the launch to the entry of the second kernel region

Between the launch and the second kernel region the program runs, on the host, the same operations as the reference
does, one for one (slices of the edge list, gathers of positions, norms, the radial basis, the clipped cosine). So
each buffer they leave holds the reference's own value of the corresponding operation, as a function of the launch
contents of @main's arguments. The first kernel region writes none of the buffers these operations read. -/

namespace Cert.KernelIdeal.Glue1

open Idealize.ShloMosaic Idealize.ShloMosaic.TcCoe
open Cert.KernelIdeal Cert.KernelIdeal.Gen
open Cert.ReferenceIdeal.Read

variable (m : (ℓ : Loc nD τ sig) → Buf (Elt Ideal) ℓ) (ρ : Dev nD → PrngReg)

/-! ## Carrying a buffer across several stretches -/

theorem not_mem_left {α : Type} {a : α} {s t : List α} (h : a ∉ s ++ t) : a ∉ s :=
  fun hs => h (List.mem_append.mpr (Or.inl hs))

theorem not_mem_right {α : Type} {a : α} {s t : List α} (h : a ∉ s ++ t) : a ∉ t :=
  fun ht => h (List.mem_append.mpr (Or.inr ht))

/-- The references written between the first kernel region's exit and the `k`-th boundary after it. -/
abbrev wr3 : List (Ref sig .tc) := Carry.written_hostOps1
abbrev wr4 : List (Ref sig .tc) := wr3 ++ Carry.written_hostOps1_1
abbrev wr5 : List (Ref sig .tc) := wr4 ++ Carry.written_hostOps1_2
abbrev wr6 : List (Ref sig .tc) := wr5 ++ Carry.written_hostOps1_3
abbrev wr7 : List (Ref sig .tc) := wr6 ++ Carry.written_hostOps1_4
abbrev wr8 : List (Ref sig .tc) := wr7 ++ Carry.written_hostOps1_5
abbrev wr9 : List (Ref sig .tc) := wr8 ++ Carry.written_hostOps1_6
abbrev wr10 : List (Ref sig .tc) := wr9 ++ Carry.written_hostOps1_7
abbrev wr11 : List (Ref sig .tc) := wr10 ++ Carry.written_hostOps1_8

/-- A reference no stretch up to a boundary writes holds there what the first kernel region left. -/
theorem kept3 (c : Dev nD) (r : Ref sig .tc) (h : r ∉ wr3) :
    W3 (F := Ideal) m ρ c (Proc.devRef .tc r) = W2 (F := Ideal) m ρ c (Proc.devRef .tc r) :=
  Carry.keep_hostOps1 _ r h

theorem kept4 (c : Dev nD) (r : Ref sig .tc) (h : r ∉ wr4) :
    W4 (F := Ideal) m ρ c (Proc.devRef .tc r) = W2 (F := Ideal) m ρ c (Proc.devRef .tc r) :=
  (Carry.keep_hostOps1_1 _ r (not_mem_right h)).trans (kept3 m ρ c r (not_mem_left h))

theorem kept5 (c : Dev nD) (r : Ref sig .tc) (h : r ∉ wr5) :
    W5 (F := Ideal) m ρ c (Proc.devRef .tc r) = W2 (F := Ideal) m ρ c (Proc.devRef .tc r) :=
  (Carry.keep_hostOps1_2 _ r (not_mem_right h)).trans (kept4 m ρ c r (not_mem_left h))

theorem kept6 (c : Dev nD) (r : Ref sig .tc) (h : r ∉ wr6) :
    W6 (F := Ideal) m ρ c (Proc.devRef .tc r) = W2 (F := Ideal) m ρ c (Proc.devRef .tc r) :=
  (Carry.keep_hostOps1_3 _ r (not_mem_right h)).trans (kept5 m ρ c r (not_mem_left h))

theorem kept7 (c : Dev nD) (r : Ref sig .tc) (h : r ∉ wr7) :
    W7 (F := Ideal) m ρ c (Proc.devRef .tc r) = W2 (F := Ideal) m ρ c (Proc.devRef .tc r) :=
  (Carry.keep_hostOps1_4 _ r (not_mem_right h)).trans (kept6 m ρ c r (not_mem_left h))

theorem kept8 (c : Dev nD) (r : Ref sig .tc) (h : r ∉ wr8) :
    W8 (F := Ideal) m ρ c (Proc.devRef .tc r) = W2 (F := Ideal) m ρ c (Proc.devRef .tc r) :=
  (Carry.keep_hostOps1_5 _ r (not_mem_right h)).trans (kept7 m ρ c r (not_mem_left h))

theorem kept9 (c : Dev nD) (r : Ref sig .tc) (h : r ∉ wr9) :
    W9 (F := Ideal) m ρ c (Proc.devRef .tc r) = W2 (F := Ideal) m ρ c (Proc.devRef .tc r) :=
  (Carry.keep_hostOps1_6 _ r (not_mem_right h)).trans (kept8 m ρ c r (not_mem_left h))

theorem kept10 (c : Dev nD) (r : Ref sig .tc) (h : r ∉ wr10) :
    W10 (F := Ideal) m ρ c (Proc.devRef .tc r) = W2 (F := Ideal) m ρ c (Proc.devRef .tc r) :=
  (Carry.keep_hostOps1_7 _ r (not_mem_right h)).trans (kept9 m ρ c r (not_mem_left h))

theorem kept11' (c : Dev nD) (r : Ref sig .tc) (h : r ∉ wr11) :
    W11 (F := Ideal) m ρ c (Proc.devRef .tc r) = W2 (F := Ideal) m ρ c (Proc.devRef .tc r) :=
  (Carry.keep_hostOps1_8 _ r (not_mem_right h)).trans (kept10 m ρ c r (not_mem_left h))

theorem kept11 (c : Dev nD) (r : Ref sig .tc)
    (h : r ∉ Carry.written_hostOps1 ++ Carry.written_hostOps1_1 ++ Carry.written_hostOps1_2 ++ Carry.written_hostOps1_3 ++ Carry.written_hostOps1_4 ++ Carry.written_hostOps1_5 ++ Carry.written_hostOps1_6 ++ Carry.written_hostOps1_7 ++ Carry.written_hostOps1_8) :
    W11 (F := Ideal) m ρ c (Proc.devRef .tc r) = W2 (F := Ideal) m ρ c (Proc.devRef .tc r) :=
  kept11' m ρ c r h

/-- A reference that neither the first stretch nor the first kernel region writes holds, at that region's exit,
    its launch contents. -/
theorem launch2 (c : Dev nD) (r : Ref sig .tc) (h0 : r ∉ Carry.written_hostOps0) (h1 : ∀ w, Pipeline.arrRef spec0 w ≠ r) :
    W2 (F := Ideal) m ρ c (Proc.devRef .tc r) = m ((c : Thread nD τ).loc r) :=
  (W2_of_ne m ρ c r h1).trans ((Carry.keep_hostOps0 _ r h0).trans rfl)

/-! ## One stretch at a time, from any contents `V` at the stretch's entry

Each lemma says: if the buffers the stretch reads hold given values, a buffer it writes holds the reference's own
function of those values. The operations are the reference's, one for one. -/

section Steps

variable (V : Valuation τ sig (Elt Ideal))
variable (x0 : (⟨S128x64, .i32⟩ : BufTy).Contents (Elt Ideal)) (x1 : (⟨S8192x3, .f32⟩ : BufTy).Contents (Elt Ideal)) (x2 : (⟨S2x85342, .i32⟩ : BufTy).Contents (Elt Ideal)) (x3 x4 : (⟨S488691, .i32⟩ : BufTy).Contents (Elt Ideal)) (x6 : (⟨S64, .f32⟩ : BufTy).Contents (Elt Ideal)) (x8 x10 : (⟨S32, .f32⟩ : BufTy).Contents (Elt Ideal))

/-- The token ids, flattened to one column. -/
theorem tok_step
    (h0 : V (Proc.devRef .tc main_arg0) = x0) :
    StableHlo.after hostOps0 V (Proc.devRef .tc main_v0) = shapeCast S8192x1 x0 shapeCasts_S128x64_S8192x1 := by
  dsimp only [hostOps0]
  after_results_simp
  rw [h0]
  rfl

/-- The edges' source nodes: the first row of the edge list. -/
theorem row_step
    (h2 : V (Proc.devRef .tc main_arg2) = x2) :
    StableHlo.after hostOps1 V (Proc.devRef .tc main_v3) = val_main_v9 (F := Ideal) x2 := by
  dsimp only [hostOps1]
  after_results_simp
  rw [h2]
  rfl

/-- The edges' target nodes: the second row of the edge list. -/
theorem col_step
    (h2 : V (Proc.devRef .tc main_arg2) = x2) :
    StableHlo.after hostOps1 V (Proc.devRef .tc main_v5) = val_main_v11 (F := Ideal) x2 := by
  dsimp only [hostOps1]
  after_results_simp
  rw [h2]
  rfl

/-- Each edge's displacement: the positions gathered at its two ends, subtracted. -/
theorem edgeVec_step
    (h1 : V (Proc.devRef .tc main_arg1) = x1)
    (h2 : V (Proc.devRef .tc main_arg2) = x2) :
    StableHlo.after hostOps1 V (Proc.devRef .tc main_v20) = val_main_v26 (F := Ideal) x1 x2 := by
  dsimp only [hostOps1]
  after_results_simp
  rw [h1, h2]
  rfl

/-- Each edge's length: the norm of its displacement. -/
theorem edgeLen_step
    (h20 : V (Proc.devRef .tc main_v20) = (val_main_v26 (F := Ideal) x1 x2)) :
    StableHlo.after hostOps1_1 V (Proc.devRef .tc main_v21) = val_main_v27 (F := Ideal) x1 x2 := by
  dsimp only [hostOps1_1]
  after_results_simp
  rw [h20]
  rfl

set_option maxHeartbeats 8000000 in
/-- The radial basis: exp(-10 (d - μ)²) of each edge's length against each centre. -/
theorem rbf_step
    (h21 : V (Proc.devRef .tc main_v21) = (val_main_v27 (F := Ideal) x1 x2))
    (h6 : V (Proc.devRef .tc main_arg6) = x6) :
    StableHlo.after hostOps1_2 V (Proc.devRef .tc main_v30) = val_main_v36 (F := Ideal) x1 x2 x6 := by
  dsimp only [hostOps1_2]
  after_results_simp
  rw [h21, h6]
  rfl

set_option maxHeartbeats 16000000 in
/-- Each angle's first leg: the displacement between the ends of its first edge. -/
theorem legA_step
    (h1 : V (Proc.devRef .tc main_arg1) = x1)
    (h5 : V (Proc.devRef .tc main_v5) = (val_main_v11 (F := Ideal) x2))
    (h3 : V (Proc.devRef .tc main_arg3) = x3)
    (hr : V (Proc.devRef .tc main_v3) = (val_main_v9 (F := Ideal) x2)) :
    StableHlo.after hostOps1_2 V (Proc.devRef .tc main_v66) = val_main_v72 (F := Ideal) x1 x2 x3 := by
  dsimp only [hostOps1_2]
  after_results_simp
  rw [h1, h5, h3, hr]
  rfl

set_option maxHeartbeats 16000000 in
/-- Each angle's second leg. -/
theorem legB_step
    (h1 : V (Proc.devRef .tc main_arg1) = x1)
    (h5 : V (Proc.devRef .tc main_v5) = (val_main_v11 (F := Ideal) x2))
    (h4 : V (Proc.devRef .tc main_arg4) = x4)
    (hr : V (Proc.devRef .tc main_v3) = (val_main_v9 (F := Ideal) x2))
    (h3 : V (Proc.devRef .tc main_arg3) = x3) :
    StableHlo.after hostOps1_2 V (Proc.devRef .tc main_v81) = val_main_v87 (F := Ideal) x1 x2 x3 x4 := by
  dsimp only [hostOps1_2]
  after_results_simp
  rw [h1, h5, h4, hr, h3]
  rfl

/-- The norm of each row of a three-column array: the square root of the sum of squares. -/
theorem lenA_step_norm (y : (⟨S488691x3, .f32⟩ : BufTy).Contents (Elt Ideal))
    (h66 : V (Proc.devRef .tc main_v66) = y) :
    StableHlo.after hostOps1_3 V (Proc.devRef .tc main_v82)
      = Host.sqrt (Host.reduceAdd (F := Ideal) (mulf y y) (constant (F := Ideal) S_ .f32 0x00000000#32)
          reducesTo_S488691x3_S488691_d1 h_S_) := by
  dsimp only [hostOps1_3]
  after_results_simp
  rw [h66]
  rfl

/-- The first leg's length. -/
theorem lenA_step
    (h66 : V (Proc.devRef .tc main_v66) = (val_main_v72 (F := Ideal) x1 x2 x3)) :
    StableHlo.after hostOps1_3 V (Proc.devRef .tc main_v82) = val_main_v88 (F := Ideal) x1 x2 x3 := by
  refine (lenA_step_norm V _ h66).trans ?_
  unfold val_main_v88 val_main_call1_v1 val_main_call1_v0 val_main_call1_cst
  generalize val_main_v72 (F := Ideal) x1 x2 x3 = y
  rfl

/-- The norm of each row of a three-column array: the square root of the sum of squares. -/
theorem lenB_step_norm (y : (⟨S488691x3, .f32⟩ : BufTy).Contents (Elt Ideal))
    (h81 : V (Proc.devRef .tc main_v81) = y) :
    StableHlo.after hostOps1_4 V (Proc.devRef .tc main_v83)
      = Host.sqrt (Host.reduceAdd (F := Ideal) (mulf y y) (constant (F := Ideal) S_ .f32 0x00000000#32)
          reducesTo_S488691x3_S488691_d1 h_S_) := by
  dsimp only [hostOps1_4]
  after_results_simp
  rw [h81]
  rfl

/-- The second leg's length. -/
theorem lenB_step
    (h81 : V (Proc.devRef .tc main_v81) = (val_main_v87 (F := Ideal) x1 x2 x3 x4)) :
    StableHlo.after hostOps1_4 V (Proc.devRef .tc main_v83) = val_main_v89 (F := Ideal) x1 x2 x3 x4 := by
  refine (lenB_step_norm V _ h81).trans ?_
  unfold val_main_v89 val_main_call2_v1 val_main_call2_v0 val_main_call2_cst
  generalize val_main_v87 (F := Ideal) x1 x2 x3 x4 = y
  rfl

/-- The legs' inner product over the product of their lengths (bounded below by 1e-8). -/
theorem cosRaw_step
    (h66 : V (Proc.devRef .tc main_v66) = (val_main_v72 (F := Ideal) x1 x2 x3))
    (h81 : V (Proc.devRef .tc main_v81) = (val_main_v87 (F := Ideal) x1 x2 x3 x4))
    (h82 : V (Proc.devRef .tc main_v82) = (val_main_v88 (F := Ideal) x1 x2 x3))
    (h83 : V (Proc.devRef .tc main_v83) = (val_main_v89 (F := Ideal) x1 x2 x3 x4)) :
    StableHlo.after hostOps1_5 V (Proc.devRef .tc main_v89) = val_main_v95 (F := Ideal) x1 x2 x3 x4 := by
  dsimp only [hostOps1_5]
  after_results_simp
  rw [h66, h81, h82, h83]
  rfl

/-- The clip's lower bound, -1. -/
theorem lo_step :
    StableHlo.after hostOps1_5 V (Proc.devRef .tc main_cst_19) = val_main_cst_21 (F := Ideal) := by
  dsimp only [hostOps1_5]
  after_results_simp
  rfl

/-- The clip's upper bound, 1. -/
theorem hi_step :
    StableHlo.after hostOps1_5 V (Proc.devRef .tc main_cst_20) = val_main_cst_22 (F := Ideal) := by
  dsimp only [hostOps1_5]
  after_results_simp
  rfl

/-- The cosine, clipped to [-1, 1]. -/
theorem cos_step
    (hhi : V (Proc.devRef .tc main_cst_20) = val_main_cst_22 (F := Ideal))
    (hlo : V (Proc.devRef .tc main_cst_19) = val_main_cst_21 (F := Ideal))
    (h89 : V (Proc.devRef .tc main_v89) = (val_main_v95 (F := Ideal) x1 x2 x3 x4)) :
    StableHlo.after hostOps1_6 V (Proc.devRef .tc main_v90) = val_main_v96 (F := Ideal) x1 x2 x3 x4 := by
  dsimp only [hostOps1_6]
  after_results_simp
  rw [hhi, hlo, h89]
  rfl

/-- A value as one column. -/
theorem cosCol_step (y : (⟨S488691, .f32⟩ : BufTy).Contents (Elt Ideal))
    (h90 : V (Proc.devRef .tc main_v90) = y) :
    StableHlo.after hostOps1_7 V (Proc.devRef .tc main_v91) = shapeCast S488691x1 y shapeCasts_S488691_S488691x1 := by
  dsimp only [hostOps1_7]
  after_results_simp
  rw [h90]
  rfl

/-- The first bias as one row. -/
theorem ab1_step
    (h8 : V (Proc.devRef .tc main_arg8) = x8) :
    StableHlo.after hostOps1_7 V (Proc.devRef .tc main_v92) = shapeCast S1x32 x8 shapeCasts_S32_S1x32 := by
  dsimp only [hostOps1_7]
  after_results_simp
  rw [h8]
  rfl

/-- The second bias as one row. -/
theorem ab2_step
    (h10 : V (Proc.devRef .tc main_arg10) = x10) :
    StableHlo.after hostOps1_7 V (Proc.devRef .tc main_v93) = shapeCast S1x32 x10 shapeCasts_S32_S1x32 := by
  dsimp only [hostOps1_7]
  after_results_simp
  rw [h10]
  rfl

/-- The padding value's integer constant, 0. -/
theorem zero_step :
    StableHlo.after hostOps1_7 V (Proc.devRef .tc main_c_21) = constantI S_ 32 0#32 := by
  dsimp only [hostOps1_7]
  after_results_simp

/-- A column padded with zeros to a whole number of blocks. -/
theorem cospad_step (y : (⟨S488691x1, .f32⟩ : BufTy).Contents (Elt Ideal))
    (h91 : V (Proc.devRef .tc main_v91) = y)
    (hz : V (Proc.devRef .tc main_c_21) = constantI S_ 32 0#32) :
    StableHlo.after hostOps1_8 V (Proc.devRef .tc main_v94)
      = pad S491520x1 ![0, 0] ![2829, 0] ![0, 0] y
          (sitofp (F := Ideal) .f32 (constantI S_ 32 0#32)) pads_S488691x1_S491520x1_028290_000 h_S_ := by
  dsimp only [hostOps1_8]
  after_results_simp
  rw [h91, hz]
  rfl

end Steps

/-! ## The chain: each boundary's buffers as the reference's values of the launch arguments -/

/-- At the first kernel region's entry the token buffer holds the token ids as one column. -/
theorem tok (c : Dev nD) :
    W1 (F := Ideal) m ρ c (Proc.devRef .tc main_v0) = shapeCast S8192x1 (m ((c : Thread nD τ).loc main_arg0)) shapeCasts_S128x64_S8192x1 :=
  tok_step _ _ rfl

/-- At the first kernel region's entry the embedding table is as launched. -/
theorem emb_kept1 (c : Dev nD) :
    W1 (F := Ideal) m ρ c (Proc.devRef .tc main_arg5) = (m ((c : Thread nD τ).loc main_arg5)) :=
  (Carry.keep_hostOps0 _ main_arg5 (by decide)).trans rfl

theorem v3_at3 (c : Dev nD) :
    W3 (F := Ideal) m ρ c (Proc.devRef .tc main_v3) = val_main_v9 (F := Ideal) (m ((c : Thread nD τ).loc main_arg2)) :=
  row_step _ _ (launch2 m ρ c main_arg2 (by decide) (by decide))

theorem v5_at3 (c : Dev nD) :
    W3 (F := Ideal) m ρ c (Proc.devRef .tc main_v5) = val_main_v11 (F := Ideal) (m ((c : Thread nD τ).loc main_arg2)) :=
  col_step _ _ (launch2 m ρ c main_arg2 (by decide) (by decide))

theorem v20_at3 (c : Dev nD) :
    W3 (F := Ideal) m ρ c (Proc.devRef .tc main_v20) = val_main_v26 (F := Ideal) (m ((c : Thread nD τ).loc main_arg1)) (m ((c : Thread nD τ).loc main_arg2)) :=
  edgeVec_step _ _ _ (launch2 m ρ c main_arg1 (by decide) (by decide)) (launch2 m ρ c main_arg2 (by decide) (by decide))

theorem v21_at4 (c : Dev nD) :
    W4 (F := Ideal) m ρ c (Proc.devRef .tc main_v21) = val_main_v27 (F := Ideal) (m ((c : Thread nD τ).loc main_arg1)) (m ((c : Thread nD τ).loc main_arg2)) :=
  edgeLen_step _ _ _ (v20_at3 m ρ c)

theorem v3_at4 (c : Dev nD) :
    W4 (F := Ideal) m ρ c (Proc.devRef .tc main_v3) = val_main_v9 (F := Ideal) (m ((c : Thread nD τ).loc main_arg2)) :=
  (Carry.keep_hostOps1_1 _ main_v3 (by decide)).trans (v3_at3 m ρ c)

theorem v5_at4 (c : Dev nD) :
    W4 (F := Ideal) m ρ c (Proc.devRef .tc main_v5) = val_main_v11 (F := Ideal) (m ((c : Thread nD τ).loc main_arg2)) :=
  (Carry.keep_hostOps1_1 _ main_v5 (by decide)).trans (v5_at3 m ρ c)

theorem v30_at5 (c : Dev nD) :
    W5 (F := Ideal) m ρ c (Proc.devRef .tc main_v30) = val_main_v36 (F := Ideal) (m ((c : Thread nD τ).loc main_arg1)) (m ((c : Thread nD τ).loc main_arg2)) (m ((c : Thread nD τ).loc main_arg6)) :=
  rbf_step _ _ _ _ (v21_at4 m ρ c) ((kept4 m ρ c main_arg6 (by decide)).trans (launch2 m ρ c main_arg6 (by decide) (by decide)))

theorem v66_at5 (c : Dev nD) :
    W5 (F := Ideal) m ρ c (Proc.devRef .tc main_v66) = val_main_v72 (F := Ideal) (m ((c : Thread nD τ).loc main_arg1)) (m ((c : Thread nD τ).loc main_arg2)) (m ((c : Thread nD τ).loc main_arg3)) :=
  legA_step _ _ _ _ ((kept4 m ρ c main_arg1 (by decide)).trans (launch2 m ρ c main_arg1 (by decide) (by decide))) (v5_at4 m ρ c) ((kept4 m ρ c main_arg3 (by decide)).trans (launch2 m ρ c main_arg3 (by decide) (by decide))) (v3_at4 m ρ c)

theorem v81_at5 (c : Dev nD) :
    W5 (F := Ideal) m ρ c (Proc.devRef .tc main_v81) = val_main_v87 (F := Ideal) (m ((c : Thread nD τ).loc main_arg1)) (m ((c : Thread nD τ).loc main_arg2)) (m ((c : Thread nD τ).loc main_arg3)) (m ((c : Thread nD τ).loc main_arg4)) :=
  legB_step _ _ _ _ _ ((kept4 m ρ c main_arg1 (by decide)).trans (launch2 m ρ c main_arg1 (by decide) (by decide))) (v5_at4 m ρ c) ((kept4 m ρ c main_arg4 (by decide)).trans (launch2 m ρ c main_arg4 (by decide) (by decide))) (v3_at4 m ρ c) ((kept4 m ρ c main_arg3 (by decide)).trans (launch2 m ρ c main_arg3 (by decide) (by decide)))

theorem v82_at6 (c : Dev nD) :
    W6 (F := Ideal) m ρ c (Proc.devRef .tc main_v82) = val_main_v88 (F := Ideal) (m ((c : Thread nD τ).loc main_arg1)) (m ((c : Thread nD τ).loc main_arg2)) (m ((c : Thread nD τ).loc main_arg3)) :=
  lenA_step _ _ _ _ (v66_at5 m ρ c)

theorem v81_at6 (c : Dev nD) :
    W6 (F := Ideal) m ρ c (Proc.devRef .tc main_v81) = val_main_v87 (F := Ideal) (m ((c : Thread nD τ).loc main_arg1)) (m ((c : Thread nD τ).loc main_arg2)) (m ((c : Thread nD τ).loc main_arg3)) (m ((c : Thread nD τ).loc main_arg4)) :=
  (Carry.keep_hostOps1_3 _ main_v81 (by decide)).trans (v81_at5 m ρ c)

theorem v66_at6 (c : Dev nD) :
    W6 (F := Ideal) m ρ c (Proc.devRef .tc main_v66) = val_main_v72 (F := Ideal) (m ((c : Thread nD τ).loc main_arg1)) (m ((c : Thread nD τ).loc main_arg2)) (m ((c : Thread nD τ).loc main_arg3)) :=
  (Carry.keep_hostOps1_3 _ main_v66 (by decide)).trans (v66_at5 m ρ c)

theorem v83_at7 (c : Dev nD) :
    W7 (F := Ideal) m ρ c (Proc.devRef .tc main_v83) = val_main_v89 (F := Ideal) (m ((c : Thread nD τ).loc main_arg1)) (m ((c : Thread nD τ).loc main_arg2)) (m ((c : Thread nD τ).loc main_arg3)) (m ((c : Thread nD τ).loc main_arg4)) :=
  lenB_step _ _ _ _ _ (v81_at6 m ρ c)

theorem v66_at7 (c : Dev nD) :
    W7 (F := Ideal) m ρ c (Proc.devRef .tc main_v66) = val_main_v72 (F := Ideal) (m ((c : Thread nD τ).loc main_arg1)) (m ((c : Thread nD τ).loc main_arg2)) (m ((c : Thread nD τ).loc main_arg3)) :=
  (Carry.keep_hostOps1_4 _ main_v66 (by decide)).trans (v66_at6 m ρ c)

theorem v81_at7 (c : Dev nD) :
    W7 (F := Ideal) m ρ c (Proc.devRef .tc main_v81) = val_main_v87 (F := Ideal) (m ((c : Thread nD τ).loc main_arg1)) (m ((c : Thread nD τ).loc main_arg2)) (m ((c : Thread nD τ).loc main_arg3)) (m ((c : Thread nD τ).loc main_arg4)) :=
  (Carry.keep_hostOps1_4 _ main_v81 (by decide)).trans (v81_at6 m ρ c)

theorem v82_at7 (c : Dev nD) :
    W7 (F := Ideal) m ρ c (Proc.devRef .tc main_v82) = val_main_v88 (F := Ideal) (m ((c : Thread nD τ).loc main_arg1)) (m ((c : Thread nD τ).loc main_arg2)) (m ((c : Thread nD τ).loc main_arg3)) :=
  (Carry.keep_hostOps1_4 _ main_v82 (by decide)).trans (v82_at6 m ρ c)

theorem v89_at8 (c : Dev nD) :
    W8 (F := Ideal) m ρ c (Proc.devRef .tc main_v89) = val_main_v95 (F := Ideal) (m ((c : Thread nD τ).loc main_arg1)) (m ((c : Thread nD τ).loc main_arg2)) (m ((c : Thread nD τ).loc main_arg3)) (m ((c : Thread nD τ).loc main_arg4)) :=
  cosRaw_step _ _ _ _ _ (v66_at7 m ρ c) (v81_at7 m ρ c) (v82_at7 m ρ c) (v83_at7 m ρ c)

theorem lo_at8 (c : Dev nD) :
    W8 (F := Ideal) m ρ c (Proc.devRef .tc main_cst_19) = val_main_cst_21 (F := Ideal) :=
  lo_step _

theorem hi_at8 (c : Dev nD) :
    W8 (F := Ideal) m ρ c (Proc.devRef .tc main_cst_20) = val_main_cst_22 (F := Ideal) :=
  hi_step _

theorem v90_at9 (c : Dev nD) :
    W9 (F := Ideal) m ρ c (Proc.devRef .tc main_v90) = val_main_v96 (F := Ideal) (m ((c : Thread nD τ).loc main_arg1)) (m ((c : Thread nD τ).loc main_arg2)) (m ((c : Thread nD τ).loc main_arg3)) (m ((c : Thread nD τ).loc main_arg4)) :=
  cos_step _ _ _ _ _ (hi_at8 m ρ c) (lo_at8 m ρ c) (v89_at8 m ρ c)

theorem v91_at10 (c : Dev nD) :
    W10 (F := Ideal) m ρ c (Proc.devRef .tc main_v91) = shapeCast S488691x1 (val_main_v96 (F := Ideal) (m ((c : Thread nD τ).loc main_arg1)) (m ((c : Thread nD τ).loc main_arg2)) (m ((c : Thread nD τ).loc main_arg3)) (m ((c : Thread nD τ).loc main_arg4))) shapeCasts_S488691_S488691x1 :=
  cosCol_step _ _ (v90_at9 m ρ c)

theorem v92_at10 (c : Dev nD) :
    W10 (F := Ideal) m ρ c (Proc.devRef .tc main_v92) = shapeCast S1x32 (m ((c : Thread nD τ).loc main_arg8)) shapeCasts_S32_S1x32 :=
  ab1_step _ _ ((kept9 m ρ c main_arg8 (by decide)).trans (launch2 m ρ c main_arg8 (by decide) (by decide)))

theorem v93_at10 (c : Dev nD) :
    W10 (F := Ideal) m ρ c (Proc.devRef .tc main_v93) = shapeCast S1x32 (m ((c : Thread nD τ).loc main_arg10)) shapeCasts_S32_S1x32 :=
  ab2_step _ _ ((kept9 m ρ c main_arg10 (by decide)).trans (launch2 m ρ c main_arg10 (by decide) (by decide)))

theorem zero_at10 (c : Dev nD) :
    W10 (F := Ideal) m ρ c (Proc.devRef .tc main_c_21) = constantI S_ 32 0#32 :=
  zero_step _

/-! ## At the second kernel region's entry -/

/-- The edges' source nodes. -/
theorem row (c : Dev nD) :
    W11 (F := Ideal) m ρ c (Proc.devRef .tc main_v3) = val_main_v9 (F := Ideal) (m ((c : Thread nD τ).loc main_arg2)) :=
  (Carry.keep_hostOps1_8 _ main_v3 (by decide)).trans ((Carry.keep_hostOps1_7 _ main_v3 (by decide)).trans ((Carry.keep_hostOps1_6 _ main_v3 (by decide)).trans ((Carry.keep_hostOps1_5 _ main_v3 (by decide)).trans ((Carry.keep_hostOps1_4 _ main_v3 (by decide)).trans ((Carry.keep_hostOps1_3 _ main_v3 (by decide)).trans ((Carry.keep_hostOps1_2 _ main_v3 (by decide)).trans ((Carry.keep_hostOps1_1 _ main_v3 (by decide)).trans (v3_at3 m ρ c))))))))

/-- The edges' target nodes. -/
theorem col (c : Dev nD) :
    W11 (F := Ideal) m ρ c (Proc.devRef .tc main_v5) = val_main_v11 (F := Ideal) (m ((c : Thread nD τ).loc main_arg2)) :=
  (Carry.keep_hostOps1_8 _ main_v5 (by decide)).trans ((Carry.keep_hostOps1_7 _ main_v5 (by decide)).trans ((Carry.keep_hostOps1_6 _ main_v5 (by decide)).trans ((Carry.keep_hostOps1_5 _ main_v5 (by decide)).trans ((Carry.keep_hostOps1_4 _ main_v5 (by decide)).trans ((Carry.keep_hostOps1_3 _ main_v5 (by decide)).trans ((Carry.keep_hostOps1_2 _ main_v5 (by decide)).trans ((Carry.keep_hostOps1_1 _ main_v5 (by decide)).trans (v5_at3 m ρ c))))))))

/-- The radial basis of the edges' lengths. -/
theorem rbf (c : Dev nD) :
    W11 (F := Ideal) m ρ c (Proc.devRef .tc main_v30) = val_main_v36 (F := Ideal) (m ((c : Thread nD τ).loc main_arg1)) (m ((c : Thread nD τ).loc main_arg2)) (m ((c : Thread nD τ).loc main_arg6)) :=
  (Carry.keep_hostOps1_8 _ main_v30 (by decide)).trans ((Carry.keep_hostOps1_7 _ main_v30 (by decide)).trans ((Carry.keep_hostOps1_6 _ main_v30 (by decide)).trans ((Carry.keep_hostOps1_5 _ main_v30 (by decide)).trans ((Carry.keep_hostOps1_4 _ main_v30 (by decide)).trans ((Carry.keep_hostOps1_3 _ main_v30 (by decide)).trans (v30_at5 m ρ c))))))

/-- The clipped cosine of each angle, as a column padded with zeros. -/
theorem cospad (c : Dev nD) :
    W11 (F := Ideal) m ρ c (Proc.devRef .tc main_v94) = pad S491520x1 ![0, 0] ![2829, 0] ![0, 0]
        (shapeCast S488691x1 (val_main_v96 (F := Ideal) (m ((c : Thread nD τ).loc main_arg1)) (m ((c : Thread nD τ).loc main_arg2)) (m ((c : Thread nD τ).loc main_arg3)) (m ((c : Thread nD τ).loc main_arg4))) shapeCasts_S488691_S488691x1)
        (sitofp (F := Ideal) .f32 (constantI S_ 32 0#32)) pads_S488691x1_S491520x1_028290_000 h_S_ :=
  cospad_step _ _ (v91_at10 m ρ c) (zero_at10 m ρ c)

/-- The first bias as one row. -/
theorem ab1 (c : Dev nD) :
    W11 (F := Ideal) m ρ c (Proc.devRef .tc main_v92) = shapeCast S1x32 (m ((c : Thread nD τ).loc main_arg8)) shapeCasts_S32_S1x32 :=
  (Carry.keep_hostOps1_8 _ main_v92 (by decide)).trans (v92_at10 m ρ c)

/-- The second bias as one row. -/
theorem ab2 (c : Dev nD) :
    W11 (F := Ideal) m ρ c (Proc.devRef .tc main_v93) = shapeCast S1x32 (m ((c : Thread nD τ).loc main_arg10)) shapeCasts_S32_S1x32 :=
  (Carry.keep_hostOps1_8 _ main_v93 (by decide)).trans (v93_at10 m ρ c)

/-- The first kernel region's output is untouched up to the second region's entry. -/
theorem x0_kept (c : Dev nD) :
    W11 (F := Ideal) m ρ c (Proc.devRef .tc main_v1) = W2 (F := Ideal) m ρ c (Proc.devRef .tc main_v1) :=
  kept11' m ρ c main_v1 (by decide)

theorem arg1_kept11 (c : Dev nD) :
    W11 (F := Ideal) m ρ c (Proc.devRef .tc main_arg1) = (m ((c : Thread nD τ).loc main_arg1)) :=
  (kept11' m ρ c main_arg1 (by decide)).trans (launch2 m ρ c main_arg1 (by decide) (by decide))

theorem arg2_kept11 (c : Dev nD) :
    W11 (F := Ideal) m ρ c (Proc.devRef .tc main_arg2) = (m ((c : Thread nD τ).loc main_arg2)) :=
  (kept11' m ρ c main_arg2 (by decide)).trans (launch2 m ρ c main_arg2 (by decide) (by decide))

theorem arg3_kept11 (c : Dev nD) :
    W11 (F := Ideal) m ρ c (Proc.devRef .tc main_arg3) = (m ((c : Thread nD τ).loc main_arg3)) :=
  (kept11' m ρ c main_arg3 (by decide)).trans (launch2 m ρ c main_arg3 (by decide) (by decide))

theorem arg4_kept11 (c : Dev nD) :
    W11 (F := Ideal) m ρ c (Proc.devRef .tc main_arg4) = (m ((c : Thread nD τ).loc main_arg4)) :=
  (kept11' m ρ c main_arg4 (by decide)).trans (launch2 m ρ c main_arg4 (by decide) (by decide))

theorem arg6_kept11 (c : Dev nD) :
    W11 (F := Ideal) m ρ c (Proc.devRef .tc main_arg6) = (m ((c : Thread nD τ).loc main_arg6)) :=
  (kept11' m ρ c main_arg6 (by decide)).trans (launch2 m ρ c main_arg6 (by decide) (by decide))

theorem arg7_kept11 (c : Dev nD) :
    W11 (F := Ideal) m ρ c (Proc.devRef .tc main_arg7) = (m ((c : Thread nD τ).loc main_arg7)) :=
  (kept11' m ρ c main_arg7 (by decide)).trans (launch2 m ρ c main_arg7 (by decide) (by decide))

theorem arg8_kept11 (c : Dev nD) :
    W11 (F := Ideal) m ρ c (Proc.devRef .tc main_arg8) = (m ((c : Thread nD τ).loc main_arg8)) :=
  (kept11' m ρ c main_arg8 (by decide)).trans (launch2 m ρ c main_arg8 (by decide) (by decide))

theorem arg9_kept11 (c : Dev nD) :
    W11 (F := Ideal) m ρ c (Proc.devRef .tc main_arg9) = (m ((c : Thread nD τ).loc main_arg9)) :=
  (kept11' m ρ c main_arg9 (by decide)).trans (launch2 m ρ c main_arg9 (by decide) (by decide))

theorem arg10_kept11 (c : Dev nD) :
    W11 (F := Ideal) m ρ c (Proc.devRef .tc main_arg10) = (m ((c : Thread nD τ).loc main_arg10)) :=
  (kept11' m ρ c main_arg10 (by decide)).trans (launch2 m ρ c main_arg10 (by decide) (by decide))

theorem arg11_kept11 (c : Dev nD) :
    W11 (F := Ideal) m ρ c (Proc.devRef .tc main_arg11) = (m ((c : Thread nD τ).loc main_arg11)) :=
  (kept11' m ρ c main_arg11 (by decide)).trans (launch2 m ρ c main_arg11 (by decide) (by decide))

theorem arg12_kept11 (c : Dev nD) :
    W11 (F := Ideal) m ρ c (Proc.devRef .tc main_arg12) = (m ((c : Thread nD τ).loc main_arg12)) :=
  (kept11' m ρ c main_arg12 (by decide)).trans (launch2 m ρ c main_arg12 (by decide) (by decide))

theorem arg13_kept11 (c : Dev nD) :
    W11 (F := Ideal) m ρ c (Proc.devRef .tc main_arg13) = (m ((c : Thread nD τ).loc main_arg13)) :=
  (kept11' m ρ c main_arg13 (by decide)).trans (launch2 m ρ c main_arg13 (by decide) (by decide))

theorem arg14_kept11 (c : Dev nD) :
    W11 (F := Ideal) m ρ c (Proc.devRef .tc main_arg14) = (m ((c : Thread nD τ).loc main_arg14)) :=
  (kept11' m ρ c main_arg14 (by decide)).trans (launch2 m ρ c main_arg14 (by decide) (by decide))

theorem arg15_kept11 (c : Dev nD) :
    W11 (F := Ideal) m ρ c (Proc.devRef .tc main_arg15) = (m ((c : Thread nD τ).loc main_arg15)) :=
  (kept11' m ρ c main_arg15 (by decide)).trans (launch2 m ρ c main_arg15 (by decide) (by decide))

theorem arg16_kept11 (c : Dev nD) :
    W11 (F := Ideal) m ρ c (Proc.devRef .tc main_arg16) = (m ((c : Thread nD τ).loc main_arg16)) :=
  (kept11' m ρ c main_arg16 (by decide)).trans (launch2 m ρ c main_arg16 (by decide) (by decide))

end Cert.KernelIdeal.Glue1
-- ==== Proof.Embed0.lean ====
/-
  The embedding stage. The kernel looks a token up as a product of a one-hot row with the [128, 512] table; the
  reference reads the table's row at the token. For a token in [0, 128) the one-hot row has its single 1 at the
  token, so the sum over the 128 table rows collapses to that row's entry; and the reference's wrap of negative
  tokens and its clamp of the row index both leave such a token alone.
-/
import proofs.«430973_j37220186587498_2_alg».proof.Proof.Gen.KernelIdeal.Frame
import proofs.«430973_j37220186587498_2_alg».proof.Proof.ReadB
import proofs.«430973_j37220186587498_2_alg».proof.Proof.TokOk
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Embed0

open Cert.KernelIdeal Cert.KernelIdeal.Gen Cert.KernelIdeal.Tok
open Idealize.ShloMosaic Idealize.ShloMosaic.TcCoe Idealize.SL.Sem
open Idealize.ShloMosaic.ValueIdx
open Idealize.ShloMosaic.Pipeline (Dat Cfg Window)

/-! ## The one-hot row against the table: one term survives -/

/-- The table row a token word names, clamped into the table (for a token below 128 the clamp is the identity). -/
def row (w : BitVec 32) : Fin 128 := ⟨min w.toNat 127, by omega⟩

theorem row_val_of_lt (w : BitVec 32) (h : w.toNat < 128) : (row w).val = w.toNat := by
  show min w.toNat 127 = w.toNat
  omega

/-- A sum over the 128 rows of (1 at the token's row, 0 elsewhere) times an entry is the entry at the token's row:
    the product of 0 with ANY extended real is 0, so no finiteness of the entries is needed. -/
theorem sum_onehot (w : BitVec 32) (hw : w.toNat < 128) (e : Fin 128 → EReal) :
    ∑ k : Fin 128, (if w = BitVec.ofNat 32 k.val then (1 : EReal) else 0) * e k = e (row w) := by
  rw [Finset.sum_eq_single (row w)]
  · rw [if_pos, one_mul]
    rw [row_val_of_lt w hw]
    simp
  · intro k _ hk
    rw [if_neg, zero_mul]
    intro h
    apply hk
    apply Fin.ext
    rw [row_val_of_lt w hw, h, BitVec.toNat_ofNat]
    have := k.isLt
    omega
  · intro h
    exact absurd (Finset.mem_univ _) h

/-- The word 1 or 0 a comparison gives, widened to 32 bits and read as a signed integer, is the real 1 or 0. -/
theorem onehot_scalar (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  unfold IntOp.cmpi
  by_cases h : a = b
  · subst h
    rw [if_pos rfl]
    have : (a == a) = true := by simp
    rw [this]
    have h1 : ((BitVec.ofBool true).setWidth 32).toInt = 1 := by decide
    rw [h1]
    simp
  · rw [if_neg h]
    have : (a == b) = false := by simp [h]
    rw [this]
    have h0 : ((BitVec.ofBool false).setWidth 32).toInt = 0 := by decide
    rw [h0]
    simp

/-! ## The product at an index -/

theorem lhs_ax0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_ax1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
theorem rhs_ax0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
theorem rhs_ax1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- Row `r`, column `k` of the [1024, 128] one-hot block. -/
abbrev lidx (i : S1024x512.Idx) (k : Fin 128) : S1024x128.Idx := fun a => match a with
  | ⟨0, _⟩ => ⟨(i 0).val, (i 0).isLt⟩
  | ⟨1, _⟩ => ⟨k.val, k.isLt⟩
/-- Row `k`, column `j` of the table. -/
abbrev ridx (i : S1024x512.Idx) (k : Fin 128) : S128x512.Idx := fun a => match a with
  | ⟨0, _⟩ => ⟨k.val, k.isLt⟩
  | ⟨1, _⟩ => ⟨(i 1).val, (i 1).isLt⟩

/-- The matrix product into the zero block, at an index: the sum over the 128 table rows. -/
theorem matmul_at (lhs : FVec Ideal S1024x128 .f32) (rhs : FVec Ideal S128x512 .f32) (i : S1024x512.Idx) :
    FloatOps.matmul dot_S1024x128_S128x512_S1024x512_1_0_0_1_n_n (some .fp32) lhs rhs (constant S1024x512 .f32 0x00000000#32) i
      = ∑ k : Fin 128, lhs (lidx i k) * rhs (ridx i k) := by
  rw [Ideal.matmul_constant_zero_apply, ← Equiv.sum_comp (ValueIdx.contrEquiv1 dot_S1024x128_S128x512_S1024x512_1_0_0_1_n_n 128 rfl rfl).symm]
  refine Finset.sum_congr rfl fun k _ => ?_
  have hk := ValueIdx.contrEquiv1_symm_val dot_S1024x128_S128x512_S1024x512_1_0_0_1_n_n 128 rfl rfl k
  have el : dot_S1024x128_S128x512_S1024x512_1_0_0_1_n_n.lhsIdx i ((ValueIdx.contrEquiv1 dot_S1024x128_S128x512_S1024x512_1_0_0_1_n_n 128 rfl rfl).symm k) = lidx i k := funext fun a => Fin.ext (by
    match a with
    | ⟨0, _⟩ => exact lhs_ax0 _ _
    | ⟨1, _⟩ => exact (lhs_ax1 _ _).trans hk)
  have er : dot_S1024x128_S128x512_S1024x512_1_0_0_1_n_n.rhsIdx i ((ValueIdx.contrEquiv1 dot_S1024x128_S128x512_S1024x512_1_0_0_1_n_n 128 rfl rfl).symm k) = ridx i k := funext fun a => Fin.ext (by
    match a with
    | ⟨0, _⟩ => exact (rhs_ax0 _ _).trans hk
    | ⟨1, _⟩ => exact rhs_ax1 _ _)
  rw [el, er]

/-- The [1024, 1] block's index of row `r`. -/
abbrev col (r : Fin 1024) : S1024x1.Idx := fun a => match a with
  | ⟨0, _⟩ => ⟨r.val, r.isLt⟩
  | ⟨1, _⟩ => ⟨0, Nat.one_pos⟩

/-- The one-hot block at (r, k): 1 when row r's token is the word k, else 0. -/
theorem onehot_at (v0 : Vec Ideal S1024x1 .i32) (i : S1024x512.Idx) (k : Fin 128) :
    (sitofp .f32 (extui 32 (cmpi .eq (broadcastTo S1024x128 (shapeCast S1024x1 v0 Facts₀.shapeCasts_S1024x1_S1024x1) Facts₀.broadcasts_S1024x1_S1024x128)
        (iota .tc S1024x128 32 [1] Facts₀.iota_S1024x128_d1_w32)) Facts₀.natLt_1_32) : FVec Ideal S1024x128 .f32) (lidx i k)
      = if v0 (col ⟨(i 0).val, (i 0).isLt⟩) = BitVec.ofNat 32 k.val then 1 else 0 := by
  rw [shapeCast_self]
  show FloatOps.sitofp (F := Ideal) .f32 ((IntOp.cmpi .eq (broadcastTo S1024x128 v0 Facts₀.broadcasts_S1024x1_S1024x128 (lidx i k))
      (iota .tc S1024x128 32 [1] Facts₀.iota_S1024x128_d1_w32 (lidx i k))).setWidth 32) = _
  rw [onehot_scalar, iota_single_apply,
    broadcastTo_apply v0 Facts₀.broadcasts_S1024x1_S1024x128 (lidx i k) (col ⟨(i 0).val, (i 0).isLt⟩) (fun a => by
      match a with
      | ⟨0, _⟩ => show (i 0).val = if (1024 : Nat) = 1 then 0 else (i 0).val; rw [if_neg (by decide)]
      | ⟨1, _⟩ => show 0 = if (1 : Nat) = 1 then 0 else _; rw [if_pos rfl])]

/-- THE PAYLOAD AT AN INDEX: the body's product at (r, j) is the table at (row r's token, j). -/
theorem payload_at (v0 : Vec Ideal S1024x1 .i32) (v7 : Vec Ideal S128x512 .f32) (i : S1024x512.Idx)
    (w : BitVec 32) (hw : w.toNat < 128) (h0 : v0 (col ⟨(i 0).val, (i 0).isLt⟩) = w) :
    k0_pay1 (F := Ideal) v0 v7 i = v7 (ix2 (row w) ⟨(i 1).val, idx2_lt1 i⟩) := by
  unfold k0_pay1
  refine (matmul_at _ _ _).trans ?_
  refine (Finset.sum_congr rfl fun k _ =>
    congrArg (· * v7 (ridx i k)) ((onehot_at v0 i k).trans (by rw [h0]))).trans ?_
  refine (sum_onehot w hw (fun k => v7 (ridx i k))).trans ?_
  refine congrArg v7 (funext fun a => ?_)
  match a with
  | ⟨0, _⟩ => rfl
  | ⟨1, _⟩ => rfl

/-! ## The specification: the result as one function of the token array and the table -/

/-- The token array's index of entry `r` of the flattened list of 8192 tokens. -/
abbrev tokIdx (r : Fin 8192) : S128x64.Idx := fun a => match a with
  | ⟨0, _⟩ => ⟨r.val / 64, by have := r.isLt; show r.val / 64 < 128; omega⟩
  | ⟨1, _⟩ => ⟨r.val % 64, by show r.val % 64 < 64; omega⟩

/-- THE EMBEDDING: row r, column j of the result is the table at (token r, j). -/
def G (x0 : S128x64.Idx → BitVec 32) (x5 : S128x512.Idx → EReal) : S8192x512.Idx → EReal :=
  fun i => x5 (ix2 (row (x0 (tokIdx ⟨(i 0).val, idx2_lt0 i⟩))) ⟨(i 1).val, idx2_lt1 i⟩)

/-- The same with the two coordinates named. -/
theorem G_eq (x0 : S128x64.Idx → BitVec 32) (x5 : S128x512.Idx → EReal) (i : S8192x512.Idx) (r : Fin 8192) (b : Fin 512)
    (er : (i 0).val = r.val) (eb : (i 1).val = b.val) : G x0 x5 i = x5 (ix2 (row (x0 (tokIdx r))) b) := by
  unfold G
  have h1 : (⟨(i 0).val, idx2_lt0 i⟩ : Fin 8192) = r := Fin.ext er
  have h2 : (⟨(i 1).val, idx2_lt1 i⟩ : Fin 512) = b := Fin.ext eb
  rw [h1, h2]

/-! ## From the blocks to the array -/

theorem hz : (![0, 0] : Fin 2 → Nat) = fun _ => 0 := funext fun a => by fin_cases a <;> rfl

/-- The printed index maps, decided over the 8 grid points: the token window moves with the output window along the
    rows, the table window stays, and neither moves along the columns. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every block of 1024 rows is some point's. -/
theorem idx_onto : ∀ q : Fin 8, ∃ t : Fin cfg0.N, win0_2.index t = ![q.val, 0] :=
  (by decide +kernel : ∀ q : Fin 8, ∃ t : Fin grid0.N, win0_2.index t = ![q.val, 0])

/-- WHAT POINT `t` WRITES BACK is block `t` of the embedding. -/
theorem flushed_eq (V : (c : Dev nD) → (b : Ref sig .tc) → Buf (Elt Ideal) ((c : Thread nD τ).loc b)) (c : Dev nD)
    (x0 : (⟨S128x64, .i32⟩ : BufTy).Contents (Elt Ideal)) (x5 : (⟨S128x512, .f32⟩ : BufTy).Contents (Elt Ideal))
    (hr : TokOk x0)
    (h0 : V c main_v0 = shapeCast S8192x1 x0 Facts₀.shapeCasts_S128x64_S8192x1)
    (h1 : V c main_arg5 = x5) (t : Fin cfg0.N) :
    (dat0 (F := Ideal) V c).flushed 2 t = ((cfg0.win 2).blk t).view.read (Elt Ideal) (G x0 x5) := by
  show (cfg0.win 2).cut (grid0.coords t) ((dat0 (F := Ideal) V c).after 2 t) = _
  rw [after0_2]
  unfold out0_2
  rw [View.canon_unit_zero hz]
  simp only [View.ld_unit_zero (S := S1024x1) hz, View.ld_unit_zero (S := S128x512) hz]
  obtain ⟨f0, f1, f2, f3, f4, f5⟩ := idx_facts t
  funext j
  have hj0 : (j 0).val < 1024 := (j 0).isLt
  have hj1 : (j 1).val < 512 := (j 1).isLt
  show k0_pay1 (F := Ideal) (iblk0 V c 0 t) (iblk0 V c 1 t) j = G x0 x5 (((cfg0.win 2).blk t).view.emb j)
  -- the token of row (j 0) of the block is token (block × 1024 + j 0) of the list
  have e0 : iblk0 V c 0 t (col ⟨(j 0).val, (j 0).isLt⟩)
      = x0 (tokIdx ⟨win0_2.index t (0 : Fin 2) * 1024 + (j 0).val, by omega⟩) := by
    show V c main_v0 (((cfg0.win 0).blk t).view.emb (col ⟨(j 0).val, (j 0).isLt⟩)) = _
    rw [h0]
    refine shapeCast_apply x0 _ _ _ ?_
    rw [Shape.rowMajor_val_two, Shape.rowMajor_val_two]
    show (win0_2.index t (0 : Fin 2) * 1024 + (j 0).val) / 64 * 64 + (win0_2.index t (0 : Fin 2) * 1024 + (j 0).val) % 64
      = (win0_0.index t (0 : Fin 2) * 1024 + 1 * (j 0).val) * 1 + (win0_0.index t (1 : Fin 2) * 1 + 1 * 0)
    omega
  -- the table block is the table
  have e1 : ∀ y : S128x512.Idx, iblk0 V c 1 t y = x5 y := fun y => by
    show V c main_arg5 (((cfg0.win 1).blk t).view.emb y) = _
    rw [h1]
    refine congrArg x5 (funext fun a => Fin.ext ?_)
    match a with
    | ⟨0, _⟩ => show win0_1.index t (0 : Fin 2) * 128 + 1 * (y 0).val = (y 0).val; omega
    | ⟨1, _⟩ => show win0_1.index t (1 : Fin 2) * 512 + 1 * (y 1).val = (y 1).val; omega
  refine (payload_at _ _ j _ (hr _) e0).trans ?_
  rw [e1]
  refine (G_eq x0 x5 _ ⟨win0_2.index t (0 : Fin 2) * 1024 + (j 0).val, by omega⟩ ⟨(j 1).val, hj1⟩ ?_ ?_).symm
  · show win0_2.index t (0 : Fin 2) * 1024 + 1 * (j 0).val = win0_2.index t (0 : Fin 2) * 1024 + (j 0).val
    omega
  · show win0_2.index t (1 : Fin 2) * 512 + 1 * (j 1).val = (j 1).val
    omega

/-- An index of the array is in point `t`'s block iff each coordinate is in the block's range on its axis. -/
theorem mem_blk (t : Fin cfg0.N) (i : S8192x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v1).slice (win0_2.rect t)).set ↔ _
  rw [View.set_slice_whole, Rect.mem_set_unit]
  exact Iff.rfl

/-- The 8 blocks of 1024 rows tile the 8192 rows: row r is in block r / 1024. -/
theorem cover (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- THE KERNEL'S ARRAY after the region: the embedding. -/
theorem kernel_array (V : (c : Dev nD) → (b : Ref sig .tc) → Buf (Elt Ideal) ((c : Thread nD τ).loc b)) (c : Dev nD)
    (x0 : (⟨S128x64, .i32⟩ : BufTy).Contents (Elt Ideal)) (x5 : (⟨S128x512, .f32⟩ : BufTy).Contents (Elt Ideal))
    (hr : TokOk x0)
    (h0 : V c main_v0 = shapeCast S8192x1 x0 Facts₀.shapeCasts_S128x64_S8192x1)
    (h1 : V c main_arg5 = x5) :
    (dat0 (F := Ideal) V c).arrAt 2 cfg0.N = G x0 x5 :=
  (dat0 (F := Ideal) V c).arrAt_eq_of_cover 2 (G x0 x5) (fun t _ => flushed_eq V c x0 x5 hr h0 h1 t) cover

/-! ## The reference's gather at an index -/

theorem ne_one_zero : ¬ ((1 : Fin 2) = 0) := by decide

/-- The reference's row lookup at result index (a, b, j): the table at (the start index at (a, b, 0), read signed and
    clamped into [0, 127]; j). -/
theorem gather_at (x5 : Cert.ReferenceIdeal.S128x512.Idx → EReal) (idx : IVec Cert.ReferenceIdeal.S128x64x1 32)
    (j : Cert.ReferenceIdeal.S128x64x512.Idx) :
    Host.gather Cert.ReferenceIdeal.gather_S128x512_S128x64x1_S128x64x512_2_0_n_n_0_2_1512 x5 idx j
      = x5 (ix2 (⟨min (idx (ix3 (j 0) (j 1) ⟨0, Nat.one_pos⟩)).toInt.toNat 127, by omega⟩ : Fin 128) (j 2)) := by
  unfold Host.gather
  congr 1
  funext a
  refine Fin.ext ?_
  match a with
  | ⟨0, _⟩ =>
    show Cert.ReferenceIdeal.gather_S128x512_S128x64x1_S128x64x512_2_0_n_n_0_2_1512.start j idx 0
      + Cert.ReferenceIdeal.gather_S128x512_S128x64x1_S128x64x512_2_0_n_n_0_2_1512.batchCoord j 0
      + Cert.ReferenceIdeal.gather_S128x512_S128x64x1_S128x64x512_2_0_n_n_0_2_1512.offCoord j 0 = _
    rw [GatherDims.batchCoord_eq_zero _ _ _ (show (0 : Fin 2) ∉ Cert.ReferenceIdeal.gather_S128x512_S128x64x1_S128x64x512_2_0_n_n_0_2_1512.operandBatchingDims from List.not_mem_nil),
      GatherDims.offCoord_eq_zero _ _ _ (fun h => ((GatherDims.mem_sKept _ _).mp h).1
        (show (0 : Fin 2) ∈ Cert.ReferenceIdeal.gather_S128x512_S128x64x1_S128x64x512_2_0_n_n_0_2_1512.collapsedSliceDims from List.mem_singleton.mpr rfl))]
    simp only [Nat.add_zero]
    unfold GatherDims.start
    rw [dif_pos (show (0 : Fin 2) ∈ Cert.ReferenceIdeal.gather_S128x512_S128x64x1_S128x64x512_2_0_n_n_0_2_1512.startIndexMap from List.mem_singleton.mpr rfl)]
    have hsi : Cert.ReferenceIdeal.gather_S128x512_S128x64x1_S128x64x512_2_0_n_n_0_2_1512.siIdx j
        ⟨List.idxOf (0 : Fin 2) Cert.ReferenceIdeal.gather_S128x512_S128x64x1_S128x64x512_2_0_n_n_0_2_1512.startIndexMap,
          List.idxOf_lt_length_iff.2 (show (0 : Fin 2) ∈ Cert.ReferenceIdeal.gather_S128x512_S128x64x1_S128x64x512_2_0_n_n_0_2_1512.startIndexMap from List.mem_singleton.mpr rfl)⟩
          = ix3 (j 0) (j 1) ⟨0, Nat.one_pos⟩ := by
      funext b; refine Fin.ext ?_
      match b with
      | ⟨0, _⟩ => rfl
      | ⟨1, _⟩ => rfl
      | ⟨2, _⟩ => rfl
    rw [hsi]
    rfl
  | ⟨1, _⟩ =>
    show Cert.ReferenceIdeal.gather_S128x512_S128x64x1_S128x64x512_2_0_n_n_0_2_1512.start j idx 1
      + Cert.ReferenceIdeal.gather_S128x512_S128x64x1_S128x64x512_2_0_n_n_0_2_1512.batchCoord j 1
      + Cert.ReferenceIdeal.gather_S128x512_S128x64x1_S128x64x512_2_0_n_n_0_2_1512.offCoord j 1 = (j 2).val
    rw [GatherDims.batchCoord_eq_zero _ _ _ (show (1 : Fin 2) ∉ Cert.ReferenceIdeal.gather_S128x512_S128x64x1_S128x64x512_2_0_n_n_0_2_1512.operandBatchingDims from List.not_mem_nil)]
    unfold GatherDims.start
    rw [dif_neg (show (1 : Fin 2) ∉ Cert.ReferenceIdeal.gather_S128x512_S128x64x1_S128x64x512_2_0_n_n_0_2_1512.startIndexMap from fun h => ne_one_zero (List.mem_singleton.mp h))]
    unfold GatherDims.offCoord
    rw [dif_pos ((GatherDims.mem_sKept _ _).mpr
      ⟨(show (1 : Fin 2) ∉ Cert.ReferenceIdeal.gather_S128x512_S128x64x1_S128x64x512_2_0_n_n_0_2_1512.collapsedSliceDims from fun h => ne_one_zero (List.mem_singleton.mp h)),
       (show (1 : Fin 2) ∉ Cert.ReferenceIdeal.gather_S128x512_S128x64x1_S128x64x512_2_0_n_n_0_2_1512.operandBatchingDims from List.not_mem_nil)⟩)]
    simp only [Nat.zero_add, Nat.add_zero]
    rfl

/-- The same for a start index known to be a word below 128: the clamp and the signed reading leave it alone. -/
theorem gather_at_tok (x5 : Cert.ReferenceIdeal.S128x512.Idx → EReal) (idx : IVec Cert.ReferenceIdeal.S128x64x1 32)
    (j : Cert.ReferenceIdeal.S128x64x512.Idx) (w : BitVec 32) (hw : idx (ix3 (j 0) (j 1) ⟨0, Nat.one_pos⟩) = w)
    (hlt : w.toNat < 128) :
    Host.gather Cert.ReferenceIdeal.gather_S128x512_S128x64x1_S128x64x512_2_0_n_n_0_2_1512 x5 idx j = x5 (ix2 (row w) (j 2)) := by
  rw [gather_at]
  subst hw
  refine congrArg x5 (funext fun a => Fin.ext ?_)
  match a with
  | ⟨0, _⟩ =>
    show min (idx (ix3 (j 0) (j 1) ⟨0, Nat.one_pos⟩)).toInt.toNat 127 = min (idx (ix3 (j 0) (j 1) ⟨0, Nat.one_pos⟩)).toNat 127
    rw [toInt_eq_toNat _ hlt]
    simp
  | ⟨1, _⟩ => rfl

/-- With the token in [0, 128) the reference's wrap of a negative token leaves it alone. -/
theorem tok_select (x0 : (⟨S128x64, .i32⟩ : BufTy).Contents (Elt Ideal)) (k : S128x64.Idx) (hk : (x0 k).toNat < 128) :
    Cert.ReferenceIdeal.Read.val_main_v4 (F := Ideal) x0 k = x0 k := by
  rw [Cert.ReferenceIdeal.Read.val_main_v4_apply, Cert.ReferenceIdeal.Read.val_main_v1_apply,
    Cert.ReferenceIdeal.Read.val_main_v0_apply, Cert.ReferenceIdeal.Read.val_main_c_apply]
  have hs : IntOp.cmpi .slt (x0 k) 0#32 = 0#1 := by
    have h : (x0 k).slt 0#32 = false := by
      have hi := toInt_eq_toNat _ hk
      have hz0 : (0#32 : BitVec 32).toInt = 0 := by decide
      simp only [BitVec.slt, hz0, hi]
      exact decide_eq_false (by omega)
    show BitVec.ofBool ((x0 k).slt 0#32) = 0#1
    rw [h]
    rfl
  rw [hs, select_zero]

/-- THE REFERENCE'S ARRAY: the embedding. -/
theorem reference_array (x0 : (⟨S128x64, .i32⟩ : BufTy).Contents (Elt Ideal)) (x5 : (⟨S128x512, .f32⟩ : BufTy).Contents (Elt Ideal))
    (hr : TokOk x0) : Cert.ReferenceIdeal.Read.val_main_v7 (F := Ideal) x0 x5 = G x0 x5 := by
  funext i
  have hi0 : (i 0).val < 8192 := (i 0).isLt
  have hi1 : (i 1).val < 512 := (i 1).isLt
  have ek : Cert.ReferenceIdeal.Read.idx_main_v5 (ix3 (Cert.ReferenceIdeal.Read.idx_main_v7 i 0) (Cert.ReferenceIdeal.Read.idx_main_v7 i 1) ⟨0, Nat.one_pos⟩)
      = tokIdx ⟨(i 0).val, hi0⟩ := by
    funext a; refine Fin.ext ?_
    match a with
    | ⟨0, _⟩ => show ((i 0).val * 512 + (i 1).val) / 32768 = (i 0).val / 64; omega
    | ⟨1, _⟩ => show ((i 0).val * 512 + (i 1).val) / 512 % 64 = (i 0).val % 64; omega
  rw [Cert.ReferenceIdeal.Read.val_main_v7_apply]
  unfold Cert.ReferenceIdeal.Read.val_main_v6
  refine (gather_at_tok x5 _ _ (x0 (tokIdx ⟨(i 0).val, hi0⟩)) ?_ (hr _)).trans ?_
  · rw [Cert.ReferenceIdeal.Read.val_main_v5_apply, ek, tok_select x0 _ (hr _)]
  · rw [G_eq x0 x5 i ⟨(i 0).val, hi0⟩ ⟨(i 1).val, hi1⟩ rfl rfl]
    refine congrArg x5 (funext fun a => Fin.ext ?_)
    match a with
    | ⟨0, _⟩ => rfl
    | ⟨1, _⟩ => show ((i 0).val * 512 + (i 1).val) % 512 = (i 1).val; omega

/-- THE EMBEDDING STAGE: the kernel's array after region 0 is the reference's. -/
theorem layer (V : (c : Dev nD) → (b : Ref sig .tc) → Buf (Elt Ideal) ((c : Thread nD τ).loc b)) (c : Dev nD)
    (x0 : (⟨S128x64, .i32⟩ : BufTy).Contents (Elt Ideal)) (x5 : (⟨S128x512, .f32⟩ : BufTy).Contents (Elt Ideal))
    (hr : TokOk x0)
    (h0 : V c main_v0 = shapeCast S8192x1 x0 Facts₀.shapeCasts_S128x64_S8192x1)
    (h1 : V c main_arg5 = x5) :
    (dat0 (F := Ideal) V c).arrAt 2 cfg0.N = Cert.ReferenceIdeal.Read.val_main_v7 (F := Ideal) x0 x5 :=
  (kernel_array V c x0 x5 hr h0 h1).trans (reference_array x0 x5 hr).symm

end Cert.KernelIdeal.Embed0

end
-- ==== Proof.Angle1.lean ====
import proofs.«430973_j37220186587498_2_alg».proof.Proof.Gen.KernelIdeal.Frame
import proofs.«430973_j37220186587498_2_alg».proof.Proof.ReadB
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Angle1

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-! # The angle region against the reference's angle perceptron

The region's body computes, on a block of 6144 rows of a one-entry-per-row column c, the array
max(c · A₁ + b₁, 0) · A₂ + b₂ with A₁ a [1,32] matrix, A₂ a [32,32] matrix and b₁, b₂ rows of 32 entries. The host pads
the 488691 clipped cosines to 491520 rows before the region and keeps the first 488691 rows after it; the reference
applies the same two affine layers to the unpadded column. Over the extended reals every product is the exact sum over
its inner coordinate, so the kept rows agree with the reference entry by entry. -/

/-! ## The body's two block products at an index

The body multiplies a [6144,1] block by a [1,32] matrix and a [6144,32] block by a [32,32] matrix. Read at the extended
reals each product into the zero accumulator is the plain sum over the one contraction coordinate. -/

/-- The operand coordinates of the first product: the left operand is read at (row of i, inner coordinate), the
    right at (inner coordinate, column of i). -/
theorem lhsA_0 (i : S6144x32.Idx) (q : dot_S6144x1_S1x32_S6144x32_1_0_0_1_n_n.contr.Idx) :
    (dot_S6144x1_S1x32_S6144x32_1_0_0_1_n_n.lhsIdx i q 0).val = (i 0).val := by
  unfold DotDims.lhsIdx
  rw [dif_neg (show ¬(0 : Fin S6144x1.rank) ∈ dot_S6144x1_S1x32_S6144x32_1_0_0_1_n_n.lhsBatch by decide), dif_pos (show (0 : Fin S6144x1.rank) ∈ dot_S6144x1_S1x32_S6144x32_1_0_0_1_n_n.lhsNonContracting by decide)]
  rfl
theorem lhsA_1 (i : S6144x32.Idx) (q : dot_S6144x1_S1x32_S6144x32_1_0_0_1_n_n.contr.Idx) :
    (dot_S6144x1_S1x32_S6144x32_1_0_0_1_n_n.lhsIdx i q 1).val = (q ⟨0, by decide⟩).val :=
  dot_S6144x1_S1x32_S6144x32_1_0_0_1_n_n.lhsIdx_val_of_single rfl i q
theorem rhsA_0 (i : S6144x32.Idx) (q : dot_S6144x1_S1x32_S6144x32_1_0_0_1_n_n.contr.Idx) :
    (dot_S6144x1_S1x32_S6144x32_1_0_0_1_n_n.rhsIdx i q 0).val = (q ⟨0, by decide⟩).val :=
  dot_S6144x1_S1x32_S6144x32_1_0_0_1_n_n.rhsIdx_val_of_single rfl i q
theorem rhsA_1 (i : S6144x32.Idx) (q : dot_S6144x1_S1x32_S6144x32_1_0_0_1_n_n.contr.Idx) :
    (dot_S6144x1_S1x32_S6144x32_1_0_0_1_n_n.rhsIdx i q 1).val = (i 1).val := by
  unfold DotDims.rhsIdx
  rw [dif_neg (show ¬(1 : Fin S1x32.rank) ∈ dot_S6144x1_S1x32_S6144x32_1_0_0_1_n_n.rhsBatch by decide), dif_pos (show (1 : Fin S1x32.rank) ∈ dot_S6144x1_S1x32_S6144x32_1_0_0_1_n_n.rhsNonContracting by decide)]
  rfl

/-- The first product: entry (p, q) of column × row is the sum over the one inner coordinate. -/
theorem productA_apply (a : FVec Ideal S6144x1 .bf16) (b : FVec Ideal S1x32 .bf16) (p : Fin 6144) (q : Fin 32) :
    matmul dot_S6144x1_S1x32_S6144x32_1_0_0_1_n_n none a b (constant (F := Ideal) S6144x32 .f32 0x00000000#32) (ix2 p q)
      = ∑ k : Fin 1, a (ix2 p k) * b (ix2 k q) := by
  simp only [matmul]
  rw [Ideal.matmul_constant_zero_apply, ← Equiv.sum_comp (contrEquiv1 dot_S6144x1_S1x32_S6144x32_1_0_0_1_n_n 1 rfl rfl).symm]
  refine Finset.sum_congr rfl fun k _ => ?_
  have hk := contrEquiv1_symm_val dot_S6144x1_S1x32_S6144x32_1_0_0_1_n_n 1 rfl rfl k
  have el : dot_S6144x1_S1x32_S6144x32_1_0_0_1_n_n.lhsIdx (ix2 p q) ((contrEquiv1 dot_S6144x1_S1x32_S6144x32_1_0_0_1_n_n 1 rfl rfl).symm k) = ix2 p k := funext fun a => Fin.ext (by
    match a with
    | ⟨0, _⟩ => exact lhsA_0 _ _
    | ⟨1, _⟩ => exact (lhsA_1 _ _).trans hk)
  have er : dot_S6144x1_S1x32_S6144x32_1_0_0_1_n_n.rhsIdx (ix2 p q) ((contrEquiv1 dot_S6144x1_S1x32_S6144x32_1_0_0_1_n_n 1 rfl rfl).symm k) = ix2 k q := funext fun a => Fin.ext (by
    match a with
    | ⟨0, _⟩ => exact (rhsA_0 _ _).trans hk
    | ⟨1, _⟩ => exact rhsA_1 _ _)
  rw [el, er]

/-- The operand coordinates of the second product, likewise. -/
theorem lhsB_0 (i : S6144x32.Idx) (q : dot_S6144x32_S32x32_S6144x32_1_0_0_1_n_n.contr.Idx) :
    (dot_S6144x32_S32x32_S6144x32_1_0_0_1_n_n.lhsIdx i q 0).val = (i 0).val := by
  unfold DotDims.lhsIdx
  rw [dif_neg (show ¬(0 : Fin S6144x32.rank) ∈ dot_S6144x32_S32x32_S6144x32_1_0_0_1_n_n.lhsBatch by decide), dif_pos (show (0 : Fin S6144x32.rank) ∈ dot_S6144x32_S32x32_S6144x32_1_0_0_1_n_n.lhsNonContracting by decide)]
  rfl
theorem lhsB_1 (i : S6144x32.Idx) (q : dot_S6144x32_S32x32_S6144x32_1_0_0_1_n_n.contr.Idx) :
    (dot_S6144x32_S32x32_S6144x32_1_0_0_1_n_n.lhsIdx i q 1).val = (q ⟨0, by decide⟩).val :=
  dot_S6144x32_S32x32_S6144x32_1_0_0_1_n_n.lhsIdx_val_of_single rfl i q
theorem rhsB_0 (i : S6144x32.Idx) (q : dot_S6144x32_S32x32_S6144x32_1_0_0_1_n_n.contr.Idx) :
    (dot_S6144x32_S32x32_S6144x32_1_0_0_1_n_n.rhsIdx i q 0).val = (q ⟨0, by decide⟩).val :=
  dot_S6144x32_S32x32_S6144x32_1_0_0_1_n_n.rhsIdx_val_of_single rfl i q
theorem rhsB_1 (i : S6144x32.Idx) (q : dot_S6144x32_S32x32_S6144x32_1_0_0_1_n_n.contr.Idx) :
    (dot_S6144x32_S32x32_S6144x32_1_0_0_1_n_n.rhsIdx i q 1).val = (i 1).val := by
  unfold DotDims.rhsIdx
  rw [dif_neg (show ¬(1 : Fin S32x32.rank) ∈ dot_S6144x32_S32x32_S6144x32_1_0_0_1_n_n.rhsBatch by decide), dif_pos (show (1 : Fin S32x32.rank) ∈ dot_S6144x32_S32x32_S6144x32_1_0_0_1_n_n.rhsNonContracting by decide)]
  rfl

/-- The second product: entry (p, q) of hidden block × weights is the sum over the 32 hidden coordinates. -/
theorem productB_apply (a : FVec Ideal S6144x32 .bf16) (b : FVec Ideal S32x32 .bf16) (p : Fin 6144) (q : Fin 32) :
    matmul dot_S6144x32_S32x32_S6144x32_1_0_0_1_n_n none a b (constant (F := Ideal) S6144x32 .f32 0x00000000#32) (ix2 p q)
      = ∑ k : Fin 32, a (ix2 p k) * b (ix2 k q) := by
  simp only [matmul]
  rw [Ideal.matmul_constant_zero_apply, ← Equiv.sum_comp (contrEquiv1 dot_S6144x32_S32x32_S6144x32_1_0_0_1_n_n 32 rfl rfl).symm]
  refine Finset.sum_congr rfl fun k _ => ?_
  have hk := contrEquiv1_symm_val dot_S6144x32_S32x32_S6144x32_1_0_0_1_n_n 32 rfl rfl k
  have el : dot_S6144x32_S32x32_S6144x32_1_0_0_1_n_n.lhsIdx (ix2 p q) ((contrEquiv1 dot_S6144x32_S32x32_S6144x32_1_0_0_1_n_n 32 rfl rfl).symm k) = ix2 p k := funext fun a => Fin.ext (by
    match a with
    | ⟨0, _⟩ => exact lhsB_0 _ _
    | ⟨1, _⟩ => exact (lhsB_1 _ _).trans hk)
  have er : dot_S6144x32_S32x32_S6144x32_1_0_0_1_n_n.rhsIdx (ix2 p q) ((contrEquiv1 dot_S6144x32_S32x32_S6144x32_1_0_0_1_n_n 32 rfl rfl).symm k) = ix2 k q := funext fun a => Fin.ext (by
    match a with
    | ⟨0, _⟩ => exact (rhsB_0 _ _).trans hk
    | ⟨1, _⟩ => exact rhsB_1 _ _)
  rw [el, er]

/-! ## The body's payload at an index -/

/-- The hidden layer of one row: the rectified affine image of the row's one entry. -/
abbrev hidden (x0 : S6144x1.Idx → EReal) (a1 b1 : S1x32.Idx → EReal) (p : Fin 6144) (k : Fin 32) : EReal :=
  max ((∑ k' : Fin 1, x0 (ix2 p k') * a1 (ix2 k' k)) + b1 (ix2 (0 : Fin 1) k)) 0

/-- The body's stored value at (p, q): the second affine layer of the row's hidden layer. The narrowing casts
    in front of each product are the identity on the extended reals. -/
theorem pay_apply (x0 : Vec Ideal S6144x1 .f32) (x3 x6 : Vec Ideal S1x32 .f32) (x13 : Vec Ideal S32x32 .f32) (x16 : Vec Ideal S1x32 .f32)
    (p : Fin 6144) (q : Fin 32) :
    k1_pay1 (F := Ideal) x0 x3 x6 x13 x16 (ix2 p q)
      = (∑ k : Fin 32, hidden x0 x3 x6 p k * x13 (ix2 k q)) + x16 (ix2 (0 : Fin 1) q) := by
  unfold k1_pay1
  refine (addf_apply _ _ _).trans ?_
  refine congrArg₂ (· + ·) ?_ ?_
  · refine (productB_apply _ _ p q).trans ?_
    refine Finset.sum_congr rfl fun k _ => ?_
    refine congrArg₂ (· * ·) ?_ rfl
    refine (truncf_apply (ψ := FTy.bf16) (φ := FTy.f32) _ bitsLt_bf16_f32 _).trans ?_
    refine (maximumf_apply _ _ _).trans ?_
    refine congrArg₂ max ?_ Ideal.ofBits_zero_f32
    refine (addf_apply _ _ _).trans ?_
    refine congrArg₂ (· + ·) ?_ ?_
    · refine (productA_apply _ _ p k).trans ?_
      refine Finset.sum_congr rfl fun k' _ => ?_
      refine congrArg₂ (· * ·) ?_ rfl
      exact congrFun (shapeCast_self x0 _) _
    · refine (broadcastTo_1b_ab_apply _ _ p k).trans ?_
      exact congrFun (shapeCast_self x6 _) _
  · refine (broadcastTo_1b_ab_apply _ _ p q).trans ?_
    exact congrFun (shapeCast_self x16 _) _

/-! ## The region's output array in closed form

Every row of the padded [491520,1] column goes through the same two affine layers; the weights are whole-array windows,
the column and the output move by one block of 6144 rows per grid point. -/

/-- Entry (R, q) of the region's output as a function of the five operand arrays: the second affine layer of the
    rectified first affine layer of row R's one entry. -/
def rowNet (cosp : S491520x1.Idx → EReal) (a1 b1 : S1x32.Idx → EReal) (a2 : S32x32.Idx → EReal) (b2 : S1x32.Idx → EReal)
    (R : Fin 491520) (q : Fin 32) : EReal :=
  (∑ k : Fin 32, max ((∑ k' : Fin 1, cosp (ix2 R k') * a1 (ix2 k' k)) + b1 (ix2 (0 : Fin 1) k)) 0 * a2 (ix2 k q))
    + b2 (ix2 (0 : Fin 1) q)

/-- The whole output array: `rowNet` at each index's two coordinates. -/
def netArr (cosp : S491520x1.Idx → EReal) (a1 b1 : S1x32.Idx → EReal) (a2 : S32x32.Idx → EReal) (b2 : S1x32.Idx → EReal) :
    S491520x32.Idx → EReal := fun i => rowNet cosp a1 b1 a2 b2 (i 0) (i 1)

theorem netArr_ix2 (cosp : S491520x1.Idx → EReal) (a1 b1 : S1x32.Idx → EReal) (a2 : S32x32.Idx → EReal) (b2 : S1x32.Idx → EReal)
    (R : Fin 491520) (q : Fin 32) : netArr cosp a1 b1 a2 b2 (ix2 R q) = rowNet cosp a1 b1 a2 b2 R q := rfl

/-- One grid point: if the column block is rows
    T·6144 … T·6144 + 6143 of the column array and the weight blocks are the weight arrays, the body's stored value at
    block index `j` is the closed form at the array index `i` that block index lands on. -/
theorem point_eq (cosp : Vec Ideal S491520x1 .f32) (a1 b1 : Vec Ideal S1x32 .f32) (a2 : Vec Ideal S32x32 .f32) (b2 : Vec Ideal S1x32 .f32)
    (x0 : Vec Ideal S6144x1 .f32) (x3 x6 : Vec Ideal S1x32 .f32) (x13 : Vec Ideal S32x32 .f32) (x16 : Vec Ideal S1x32 .f32)
    (T : Nat) (hT : T < 80)
    (h0 : ∀ (p : Fin 6144) (u : Fin 1), x0 (ix2 p u) = cosp (ix2 (⟨T * 6144 + p.val, by omega⟩ : Fin 491520) u))
    (h3 : x3 = a1) (h6 : x6 = b1) (h13 : x13 = a2) (h16 : x16 = b2)
    (j : S6144x32.Idx) (i : S491520x32.Idx) (hi0 : (i 0).val = T * 6144 + (j 0).val) (hi1 : (i 1).val = (j 1).val) :
    k1_pay1 (F := Ideal) x0 x3 x6 x13 x16 j = netArr cosp a1 b1 a2 b2 i := by
  obtain ⟨p, q, rfl⟩ : ∃ (p : Fin 6144) (q : Fin 32), j = ix2 p q := ⟨j 0, j 1, eq_ix2 j⟩
  have hi : i = ix2 (⟨T * 6144 + p.val, by omega⟩ : Fin 491520) q := funext fun a => Fin.ext (by
    match a with
    | ⟨0, _⟩ => exact hi0
    | ⟨1, _⟩ => exact hi1)
  subst h3 h6 h13 h16
  rw [hi]
  refine (pay_apply x0 x3 x6 x13 x16 p q).trans ?_
  rw [netArr_ix2]
  unfold rowNet hidden
  simp only [h0]

section Region
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the 80 grid points: the column's and the output's block row is the point's
    number, every other block coordinate is zero. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the closed form of the five operand arrays as the region finds them. -/
theorem block_written (c : Dev nD) (t : Fin cfg1.N) :
    (dat1 (F := Ideal) V c).flushed 5 t = ((cfg1.win 5).blk t).view.read (Elt Ideal)
      (netArr (V c main_v94) (V c main_arg7) (V c main_v92) (V c main_arg9) (V c main_v93)) := by
  show (cfg1.win 5).cut (grid1.coords t) ((dat1 (F := Ideal) V c).after 5 t) = _
  rw [after1_5]
  unfold out1_5
  rw [View.canon_unit_zero zero_offsets]
  simp only [View.ld_unit_zero (S := S6144x1) zero_offsets, View.ld_unit_zero (S := S1x32) zero_offsets, View.ld_unit_zero (S := S32x32) zero_offsets]
  obtain ⟨e00, e01, e10, e11, e20, e21, e30, e31, e40, e41, e50, e51⟩ := block_indices t
  have hT : t.val < 80 := t.isLt
  funext j
  refine point_eq (V c main_v94) (V c main_arg7) (V c main_v92) (V c main_arg9) (V c main_v93)
    (iblk1 V c 0 t) (iblk1 V c 1 t) (iblk1 V c 2 t) (iblk1 V c 3 t) (iblk1 V c 4 t) t.val hT ?_ ?_ ?_ ?_ ?_ j
    (((cfg1.win 5).blk t).view.emb j) ?_ ?_
  · intro p u
    show V c main_v94 (((cfg1.win 0).blk t).view.emb (ix2 p u)) = V c main_v94 _
    refine congrArg (V c main_v94) (funext fun a => Fin.ext ?_)
    match a with
    | ⟨0, _⟩ => show win1_0.index t (0 : Fin 2) * 6144 + 1 * p.val = t.val * 6144 + p.val; omega
    | ⟨1, _⟩ => show win1_0.index t (1 : Fin 2) * 1 + 1 * u.val = u.val; omega
  · funext y
    show V c main_arg7 (((cfg1.win 1).blk t).view.emb y) = V c main_arg7 y
    refine congrArg (V c main_arg7) (funext fun a => Fin.ext ?_)
    match a with
    | ⟨0, _⟩ => show win1_1.index t (0 : Fin 2) * 1 + 1 * (y 0).val = (y 0).val; omega
    | ⟨1, _⟩ => show win1_1.index t (1 : Fin 2) * 32 + 1 * (y 1).val = (y 1).val; omega
  · funext y
    show V c main_v92 (((cfg1.win 2).blk t).view.emb y) = V c main_v92 y
    refine congrArg (V c main_v92) (funext fun a => Fin.ext ?_)
    match a with
    | ⟨0, _⟩ => show win1_2.index t (0 : Fin 2) * 1 + 1 * (y 0).val = (y 0).val; omega
    | ⟨1, _⟩ => show win1_2.index t (1 : Fin 2) * 32 + 1 * (y 1).val = (y 1).val; omega
  · funext y
    show V c main_arg9 (((cfg1.win 3).blk t).view.emb y) = V c main_arg9 y
    refine congrArg (V c main_arg9) (funext fun a => Fin.ext ?_)
    match a with
    | ⟨0, _⟩ => show win1_3.index t (0 : Fin 2) * 32 + 1 * (y 0).val = (y 0).val; omega
    | ⟨1, _⟩ => show win1_3.index t (1 : Fin 2) * 32 + 1 * (y 1).val = (y 1).val; omega
  · funext y
    show V c main_v93 (((cfg1.win 4).blk t).view.emb y) = V c main_v93 y
    refine congrArg (V c main_v93) (funext fun a => Fin.ext ?_)
    match a with
    | ⟨0, _⟩ => show win1_4.index t (0 : Fin 2) * 1 + 1 * (y 0).val = (y 0).val; omega
    | ⟨1, _⟩ => show win1_4.index t (1 : Fin 2) * 32 + 1 * (y 1).val = (y 1).val; omega
  · show win1_5.index t (0 : Fin 2) * 6144 + 1 * (j 0).val = t.val * 6144 + (j 0).val; omega
  · show win1_5.index t (1 : Fin 2) * 32 + 1 * (j 1).val = (j 1).val; omega

/-- An index of the output array is in point `t`'s block iff each coordinate is in the block's range on its axis. -/
theorem mem_output_block (t : Fin cfg1.N) (i : S491520x32.Idx) :
    i ∈ ((cfg1.win 5).blk t).view.set ↔ ∀ a : Fin 2, win1_5.index t a * S6144x32.size a ≤ (i a).val ∧ (i a).val < win1_5.index t a * S6144x32.size a + S6144x32.size a := by
  show i ∈ ((View.whole main_v95).slice (win1_5.rect t)).set ↔ _
  rw [View.set_slice_whole, Rect.mem_set_unit]
  exact Iff.rfl

/-- The 80 blocks of 6144 rows tile the 491520 rows: row R is in the block of point R / 6144. -/
theorem rows_tiled (i : S491520x32.Idx) :
    ∃ t : Fin cfg1.N, (cfg1.win 5).flush t = true ∧ i ∈ ((cfg1.win 5).blk t).view.set := by
  have hi0 : (i 0).val < 491520 := (i 0).isLt
  have hi1 : (i 1).val < 32 := (i 1).isLt
  have hlt : (i 0).val / 6144 < 80 := by omega
  refine ⟨(⟨(i 0).val / 6144, hlt⟩ : Fin cfg1.N), flush1_5 _, ?_⟩
  obtain ⟨-, -, -, -, -, -, -, -, -, -, e50, e51⟩ := block_indices (⟨(i 0).val / 6144, hlt⟩ : Fin cfg1.N)
  have e50' : win1_5.index (⟨(i 0).val / 6144, hlt⟩ : Fin cfg1.N) (0 : Fin 2) = (i 0).val / 6144 := e50
  rw [mem_output_block]
  intro a
  match a with
  | ⟨0, _⟩ =>
    show win1_5.index (⟨(i 0).val / 6144, hlt⟩ : Fin cfg1.N) (0 : Fin 2) * 6144 ≤ (i 0).val ∧ (i 0).val < win1_5.index (⟨(i 0).val / 6144, hlt⟩ : Fin cfg1.N) (0 : Fin 2) * 6144 + 6144
    omega
  | ⟨1, _⟩ =>
    show win1_5.index (⟨(i 0).val / 6144, hlt⟩ : Fin cfg1.N) (1 : Fin 2) * 32 ≤ (i 1).val ∧ (i 1).val < win1_5.index (⟨(i 0).val / 6144, hlt⟩ : Fin cfg1.N) (1 : Fin 2) * 32 + 32
    omega

/-- THE ARRAY after the region: the closed form of the operand arrays at every index. -/
theorem output_array (c : Dev nD) :
    (dat1 (F := Ideal) V c).arrAt 5 cfg1.N = netArr (V c main_v94) (V c main_arg7) (V c main_v92) (V c main_arg9) (V c main_v93) :=
  (dat1 (F := Ideal) V c).arrAt_eq_of_cover 5 _ (fun t _ => block_written V c t) rows_tiled

end Region

/-! ## The reference's stages at an index, and the host operations around the region -/

/-- A vector cast to a one-column matrix reads, at (i, 0), the vector at i. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Entry (r, q) of the reference's result as a function of the clipped cosines and the weights: the same two
    affine layers, on row r's cosine. -/
def refNet (cosv : S488691.Idx → EReal) (a1 : S1x32.Idx → EReal) (b1 : S32.Idx → EReal) (a2 : S32x32.Idx → EReal)
    (b2 : S32.Idx → EReal) (r : Fin 488691) (q : Fin 32) : EReal :=
  (∑ k : Fin 32, max ((∑ k' : Fin 1, cosv (ix1 r) * a1 (ix2 k' k)) + b1 (ix1 k)) 0 * a2 (ix2 k q)) + b2 (ix1 q)

/-- Row R = r of the closed form, with the column array the zero-padded column of the clipped cosines and the two
    bias rows the bias vectors as one-row matrices, is the reference's entry (r, q): the padding starts below the
    last cosine, so row r reads cosine r. -/
theorem rowNet_padded (cosv : S488691.Idx → EReal) (z : S_.Idx → EReal) (a1 : S1x32.Idx → EReal) (b1 : S32.Idx → EReal)
    (a2 : S32x32.Idx → EReal) (b2 : S32.Idx → EReal) (r : Fin 488691) (q : Fin 32) (R : Fin 491520) (hR : R.val = 0 + r.val) :
    rowNet (pad S491520x1 ![0, 0] ![2829, 0] ![0, 0] (shapeCast S488691x1 cosv shapeCasts_S488691_S488691x1) z
        pads_S488691x1_S491520x1_028290_000 h_S_) a1 (shapeCast S1x32 b1 shapeCasts_S32_S1x32) a2
        (shapeCast S1x32 b2 shapeCasts_S32_S1x32) R q
      = refNet cosv a1 b1 a2 b2 r q := by
  have hp : ∀ k' : Fin 1, pad S491520x1 ![0, 0] ![2829, 0] ![0, 0] (shapeCast S488691x1 cosv shapeCasts_S488691_S488691x1) z
      pads_S488691x1_S491520x1_028290_000 h_S_ (ix2 R k') = cosv (ix1 r) := fun k' =>
    (pad_apply_of_inside _ _ _ _ _ _ _ (ix2 R k') (ix2 r k') (fun a => by
      match a with
      | ⟨0, _⟩ => show R.val = 0 + r.val * (0 + 1); omega
      | ⟨1, _⟩ => show k'.val = 0 + k'.val * (0 + 1); omega)).trans (shapeCast_column_apply cosv _ r k')
  have hb1 : ∀ k : Fin 32, shapeCast S1x32 b1 shapeCasts_S32_S1x32 (ix2 (0 : Fin 1) k) = b1 (ix1 k) :=
    fun k => shapeCast_a_1a_apply b1 _ 0 k
  have hb2 : shapeCast S1x32 b2 shapeCasts_S32_S1x32 (ix2 (0 : Fin 1) q) = b2 (ix1 q) :=
    shapeCast_a_1a_apply b2 _ 0 q
  unfold rowNet refNet
  simp only [hp, hb1, hb2]

/-- The kernel's side of the region: entry (r, q) of the rows the host keeps is the two affine layers on cosine r,
    whenever the region finds the zero-padded cosine column, the two weight matrices and the two bias rows. -/
theorem kernel_rows (V : (c : Dev nD) → (b : Ref sig .tc) → Buf (Elt Ideal) ((c : Thread nD τ).loc b)) (c : Dev nD)
    (cosv : S488691.Idx → EReal) (z : S_.Idx → EReal) (x7 : S1x32.Idx → EReal) (x8 : S32.Idx → EReal)
    (x9 : S32x32.Idx → EReal) (x10 : S32.Idx → EReal)
    (h0 : V c main_v94 = pad S491520x1 ![0, 0] ![2829, 0] ![0, 0]
      (shapeCast S488691x1 cosv shapeCasts_S488691_S488691x1) z pads_S488691x1_S491520x1_028290_000 h_S_)
    (h1 : V c main_arg7 = x7)
    (h2 : V c main_v92 = shapeCast S1x32 x8 shapeCasts_S32_S1x32)
    (h3 : V c main_arg9 = x9)
    (h4 : V c main_v93 = shapeCast S1x32 x10 shapeCasts_S32_S1x32) (r : Fin 488691) (q : Fin 32) :
    extractStridedSlice S488691x32 ![0, 0] ((dat1 (F := Ideal) V c).arrAt 5 cfg1.N) slices_S491520x32_S488691x32_0_0 (ix2 r q)
      = refNet cosv x7 x8 x9 x10 r q := by
  rw [output_array V c, h0, h1, h2, h3, h4]
  refine (slice2_axis0_eq 0 _ slices_S491520x32_S488691x32_0_0 r q).trans ?_
  rw [netArr_ix2]
  exact rowNet_padded cosv z x7 x8 x9 x10 r q _ rfl

open Cert.ReferenceIdeal.Read in
/-- The reference's last stage at (r, q): its two products are the sums over the inner coordinate, its broadcasts
    read the bias vectors at the column, its rectifier is the maximum with zero. -/
theorem reference_apply
    (x1 : (⟨Cert.ReferenceIdeal.S8192x3, .f32⟩ : BufTy).Contents (Elt Ideal))
    (x2 : (⟨Cert.ReferenceIdeal.S2x85342, .i32⟩ : BufTy).Contents (Elt Ideal))
    (x3 x4 : (⟨Cert.ReferenceIdeal.S488691, .i32⟩ : BufTy).Contents (Elt Ideal))
    (x7 : (⟨Cert.ReferenceIdeal.S1x32, .f32⟩ : BufTy).Contents (Elt Ideal))
    (x8 : (⟨Cert.ReferenceIdeal.S32, .f32⟩ : BufTy).Contents (Elt Ideal))
    (x9 : (⟨Cert.ReferenceIdeal.S32x32, .f32⟩ : BufTy).Contents (Elt Ideal))
    (x10 : (⟨Cert.ReferenceIdeal.S32, .f32⟩ : BufTy).Contents (Elt Ideal))
    (r : Fin 488691) (q : Fin 32) :
    val_main_v106 (F := Ideal) x1 x2 x3 x4 x7 x8 x9 x10 (ix2 r q)
      = refNet (val_main_v96 (F := Ideal) x1 x2 x3 x4) x7 x8 x9 x10 r q := by
  have e1 : ∀ (k : Fin 32) (k' : Fin 1), idx_main_v97 (lidx_main_v98 (lidx_main_v103 (ix2 r q) k) k') = ix1 r :=
    fun k k' => funext fun a => by match a with | ⟨0, _⟩ => rfl
  have e2 : ∀ (k : Fin 32) (k' : Fin 1), ridx_main_v98 (lidx_main_v103 (ix2 r q) k) k' = ix2 k' k :=
    fun k k' => funext fun a => by match a with | ⟨0, _⟩ => rfl | ⟨1, _⟩ => rfl
  have e3 : ∀ k : Fin 32, idx_main_v99 (idx_main_v100 (lidx_main_v103 (ix2 r q) k)) = ix1 k :=
    fun k => funext fun a => by match a with | ⟨0, _⟩ => rfl
  have e4 : ∀ k : Fin 32, ridx_main_v103 (ix2 r q) k = ix2 k q :=
    fun k => funext fun a => by match a with | ⟨0, _⟩ => rfl | ⟨1, _⟩ => rfl
  have e5 : idx_main_v104 (idx_main_v105 (ix2 r q)) = ix1 q :=
    funext fun a => by match a with | ⟨0, _⟩ => rfl
  rw [val_main_v106_apply, val_main_v103_apply, val_main_v105_apply, val_main_v104_apply, e5]
  unfold refNet
  rw [Ideal.addf_def]
  refine congrArg (· + x10 (ix1 q)) (Finset.sum_congr rfl fun k _ => ?_)
  rw [val_main_v102_apply, val_main_v101_apply, val_main_v98_apply, val_main_v100_apply, val_main_v99_apply,
    val_main_call4_v0_apply, val_main_call4_cst_apply, e3, e4, Ideal.addf_def, Ideal.maximumf_def, Ideal.ofBits_def,
    Ideal.ofBits_zero_f32]
  refine congrArg (fun s => max (s + x8 (ix1 k)) 0 * x9 (ix2 k q)) (Finset.sum_congr rfl fun k' _ => ?_)
  rw [val_main_v97_apply, e1, e2]

/-- The angle region: the rows below 488691 of the region's output array are the reference's two-layer
    perceptron of the clipped cosine column. -/
theorem layer (V : (c : Dev nD) → (b : Ref sig .tc) → Buf (Elt Ideal) ((c : Thread nD τ).loc b)) (c : Dev nD)
    (x1 : (⟨Cert.ReferenceIdeal.S8192x3, .f32⟩ : BufTy).Contents (Elt Ideal))
    (x2 : (⟨Cert.ReferenceIdeal.S2x85342, .i32⟩ : BufTy).Contents (Elt Ideal))
    (x3 x4 : (⟨Cert.ReferenceIdeal.S488691, .i32⟩ : BufTy).Contents (Elt Ideal))
    (x7 : (⟨Cert.ReferenceIdeal.S1x32, .f32⟩ : BufTy).Contents (Elt Ideal))
    (x8 : (⟨Cert.ReferenceIdeal.S32, .f32⟩ : BufTy).Contents (Elt Ideal))
    (x9 : (⟨Cert.ReferenceIdeal.S32x32, .f32⟩ : BufTy).Contents (Elt Ideal))
    (x10 : (⟨Cert.ReferenceIdeal.S32, .f32⟩ : BufTy).Contents (Elt Ideal))
    (h0 : V c main_v94 = pad S491520x1 ![0, 0] ![2829, 0] ![0, 0]
      (shapeCast S488691x1 (Cert.ReferenceIdeal.Read.val_main_v96 (F := Ideal) x1 x2 x3 x4) shapeCasts_S488691_S488691x1)
      (sitofp (F := Ideal) .f32 (constantI S_ 32 0#32)) pads_S488691x1_S491520x1_028290_000 h_S_)
    (h1 : V c main_arg7 = x7)
    (h2 : V c main_v92 = shapeCast S1x32 x8 shapeCasts_S32_S1x32)
    (h3 : V c main_arg9 = x9)
    (h4 : V c main_v93 = shapeCast S1x32 x10 shapeCasts_S32_S1x32) :
    extractStridedSlice S488691x32 ![0, 0] ((dat1 (F := Ideal) V c).arrAt 5 cfg1.N) slices_S491520x32_S488691x32_0_0
      = Cert.ReferenceIdeal.Read.val_main_v106 (F := Ideal) x1 x2 x3 x4 x7 x8 x9 x10 := by
  funext i
  obtain ⟨r, q, rfl⟩ : ∃ (r : Fin 488691) (q : Fin 32), i = ix2 r q := ⟨i 0, i 1, eq_ix2 i⟩
  rw [reference_apply]
  exact kernel_rows V c (Cert.ReferenceIdeal.Read.val_main_v96 (F := Ideal) x1 x2 x3 x4) (sitofp (F := Ideal) .f32 (constantI S_ 32 0#32))
    x7 x8 x9 x10 h0 h1 h2 h3 h4 r q

end Cert.KernelIdeal.Angle1

end
-- ==== Proof.Edge2.lean ====
import proofs.«430973_j37220186587498_2_alg».proof.Proof.Gen.KernelIdeal.Frame
import proofs.«430973_j37220186587498_2_alg».proof.Proof.ReadB
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

/-! # The edge layer: a row block of the padded edge features times the weight matrix, plus the bias row

The region computes, block of rows by block of rows, `out[r, j] = ∑ k, ef[r, k] * w[k, j] + b[0, j]` over the padded
edge-feature array; the host pads the features with zero rows before it and cuts the padding rows off after it. The
reference computes the same contraction and adds the bias broadcast along the rows. Over the extended reals the two
agree index by index. -/

set_option maxRecDepth 16384

noncomputable section

namespace Cert.KernelIdeal.Edge2

open Cert.KernelIdeal Cert.KernelIdeal.Gen Cert.ReferenceIdeal.Read
open Idealize.ShloMosaic Idealize.ShloMosaic.TcCoe Idealize.SL.Sem Idealize.ShloMosaic.ValueIdx
open Idealize.ShloMosaic.Pipeline (Dat Cfg Window)

/-! ## The body's arithmetic at an index -/

theorem zeroOffsets : (![0, 0] : Fin 2 → Nat) = fun _ => 0 := funext fun a => by fin_cases a <;> rfl

/-- The row coordinate of the left operand's index is the output's row. -/
theorem lhs_block_0 (i : S5000x512.Idx) (q : dot_S5000x96_S96x512_S5000x512_1_0_0_1_n_n.contr.Idx) :
    (dot_S5000x96_S96x512_S5000x512_1_0_0_1_n_n.lhsIdx i q 0).val = (i 0).val := by
  unfold DotDims.lhsIdx
  rw [dif_neg (show ¬(0 : Fin S5000x96.rank) ∈ dot_S5000x96_S96x512_S5000x512_1_0_0_1_n_n.lhsBatch by decide), dif_pos (show (0 : Fin S5000x96.rank) ∈ dot_S5000x96_S96x512_S5000x512_1_0_0_1_n_n.lhsNonContracting by decide)]
  rfl
/-- Its column coordinate is the contraction index. -/
theorem lhs_block_1 (i : S5000x512.Idx) (q : dot_S5000x96_S96x512_S5000x512_1_0_0_1_n_n.contr.Idx) :
    (dot_S5000x96_S96x512_S5000x512_1_0_0_1_n_n.lhsIdx i q 1).val = (q ⟨0, by decide⟩).val :=
  dot_S5000x96_S96x512_S5000x512_1_0_0_1_n_n.lhsIdx_val_of_single rfl i q
/-- The row coordinate of the right operand's index is the contraction index. -/
theorem rhs_block_0 (i : S5000x512.Idx) (q : dot_S5000x96_S96x512_S5000x512_1_0_0_1_n_n.contr.Idx) :
    (dot_S5000x96_S96x512_S5000x512_1_0_0_1_n_n.rhsIdx i q 0).val = (q ⟨0, by decide⟩).val :=
  dot_S5000x96_S96x512_S5000x512_1_0_0_1_n_n.rhsIdx_val_of_single rfl i q
/-- Its column coordinate is the output's column. -/
theorem rhs_block_1 (i : S5000x512.Idx) (q : dot_S5000x96_S96x512_S5000x512_1_0_0_1_n_n.contr.Idx) :
    (dot_S5000x96_S96x512_S5000x512_1_0_0_1_n_n.rhsIdx i q 1).val = (i 1).val := by
  unfold DotDims.rhsIdx
  rw [dif_neg (show ¬(1 : Fin S96x512.rank) ∈ dot_S5000x96_S96x512_S5000x512_1_0_0_1_n_n.rhsBatch by decide), dif_pos (show (1 : Fin S96x512.rank) ∈ dot_S5000x96_S96x512_S5000x512_1_0_0_1_n_n.rhsNonContracting by decide)]
  rfl

/-- The block product into the zero accumulator, read at an index: the sum over the contraction index (the narrowing
    of the operands to bf16 is the identity on the extended reals). -/
theorem blockProduct_apply (x : FVec Ideal S5000x96 .f32) (w : FVec Ideal S96x512 .f32) (j : S5000x512.Idx) :
    FloatOps.matmul dot_S5000x96_S96x512_S5000x512_1_0_0_1_n_n none (truncf .bf16 x bitsLt_bf16_f32) (truncf .bf16 w bitsLt_bf16_f32)
        (constant S5000x512 .f32 0x00000000#32) j
      = ∑ k : Fin 96, x (ix2 (j 0) k) * w (ix2 k (j 1)) := by
  rw [Ideal.matmul_constant_zero_apply, ← Equiv.sum_comp (ValueIdx.contrEquiv1 dot_S5000x96_S96x512_S5000x512_1_0_0_1_n_n 96 rfl rfl).symm]
  refine Finset.sum_congr rfl fun k _ => ?_
  have hk := ValueIdx.contrEquiv1_symm_val dot_S5000x96_S96x512_S5000x512_1_0_0_1_n_n 96 rfl rfl k
  have el : dot_S5000x96_S96x512_S5000x512_1_0_0_1_n_n.lhsIdx j ((ValueIdx.contrEquiv1 dot_S5000x96_S96x512_S5000x512_1_0_0_1_n_n 96 rfl rfl).symm k) = ix2 (j 0) k := funext fun a => Fin.ext (by
    match a with
    | ⟨0, _⟩ => exact lhs_block_0 _ _
    | ⟨1, _⟩ => exact (lhs_block_1 _ _).trans hk)
  have er : dot_S5000x96_S96x512_S5000x512_1_0_0_1_n_n.rhsIdx j ((ValueIdx.contrEquiv1 dot_S5000x96_S96x512_S5000x512_1_0_0_1_n_n 96 rfl rfl).symm k) = ix2 k (j 1) := funext fun a => Fin.ext (by
    match a with
    | ⟨0, _⟩ => exact (rhs_block_0 _ _).trans hk
    | ⟨1, _⟩ => exact rhs_block_1 _ _)
  rw [el, er]
  rfl

/-- The bias row broadcast down the block's rows, read at an index: the row's entry in that column. -/
theorem biasRows_apply (b : FVec Ideal S1x512 .f32) (j : S5000x512.Idx) :
    broadcastTo S5000x512 b broadcasts_S1x512_S5000x512 j = b (ix2 0 (j 1)) :=
  broadcastTo_apply b broadcasts_S1x512_S5000x512 j (ix2 0 (j 1)) (fun a => by
    match a with
    | ⟨0, _⟩ => rfl
    | ⟨1, _⟩ => rfl)

/-- THE BODY'S ARITHMETIC at an index of the block: the row of the feature block against the column of the weights,
    plus the bias in that column (the narrowing to bf16 is the identity on the extended reals). -/
theorem payload_apply (x : FVec Ideal S5000x96 .f32) (w : FVec Ideal S96x512 .f32) (b : FVec Ideal S1x512 .f32) (j : S5000x512.Idx) :
    k2_pay1 (F := Ideal) x w b j = (∑ k : Fin 96, x (ix2 (j 0) k) * w (ix2 k (j 1))) + b (ix2 0 (j 1)) := by
  unfold k2_pay1
  simp only [shapeCast_self]
  rw [ValueIdx.addf_apply, biasRows_apply]
  refine congrArg (· + b (ix2 0 (j 1))) ?_
  exact blockProduct_apply _ _ j

/-! ## The blocks: where each window's block sits in its array -/

/-- The printed index maps, decided over the grid: the feature window and the output window move with the point
    along the rows; the weights and the bias row are whole at every point. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every row block of the output is some point's. -/
theorem index_onto : ∀ q : Fin 18, ∃ t : Fin cfg2.N, t.val = q.val :=
  (by decide +kernel : ∀ q : Fin 18, ∃ t : Fin grid2.N, t.val = q.val)

/-- An index of the output array is in point `t`'s block iff each coordinate is in the block's range on its axis. -/
theorem mem_outBlock (t : Fin cfg2.N) (i : S90000x512.Idx) :
    i ∈ ((cfg2.win 3).blk t).view.set ↔ ∀ a : Fin 2, win2_3.index t a * S5000x512.size a ≤ (i a).val ∧ (i a).val < win2_3.index t a * S5000x512.size a + S5000x512.size a := by
  show i ∈ ((View.whole main_v111).slice (win2_3.rect t)).set ↔ _
  rw [View.set_slice_whole, Rect.mem_set_unit]
  exact Iff.rfl

/-- The row blocks tile the output array: every index is in the block of the point its row falls in. -/
theorem outBlocks_cover (i : S90000x512.Idx) :
    ∃ t : Fin cfg2.N, (cfg2.win 3).flush t = true ∧ i ∈ ((cfg2.win 3).blk t).view.set := by
  have hi0 : (i 0).val < 90000 := (i 0).isLt
  have hi1 : (i 1).val < 512 := (i 1).isLt
  obtain ⟨t, ht⟩ := index_onto ⟨(i 0).val / 5000, by omega⟩
  have ht' : t.val = (i 0).val / 5000 := ht
  obtain ⟨-, -, -, -, -, -, e0, e1⟩ := index_facts t
  refine ⟨t, flush2_3 t, ?_⟩
  rw [mem_outBlock]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 512 ≤ (i 1).val ∧ (i 1).val < win2_3.index t (1 : Fin 2) * 512 + 512; omega

/-! ## The layer as one function of the arrays, and the host's pad, cut and reshape read at an index -/

/-- What the region's output array ends holding, as one function of the arrays it reads: each row of the padded
    features against each column of the weights, plus the bias in that column. -/
def edgeOut (ef : FVec Ideal S90000x96 .f32) (w : FVec Ideal S96x512 .f32) (b : FVec Ideal S1x512 .f32) : FVec Ideal S90000x512 .f32 :=
  fun i => (∑ k : Fin 96, ef (ix2 (i 0) k) * w (ix2 k (i 1))) + b (ix2 0 (i 1))

/-- A row of the features is below the padded array's row count. -/
theorem row_lt (r : Fin 85342) : r.val < 90000 := Nat.lt_trans r.isLt (by omega)

/-- The padded features read at a row of the features: the features there (the padding rows come after them). -/
theorem paddedRows_apply (ef : FVec Ideal S85342x96 .f32) (z : FVec Ideal S_ .f32) (r : Fin 85342) (k : Fin 96) :
    pad S90000x96 ![0, 0] ![4658, 0] ![0, 0] ef z pads_S85342x96_S90000x96_046580_000 h_S_ (ix2 ⟨r.val, row_lt r⟩ k) = ef (ix2 r k) :=
  pad_apply_of_inside ![0, 0] ![4658, 0] ![0, 0] ef z pads_S85342x96_S90000x96_046580_000 h_S_ (ix2 ⟨r.val, row_lt r⟩ k) (ix2 r k) (fun a => by
    match a with
    | ⟨0, _⟩ => show r.val = 0 + r.val * (0 + 1); omega
    | ⟨1, _⟩ => show k.val = 0 + k.val * (0 + 1); omega)

/-- The output with its padding rows cut off, read at an index: the output at the same row and column. -/
theorem keptRows_apply (G : FVec Ideal S90000x512 .f32) (r : Fin 85342) (q : Fin 512) :
    extractStridedSlice S85342x512 ![0, 0] G slices_S90000x512_S85342x512_0_0 (ix2 r q) = G (ix2 ⟨r.val, row_lt r⟩ q) :=
  extractStridedSlice_apply ![0, 0] G slices_S90000x512_S85342x512_0_0 (ix2 r q) (ix2 ⟨r.val, row_lt r⟩ q) (fun a => by
    match a with
    | ⟨0, _⟩ => show r.val = 0 + r.val; omega
    | ⟨1, _⟩ => show q.val = 0 + q.val; omega)

/-- THE HOST'S SIDE of the layer at an index: padding the features, the region's function, and cutting the padding
    rows off compose to the contraction over the features' own row, plus the bias vector's entry in that column. -/
theorem keptRows_edgeOut_apply (ef : FVec Ideal S85342x96 .f32) (z : FVec Ideal S_ .f32) (w : FVec Ideal S96x512 .f32)
    (b : FVec Ideal S512 .f32) (r : Fin 85342) (q : Fin 512) :
    extractStridedSlice S85342x512 ![0, 0]
        (edgeOut (pad S90000x96 ![0, 0] ![4658, 0] ![0, 0] ef z pads_S85342x96_S90000x96_046580_000 h_S_) w
          (shapeCast S1x512 b shapeCasts_S512_S1x512)) slices_S90000x512_S85342x512_0_0 (ix2 r q)
      = (∑ k : Fin 96, ef (ix2 r k) * w (ix2 k q)) + b (ix1 q) := by
  rw [keptRows_apply]
  show (∑ k : Fin 96, pad S90000x96 ![0, 0] ![4658, 0] ![0, 0] ef z pads_S85342x96_S90000x96_046580_000 h_S_ (ix2 ⟨r.val, row_lt r⟩ k) * w (ix2 k q))
      + shapeCast S1x512 b shapeCasts_S512_S1x512 (ix2 0 q) = _
  rw [shapeCast_a_1a_apply]
  refine congrArg (· + b (ix1 q)) (Finset.sum_congr rfl fun k _ => ?_)
  rw [paddedRows_apply]

/-! ## What each point writes back, and the array after the region -/

section Region

variable (V : (c : Dev nD) → (b : Ref sig .tc) → Buf (Elt Ideal) ((c : Thread nD τ).loc b))

/-- The padded features, the weights and the bias row as the region finds them. -/
abbrev featArr (c : Dev nD) : FVec Ideal S90000x96 .f32 := V c main_v110
abbrev weightArr (c : Dev nD) : FVec Ideal S96x512 .f32 := V c main_v109
abbrev biasArr (c : Dev nD) : FVec Ideal S1x512 .f32 := V c main_v107

/-- The blocks the body loads at a point. -/
abbrev featBlk (c : Dev nD) (t : Fin cfg2.N) : FVec Ideal S5000x96 .f32 := iblk2 (F := Ideal) V c 0 t
abbrev weightBlk (c : Dev nD) (t : Fin cfg2.N) : FVec Ideal S96x512 .f32 := iblk2 (F := Ideal) V c 1 t
abbrev biasBlk (c : Dev nD) (t : Fin cfg2.N) : FVec Ideal S1x512 .f32 := iblk2 (F := Ideal) V c 2 t

/-- The grid has 18 points. -/
theorem point_lt (t : Fin cfg2.N) : t.val < 18 := lt_of_lt_of_eq t.isLt N_2

/-- Point `t`'s feature block is rows `5000 t` to `5000 t + 4999` of the padded features. -/
theorem featBlk_apply (c : Dev nD) (t : Fin cfg2.N) (p : Fin 5000) (k : Fin 96) (hr : t.val * 5000 + p.val < 90000) :
    featBlk V c t (ix2 p k) = featArr V c (ix2 ⟨t.val * 5000 + p.val, hr⟩ k) := by
  obtain ⟨e0, e1, -⟩ := index_facts t
  show featArr V c (((cfg2.win 0).blk t).view.emb (ix2 p k)) = featArr V c (ix2 ⟨t.val * 5000 + p.val, hr⟩ k)
  refine congrArg (featArr V c) (funext fun a => Fin.ext ?_)
  match a with
  | ⟨0, _⟩ => show win2_0.index t (0 : Fin 2) * 5000 + 1 * p.val = t.val * 5000 + p.val; omega
  | ⟨1, _⟩ => show win2_0.index t (1 : Fin 2) * 96 + 1 * k.val = k.val; omega

/-- Every point's weight block is the whole weight matrix. -/
theorem weightBlk_apply (c : Dev nD) (t : Fin cfg2.N) (k : Fin 96) (q : Fin 512) :
    weightBlk V c t (ix2 k q) = weightArr V c (ix2 k q) := by
  obtain ⟨-, -, e0, e1, -⟩ := index_facts t
  show weightArr V c (((cfg2.win 1).blk t).view.emb (ix2 k q)) = weightArr V c (ix2 k q)
  refine congrArg (weightArr V c) (funext fun a => Fin.ext ?_)
  match a with
  | ⟨0, _⟩ => show win2_1.index t (0 : Fin 2) * 96 + 1 * k.val = k.val; omega
  | ⟨1, _⟩ => show win2_1.index t (1 : Fin 2) * 512 + 1 * q.val = q.val; omega

/-- Every point's bias block is the whole bias row. -/
theorem biasBlk_apply (c : Dev nD) (t : Fin cfg2.N) (q : Fin 512) :
    biasBlk V c t (ix2 0 q) = biasArr V c (ix2 0 q) := by
  obtain ⟨-, -, -, -, e0, e1, -⟩ := index_facts t
  show biasArr V c (((cfg2.win 2).blk t).view.emb (ix2 0 q)) = biasArr V c (ix2 0 q)
  refine congrArg (biasArr V c) (funext fun a => Fin.ext ?_)
  match a with
  | ⟨0, _⟩ => show win2_2.index t (0 : Fin 2) * 1 + 1 * 0 = 0; omega
  | ⟨1, _⟩ => show win2_2.index t (1 : Fin 2) * 512 + 1 * q.val = q.val; omega

/-- The body's arithmetic of point `t`'s blocks is block `t` of the layer's function of the arrays. -/
theorem payloadBlock_eq (c : Dev nD) (t : Fin cfg2.N) :
    k2_pay1 (F := Ideal) (featBlk V c t) (weightBlk V c t) (biasBlk V c t)
      = ((cfg2.win 3).blk t).view.read (Elt Ideal) (edgeOut (featArr V c) (weightArr V c) (biasArr V c)) := by
  funext j
  have ht := point_lt t
  have hj0 : (j 0).val < 5000 := (j 0).isLt
  have hj1 : (j 1).val < 512 := (j 1).isLt
  obtain ⟨-, -, -, -, -, -, e0, e1⟩ := index_facts t
  have hrow : t.val * 5000 + (j 0).val < 90000 := by omega
  have hemb : ((cfg2.win 3).blk t).view.emb j = ix2 ⟨t.val * 5000 + (j 0).val, hrow⟩ ⟨(j 1).val, hj1⟩ := by
    funext a; apply Fin.ext
    match a with
    | ⟨0, _⟩ => show win2_3.index t (0 : Fin 2) * 5000 + 1 * (j 0).val = t.val * 5000 + (j 0).val; omega
    | ⟨1, _⟩ => show win2_3.index t (1 : Fin 2) * 512 + 1 * (j 1).val = (j 1).val; omega
  show k2_pay1 (F := Ideal) (featBlk V c t) (weightBlk V c t) (biasBlk V c t) j
    = edgeOut (featArr V c) (weightArr V c) (biasArr V c) (((cfg2.win 3).blk t).view.emb j)
  rw [hemb]
  refine (payload_apply (featBlk V c t) (weightBlk V c t) (biasBlk V c t) j).trans ?_
  show _ = (∑ k : Fin 96, featArr V c (ix2 ⟨t.val * 5000 + (j 0).val, hrow⟩ k) * weightArr V c (ix2 k ⟨(j 1).val, hj1⟩))
    + biasArr V c (ix2 0 ⟨(j 1).val, hj1⟩)
  refine congrArg₂ (· + ·) (Finset.sum_congr rfl fun k _ => congrArg₂ (· * ·) ?_ ?_) ?_
  · exact featBlk_apply V c t ⟨(j 0).val, hj0⟩ k hrow
  · exact weightBlk_apply V c t k ⟨(j 1).val, hj1⟩
  · exact biasBlk_apply V c t ⟨(j 1).val, hj1⟩

/-- WHAT POINT `t` WRITES BACK is block `t` of the layer's function of the arrays as the region finds them. -/
theorem flushed_eq (c : Dev nD) (t : Fin cfg2.N) :
    (dat2 (F := Ideal) V c).flushed 3 t
      = ((cfg2.win 3).blk t).view.read (Elt Ideal) (edgeOut (featArr V c) (weightArr V c) (biasArr V c)) := by
  show (cfg2.win 3).cut (grid2.coords t) ((dat2 (F := Ideal) V c).after 3 t) = _
  rw [after2_3]
  unfold out2_3
  rw [View.canon_unit_zero zeroOffsets]
  simp only [View.ld_unit_zero (S := S5000x96) zeroOffsets, View.ld_unit_zero (S := S96x512) zeroOffsets,
    View.ld_unit_zero (S := S1x512) zeroOffsets]
  exact payloadBlock_eq V c t

/-- THE ARRAY after the region: the layer's function of the arrays the region found (the row blocks tile it). -/
theorem final (c : Dev nD) :
    (dat2 (F := Ideal) V c).arrAt 3 cfg2.N = edgeOut (featArr V c) (weightArr V c) (biasArr V c) :=
  (dat2 (F := Ideal) V c).arrAt_eq_of_cover 3 (edgeOut (featArr V c) (weightArr V c) (biasArr V c))
    (fun t _ => flushed_eq V c t) outBlocks_cover

end Region

/-! ## The reference's stage at an index, and the layer -/

/-- THE REFERENCE'S SIDE at an index: the contraction of the features' row with the weights' column, plus the bias
    vector's entry in that column (the bias broadcast along the rows, read back). -/
theorem reference_apply (x1 : (⟨Cert.ReferenceIdeal.S8192x3, .f32⟩ : BufTy).Contents (Elt Ideal))
    (x2 : (⟨Cert.ReferenceIdeal.S2x85342, .i32⟩ : BufTy).Contents (Elt Ideal))
    (x3 x4 : (⟨Cert.ReferenceIdeal.S488691, .i32⟩ : BufTy).Contents (Elt Ideal))
    (x6 : (⟨Cert.ReferenceIdeal.S64, .f32⟩ : BufTy).Contents (Elt Ideal))
    (x7 : (⟨Cert.ReferenceIdeal.S1x32, .f32⟩ : BufTy).Contents (Elt Ideal))
    (x8 : (⟨Cert.ReferenceIdeal.S32, .f32⟩ : BufTy).Contents (Elt Ideal))
    (x9 : (⟨Cert.ReferenceIdeal.S32x32, .f32⟩ : BufTy).Contents (Elt Ideal))
    (x10 : (⟨Cert.ReferenceIdeal.S32, .f32⟩ : BufTy).Contents (Elt Ideal))
    (x11 : (⟨Cert.ReferenceIdeal.S4x96x512, .f32⟩ : BufTy).Contents (Elt Ideal))
    (x12 : (⟨Cert.ReferenceIdeal.S4x512, .f32⟩ : BufTy).Contents (Elt Ideal))
    (r : Fin 85342) (q : Fin 512) :
    val_main_v122 (F := Ideal) x1 x2 x3 x4 x6 x7 x8 x9 x10 x11 x12 (ix2 r q)
      = (∑ k : Fin 96, val_main_v114 (F := Ideal) x1 x2 x3 x4 x6 x7 x8 x9 x10 (ix2 r k) * val_main_v116 (F := Ideal) x11 (ix2 k q))
        + val_main_v119 (F := Ideal) x12 (ix1 q) := by
  have el : ∀ k : Fin 96, lidx_main_v117 (ix2 r q) k = ix2 r k := fun k => funext fun a => by
    match a with
    | ⟨0, _⟩ => rfl
    | ⟨1, _⟩ => rfl
  have er : ∀ k : Fin 96, ridx_main_v117 (ix2 r q) k = ix2 k q := fun k => funext fun a => by
    match a with
    | ⟨0, _⟩ => rfl
    | ⟨1, _⟩ => rfl
  have eb : idx_main_v120 (idx_main_v121 (ix2 r q)) = ix1 q := funext fun a => by
    match a with
    | ⟨0, _⟩ => rfl
  rw [val_main_v122_apply, val_main_v117_apply, val_main_v121_apply, val_main_v120_apply, eb]
  simp only [el, er]
  rfl

/-- THE LAYER: the region's output array, with the padding rows cut off, is the reference's edge stage. -/
theorem layer (V : (c : Dev nD) → (b : Ref sig .tc) → Buf (Elt Ideal) ((c : Thread nD τ).loc b)) (c : Dev nD)
    (x1 : (⟨Cert.ReferenceIdeal.S8192x3, .f32⟩ : BufTy).Contents (Elt Ideal))
    (x2 : (⟨Cert.ReferenceIdeal.S2x85342, .i32⟩ : BufTy).Contents (Elt Ideal))
    (x3 x4 : (⟨Cert.ReferenceIdeal.S488691, .i32⟩ : BufTy).Contents (Elt Ideal))
    (x6 : (⟨Cert.ReferenceIdeal.S64, .f32⟩ : BufTy).Contents (Elt Ideal))
    (x7 : (⟨Cert.ReferenceIdeal.S1x32, .f32⟩ : BufTy).Contents (Elt Ideal))
    (x8 : (⟨Cert.ReferenceIdeal.S32, .f32⟩ : BufTy).Contents (Elt Ideal))
    (x9 : (⟨Cert.ReferenceIdeal.S32x32, .f32⟩ : BufTy).Contents (Elt Ideal))
    (x10 : (⟨Cert.ReferenceIdeal.S32, .f32⟩ : BufTy).Contents (Elt Ideal))
    (x11 : (⟨Cert.ReferenceIdeal.S4x96x512, .f32⟩ : BufTy).Contents (Elt Ideal))
    (x12 : (⟨Cert.ReferenceIdeal.S4x512, .f32⟩ : BufTy).Contents (Elt Ideal))
    (h0 : V c main_v110 = pad S90000x96 ![0, 0] ![4658, 0] ![0, 0] (val_main_v114 (F := Ideal) x1 x2 x3 x4 x6 x7 x8 x9 x10)
      (sitofp (F := Ideal) .f32 (constantI S_ 32 0#32)) pads_S85342x96_S90000x96_046580_000 h_S_)
    (h1 : V c main_v109 = val_main_v116 (F := Ideal) x11)
    (h2 : V c main_v107 = shapeCast S1x512 (val_main_v119 (F := Ideal) x12) shapeCasts_S512_S1x512) :
    extractStridedSlice S85342x512 ![0, 0] ((dat2 (F := Ideal) V c).arrAt 3 cfg2.N) slices_S90000x512_S85342x512_0_0
      = val_main_v122 (F := Ideal) x1 x2 x3 x4 x6 x7 x8 x9 x10 x11 x12 := by
  funext i
  obtain ⟨r, q, rfl⟩ : ∃ (r : Fin 85342) (q : Fin 512), i = ix2 r q := ⟨i 0, i 1, eq_ix2 i⟩
  rw [final V c]
  show extractStridedSlice S85342x512 ![0, 0] (edgeOut (V c main_v110) (V c main_v109) (V c main_v107))
    slices_S90000x512_S85342x512_0_0 (ix2 r q) = _
  rw [h0, h1, h2, keptRows_edgeOut_apply, reference_apply]

end Cert.KernelIdeal.Edge2

end
-- ==== Proof.Node3.lean ====
import proofs.«430973_j37220186587498_2_alg».proof.Proof.Gen.KernelIdeal.Frame
import proofs.«430973_j37220186587498_2_alg».proof.Proof.ReadB
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Node3

open Idealize.ShloMosaic Idealize.ShloMosaic.TcCoe Idealize.SL.Sem Idealize.ShloMosaic.StableHlo
open Idealize.ShloMosaic.Pipeline (Dat Cfg Window)
open Idealize.ShloMosaic.ValueIdx
open Cert.KernelIdeal Cert.KernelIdeal.Gen
open Cert.ReferenceIdeal.Read

/-! # The node update region is the reference's node update

The region computes, block of 1024 rows by block, `x + (relu (agg · U₁ + b₁) · U₂ + b₂)` of the `8192 × 512` arrays
`x` and `agg`; its eight blocks tile the array. The reference computes `(x + relu (agg · U₁ + b₁) · U₂) + b₂` on the
whole array. Over the extended reals the two are equal entry by entry: both products are the same finite sums, and
addition is associative. -/
/-! ## The node update of one row

Row `r` of the result is `x r + ((relu (agg r · U₁ + b₁)) · U₂ + b₂)`: two products with `512 × 512` matrices, a
rectified sum between them, and the row of `x` added. -/

/-- The two-layer perceptron of one row `a` of the aggregated messages, at output column `q`. -/
def mlp (u1 : FVec Ideal S512x512 .f32) (b1 : FVec Ideal S1x512 .f32) (u2 : FVec Ideal S512x512 .f32)
    (b2 : FVec Ideal S1x512 .f32) (a : Fin 512 → EReal) (q : Fin 512) : EReal :=
  (∑ k : Fin 512, max ((∑ l : Fin 512, a l * u1 (ix2 l k)) + b1 (ix2 (0 : Fin 1) k)) 0 * u2 (ix2 k q)) + b2 (ix2 (0 : Fin 1) q)

/-! ## The closed form of the region's result -/

/-- Entry `(r, q)` of the updated node array: the entry of `x` plus the perceptron of row `r` of `agg`. -/
def nodeAt (X AGG : FVec Ideal S8192x512 .f32) (U1 : FVec Ideal S512x512 .f32) (B1 : FVec Ideal S1x512 .f32)
    (U2 : FVec Ideal S512x512 .f32) (B2 : FVec Ideal S1x512 .f32) (r : Fin 8192) (q : Fin 512) : EReal :=
  X (ix2 r q) + mlp U1 B1 U2 B2 (fun l => AGG (ix2 r l)) q

/-- The updated node array, index by index. -/
def node (X AGG : FVec Ideal S8192x512 .f32) (U1 : FVec Ideal S512x512 .f32) (B1 : FVec Ideal S1x512 .f32)
    (U2 : FVec Ideal S512x512 .f32) (B2 : FVec Ideal S1x512 .f32) : FVec Ideal S8192x512 .f32 :=
  fun i => nodeAt X AGG U1 B1 U2 B2 (i 0) (i 1)

theorem node_apply (X AGG : FVec Ideal S8192x512 .f32) (U1 : FVec Ideal S512x512 .f32) (B1 : FVec Ideal S1x512 .f32)
    (U2 : FVec Ideal S512x512 .f32) (B2 : FVec Ideal S1x512 .f32) (r : Fin 8192) (q : Fin 512) :
    node X AGG U1 B1 U2 B2 (ix2 r q) = nodeAt X AGG U1 B1 U2 B2 r q := rfl
/-! ## The block product at an index -/

theorem lhs_block_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_block_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_block_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_block_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A block of 1024 rows times a `512 × 512` matrix, into the zero accumulator, at row `p` and column `q`: the sum
    over the contracted coordinate. -/
theorem blockProduct_apply {φ₁ φ₂ : FTy} (a : FVec Ideal S1024x512 φ₁) (b : FVec Ideal S512x512 φ₂) (p : Fin 1024) (q : Fin 512) :
    FloatOps.matmul dot_S1024x512_S512x512_S1024x512_1_0_0_1_n_n none a b (constant (F := Ideal) S1024x512 .f32 0x00000000#32) (ix2 p q)
      = ∑ k : Fin 512, a (ix2 p k) * b (ix2 k q) := by
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun d => Fin.ext (by
    match d with
    | ⟨0, _⟩ => exact lhs_block_0 _ _
    | ⟨1, _⟩ => exact (lhs_block_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun d => Fin.ext (by
    match d with
    | ⟨0, _⟩ => exact (rhs_block_0 _ _).trans hk
    | ⟨1, _⟩ => exact rhs_block_1 _ _)
  rw [el, er]

/-! ## The body's arithmetic at an index -/

/-- The rectified hidden layer of a block, at row `p` and hidden column `k`. -/
theorem hidden_apply {φ₁ φ₂ : FTy} (agg : FVec Ideal S1024x512 φ₁) (u1 : FVec Ideal S512x512 φ₂) (b1 : FVec Ideal S1x512 .f32)
    (p : Fin 1024) (k : Fin 512) :
    maximumf (addf (FloatOps.matmul dot_S1024x512_S512x512_S1024x512_1_0_0_1_n_n none agg u1 (constant (F := Ideal) S1024x512 .f32 0x00000000#32))
        (broadcastTo S1024x512 b1 broadcasts_S1x512_S1024x512))
      (broadcast S1024x512 (Scalar.ofBits (F := Ideal) .f32 0x00000000#32)) (ix2 p k)
      = max ((∑ l : Fin 512, agg (ix2 p l) * u1 (ix2 l k)) + b1 (ix2 (0 : Fin 1) k)) 0 := by
  rw [maximumf_apply, addf_apply, broadcast_apply, broadcastTo_1b_ab_apply, blockProduct_apply]
  exact congrArg (max _) Ideal.ofBits_zero_f32

/-- THE PAYLOAD AT AN INDEX: row `p` of the block of `x` plus the perceptron of row `p` of the block of `agg`. -/
theorem pay_apply (agg : Vec Ideal S1024x512 .f32) (u1 : Vec Ideal S512x512 .f32) (b1 : Vec Ideal S1x512 .f32)
    (u2 : Vec Ideal S512x512 .f32) (b2 : Vec Ideal S1x512 .f32) (x : Vec Ideal S1024x512 .f32) (p : Fin 1024) (q : Fin 512) :
    k3_pay1 (F := Ideal) agg u1 b1 u2 b2 x (ix2 p q) = x (ix2 p q) + mlp u1 b1 u2 b2 (fun l => agg (ix2 p l)) q := by
  unfold k3_pay1
  simp only [shapeCast_self]
  rw [addf_apply, addf_apply, broadcastTo_1b_ab_apply]
  simp only [matmul]
  rw [blockProduct_apply]
  unfold mlp
  refine congrArg (x (ix2 p q) + ·) (congrArg (· + b2 (ix2 (0 : Fin 1) q)) (Finset.sum_congr rfl fun k _ => ?_))
  rw [truncf_apply, truncf_apply, hidden_apply]
  rfl

/-- One entry of the body's payload is one entry of the closed form, when the loaded blocks are the arrays' rows and
    the weights are the arrays themselves. -/
theorem pay_node (X AGG : FVec Ideal S8192x512 .f32) (U1 : FVec Ideal S512x512 .f32) (B1 : FVec Ideal S1x512 .f32)
    (U2 : FVec Ideal S512x512 .f32) (B2 : FVec Ideal S1x512 .f32)
    (agg : Vec Ideal S1024x512 .f32) (u1 : Vec Ideal S512x512 .f32) (b1 : Vec Ideal S1x512 .f32)
    (u2 : Vec Ideal S512x512 .f32) (b2 : Vec Ideal S1x512 .f32) (x : Vec Ideal S1024x512 .f32)
    (y : S1024x512.Idx) (i : S8192x512.Idx)
    (hx : x y = X i)
    (hagg : ∀ l : Fin 512, agg (ix2 (y 0) l) = AGG (ix2 (i 0) l))
    (hcol : (y 1).val = (i 1).val)
    (hu1 : u1 = U1) (hb1 : b1 = B1) (hu2 : u2 = U2) (hb2 : b2 = B2) :
    k3_pay1 (F := Ideal) agg u1 b1 u2 b2 x y = node X AGG U1 B1 U2 B2 i := by
  subst hu1 hb1 hu2 hb2
  obtain ⟨p, q, rfl⟩ : ∃ (p : Fin 1024) (q : Fin 512), y = ix2 p q := ⟨y 0, y 1, eq_ix2 y⟩
  obtain ⟨r, q', rfl⟩ : ∃ (r : Fin 8192) (q' : Fin 512), i = ix2 r q' := ⟨i 0, i 1, eq_ix2 i⟩
  obtain rfl : q = q' := Fin.ext hcol
  rw [pay_apply, node_apply]
  unfold nodeAt
  rw [hx]
  exact congrArg (fun a => X (ix2 r q) + mlp u1 b1 u2 b2 a q) (funext fun l => hagg l)

/-! ## The reference's stages are the closed form

The reference adds the row of `x` to the second product first and the second bias afterwards; the kernel adds the bias
to the product first. Addition of extended reals is associative. -/

theorem lidx_v137 (r : Fin 8192) (q k : Fin 512) : lidx_main_v137 (ix2 r q) k = ix2 r k :=
  funext fun a => Fin.ext (by match a with | ⟨0, _⟩ => rfl | ⟨1, _⟩ => rfl)
theorem ridx_v137 (r : Fin 8192) (q k : Fin 512) : ridx_main_v137 (ix2 r q) k = ix2 k q :=
  funext fun a => Fin.ext (by match a with | ⟨0, _⟩ => rfl | ⟨1, _⟩ => rfl)
theorem lidx_v128 (r : Fin 8192) (k l : Fin 512) : lidx_main_v128 (ix2 r k) l = ix2 r l :=
  funext fun a => Fin.ext (by match a with | ⟨0, _⟩ => rfl | ⟨1, _⟩ => rfl)
theorem ridx_v128 (r : Fin 8192) (k l : Fin 512) : ridx_main_v128 (ix2 r k) l = ix2 l k :=
  funext fun a => Fin.ext (by match a with | ⟨0, _⟩ => rfl | ⟨1, _⟩ => rfl)
theorem idx_bias1 (r : Fin 8192) (k : Fin 512) : idx_main_v131 (idx_main_v132 (ix2 r k)) = ix1 k :=
  funext fun a => Fin.ext (by match a with | ⟨0, _⟩ => rfl)
theorem idx_bias2 (r : Fin 8192) (q : Fin 512) : idx_main_v141 (idx_main_v142 (ix2 r q)) = ix1 q :=
  funext fun a => Fin.ext (by match a with | ⟨0, _⟩ => rfl)

theorem reference_eq (x1 : (⟨Cert.ReferenceIdeal.S8192x3, .f32⟩ : BufTy).Contents (Elt Ideal)) (x2 : (⟨Cert.ReferenceIdeal.S2x85342, .i32⟩ : BufTy).Contents (Elt Ideal)) (x3 x4 : (⟨Cert.ReferenceIdeal.S488691, .i32⟩ : BufTy).Contents (Elt Ideal)) (x6 : (⟨Cert.ReferenceIdeal.S64, .f32⟩ : BufTy).Contents (Elt Ideal)) (x7 : (⟨Cert.ReferenceIdeal.S1x32, .f32⟩ : BufTy).Contents (Elt Ideal)) (x8 : (⟨Cert.ReferenceIdeal.S32, .f32⟩ : BufTy).Contents (Elt Ideal)) (x9 : (⟨Cert.ReferenceIdeal.S32x32, .f32⟩ : BufTy).Contents (Elt Ideal)) (x10 : (⟨Cert.ReferenceIdeal.S32, .f32⟩ : BufTy).Contents (Elt Ideal)) (x11 : (⟨Cert.ReferenceIdeal.S4x96x512, .f32⟩ : BufTy).Contents (Elt Ideal)) (x12 : (⟨Cert.ReferenceIdeal.S4x512, .f32⟩ : BufTy).Contents (Elt Ideal)) (x13 : (⟨Cert.ReferenceIdeal.S4x512x512, .f32⟩ : BufTy).Contents (Elt Ideal)) (x14 : (⟨Cert.ReferenceIdeal.S4x512, .f32⟩ : BufTy).Contents (Elt Ideal)) (x15 : (⟨Cert.ReferenceIdeal.S4x512x512, .f32⟩ : BufTy).Contents (Elt Ideal)) (x16 : (⟨Cert.ReferenceIdeal.S4x512, .f32⟩ : BufTy).Contents (Elt Ideal))
    (xin : (⟨S8192x512, .f32⟩ : BufTy).Contents (Elt Ideal)) :
    (addf (addf xin (val_main_v137 (F := Ideal) x1 x2 x3 x4 x6 x7 x8 x9 x10 x11 x12 x13 x14 x15)) (val_main_v142 (F := Ideal) x16) : FVec Ideal S8192x512 .f32)
      = node xin (val_main_v125 (F := Ideal) x1 x2 x3 x4 x6 x7 x8 x9 x10 x11 x12) (val_main_v127 (F := Ideal) x13)
          (shapeCast S1x512 (val_main_v130 (F := Ideal) x14) shapeCasts_S512_S1x512) (val_main_v136 (F := Ideal) x15)
          (shapeCast S1x512 (val_main_v140 (F := Ideal) x16) shapeCasts_S512_S1x512) := by
  funext i
  obtain ⟨r, q, rfl⟩ : ∃ (r : Fin 8192) (q : Fin 512), i = ix2 r q := ⟨i 0, i 1, eq_ix2 i⟩
  rw [node_apply, addf_apply, addf_apply, val_main_v137_apply, val_main_v142_apply, val_main_v141_apply, idx_bias2]
  unfold nodeAt mlp
  rw [add_assoc, shapeCast_a_1a_apply]
  refine congrArg (xin (ix2 r q) + ·) (congrArg (· + val_main_v140 (F := Ideal) x16 (ix1 q)) (Finset.sum_congr rfl fun k _ => ?_))
  rw [lidx_v137, ridx_v137, val_main_v134_apply, val_main_v133_apply, val_main_v128_apply, val_main_v132_apply, val_main_v131_apply,
    idx_bias1, val_main_call5_v0_apply, val_main_call5_cst_apply, shapeCast_a_1a_apply]
  simp only [lidx_v128, ridx_v128, Ideal.maximumf_def, Ideal.addf_def, Ideal.ofBits_def, Ideal.ofBits_zero_f32]

/-! ## From the blocks to the array -/

section Region
variable (V : (c : Dev nD) → (b : Ref sig .tc) → Buf (Elt Ideal) ((c : Thread nD τ).loc b))

/-- The arrays the region reads, as it finds them, each by its literal type. -/
abbrev xArr (c : Dev nD) : Vec Ideal S8192x512 .f32 := V c main_v1
abbrev aggArr (c : Dev nD) : Vec Ideal S8192x512 .f32 := V c main_v115
abbrev u1Arr (c : Dev nD) : Vec Ideal S512x512 .f32 := V c main_v123
abbrev b1Arr (c : Dev nD) : Vec Ideal S1x512 .f32 := V c main_v118
abbrev u2Arr (c : Dev nD) : Vec Ideal S512x512 .f32 := V c main_v125
abbrev b2Arr (c : Dev nD) : Vec Ideal S1x512 .f32 := V c main_v121

/-- The blocks the body loads at point `t`, each by its literal type. -/
abbrev xBlk (c : Dev nD) (t : Fin cfg3.N) : Vec Ideal S1024x512 .f32 := iblk3 V c 0 t
abbrev aggBlk (c : Dev nD) (t : Fin cfg3.N) : Vec Ideal S1024x512 .f32 := iblk3 V c 1 t
abbrev u1Blk (c : Dev nD) (t : Fin cfg3.N) : Vec Ideal S512x512 .f32 := iblk3 V c 2 t
abbrev b1Blk (c : Dev nD) (t : Fin cfg3.N) : Vec Ideal S1x512 .f32 := iblk3 V c 3 t
abbrev u2Blk (c : Dev nD) (t : Fin cfg3.N) : Vec Ideal S512x512 .f32 := iblk3 V c 4 t
abbrev b2Blk (c : Dev nD) (t : Fin cfg3.N) : Vec Ideal S1x512 .f32 := iblk3 V c 5 t

theorem zero_offsets : (![0, 0] : Fin 2 → Nat) = fun _ => 0 :=
  funext fun a => match a with | ⟨0, _⟩ => rfl | ⟨1, _⟩ => rfl

/-- The printed index maps, decided over the eight points: the blocks of `x` and of `agg` move with the output's block
    down the rows, the four weight windows stay at the origin, and the output's row block index is at most 7. -/
theorem index_facts : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (1 : Fin 2) = 0 ∧ win3_6.index t (0 : Fin 2) ≤ 7 :=
  (by decide +kernel : ∀ t : Fin grid3.N, _)

/-- Every row block is some point's. -/
theorem index_onto : ∀ q0 : Fin 8, ∃ t : Fin cfg3.N, win3_6.index t = ![q0.val, 0] :=
  (by decide +kernel : ∀ q0 : Fin 8, ∃ t : Fin grid3.N, win3_6.index t = ![q0.val, 0])

/-- The block of `x` at point `t` is `x` where the output's block lies. -/
theorem xBlk_apply (c : Dev nD) (t : Fin cfg3.N) (j : S1024x512.Idx) :
    xBlk V c t j = xArr V c (((cfg3.win 6).blk t).view.emb j) := by
  obtain ⟨e00, e01, e10, e11, e20, e21, e30, e31, e40, e41, e50, e51, e61, e60⟩ := index_facts t
  show V c main_v1 (((cfg3.win 0).blk t).view.emb j) = V c main_v1 (((cfg3.win 6).blk t).view.emb j)
  refine congrArg (V c main_v1) (funext fun a => Fin.ext ?_)
  match a with
  | ⟨0, _⟩ => show win3_0.index t (0 : Fin 2) * 1024 + 1 * (j 0).val = win3_6.index t (0 : Fin 2) * 1024 + 1 * (j 0).val; omega
  | ⟨1, _⟩ => show win3_0.index t (1 : Fin 2) * 512 + 1 * (j 1).val = win3_6.index t (1 : Fin 2) * 512 + 1 * (j 1).val; omega

/-- Row `j 0` of the block of `agg` at point `t` is the row of `agg` the output's block has there. -/
theorem aggBlk_apply (c : Dev nD) (t : Fin cfg3.N) (j : S1024x512.Idx) (l : Fin 512) :
    aggBlk V c t (ix2 (j 0) l) = aggArr V c (ix2 ((((cfg3.win 6).blk t).view.emb j) 0) l) := by
  obtain ⟨e00, e01, e10, e11, e20, e21, e30, e31, e40, e41, e50, e51, e61, e60⟩ := index_facts t
  show V c main_v115 (((cfg3.win 1).blk t).view.emb (ix2 (j 0) l)) = V c main_v115 (ix2 ((((cfg3.win 6).blk t).view.emb j) 0) l)
  refine congrArg (V c main_v115) (funext fun a => Fin.ext ?_)
  match a with
  | ⟨0, _⟩ => show win3_1.index t (0 : Fin 2) * 1024 + 1 * (j 0).val = win3_6.index t (0 : Fin 2) * 1024 + 1 * (j 0).val; omega
  | ⟨1, _⟩ => show win3_1.index t (1 : Fin 2) * 512 + 1 * l.val = l.val; omega

/-- The column of an index of the output's block is the column inside the block. -/
theorem col_emb (t : Fin cfg3.N) (j : S1024x512.Idx) : (j 1).val = ((((cfg3.win 6).blk t).view.emb j) 1).val := by
  obtain ⟨e00, e01, e10, e11, e20, e21, e30, e31, e40, e41, e50, e51, e61, e60⟩ := index_facts t
  show (j 1).val = win3_6.index t (1 : Fin 2) * 512 + 1 * (j 1).val
  omega

/-- Each weight window's one block is its whole array. -/
theorem u1Blk_eq (c : Dev nD) (t : Fin cfg3.N) : u1Blk V c t = u1Arr V c := by
  obtain ⟨e00, e01, e10, e11, e20, e21, e30, e31, e40, e41, e50, e51, e61, e60⟩ := index_facts t
  funext y
  show V c main_v123 (((cfg3.win 2).blk t).view.emb y) = V c main_v123 y
  refine congrArg (V c main_v123) (funext fun a => Fin.ext ?_)
  match a with
  | ⟨0, _⟩ => show win3_2.index t (0 : Fin 2) * 512 + 1 * (y 0).val = (y 0).val; omega
  | ⟨1, _⟩ => show win3_2.index t (1 : Fin 2) * 512 + 1 * (y 1).val = (y 1).val; omega
theorem b1Blk_eq (c : Dev nD) (t : Fin cfg3.N) : b1Blk V c t = b1Arr V c := by
  obtain ⟨e00, e01, e10, e11, e20, e21, e30, e31, e40, e41, e50, e51, e61, e60⟩ := index_facts t
  funext y
  show V c main_v118 (((cfg3.win 3).blk t).view.emb y) = V c main_v118 y
  refine congrArg (V c main_v118) (funext fun a => Fin.ext ?_)
  match a with
  | ⟨0, _⟩ => show win3_3.index t (0 : Fin 2) * 1 + 1 * (y 0).val = (y 0).val; omega
  | ⟨1, _⟩ => show win3_3.index t (1 : Fin 2) * 512 + 1 * (y 1).val = (y 1).val; omega
theorem u2Blk_eq (c : Dev nD) (t : Fin cfg3.N) : u2Blk V c t = u2Arr V c := by
  obtain ⟨e00, e01, e10, e11, e20, e21, e30, e31, e40, e41, e50, e51, e61, e60⟩ := index_facts t
  funext y
  show V c main_v125 (((cfg3.win 4).blk t).view.emb y) = V c main_v125 y
  refine congrArg (V c main_v125) (funext fun a => Fin.ext ?_)
  match a with
  | ⟨0, _⟩ => show win3_4.index t (0 : Fin 2) * 512 + 1 * (y 0).val = (y 0).val; omega
  | ⟨1, _⟩ => show win3_4.index t (1 : Fin 2) * 512 + 1 * (y 1).val = (y 1).val; omega
theorem b2Blk_eq (c : Dev nD) (t : Fin cfg3.N) : b2Blk V c t = b2Arr V c := by
  obtain ⟨e00, e01, e10, e11, e20, e21, e30, e31, e40, e41, e50, e51, e61, e60⟩ := index_facts t
  funext y
  show V c main_v121 (((cfg3.win 5).blk t).view.emb y) = V c main_v121 y
  refine congrArg (V c main_v121) (funext fun a => Fin.ext ?_)
  match a with
  | ⟨0, _⟩ => show win3_5.index t (0 : Fin 2) * 1 + 1 * (y 0).val = (y 0).val; omega
  | ⟨1, _⟩ => show win3_5.index t (1 : Fin 2) * 512 + 1 * (y 1).val = (y 1).val; omega

/-- WHAT POINT `t` WRITES BACK is block `t` of the closed form of the arrays as the region finds them. -/
theorem flushed_eq (c : Dev nD) (t : Fin cfg3.N) :
    (dat3 (F := Ideal) V c).flushed 6 t
      = ((cfg3.win 6).blk t).view.read (Elt Ideal) (node (xArr V c) (aggArr V c) (u1Arr V c) (b1Arr V c) (u2Arr V c) (b2Arr V c)) := by
  show (cfg3.win 6).cut (grid3.coords t) ((dat3 (F := Ideal) V c).after 6 t) = _
  rw [after3_6]
  unfold out3_6
  rw [View.canon_unit_zero zero_offsets]
  simp only [View.ld_unit_zero (S := S1024x512) zero_offsets, View.ld_unit_zero (S := S512x512) zero_offsets, View.ld_unit_zero (S := S1x512) zero_offsets]
  funext j
  show k3_pay1 (F := Ideal) (aggBlk V c t) (u1Blk V c t) (b1Blk V c t) (u2Blk V c t) (b2Blk V c t) (xBlk V c t) j
    = node (xArr V c) (aggArr V c) (u1Arr V c) (b1Arr V c) (u2Arr V c) (b2Arr V c) (((cfg3.win 6).blk t).view.emb j)
  exact pay_node (xArr V c) (aggArr V c) (u1Arr V c) (b1Arr V c) (u2Arr V c) (b2Arr V c)
    (aggBlk V c t) (u1Blk V c t) (b1Blk V c t) (u2Blk V c t) (b2Blk V c t) (xBlk V c t) j (((cfg3.win 6).blk t).view.emb j)
    (xBlk_apply V c t j) (fun l => aggBlk_apply V c t j l) (col_emb t j)
    (u1Blk_eq V c t) (b1Blk_eq V c t) (u2Blk_eq V c t) (b2Blk_eq V c t)

/-- An index of the array is in point `t`'s block iff each coordinate is in the block's range on its axis. -/
theorem mem_blk (t : Fin cfg3.N) (i : S8192x512.Idx) :
    i ∈ ((cfg3.win 6).blk t).view.set ↔ ∀ a : Fin 2, win3_6.index t a * S1024x512.size a ≤ (i a).val ∧ (i a).val < win3_6.index t a * S1024x512.size a + S1024x512.size a := by
  show i ∈ ((View.whole main_v126).slice (win3_6.rect t)).set ↔ _
  rw [View.set_slice_whole, Rect.mem_set_unit]
  exact Iff.rfl

/-- Eight blocks of 1024 rows are the 8192 rows: every index is in the block of the point whose row block holds it. -/
theorem covered (i : S8192x512.Idx) :
    ∃ t : Fin cfg3.N, (cfg3.win 6).flush t = true ∧ i ∈ ((cfg3.win 6).blk t).view.set := by
  have hi0 : (i 0).val < 8192 := (i 0).isLt
  have hi1 : (i 1).val < 512 := (i 1).isLt
  obtain ⟨t, ht⟩ := index_onto ⟨(i 0).val / 1024, by omega⟩
  have q0 : win3_6.index t (0 : Fin 2) = (i 0).val / 1024 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 1024 ≤ (i 0).val ∧ (i 0).val < win3_6.index t (0 : Fin 2) * 1024 + 1024; omega
  | ⟨1, _⟩ => show win3_6.index t (1 : Fin 2) * 512 ≤ (i 1).val ∧ (i 1).val < win3_6.index t (1 : Fin 2) * 512 + 512; omega

/-- THE ARRAY after the region: the closed form of the arrays as the region finds them. -/
theorem final (c : Dev nD) :
    (dat3 (F := Ideal) V c).arrAt 6 cfg3.N = node (xArr V c) (aggArr V c) (u1Arr V c) (b1Arr V c) (u2Arr V c) (b2Arr V c) :=
  (dat3 (F := Ideal) V c).arrAt_eq_of_cover 6 (node (xArr V c) (aggArr V c) (u1Arr V c) (b1Arr V c) (u2Arr V c) (b2Arr V c))
    (fun t _ => flushed_eq V c t) (fun i => covered i)

/-- The same with the arrays the region finds named: the closed form of whatever they are. -/
theorem region_eq (c : Dev nD) (X AGG : FVec Ideal S8192x512 .f32) (U1 : FVec Ideal S512x512 .f32) (B1 : FVec Ideal S1x512 .f32)
    (U2 : FVec Ideal S512x512 .f32) (B2 : FVec Ideal S1x512 .f32)
    (h0 : V c main_v1 = X) (h1 : V c main_v115 = AGG) (h2 : V c main_v123 = U1) (h3 : V c main_v118 = B1)
    (h4 : V c main_v125 = U2) (h5 : V c main_v121 = B2) :
    (dat3 (F := Ideal) V c).arrAt 6 cfg3.N = node X AGG U1 B1 U2 B2 := by
  subst h0 h1 h2 h3 h4 h5
  exact final V c

/-- THE LAYER: the region's output array is the reference's node update of the same inputs. -/
theorem layer (c : Dev nD)
    (x1 : (⟨Cert.ReferenceIdeal.S8192x3, .f32⟩ : BufTy).Contents (Elt Ideal)) (x2 : (⟨Cert.ReferenceIdeal.S2x85342, .i32⟩ : BufTy).Contents (Elt Ideal)) (x3 x4 : (⟨Cert.ReferenceIdeal.S488691, .i32⟩ : BufTy).Contents (Elt Ideal)) (x6 : (⟨Cert.ReferenceIdeal.S64, .f32⟩ : BufTy).Contents (Elt Ideal)) (x7 : (⟨Cert.ReferenceIdeal.S1x32, .f32⟩ : BufTy).Contents (Elt Ideal)) (x8 : (⟨Cert.ReferenceIdeal.S32, .f32⟩ : BufTy).Contents (Elt Ideal)) (x9 : (⟨Cert.ReferenceIdeal.S32x32, .f32⟩ : BufTy).Contents (Elt Ideal)) (x10 : (⟨Cert.ReferenceIdeal.S32, .f32⟩ : BufTy).Contents (Elt Ideal)) (x11 : (⟨Cert.ReferenceIdeal.S4x96x512, .f32⟩ : BufTy).Contents (Elt Ideal)) (x12 : (⟨Cert.ReferenceIdeal.S4x512, .f32⟩ : BufTy).Contents (Elt Ideal)) (x13 : (⟨Cert.ReferenceIdeal.S4x512x512, .f32⟩ : BufTy).Contents (Elt Ideal)) (x14 : (⟨Cert.ReferenceIdeal.S4x512, .f32⟩ : BufTy).Contents (Elt Ideal)) (x15 : (⟨Cert.ReferenceIdeal.S4x512x512, .f32⟩ : BufTy).Contents (Elt Ideal)) (x16 : (⟨Cert.ReferenceIdeal.S4x512, .f32⟩ : BufTy).Contents (Elt Ideal))
    (xin : (⟨S8192x512, .f32⟩ : BufTy).Contents (Elt Ideal))
    (h0 : V c main_v1 = xin)
    (h1 : V c main_v115 = val_main_v125 (F := Ideal) x1 x2 x3 x4 x6 x7 x8 x9 x10 x11 x12)
    (h2 : V c main_v123 = val_main_v127 (F := Ideal) x13)
    (h3 : V c main_v118 = shapeCast S1x512 (val_main_v130 (F := Ideal) x14) shapeCasts_S512_S1x512)
    (h4 : V c main_v125 = val_main_v136 (F := Ideal) x15)
    (h5 : V c main_v121 = shapeCast S1x512 (val_main_v140 (F := Ideal) x16) shapeCasts_S512_S1x512) :
    (dat3 (F := Ideal) V c).arrAt 6 cfg3.N
      = (addf (addf xin (val_main_v137 (F := Ideal) x1 x2 x3 x4 x6 x7 x8 x9 x10 x11 x12 x13 x14 x15)) (val_main_v142 (F := Ideal) x16) : FVec Ideal S8192x512 .f32) := by
  exact (region_eq V c xin (val_main_v125 (F := Ideal) x1 x2 x3 x4 x6 x7 x8 x9 x10 x11 x12) (val_main_v127 (F := Ideal) x13)
      (shapeCast S1x512 (val_main_v130 (F := Ideal) x14) shapeCasts_S512_S1x512) (val_main_v136 (F := Ideal) x15)
      (shapeCast S1x512 (val_main_v140 (F := Ideal) x16) shapeCasts_S512_S1x512) h0 h1 h2 h3 h4 h5).trans
    (reference_eq x1 x2 x3 x4 x6 x7 x8 x9 x10 x11 x12 x13 x14 x15 x16 xin).symm

end Region

end Cert.KernelIdeal.Node3

end
-- ==== Proof.Layer0.lean ====
/-
  One message-passing layer of the kernel program, read through the fold of buffer contents. At the boundary before the
  layer's padding the buffers hold: the node states `xin`, the edges' source nodes, the edge features, this layer's
  edge weights and bias and its update weights. The layer pads the edge features with zero rows, multiplies them by the
  weights on the device (rows beyond the real edges are dropped again by the slice that follows), adds each edge's message
  into its source node, and updates the node states on the device:
  `xin + (max(agg · U1 + b1, 0) · U2 + b2)`, which is the reference's `(xin + max(agg · U1 + b1, 0) · U2) + b2`.
-/
import proofs.«430973_j37220186587498_2_alg».proof.Proof.Gen.KernelIdeal.Frame
import proofs.«430973_j37220186587498_2_alg».proof.Proof.ReadB
import proofs.«430973_j37220186587498_2_alg».proof.Proof.Carry
import proofs.«430973_j37220186587498_2_alg».proof.Proof.Edge2
import proofs.«430973_j37220186587498_2_alg».proof.Proof.Node3
import Idealize.ShloMosaic.Lib.StableHlo.Run

set_option maxRecDepth 16384

noncomputable section

namespace Cert.KernelIdeal.Layer0

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
local notation "a13" => m ((c.tc : Thread nD τ).loc main_arg13)
local notation "a14" => m ((c.tc : Thread nD τ).loc main_arg14)
local notation "a15" => m ((c.tc : Thread nD τ).loc main_arg15)
local notation "a16" => m ((c.tc : Thread nD τ).loc main_arg16)
set_option quotPrecheck true

/-- What the buffers hold at the boundary before the layer's padding. -/
structure Entry (xin : (⟨S8192x512, .f32⟩ : BufTy).Contents (Elt Ideal)) : Prop where
  x : W13 (F := Ideal) m ρ c (Proc.devRef .tc main_v1) = xin
  row : W13 (F := Ideal) m ρ c (Proc.devRef .tc main_v3) = val_main_v9 (F := Ideal) a2
  ef : W13 (F := Ideal) m ρ c (Proc.devRef .tc main_v104) = val_main_v114 (F := Ideal) a1 a2 a3 a4 a6 a7 a8 a9 a10
  w : W13 (F := Ideal) m ρ c (Proc.devRef .tc main_v109) = val_main_v116 (F := Ideal) a11
  b : W13 (F := Ideal) m ρ c (Proc.devRef .tc main_v107) = shapeCast S1x512 (val_main_v119 (F := Ideal) a12) shapeCasts_S512_S1x512
  z : W13 (F := Ideal) m ρ c (Proc.devRef .tc main_c_24) = constantI S_ 32 0#32
  p0 : W13 (F := Ideal) m ρ c (Proc.devRef .tc main_arg0) = a0
  p11 : W13 (F := Ideal) m ρ c (Proc.devRef .tc main_arg11) = a11
  p12 : W13 (F := Ideal) m ρ c (Proc.devRef .tc main_arg12) = a12
  u1 : W13 (F := Ideal) m ρ c (Proc.devRef .tc main_arg13) = a13
  b1 : W13 (F := Ideal) m ρ c (Proc.devRef .tc main_arg14) = a14
  u2 : W13 (F := Ideal) m ρ c (Proc.devRef .tc main_arg15) = a15
  b2 : W13 (F := Ideal) m ρ c (Proc.devRef .tc main_arg16) = a16

/-- A buffer that neither the padding, nor the two device regions, nor the host operations between them write holds
    at the layer's end what it held at its beginning. -/
theorem kept (r : Ref sig .tc) (h1 : r ∉ Carry.written_hostOps2_1) (h2 : ∀ w, Pipeline.arrRef spec2 w ≠ r)
    (h3 : r ∉ Carry.written_hostOps3) (h4 : ∀ w, Pipeline.arrRef spec3 w ≠ r) :
    W17 (F := Ideal) m ρ c (Proc.devRef .tc r) = W13 (F := Ideal) m ρ c (Proc.devRef .tc r) :=
  (W17_of_ne m ρ c r h4).trans ((Carry.keep_hostOps3 _ r h3).trans ((W15_of_ne m ρ c r h2).trans (Carry.keep_hostOps2_1 _ r h1)))

/-- The same, up to the second region's entry. -/
theorem kept16 (r : Ref sig .tc) (h1 : r ∉ Carry.written_hostOps2_1) (h2 : ∀ w, Pipeline.arrRef spec2 w ≠ r)
    (h3 : r ∉ Carry.written_hostOps3) :
    W16 (F := Ideal) m ρ c (Proc.devRef .tc r) = W13 (F := Ideal) m ρ c (Proc.devRef .tc r) :=
  (Carry.keep_hostOps3 _ r h3).trans ((W15_of_ne m ρ c r h2).trans (Carry.keep_hostOps2_1 _ r h1))

/-- The same, up to the first region's exit. -/
theorem kept15 (r : Ref sig .tc) (h1 : r ∉ Carry.written_hostOps2_1) (h2 : ∀ w, Pipeline.arrRef spec2 w ≠ r) :
    W15 (F := Ideal) m ρ c (Proc.devRef .tc r) = W13 (F := Ideal) m ρ c (Proc.devRef .tc r) :=
  (W15_of_ne m ρ c r h2).trans (Carry.keep_hostOps2_1 _ r h1)

variable {xin : (⟨S8192x512, .f32⟩ : BufTy).Contents (Elt Ideal)} (h : Entry m ρ c xin)
include h

/-- The edge features, padded with zero rows, at the first region's entry. -/
theorem padded : V14 (F := Ideal) m ρ c main_v110
    = pad S90000x96 ![0, 0] ![4658, 0] ![0, 0] (val_main_v114 (F := Ideal) a1 a2 a3 a4 a6 a7 a8 a9 a10) (sitofp (F := Ideal) .f32 (constantI S_ 32 0#32)) pads_S85342x96_S90000x96_046580_000 h_S_ := by
  show StableHlo.after hostOps2_1 (W13 (F := Ideal) m ρ c) (Proc.devRef .tc main_v110) = _
  have hef := h.ef
  have hz := h.z
  generalize W13 (F := Ideal) m ρ c = W at hef hz ⊢
  dsimp only [hostOps2_1]
  after_results_simp
  rw [hef, hz]
  rfl

/-- The messages of the real edges: the device's product, sliced, is the reference's. -/
theorem messages : extractStridedSlice S85342x512 ![0, 0] (W15 (F := Ideal) m ρ c (Proc.devRef .tc main_v111)) slices_S90000x512_S85342x512_0_0
    = val_main_v122 (F := Ideal) a1 a2 a3 a4 a6 a7 a8 a9 a10 a11 a12 := by
  have e111 : W15 (F := Ideal) m ρ c (Proc.devRef .tc main_v111) = (dat2 (F := Ideal) (V14 m ρ) c).arrAt 3 cfg2.N := W15_arr m ρ c 3
  rw [e111]
  exact Edge2.layer (V14 m ρ) c a1 a2 a3 a4 a6 a7 a8 a9 a10 a11 a12 (padded m ρ c h)
    ((Carry.keep_hostOps2_1 _ main_v109 (by decide)).trans h.w)
    ((Carry.keep_hostOps2_1 _ main_v107 (by decide)).trans h.b)

/-- Each node's sum of its edges' messages. -/
theorem aggregated : V16 (F := Ideal) m ρ c main_v115 = val_main_v125 (F := Ideal) a1 a2 a3 a4 a6 a7 a8 a9 a10 a11 a12 := by
  show StableHlo.after hostOps3 (W15 (F := Ideal) m ρ c) (Proc.devRef .tc main_v115) = _
  dsimp only [hostOps3]
  after_results_simp
  rw [messages m ρ c h, kept15 m ρ c main_v3 (by decide) (by decide), h.row]
  rfl

theorem weights1 : V16 (F := Ideal) m ρ c main_v123 = val_main_v127 (F := Ideal) a13 := by
  show StableHlo.after hostOps3 (W15 (F := Ideal) m ρ c) (Proc.devRef .tc main_v123) = _
  dsimp only [hostOps3]
  after_results_simp
  rw [kept15 m ρ c main_arg13 (by decide) (by decide), h.u1]
  rfl

theorem bias1 : V16 (F := Ideal) m ρ c main_v118 = shapeCast S1x512 (val_main_v130 (F := Ideal) a14) shapeCasts_S512_S1x512 := by
  show StableHlo.after hostOps3 (W15 (F := Ideal) m ρ c) (Proc.devRef .tc main_v118) = _
  dsimp only [hostOps3]
  after_results_simp
  rw [kept15 m ρ c main_arg14 (by decide) (by decide), h.b1]
  rfl

theorem weights2 : V16 (F := Ideal) m ρ c main_v125 = val_main_v136 (F := Ideal) a15 := by
  show StableHlo.after hostOps3 (W15 (F := Ideal) m ρ c) (Proc.devRef .tc main_v125) = _
  dsimp only [hostOps3]
  after_results_simp
  rw [kept15 m ρ c main_arg15 (by decide) (by decide), h.u2]
  rfl

theorem bias2 : V16 (F := Ideal) m ρ c main_v121 = shapeCast S1x512 (val_main_v140 (F := Ideal) a16) shapeCasts_S512_S1x512 := by
  show StableHlo.after hostOps3 (W15 (F := Ideal) m ρ c) (Proc.devRef .tc main_v121) = _
  dsimp only [hostOps3]
  after_results_simp
  rw [kept15 m ρ c main_arg16 (by decide) (by decide), h.b2]
  rfl

/-- THE LAYER: the node states after it. -/
theorem updated : W17 (F := Ideal) m ρ c (Proc.devRef .tc main_v126)
    = (addf (addf xin (val_main_v137 (F := Ideal) a1 a2 a3 a4 a6 a7 a8 a9 a10 a11 a12 a13 a14 a15)) (val_main_v142 (F := Ideal) a16) : FVec Ideal S8192x512 .f32) := by
  have e126 : W17 (F := Ideal) m ρ c (Proc.devRef .tc main_v126) = (dat3 (F := Ideal) (V16 m ρ) c).arrAt 6 cfg3.N := W17_arr m ρ c 6
  rw [e126]
  exact Node3.layer (V16 m ρ) c a1 a2 a3 a4 a6 a7 a8 a9 a10 a11 a12 a13 a14 a15 a16 xin
    ((kept16 m ρ c main_v1 (by decide) (by decide) (by decide)).trans h.x)
    (aggregated m ρ c h) (weights1 m ρ c h) (bias1 m ρ c h) (weights2 m ρ c h) (bias2 m ρ c h)

end Cert.KernelIdeal.Layer0

end
-- ==== Proof.ChainA.lean ====
/-
  From the launch to the first message-passing layer. The node states start as the embedding rows of the tokens (the
  device's one-hot product is the reference's row gather, for tokens inside the table); the angle features of the
  triplets are the device's two small products with a rectifier between them, padded rows dropped; the edge
  features are the radial basis values joined with the two scatter-sums of the angle features. The host operations
  around the two device regions are the reference's own, operation for operation.
-/
import proofs.«430973_j37220186587498_2_alg».proof.Proof.Gen.KernelIdeal.Frame
import proofs.«430973_j37220186587498_2_alg».proof.Proof.ReadB
import proofs.«430973_j37220186587498_2_alg».proof.Proof.Carry
import proofs.«430973_j37220186587498_2_alg».proof.Proof.Glue1
import proofs.«430973_j37220186587498_2_alg».proof.Proof.TokOk
import proofs.«430973_j37220186587498_2_alg».proof.Proof.Embed0
import proofs.«430973_j37220186587498_2_alg».proof.Proof.Angle1
import proofs.«430973_j37220186587498_2_alg».proof.Proof.Layer0
import Idealize.ShloMosaic.Lib.StableHlo.Run

set_option maxRecDepth 16384

noncomputable section

namespace Cert.KernelIdeal.ChainA

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
local notation "a13" => m ((c.tc : Thread nD τ).loc main_arg13)
local notation "a14" => m ((c.tc : Thread nD τ).loc main_arg14)
local notation "a15" => m ((c.tc : Thread nD τ).loc main_arg15)
local notation "a16" => m ((c.tc : Thread nD τ).loc main_arg16)

/-- An argument array, or any buffer nothing before the second region writes, holds its launch contents at that
    region's entry. -/
theorem launch11 (r : Ref sig .tc) (h0 : r ∉ Carry.written_hostOps0) (h1 : ∀ w, Pipeline.arrRef spec0 w ≠ r)
    (h2 : r ∉ Carry.written_hostOps1 ++ Carry.written_hostOps1_1 ++ Carry.written_hostOps1_2 ++ Carry.written_hostOps1_3 ++ Carry.written_hostOps1_4 ++ Carry.written_hostOps1_5 ++ Carry.written_hostOps1_6 ++ Carry.written_hostOps1_7 ++ Carry.written_hostOps1_8) :
    W11 (F := Ideal) m ρ c (Proc.devRef .tc r) = m ((c.tc : Thread nD τ).loc r) :=
  (Glue1.kept11 m ρ c r h2).trans (Glue1.launch2 m ρ c r h0 h1)

/-- … and at the second region's exit, if that region does not write it either. -/
theorem launch12 (r : Ref sig .tc) (h0 : r ∉ Carry.written_hostOps0) (h1 : ∀ w, Pipeline.arrRef spec0 w ≠ r)
    (h2 : r ∉ Carry.written_hostOps1 ++ Carry.written_hostOps1_1 ++ Carry.written_hostOps1_2 ++ Carry.written_hostOps1_3 ++ Carry.written_hostOps1_4 ++ Carry.written_hostOps1_5 ++ Carry.written_hostOps1_6 ++ Carry.written_hostOps1_7 ++ Carry.written_hostOps1_8)
    (h3 : ∀ w, Pipeline.arrRef spec1 w ≠ r) :
    W12 (F := Ideal) m ρ c (Proc.devRef .tc r) = m ((c.tc : Thread nD τ).loc r) :=
  (W12_of_ne m ρ c r h3).trans (launch11 m ρ c r h0 h1 h2)

/-- The node states after the embedding region: the tokens' rows of the table. -/
theorem embedded (hr : Tok.TokOk a0) : W2 (F := Ideal) m ρ c (Proc.devRef .tc main_v1) = val_main_v7 (F := Ideal) a0 a5 := by
  have e1 : W2 (F := Ideal) m ρ c (Proc.devRef .tc main_v1) = (dat0 (F := Ideal) (V1 m ρ) c).arrAt 2 cfg0.N := W2_arr m ρ c 2
  rw [e1]
  exact Embed0.layer (V1 m ρ) c a0 a5 hr (Glue1.tok m ρ c) (Glue1.emb_kept1 m ρ c)

/-- The angle features of the real triplets. -/
theorem angles : extractStridedSlice S488691x32 ![0, 0] (W12 (F := Ideal) m ρ c (Proc.devRef .tc main_v95)) slices_S491520x32_S488691x32_0_0
    = val_main_v106 (F := Ideal) a1 a2 a3 a4 a7 a8 a9 a10 := by
  have e95 : W12 (F := Ideal) m ρ c (Proc.devRef .tc main_v95) = (dat1 (F := Ideal) (V11 m ρ) c).arrAt 5 cfg1.N := W12_arr m ρ c 5
  rw [e95]
  exact Angle1.layer (V11 m ρ) c a1 a2 a3 a4 a7 a8 a9 a10 (Glue1.cospad m ρ c)
    (launch11 m ρ c main_arg7 (by decide) (by decide) (by decide)) (Glue1.ab1 m ρ c)
    (launch11 m ρ c main_arg9 (by decide) (by decide) (by decide)) (Glue1.ab2 m ρ c)

/-- The edge features at the first layer's boundary. -/
theorem edgeFeatures : W13 (F := Ideal) m ρ c (Proc.devRef .tc main_v104) = val_main_v114 (F := Ideal) a1 a2 a3 a4 a6 a7 a8 a9 a10 := by
  show StableHlo.after hostOps2 (W12 (F := Ideal) m ρ c) (Proc.devRef .tc main_v104) = _
  dsimp only [hostOps2]
  after_results
  rw [angles m ρ c, (W12_of_ne m ρ c main_v30 (by decide)).trans (Glue1.rbf m ρ c),
    launch12 m ρ c main_arg3 (by decide) (by decide) (by decide) (by decide),
    launch12 m ρ c main_arg4 (by decide) (by decide) (by decide) (by decide)]
  rfl

/-- Everything the first layer starts from. -/
theorem entry0 (hr : Tok.TokOk a0) : Layer0.Entry m ρ c (val_main_v7 (F := Ideal) a0 a5) where
  x := (Carry.keep_hostOps2 _ main_v1 (by decide)).trans ((W12_of_ne m ρ c main_v1 (by decide)).trans
    ((Glue1.x0_kept m ρ c).trans (embedded m ρ c hr)))
  row := (Carry.keep_hostOps2 _ main_v3 (by decide)).trans ((W12_of_ne m ρ c main_v3 (by decide)).trans (Glue1.row m ρ c))
  ef := edgeFeatures m ρ c
  w := by
    show StableHlo.after hostOps2 (W12 (F := Ideal) m ρ c) (Proc.devRef .tc main_v109) = _
    dsimp only [hostOps2]
    after_results_simp
    rw [launch12 m ρ c main_arg11 (by decide) (by decide) (by decide) (by decide)]
    rfl
  b := by
    show StableHlo.after hostOps2 (W12 (F := Ideal) m ρ c) (Proc.devRef .tc main_v107) = _
    dsimp only [hostOps2]
    after_results_simp
    rw [launch12 m ρ c main_arg12 (by decide) (by decide) (by decide) (by decide)]
    rfl
  z := by
    show StableHlo.after hostOps2 (W12 (F := Ideal) m ρ c) (Proc.devRef .tc main_c_24) = _
    dsimp only [hostOps2]
    after_results_simp
  p0 := (Carry.keep_hostOps2 _ main_arg0 (by decide)).trans (launch12 m ρ c main_arg0 (by decide) (by decide) (by decide) (by decide))
  p11 := (Carry.keep_hostOps2 _ main_arg11 (by decide)).trans (launch12 m ρ c main_arg11 (by decide) (by decide) (by decide) (by decide))
  p12 := (Carry.keep_hostOps2 _ main_arg12 (by decide)).trans (launch12 m ρ c main_arg12 (by decide) (by decide) (by decide) (by decide))
  u1 := (Carry.keep_hostOps2 _ main_arg13 (by decide)).trans (launch12 m ρ c main_arg13 (by decide) (by decide) (by decide) (by decide))
  b1 := (Carry.keep_hostOps2 _ main_arg14 (by decide)).trans (launch12 m ρ c main_arg14 (by decide) (by decide) (by decide) (by decide))
  u2 := (Carry.keep_hostOps2 _ main_arg15 (by decide)).trans (launch12 m ρ c main_arg15 (by decide) (by decide) (by decide) (by decide))
  b2 := (Carry.keep_hostOps2 _ main_arg16 (by decide)).trans (launch12 m ρ c main_arg16 (by decide) (by decide) (by decide) (by decide))

end Cert.KernelIdeal.ChainA

end
-- ==== Proof.Edge4.lean ====
import proofs.«430973_j37220186587498_2_alg».proof.Proof.Gen.KernelIdeal.Frame
import proofs.«430973_j37220186587498_2_alg».proof.Proof.ReadB
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

/-! # The edge layer: a row block of the padded edge features times the weight matrix, plus the bias row

The region computes, block of rows by block of rows, `out[r, j] = ∑ k, ef[r, k] * w[k, j] + b[0, j]` over the padded
edge-feature array; the host pads the features with zero rows before it and cuts the padding rows off after it. The
reference computes the same contraction and adds the bias broadcast along the rows. Over the extended reals the two
agree index by index. -/

set_option maxRecDepth 16384

noncomputable section

namespace Cert.KernelIdeal.Edge4

open Cert.KernelIdeal Cert.KernelIdeal.Gen Cert.ReferenceIdeal.Read
open Idealize.ShloMosaic Idealize.ShloMosaic.TcCoe Idealize.SL.Sem Idealize.ShloMosaic.ValueIdx
open Idealize.ShloMosaic.Pipeline (Dat Cfg Window)

/-! ## The body's arithmetic at an index -/

theorem zeroOffsets : (![0, 0] : Fin 2 → Nat) = fun _ => 0 := funext fun a => by fin_cases a <;> rfl

/-- The row coordinate of the left operand's index is the output's row. -/
theorem lhs_block_0 (i : S5000x512.Idx) (q : dot_S5000x96_S96x512_S5000x512_1_0_0_1_n_n.contr.Idx) :
    (dot_S5000x96_S96x512_S5000x512_1_0_0_1_n_n.lhsIdx i q 0).val = (i 0).val := by
  unfold DotDims.lhsIdx
  rw [dif_neg (show ¬(0 : Fin S5000x96.rank) ∈ dot_S5000x96_S96x512_S5000x512_1_0_0_1_n_n.lhsBatch by decide), dif_pos (show (0 : Fin S5000x96.rank) ∈ dot_S5000x96_S96x512_S5000x512_1_0_0_1_n_n.lhsNonContracting by decide)]
  rfl
/-- Its column coordinate is the contraction index. -/
theorem lhs_block_1 (i : S5000x512.Idx) (q : dot_S5000x96_S96x512_S5000x512_1_0_0_1_n_n.contr.Idx) :
    (dot_S5000x96_S96x512_S5000x512_1_0_0_1_n_n.lhsIdx i q 1).val = (q ⟨0, by decide⟩).val :=
  dot_S5000x96_S96x512_S5000x512_1_0_0_1_n_n.lhsIdx_val_of_single rfl i q
/-- The row coordinate of the right operand's index is the contraction index. -/
theorem rhs_block_0 (i : S5000x512.Idx) (q : dot_S5000x96_S96x512_S5000x512_1_0_0_1_n_n.contr.Idx) :
    (dot_S5000x96_S96x512_S5000x512_1_0_0_1_n_n.rhsIdx i q 0).val = (q ⟨0, by decide⟩).val :=
  dot_S5000x96_S96x512_S5000x512_1_0_0_1_n_n.rhsIdx_val_of_single rfl i q
/-- Its column coordinate is the output's column. -/
theorem rhs_block_1 (i : S5000x512.Idx) (q : dot_S5000x96_S96x512_S5000x512_1_0_0_1_n_n.contr.Idx) :
    (dot_S5000x96_S96x512_S5000x512_1_0_0_1_n_n.rhsIdx i q 1).val = (i 1).val := by
  unfold DotDims.rhsIdx
  rw [dif_neg (show ¬(1 : Fin S96x512.rank) ∈ dot_S5000x96_S96x512_S5000x512_1_0_0_1_n_n.rhsBatch by decide), dif_pos (show (1 : Fin S96x512.rank) ∈ dot_S5000x96_S96x512_S5000x512_1_0_0_1_n_n.rhsNonContracting by decide)]
  rfl

/-- The block product into the zero accumulator, read at an index: the sum over the contraction index (the narrowing
    of the operands to bf16 is the identity on the extended reals). -/
theorem blockProduct_apply (x : FVec Ideal S5000x96 .f32) (w : FVec Ideal S96x512 .f32) (j : S5000x512.Idx) :
    FloatOps.matmul dot_S5000x96_S96x512_S5000x512_1_0_0_1_n_n none (truncf .bf16 x bitsLt_bf16_f32) (truncf .bf16 w bitsLt_bf16_f32)
        (constant S5000x512 .f32 0x00000000#32) j
      = ∑ k : Fin 96, x (ix2 (j 0) k) * w (ix2 k (j 1)) := by
  rw [Ideal.matmul_constant_zero_apply, ← Equiv.sum_comp (ValueIdx.contrEquiv1 dot_S5000x96_S96x512_S5000x512_1_0_0_1_n_n 96 rfl rfl).symm]
  refine Finset.sum_congr rfl fun k _ => ?_
  have hk := ValueIdx.contrEquiv1_symm_val dot_S5000x96_S96x512_S5000x512_1_0_0_1_n_n 96 rfl rfl k
  have el : dot_S5000x96_S96x512_S5000x512_1_0_0_1_n_n.lhsIdx j ((ValueIdx.contrEquiv1 dot_S5000x96_S96x512_S5000x512_1_0_0_1_n_n 96 rfl rfl).symm k) = ix2 (j 0) k := funext fun a => Fin.ext (by
    match a with
    | ⟨0, _⟩ => exact lhs_block_0 _ _
    | ⟨1, _⟩ => exact (lhs_block_1 _ _).trans hk)
  have er : dot_S5000x96_S96x512_S5000x512_1_0_0_1_n_n.rhsIdx j ((ValueIdx.contrEquiv1 dot_S5000x96_S96x512_S5000x512_1_0_0_1_n_n 96 rfl rfl).symm k) = ix2 k (j 1) := funext fun a => Fin.ext (by
    match a with
    | ⟨0, _⟩ => exact (rhs_block_0 _ _).trans hk
    | ⟨1, _⟩ => exact rhs_block_1 _ _)
  rw [el, er]
  rfl

/-- The bias row broadcast down the block's rows, read at an index: the row's entry in that column. -/
theorem biasRows_apply (b : FVec Ideal S1x512 .f32) (j : S5000x512.Idx) :
    broadcastTo S5000x512 b broadcasts_S1x512_S5000x512 j = b (ix2 0 (j 1)) :=
  broadcastTo_apply b broadcasts_S1x512_S5000x512 j (ix2 0 (j 1)) (fun a => by
    match a with
    | ⟨0, _⟩ => rfl
    | ⟨1, _⟩ => rfl)

/-- THE BODY'S ARITHMETIC at an index of the block: the row of the feature block against the column of the weights,
    plus the bias in that column (the narrowing to bf16 is the identity on the extended reals). -/
theorem payload_apply (x : FVec Ideal S5000x96 .f32) (w : FVec Ideal S96x512 .f32) (b : FVec Ideal S1x512 .f32) (j : S5000x512.Idx) :
    k4_pay1 (F := Ideal) x w b j = (∑ k : Fin 96, x (ix2 (j 0) k) * w (ix2 k (j 1))) + b (ix2 0 (j 1)) := by
  unfold k4_pay1
  simp only [shapeCast_self]
  rw [ValueIdx.addf_apply, biasRows_apply]
  refine congrArg (· + b (ix2 0 (j 1))) ?_
  exact blockProduct_apply _ _ j

/-! ## The blocks: where each window's block sits in its array -/

/-- The printed index maps, decided over the grid: the feature window and the output window move with the point
    along the rows; the weights and the bias row are whole at every point. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Every row block of the output is some point's. -/
theorem index_onto : ∀ q : Fin 18, ∃ t : Fin cfg4.N, t.val = q.val :=
  (by decide +kernel : ∀ q : Fin 18, ∃ t : Fin grid4.N, t.val = q.val)

/-- An index of the output array is in point `t`'s block iff each coordinate is in the block's range on its axis. -/
theorem mem_outBlock (t : Fin cfg4.N) (i : S90000x512.Idx) :
    i ∈ ((cfg4.win 3).blk t).view.set ↔ ∀ a : Fin 2, win4_3.index t a * S5000x512.size a ≤ (i a).val ∧ (i a).val < win4_3.index t a * S5000x512.size a + S5000x512.size a := by
  show i ∈ ((View.whole main_v133).slice (win4_3.rect t)).set ↔ _
  rw [View.set_slice_whole, Rect.mem_set_unit]
  exact Iff.rfl

/-- The row blocks tile the output array: every index is in the block of the point its row falls in. -/
theorem outBlocks_cover (i : S90000x512.Idx) :
    ∃ t : Fin cfg4.N, (cfg4.win 3).flush t = true ∧ i ∈ ((cfg4.win 3).blk t).view.set := by
  have hi0 : (i 0).val < 90000 := (i 0).isLt
  have hi1 : (i 1).val < 512 := (i 1).isLt
  obtain ⟨t, ht⟩ := index_onto ⟨(i 0).val / 5000, by omega⟩
  have ht' : t.val = (i 0).val / 5000 := ht
  obtain ⟨-, -, -, -, -, -, e0, e1⟩ := index_facts t
  refine ⟨t, flush4_3 t, ?_⟩
  rw [mem_outBlock]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 512 ≤ (i 1).val ∧ (i 1).val < win4_3.index t (1 : Fin 2) * 512 + 512; omega

/-! ## The layer as one function of the arrays, and the host's pad, cut and reshape read at an index -/

/-- What the region's output array ends holding, as one function of the arrays it reads: each row of the padded
    features against each column of the weights, plus the bias in that column. -/
def edgeOut (ef : FVec Ideal S90000x96 .f32) (w : FVec Ideal S96x512 .f32) (b : FVec Ideal S1x512 .f32) : FVec Ideal S90000x512 .f32 :=
  fun i => (∑ k : Fin 96, ef (ix2 (i 0) k) * w (ix2 k (i 1))) + b (ix2 0 (i 1))

/-- A row of the features is below the padded array's row count. -/
theorem row_lt (r : Fin 85342) : r.val < 90000 := Nat.lt_trans r.isLt (by omega)

/-- The padded features read at a row of the features: the features there (the padding rows come after them). -/
theorem paddedRows_apply (ef : FVec Ideal S85342x96 .f32) (z : FVec Ideal S_ .f32) (r : Fin 85342) (k : Fin 96) :
    pad S90000x96 ![0, 0] ![4658, 0] ![0, 0] ef z pads_S85342x96_S90000x96_046580_000 h_S_ (ix2 ⟨r.val, row_lt r⟩ k) = ef (ix2 r k) :=
  pad_apply_of_inside ![0, 0] ![4658, 0] ![0, 0] ef z pads_S85342x96_S90000x96_046580_000 h_S_ (ix2 ⟨r.val, row_lt r⟩ k) (ix2 r k) (fun a => by
    match a with
    | ⟨0, _⟩ => show r.val = 0 + r.val * (0 + 1); omega
    | ⟨1, _⟩ => show k.val = 0 + k.val * (0 + 1); omega)

/-- The output with its padding rows cut off, read at an index: the output at the same row and column. -/
theorem keptRows_apply (G : FVec Ideal S90000x512 .f32) (r : Fin 85342) (q : Fin 512) :
    extractStridedSlice S85342x512 ![0, 0] G slices_S90000x512_S85342x512_0_0 (ix2 r q) = G (ix2 ⟨r.val, row_lt r⟩ q) :=
  extractStridedSlice_apply ![0, 0] G slices_S90000x512_S85342x512_0_0 (ix2 r q) (ix2 ⟨r.val, row_lt r⟩ q) (fun a => by
    match a with
    | ⟨0, _⟩ => show r.val = 0 + r.val; omega
    | ⟨1, _⟩ => show q.val = 0 + q.val; omega)

/-- THE HOST'S SIDE of the layer at an index: padding the features, the region's function, and cutting the padding
    rows off compose to the contraction over the features' own row, plus the bias vector's entry in that column. -/
theorem keptRows_edgeOut_apply (ef : FVec Ideal S85342x96 .f32) (z : FVec Ideal S_ .f32) (w : FVec Ideal S96x512 .f32)
    (b : FVec Ideal S512 .f32) (r : Fin 85342) (q : Fin 512) :
    extractStridedSlice S85342x512 ![0, 0]
        (edgeOut (pad S90000x96 ![0, 0] ![4658, 0] ![0, 0] ef z pads_S85342x96_S90000x96_046580_000 h_S_) w
          (shapeCast S1x512 b shapeCasts_S512_S1x512)) slices_S90000x512_S85342x512_0_0 (ix2 r q)
      = (∑ k : Fin 96, ef (ix2 r k) * w (ix2 k q)) + b (ix1 q) := by
  rw [keptRows_apply]
  show (∑ k : Fin 96, pad S90000x96 ![0, 0] ![4658, 0] ![0, 0] ef z pads_S85342x96_S90000x96_046580_000 h_S_ (ix2 ⟨r.val, row_lt r⟩ k) * w (ix2 k q))
      + shapeCast S1x512 b shapeCasts_S512_S1x512 (ix2 0 q) = _
  rw [shapeCast_a_1a_apply]
  refine congrArg (· + b (ix1 q)) (Finset.sum_congr rfl fun k _ => ?_)
  rw [paddedRows_apply]

/-! ## What each point writes back, and the array after the region -/

section Region

variable (V : (c : Dev nD) → (b : Ref sig .tc) → Buf (Elt Ideal) ((c : Thread nD τ).loc b))

/-- The padded features, the weights and the bias row as the region finds them. -/
abbrev featArr (c : Dev nD) : FVec Ideal S90000x96 .f32 := V c main_v132
abbrev weightArr (c : Dev nD) : FVec Ideal S96x512 .f32 := V c main_v131
abbrev biasArr (c : Dev nD) : FVec Ideal S1x512 .f32 := V c main_v129

/-- The blocks the body loads at a point. -/
abbrev featBlk (c : Dev nD) (t : Fin cfg4.N) : FVec Ideal S5000x96 .f32 := iblk4 (F := Ideal) V c 0 t
abbrev weightBlk (c : Dev nD) (t : Fin cfg4.N) : FVec Ideal S96x512 .f32 := iblk4 (F := Ideal) V c 1 t
abbrev biasBlk (c : Dev nD) (t : Fin cfg4.N) : FVec Ideal S1x512 .f32 := iblk4 (F := Ideal) V c 2 t

/-- The grid has 18 points. -/
theorem point_lt (t : Fin cfg4.N) : t.val < 18 := lt_of_lt_of_eq t.isLt N_4

/-- Point `t`'s feature block is rows `5000 t` to `5000 t + 4999` of the padded features. -/
theorem featBlk_apply (c : Dev nD) (t : Fin cfg4.N) (p : Fin 5000) (k : Fin 96) (hr : t.val * 5000 + p.val < 90000) :
    featBlk V c t (ix2 p k) = featArr V c (ix2 ⟨t.val * 5000 + p.val, hr⟩ k) := by
  obtain ⟨e0, e1, -⟩ := index_facts t
  show featArr V c (((cfg4.win 0).blk t).view.emb (ix2 p k)) = featArr V c (ix2 ⟨t.val * 5000 + p.val, hr⟩ k)
  refine congrArg (featArr V c) (funext fun a => Fin.ext ?_)
  match a with
  | ⟨0, _⟩ => show win4_0.index t (0 : Fin 2) * 5000 + 1 * p.val = t.val * 5000 + p.val; omega
  | ⟨1, _⟩ => show win4_0.index t (1 : Fin 2) * 96 + 1 * k.val = k.val; omega

/-- Every point's weight block is the whole weight matrix. -/
theorem weightBlk_apply (c : Dev nD) (t : Fin cfg4.N) (k : Fin 96) (q : Fin 512) :
    weightBlk V c t (ix2 k q) = weightArr V c (ix2 k q) := by
  obtain ⟨-, -, e0, e1, -⟩ := index_facts t
  show weightArr V c (((cfg4.win 1).blk t).view.emb (ix2 k q)) = weightArr V c (ix2 k q)
  refine congrArg (weightArr V c) (funext fun a => Fin.ext ?_)
  match a with
  | ⟨0, _⟩ => show win4_1.index t (0 : Fin 2) * 96 + 1 * k.val = k.val; omega
  | ⟨1, _⟩ => show win4_1.index t (1 : Fin 2) * 512 + 1 * q.val = q.val; omega

/-- Every point's bias block is the whole bias row. -/
theorem biasBlk_apply (c : Dev nD) (t : Fin cfg4.N) (q : Fin 512) :
    biasBlk V c t (ix2 0 q) = biasArr V c (ix2 0 q) := by
  obtain ⟨-, -, -, -, e0, e1, -⟩ := index_facts t
  show biasArr V c (((cfg4.win 2).blk t).view.emb (ix2 0 q)) = biasArr V c (ix2 0 q)
  refine congrArg (biasArr V c) (funext fun a => Fin.ext ?_)
  match a with
  | ⟨0, _⟩ => show win4_2.index t (0 : Fin 2) * 1 + 1 * 0 = 0; omega
  | ⟨1, _⟩ => show win4_2.index t (1 : Fin 2) * 512 + 1 * q.val = q.val; omega

/-- The body's arithmetic of point `t`'s blocks is block `t` of the layer's function of the arrays. -/
theorem payloadBlock_eq (c : Dev nD) (t : Fin cfg4.N) :
    k4_pay1 (F := Ideal) (featBlk V c t) (weightBlk V c t) (biasBlk V c t)
      = ((cfg4.win 3).blk t).view.read (Elt Ideal) (edgeOut (featArr V c) (weightArr V c) (biasArr V c)) := by
  funext j
  have ht := point_lt t
  have hj0 : (j 0).val < 5000 := (j 0).isLt
  have hj1 : (j 1).val < 512 := (j 1).isLt
  obtain ⟨-, -, -, -, -, -, e0, e1⟩ := index_facts t
  have hrow : t.val * 5000 + (j 0).val < 90000 := by omega
  have hemb : ((cfg4.win 3).blk t).view.emb j = ix2 ⟨t.val * 5000 + (j 0).val, hrow⟩ ⟨(j 1).val, hj1⟩ := by
    funext a; apply Fin.ext
    match a with
    | ⟨0, _⟩ => show win4_3.index t (0 : Fin 2) * 5000 + 1 * (j 0).val = t.val * 5000 + (j 0).val; omega
    | ⟨1, _⟩ => show win4_3.index t (1 : Fin 2) * 512 + 1 * (j 1).val = (j 1).val; omega
  show k4_pay1 (F := Ideal) (featBlk V c t) (weightBlk V c t) (biasBlk V c t) j
    = edgeOut (featArr V c) (weightArr V c) (biasArr V c) (((cfg4.win 3).blk t).view.emb j)
  rw [hemb]
  refine (payload_apply (featBlk V c t) (weightBlk V c t) (biasBlk V c t) j).trans ?_
  show _ = (∑ k : Fin 96, featArr V c (ix2 ⟨t.val * 5000 + (j 0).val, hrow⟩ k) * weightArr V c (ix2 k ⟨(j 1).val, hj1⟩))
    + biasArr V c (ix2 0 ⟨(j 1).val, hj1⟩)
  refine congrArg₂ (· + ·) (Finset.sum_congr rfl fun k _ => congrArg₂ (· * ·) ?_ ?_) ?_
  · exact featBlk_apply V c t ⟨(j 0).val, hj0⟩ k hrow
  · exact weightBlk_apply V c t k ⟨(j 1).val, hj1⟩
  · exact biasBlk_apply V c t ⟨(j 1).val, hj1⟩

/-- WHAT POINT `t` WRITES BACK is block `t` of the layer's function of the arrays as the region finds them. -/
theorem flushed_eq (c : Dev nD) (t : Fin cfg4.N) :
    (dat4 (F := Ideal) V c).flushed 3 t
      = ((cfg4.win 3).blk t).view.read (Elt Ideal) (edgeOut (featArr V c) (weightArr V c) (biasArr V c)) := by
  show (cfg4.win 3).cut (grid4.coords t) ((dat4 (F := Ideal) V c).after 3 t) = _
  rw [after4_3]
  unfold out4_3
  rw [View.canon_unit_zero zeroOffsets]
  simp only [View.ld_unit_zero (S := S5000x96) zeroOffsets, View.ld_unit_zero (S := S96x512) zeroOffsets,
    View.ld_unit_zero (S := S1x512) zeroOffsets]
  exact payloadBlock_eq V c t

/-- THE ARRAY after the region: the layer's function of the arrays the region found (the row blocks tile it). -/
theorem final (c : Dev nD) :
    (dat4 (F := Ideal) V c).arrAt 3 cfg4.N = edgeOut (featArr V c) (weightArr V c) (biasArr V c) :=
  (dat4 (F := Ideal) V c).arrAt_eq_of_cover 3 (edgeOut (featArr V c) (weightArr V c) (biasArr V c))
    (fun t _ => flushed_eq V c t) outBlocks_cover

end Region

/-! ## The reference's stage at an index, and the layer -/

/-- THE REFERENCE'S SIDE at an index: the contraction of the features' row with the weights' column, plus the bias
    vector's entry in that column (the bias broadcast along the rows, read back). -/
theorem reference_apply (x1 : (⟨Cert.ReferenceIdeal.S8192x3, .f32⟩ : BufTy).Contents (Elt Ideal))
    (x2 : (⟨Cert.ReferenceIdeal.S2x85342, .i32⟩ : BufTy).Contents (Elt Ideal))
    (x3 x4 : (⟨Cert.ReferenceIdeal.S488691, .i32⟩ : BufTy).Contents (Elt Ideal))
    (x6 : (⟨Cert.ReferenceIdeal.S64, .f32⟩ : BufTy).Contents (Elt Ideal))
    (x7 : (⟨Cert.ReferenceIdeal.S1x32, .f32⟩ : BufTy).Contents (Elt Ideal))
    (x8 : (⟨Cert.ReferenceIdeal.S32, .f32⟩ : BufTy).Contents (Elt Ideal))
    (x9 : (⟨Cert.ReferenceIdeal.S32x32, .f32⟩ : BufTy).Contents (Elt Ideal))
    (x10 : (⟨Cert.ReferenceIdeal.S32, .f32⟩ : BufTy).Contents (Elt Ideal))
    (x11 : (⟨Cert.ReferenceIdeal.S4x96x512, .f32⟩ : BufTy).Contents (Elt Ideal))
    (x12 : (⟨Cert.ReferenceIdeal.S4x512, .f32⟩ : BufTy).Contents (Elt Ideal))
    (r : Fin 85342) (q : Fin 512) :
    val_main_v151 (F := Ideal) x1 x2 x3 x4 x6 x7 x8 x9 x10 x11 x12 (ix2 r q)
      = (∑ k : Fin 96, val_main_v114 (F := Ideal) x1 x2 x3 x4 x6 x7 x8 x9 x10 (ix2 r k) * val_main_v145 (F := Ideal) x11 (ix2 k q))
        + val_main_v148 (F := Ideal) x12 (ix1 q) := by
  have el : ∀ k : Fin 96, lidx_main_v146 (ix2 r q) k = ix2 r k := fun k => funext fun a => by
    match a with
    | ⟨0, _⟩ => rfl
    | ⟨1, _⟩ => rfl
  have er : ∀ k : Fin 96, ridx_main_v146 (ix2 r q) k = ix2 k q := fun k => funext fun a => by
    match a with
    | ⟨0, _⟩ => rfl
    | ⟨1, _⟩ => rfl
  have eb : idx_main_v149 (idx_main_v150 (ix2 r q)) = ix1 q := funext fun a => by
    match a with
    | ⟨0, _⟩ => rfl
  rw [val_main_v151_apply, val_main_v146_apply, val_main_v150_apply, val_main_v149_apply, eb]
  simp only [el, er]
  rfl

/-- THE LAYER: the region's output array, with the padding rows cut off, is the reference's edge stage. -/
theorem layer (V : (c : Dev nD) → (b : Ref sig .tc) → Buf (Elt Ideal) ((c : Thread nD τ).loc b)) (c : Dev nD)
    (x1 : (⟨Cert.ReferenceIdeal.S8192x3, .f32⟩ : BufTy).Contents (Elt Ideal))
    (x2 : (⟨Cert.ReferenceIdeal.S2x85342, .i32⟩ : BufTy).Contents (Elt Ideal))
    (x3 x4 : (⟨Cert.ReferenceIdeal.S488691, .i32⟩ : BufTy).Contents (Elt Ideal))
    (x6 : (⟨Cert.ReferenceIdeal.S64, .f32⟩ : BufTy).Contents (Elt Ideal))
    (x7 : (⟨Cert.ReferenceIdeal.S1x32, .f32⟩ : BufTy).Contents (Elt Ideal))
    (x8 : (⟨Cert.ReferenceIdeal.S32, .f32⟩ : BufTy).Contents (Elt Ideal))
    (x9 : (⟨Cert.ReferenceIdeal.S32x32, .f32⟩ : BufTy).Contents (Elt Ideal))
    (x10 : (⟨Cert.ReferenceIdeal.S32, .f32⟩ : BufTy).Contents (Elt Ideal))
    (x11 : (⟨Cert.ReferenceIdeal.S4x96x512, .f32⟩ : BufTy).Contents (Elt Ideal))
    (x12 : (⟨Cert.ReferenceIdeal.S4x512, .f32⟩ : BufTy).Contents (Elt Ideal))
    (h0 : V c main_v132 = pad S90000x96 ![0, 0] ![4658, 0] ![0, 0] (val_main_v114 (F := Ideal) x1 x2 x3 x4 x6 x7 x8 x9 x10)
      (sitofp (F := Ideal) .f32 (constantI S_ 32 0#32)) pads_S85342x96_S90000x96_046580_000 h_S_)
    (h1 : V c main_v131 = val_main_v145 (F := Ideal) x11)
    (h2 : V c main_v129 = shapeCast S1x512 (val_main_v148 (F := Ideal) x12) shapeCasts_S512_S1x512) :
    extractStridedSlice S85342x512 ![0, 0] ((dat4 (F := Ideal) V c).arrAt 3 cfg4.N) slices_S90000x512_S85342x512_0_0
      = val_main_v151 (F := Ideal) x1 x2 x3 x4 x6 x7 x8 x9 x10 x11 x12 := by
  funext i
  obtain ⟨r, q, rfl⟩ : ∃ (r : Fin 85342) (q : Fin 512), i = ix2 r q := ⟨i 0, i 1, eq_ix2 i⟩
  rw [final V c]
  show extractStridedSlice S85342x512 ![0, 0] (edgeOut (V c main_v132) (V c main_v131) (V c main_v129))
    slices_S90000x512_S85342x512_0_0 (ix2 r q) = _
  rw [h0, h1, h2, keptRows_edgeOut_apply, reference_apply]

end Cert.KernelIdeal.Edge4

end
-- ==== Proof.Node5.lean ====
import proofs.«430973_j37220186587498_2_alg».proof.Proof.Gen.KernelIdeal.Frame
import proofs.«430973_j37220186587498_2_alg».proof.Proof.ReadB
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Node5

open Idealize.ShloMosaic Idealize.ShloMosaic.TcCoe Idealize.SL.Sem Idealize.ShloMosaic.StableHlo
open Idealize.ShloMosaic.Pipeline (Dat Cfg Window)
open Idealize.ShloMosaic.ValueIdx
open Cert.KernelIdeal Cert.KernelIdeal.Gen
open Cert.ReferenceIdeal.Read

/-! # The node update region is the reference's node update

The region computes, block of 1024 rows by block, `x + (relu (agg · U₁ + b₁) · U₂ + b₂)` of the `8192 × 512` arrays
`x` and `agg`; its eight blocks tile the array. The reference computes `(x + relu (agg · U₁ + b₁) · U₂) + b₂` on the
whole array. Over the extended reals the two are equal entry by entry: both products are the same finite sums, and
addition is associative. -/
/-! ## The node update of one row

Row `r` of the result is `x r + ((relu (agg r · U₁ + b₁)) · U₂ + b₂)`: two products with `512 × 512` matrices, a
rectified sum between them, and the row of `x` added. -/

/-- The two-layer perceptron of one row `a` of the aggregated messages, at output column `q`. -/
def mlp (u1 : FVec Ideal S512x512 .f32) (b1 : FVec Ideal S1x512 .f32) (u2 : FVec Ideal S512x512 .f32)
    (b2 : FVec Ideal S1x512 .f32) (a : Fin 512 → EReal) (q : Fin 512) : EReal :=
  (∑ k : Fin 512, max ((∑ l : Fin 512, a l * u1 (ix2 l k)) + b1 (ix2 (0 : Fin 1) k)) 0 * u2 (ix2 k q)) + b2 (ix2 (0 : Fin 1) q)

/-! ## The closed form of the region's result -/

/-- Entry `(r, q)` of the updated node array: the entry of `x` plus the perceptron of row `r` of `agg`. -/
def nodeAt (X AGG : FVec Ideal S8192x512 .f32) (U1 : FVec Ideal S512x512 .f32) (B1 : FVec Ideal S1x512 .f32)
    (U2 : FVec Ideal S512x512 .f32) (B2 : FVec Ideal S1x512 .f32) (r : Fin 8192) (q : Fin 512) : EReal :=
  X (ix2 r q) + mlp U1 B1 U2 B2 (fun l => AGG (ix2 r l)) q

/-- The updated node array, index by index. -/
def node (X AGG : FVec Ideal S8192x512 .f32) (U1 : FVec Ideal S512x512 .f32) (B1 : FVec Ideal S1x512 .f32)
    (U2 : FVec Ideal S512x512 .f32) (B2 : FVec Ideal S1x512 .f32) : FVec Ideal S8192x512 .f32 :=
  fun i => nodeAt X AGG U1 B1 U2 B2 (i 0) (i 1)

theorem node_apply (X AGG : FVec Ideal S8192x512 .f32) (U1 : FVec Ideal S512x512 .f32) (B1 : FVec Ideal S1x512 .f32)
    (U2 : FVec Ideal S512x512 .f32) (B2 : FVec Ideal S1x512 .f32) (r : Fin 8192) (q : Fin 512) :
    node X AGG U1 B1 U2 B2 (ix2 r q) = nodeAt X AGG U1 B1 U2 B2 r q := rfl
/-! ## The block product at an index -/

theorem lhs_block_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_block_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_block_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_block_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A block of 1024 rows times a `512 × 512` matrix, into the zero accumulator, at row `p` and column `q`: the sum
    over the contracted coordinate. -/
theorem blockProduct_apply {φ₁ φ₂ : FTy} (a : FVec Ideal S1024x512 φ₁) (b : FVec Ideal S512x512 φ₂) (p : Fin 1024) (q : Fin 512) :
    FloatOps.matmul dot_S1024x512_S512x512_S1024x512_1_0_0_1_n_n none a b (constant (F := Ideal) S1024x512 .f32 0x00000000#32) (ix2 p q)
      = ∑ k : Fin 512, a (ix2 p k) * b (ix2 k q) := by
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun d => Fin.ext (by
    match d with
    | ⟨0, _⟩ => exact lhs_block_0 _ _
    | ⟨1, _⟩ => exact (lhs_block_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun d => Fin.ext (by
    match d with
    | ⟨0, _⟩ => exact (rhs_block_0 _ _).trans hk
    | ⟨1, _⟩ => exact rhs_block_1 _ _)
  rw [el, er]

/-! ## The body's arithmetic at an index -/

/-- The rectified hidden layer of a block, at row `p` and hidden column `k`. -/
theorem hidden_apply {φ₁ φ₂ : FTy} (agg : FVec Ideal S1024x512 φ₁) (u1 : FVec Ideal S512x512 φ₂) (b1 : FVec Ideal S1x512 .f32)
    (p : Fin 1024) (k : Fin 512) :
    maximumf (addf (FloatOps.matmul dot_S1024x512_S512x512_S1024x512_1_0_0_1_n_n none agg u1 (constant (F := Ideal) S1024x512 .f32 0x00000000#32))
        (broadcastTo S1024x512 b1 broadcasts_S1x512_S1024x512))
      (broadcast S1024x512 (Scalar.ofBits (F := Ideal) .f32 0x00000000#32)) (ix2 p k)
      = max ((∑ l : Fin 512, agg (ix2 p l) * u1 (ix2 l k)) + b1 (ix2 (0 : Fin 1) k)) 0 := by
  rw [maximumf_apply, addf_apply, broadcast_apply, broadcastTo_1b_ab_apply, blockProduct_apply]
  exact congrArg (max _) Ideal.ofBits_zero_f32

/-- THE PAYLOAD AT AN INDEX: row `p` of the block of `x` plus the perceptron of row `p` of the block of `agg`. -/
theorem pay_apply (agg : Vec Ideal S1024x512 .f32) (u1 : Vec Ideal S512x512 .f32) (b1 : Vec Ideal S1x512 .f32)
    (u2 : Vec Ideal S512x512 .f32) (b2 : Vec Ideal S1x512 .f32) (x : Vec Ideal S1024x512 .f32) (p : Fin 1024) (q : Fin 512) :
    k5_pay1 (F := Ideal) agg u1 b1 u2 b2 x (ix2 p q) = x (ix2 p q) + mlp u1 b1 u2 b2 (fun l => agg (ix2 p l)) q := by
  unfold k5_pay1
  simp only [shapeCast_self]
  rw [addf_apply, addf_apply, broadcastTo_1b_ab_apply]
  simp only [matmul]
  rw [blockProduct_apply]
  unfold mlp
  refine congrArg (x (ix2 p q) + ·) (congrArg (· + b2 (ix2 (0 : Fin 1) q)) (Finset.sum_congr rfl fun k _ => ?_))
  rw [truncf_apply, truncf_apply, hidden_apply]
  rfl

/-- One entry of the body's payload is one entry of the closed form, when the loaded blocks are the arrays' rows and
    the weights are the arrays themselves. -/
theorem pay_node (X AGG : FVec Ideal S8192x512 .f32) (U1 : FVec Ideal S512x512 .f32) (B1 : FVec Ideal S1x512 .f32)
    (U2 : FVec Ideal S512x512 .f32) (B2 : FVec Ideal S1x512 .f32)
    (agg : Vec Ideal S1024x512 .f32) (u1 : Vec Ideal S512x512 .f32) (b1 : Vec Ideal S1x512 .f32)
    (u2 : Vec Ideal S512x512 .f32) (b2 : Vec Ideal S1x512 .f32) (x : Vec Ideal S1024x512 .f32)
    (y : S1024x512.Idx) (i : S8192x512.Idx)
    (hx : x y = X i)
    (hagg : ∀ l : Fin 512, agg (ix2 (y 0) l) = AGG (ix2 (i 0) l))
    (hcol : (y 1).val = (i 1).val)
    (hu1 : u1 = U1) (hb1 : b1 = B1) (hu2 : u2 = U2) (hb2 : b2 = B2) :
    k5_pay1 (F := Ideal) agg u1 b1 u2 b2 x y = node X AGG U1 B1 U2 B2 i := by
  subst hu1 hb1 hu2 hb2
  obtain ⟨p, q, rfl⟩ : ∃ (p : Fin 1024) (q : Fin 512), y = ix2 p q := ⟨y 0, y 1, eq_ix2 y⟩
  obtain ⟨r, q', rfl⟩ : ∃ (r : Fin 8192) (q' : Fin 512), i = ix2 r q' := ⟨i 0, i 1, eq_ix2 i⟩
  obtain rfl : q = q' := Fin.ext hcol
  rw [pay_apply, node_apply]
  unfold nodeAt
  rw [hx]
  exact congrArg (fun a => X (ix2 r q) + mlp u1 b1 u2 b2 a q) (funext fun l => hagg l)

/-! ## The reference's stages are the closed form

The reference adds the row of `x` to the second product first and the second bias afterwards; the kernel adds the bias
to the product first. Addition of extended reals is associative. -/

theorem lidx_v137 (r : Fin 8192) (q k : Fin 512) : lidx_main_v166 (ix2 r q) k = ix2 r k :=
  funext fun a => Fin.ext (by match a with | ⟨0, _⟩ => rfl | ⟨1, _⟩ => rfl)
theorem ridx_v137 (r : Fin 8192) (q k : Fin 512) : ridx_main_v166 (ix2 r q) k = ix2 k q :=
  funext fun a => Fin.ext (by match a with | ⟨0, _⟩ => rfl | ⟨1, _⟩ => rfl)
theorem lidx_v128 (r : Fin 8192) (k l : Fin 512) : lidx_main_v157 (ix2 r k) l = ix2 r l :=
  funext fun a => Fin.ext (by match a with | ⟨0, _⟩ => rfl | ⟨1, _⟩ => rfl)
theorem ridx_v128 (r : Fin 8192) (k l : Fin 512) : ridx_main_v157 (ix2 r k) l = ix2 l k :=
  funext fun a => Fin.ext (by match a with | ⟨0, _⟩ => rfl | ⟨1, _⟩ => rfl)
theorem idx_bias1 (r : Fin 8192) (k : Fin 512) : idx_main_v160 (idx_main_v161 (ix2 r k)) = ix1 k :=
  funext fun a => Fin.ext (by match a with | ⟨0, _⟩ => rfl)
theorem idx_bias2 (r : Fin 8192) (q : Fin 512) : idx_main_v170 (idx_main_v171 (ix2 r q)) = ix1 q :=
  funext fun a => Fin.ext (by match a with | ⟨0, _⟩ => rfl)

theorem reference_eq (x1 : (⟨Cert.ReferenceIdeal.S8192x3, .f32⟩ : BufTy).Contents (Elt Ideal)) (x2 : (⟨Cert.ReferenceIdeal.S2x85342, .i32⟩ : BufTy).Contents (Elt Ideal)) (x3 x4 : (⟨Cert.ReferenceIdeal.S488691, .i32⟩ : BufTy).Contents (Elt Ideal)) (x6 : (⟨Cert.ReferenceIdeal.S64, .f32⟩ : BufTy).Contents (Elt Ideal)) (x7 : (⟨Cert.ReferenceIdeal.S1x32, .f32⟩ : BufTy).Contents (Elt Ideal)) (x8 : (⟨Cert.ReferenceIdeal.S32, .f32⟩ : BufTy).Contents (Elt Ideal)) (x9 : (⟨Cert.ReferenceIdeal.S32x32, .f32⟩ : BufTy).Contents (Elt Ideal)) (x10 : (⟨Cert.ReferenceIdeal.S32, .f32⟩ : BufTy).Contents (Elt Ideal)) (x11 : (⟨Cert.ReferenceIdeal.S4x96x512, .f32⟩ : BufTy).Contents (Elt Ideal)) (x12 : (⟨Cert.ReferenceIdeal.S4x512, .f32⟩ : BufTy).Contents (Elt Ideal)) (x13 : (⟨Cert.ReferenceIdeal.S4x512x512, .f32⟩ : BufTy).Contents (Elt Ideal)) (x14 : (⟨Cert.ReferenceIdeal.S4x512, .f32⟩ : BufTy).Contents (Elt Ideal)) (x15 : (⟨Cert.ReferenceIdeal.S4x512x512, .f32⟩ : BufTy).Contents (Elt Ideal)) (x16 : (⟨Cert.ReferenceIdeal.S4x512, .f32⟩ : BufTy).Contents (Elt Ideal))
    (xin : (⟨S8192x512, .f32⟩ : BufTy).Contents (Elt Ideal)) :
    (addf (addf xin (val_main_v166 (F := Ideal) x1 x2 x3 x4 x6 x7 x8 x9 x10 x11 x12 x13 x14 x15)) (val_main_v171 (F := Ideal) x16) : FVec Ideal S8192x512 .f32)
      = node xin (val_main_v154 (F := Ideal) x1 x2 x3 x4 x6 x7 x8 x9 x10 x11 x12) (val_main_v156 (F := Ideal) x13)
          (shapeCast S1x512 (val_main_v159 (F := Ideal) x14) shapeCasts_S512_S1x512) (val_main_v165 (F := Ideal) x15)
          (shapeCast S1x512 (val_main_v169 (F := Ideal) x16) shapeCasts_S512_S1x512) := by
  funext i
  obtain ⟨r, q, rfl⟩ : ∃ (r : Fin 8192) (q : Fin 512), i = ix2 r q := ⟨i 0, i 1, eq_ix2 i⟩
  rw [node_apply, addf_apply, addf_apply, val_main_v166_apply, val_main_v171_apply, val_main_v170_apply, idx_bias2]
  unfold nodeAt mlp
  rw [add_assoc, shapeCast_a_1a_apply]
  refine congrArg (xin (ix2 r q) + ·) (congrArg (· + val_main_v169 (F := Ideal) x16 (ix1 q)) (Finset.sum_congr rfl fun k _ => ?_))
  rw [lidx_v137, ridx_v137, val_main_v163_apply, val_main_v162_apply, val_main_v157_apply, val_main_v161_apply, val_main_v160_apply,
    idx_bias1, val_main_call6_v0_apply, val_main_call6_cst_apply, shapeCast_a_1a_apply]
  simp only [lidx_v128, ridx_v128, Ideal.maximumf_def, Ideal.addf_def, Ideal.ofBits_def, Ideal.ofBits_zero_f32]

/-! ## From the blocks to the array -/

section Region
variable (V : (c : Dev nD) → (b : Ref sig .tc) → Buf (Elt Ideal) ((c : Thread nD τ).loc b))

/-- The arrays the region reads, as it finds them, each by its literal type. -/
abbrev xArr (c : Dev nD) : Vec Ideal S8192x512 .f32 := V c main_v126
abbrev aggArr (c : Dev nD) : Vec Ideal S8192x512 .f32 := V c main_v137
abbrev u1Arr (c : Dev nD) : Vec Ideal S512x512 .f32 := V c main_v145
abbrev b1Arr (c : Dev nD) : Vec Ideal S1x512 .f32 := V c main_v140
abbrev u2Arr (c : Dev nD) : Vec Ideal S512x512 .f32 := V c main_v147
abbrev b2Arr (c : Dev nD) : Vec Ideal S1x512 .f32 := V c main_v143

/-- The blocks the body loads at point `t`, each by its literal type. -/
abbrev xBlk (c : Dev nD) (t : Fin cfg5.N) : Vec Ideal S1024x512 .f32 := iblk5 V c 0 t
abbrev aggBlk (c : Dev nD) (t : Fin cfg5.N) : Vec Ideal S1024x512 .f32 := iblk5 V c 1 t
abbrev u1Blk (c : Dev nD) (t : Fin cfg5.N) : Vec Ideal S512x512 .f32 := iblk5 V c 2 t
abbrev b1Blk (c : Dev nD) (t : Fin cfg5.N) : Vec Ideal S1x512 .f32 := iblk5 V c 3 t
abbrev u2Blk (c : Dev nD) (t : Fin cfg5.N) : Vec Ideal S512x512 .f32 := iblk5 V c 4 t
abbrev b2Blk (c : Dev nD) (t : Fin cfg5.N) : Vec Ideal S1x512 .f32 := iblk5 V c 5 t

theorem zero_offsets : (![0, 0] : Fin 2 → Nat) = fun _ => 0 :=
  funext fun a => match a with | ⟨0, _⟩ => rfl | ⟨1, _⟩ => rfl

/-- The printed index maps, decided over the eight points: the blocks of `x` and of `agg` move with the output's block
    down the rows, the four weight windows stay at the origin, and the output's row block index is at most 7. -/
theorem index_facts : ∀ t : Fin cfg5.N,
    win5_0.index t (0 : Fin 2) = win5_6.index t (0 : Fin 2) ∧ win5_0.index t (1 : Fin 2) = 0
    ∧ win5_1.index t (0 : Fin 2) = win5_6.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (1 : Fin 2) = 0 ∧ win5_6.index t (0 : Fin 2) ≤ 7 :=
  (by decide +kernel : ∀ t : Fin grid5.N, _)

/-- Every row block is some point's. -/
theorem index_onto : ∀ q0 : Fin 8, ∃ t : Fin cfg5.N, win5_6.index t = ![q0.val, 0] :=
  (by decide +kernel : ∀ q0 : Fin 8, ∃ t : Fin grid5.N, win5_6.index t = ![q0.val, 0])

/-- The block of `x` at point `t` is `x` where the output's block lies. -/
theorem xBlk_apply (c : Dev nD) (t : Fin cfg5.N) (j : S1024x512.Idx) :
    xBlk V c t j = xArr V c (((cfg5.win 6).blk t).view.emb j) := by
  obtain ⟨e00, e01, e10, e11, e20, e21, e30, e31, e40, e41, e50, e51, e61, e60⟩ := index_facts t
  show V c main_v126 (((cfg5.win 0).blk t).view.emb j) = V c main_v126 (((cfg5.win 6).blk t).view.emb j)
  refine congrArg (V c main_v126) (funext fun a => Fin.ext ?_)
  match a with
  | ⟨0, _⟩ => show win5_0.index t (0 : Fin 2) * 1024 + 1 * (j 0).val = win5_6.index t (0 : Fin 2) * 1024 + 1 * (j 0).val; omega
  | ⟨1, _⟩ => show win5_0.index t (1 : Fin 2) * 512 + 1 * (j 1).val = win5_6.index t (1 : Fin 2) * 512 + 1 * (j 1).val; omega

/-- Row `j 0` of the block of `agg` at point `t` is the row of `agg` the output's block has there. -/
theorem aggBlk_apply (c : Dev nD) (t : Fin cfg5.N) (j : S1024x512.Idx) (l : Fin 512) :
    aggBlk V c t (ix2 (j 0) l) = aggArr V c (ix2 ((((cfg5.win 6).blk t).view.emb j) 0) l) := by
  obtain ⟨e00, e01, e10, e11, e20, e21, e30, e31, e40, e41, e50, e51, e61, e60⟩ := index_facts t
  show V c main_v137 (((cfg5.win 1).blk t).view.emb (ix2 (j 0) l)) = V c main_v137 (ix2 ((((cfg5.win 6).blk t).view.emb j) 0) l)
  refine congrArg (V c main_v137) (funext fun a => Fin.ext ?_)
  match a with
  | ⟨0, _⟩ => show win5_1.index t (0 : Fin 2) * 1024 + 1 * (j 0).val = win5_6.index t (0 : Fin 2) * 1024 + 1 * (j 0).val; omega
  | ⟨1, _⟩ => show win5_1.index t (1 : Fin 2) * 512 + 1 * l.val = l.val; omega

/-- The column of an index of the output's block is the column inside the block. -/
theorem col_emb (t : Fin cfg5.N) (j : S1024x512.Idx) : (j 1).val = ((((cfg5.win 6).blk t).view.emb j) 1).val := by
  obtain ⟨e00, e01, e10, e11, e20, e21, e30, e31, e40, e41, e50, e51, e61, e60⟩ := index_facts t
  show (j 1).val = win5_6.index t (1 : Fin 2) * 512 + 1 * (j 1).val
  omega

/-- Each weight window's one block is its whole array. -/
theorem u1Blk_eq (c : Dev nD) (t : Fin cfg5.N) : u1Blk V c t = u1Arr V c := by
  obtain ⟨e00, e01, e10, e11, e20, e21, e30, e31, e40, e41, e50, e51, e61, e60⟩ := index_facts t
  funext y
  show V c main_v145 (((cfg5.win 2).blk t).view.emb y) = V c main_v145 y
  refine congrArg (V c main_v145) (funext fun a => Fin.ext ?_)
  match a with
  | ⟨0, _⟩ => show win5_2.index t (0 : Fin 2) * 512 + 1 * (y 0).val = (y 0).val; omega
  | ⟨1, _⟩ => show win5_2.index t (1 : Fin 2) * 512 + 1 * (y 1).val = (y 1).val; omega
theorem b1Blk_eq (c : Dev nD) (t : Fin cfg5.N) : b1Blk V c t = b1Arr V c := by
  obtain ⟨e00, e01, e10, e11, e20, e21, e30, e31, e40, e41, e50, e51, e61, e60⟩ := index_facts t
  funext y
  show V c main_v140 (((cfg5.win 3).blk t).view.emb y) = V c main_v140 y
  refine congrArg (V c main_v140) (funext fun a => Fin.ext ?_)
  match a with
  | ⟨0, _⟩ => show win5_3.index t (0 : Fin 2) * 1 + 1 * (y 0).val = (y 0).val; omega
  | ⟨1, _⟩ => show win5_3.index t (1 : Fin 2) * 512 + 1 * (y 1).val = (y 1).val; omega
theorem u2Blk_eq (c : Dev nD) (t : Fin cfg5.N) : u2Blk V c t = u2Arr V c := by
  obtain ⟨e00, e01, e10, e11, e20, e21, e30, e31, e40, e41, e50, e51, e61, e60⟩ := index_facts t
  funext y
  show V c main_v147 (((cfg5.win 4).blk t).view.emb y) = V c main_v147 y
  refine congrArg (V c main_v147) (funext fun a => Fin.ext ?_)
  match a with
  | ⟨0, _⟩ => show win5_4.index t (0 : Fin 2) * 512 + 1 * (y 0).val = (y 0).val; omega
  | ⟨1, _⟩ => show win5_4.index t (1 : Fin 2) * 512 + 1 * (y 1).val = (y 1).val; omega
theorem b2Blk_eq (c : Dev nD) (t : Fin cfg5.N) : b2Blk V c t = b2Arr V c := by
  obtain ⟨e00, e01, e10, e11, e20, e21, e30, e31, e40, e41, e50, e51, e61, e60⟩ := index_facts t
  funext y
  show V c main_v143 (((cfg5.win 5).blk t).view.emb y) = V c main_v143 y
  refine congrArg (V c main_v143) (funext fun a => Fin.ext ?_)
  match a with
  | ⟨0, _⟩ => show win5_5.index t (0 : Fin 2) * 1 + 1 * (y 0).val = (y 0).val; omega
  | ⟨1, _⟩ => show win5_5.index t (1 : Fin 2) * 512 + 1 * (y 1).val = (y 1).val; omega

/-- WHAT POINT `t` WRITES BACK is block `t` of the closed form of the arrays as the region finds them. -/
theorem flushed_eq (c : Dev nD) (t : Fin cfg5.N) :
    (dat5 (F := Ideal) V c).flushed 6 t
      = ((cfg5.win 6).blk t).view.read (Elt Ideal) (node (xArr V c) (aggArr V c) (u1Arr V c) (b1Arr V c) (u2Arr V c) (b2Arr V c)) := by
  show (cfg5.win 6).cut (grid5.coords t) ((dat5 (F := Ideal) V c).after 6 t) = _
  rw [after5_6]
  unfold out5_6
  rw [View.canon_unit_zero zero_offsets]
  simp only [View.ld_unit_zero (S := S1024x512) zero_offsets, View.ld_unit_zero (S := S512x512) zero_offsets, View.ld_unit_zero (S := S1x512) zero_offsets]
  funext j
  show k5_pay1 (F := Ideal) (aggBlk V c t) (u1Blk V c t) (b1Blk V c t) (u2Blk V c t) (b2Blk V c t) (xBlk V c t) j
    = node (xArr V c) (aggArr V c) (u1Arr V c) (b1Arr V c) (u2Arr V c) (b2Arr V c) (((cfg5.win 6).blk t).view.emb j)
  exact pay_node (xArr V c) (aggArr V c) (u1Arr V c) (b1Arr V c) (u2Arr V c) (b2Arr V c)
    (aggBlk V c t) (u1Blk V c t) (b1Blk V c t) (u2Blk V c t) (b2Blk V c t) (xBlk V c t) j (((cfg5.win 6).blk t).view.emb j)
    (xBlk_apply V c t j) (fun l => aggBlk_apply V c t j l) (col_emb t j)
    (u1Blk_eq V c t) (b1Blk_eq V c t) (u2Blk_eq V c t) (b2Blk_eq V c t)

/-- An index of the array is in point `t`'s block iff each coordinate is in the block's range on its axis. -/
theorem mem_blk (t : Fin cfg5.N) (i : S8192x512.Idx) :
    i ∈ ((cfg5.win 6).blk t).view.set ↔ ∀ a : Fin 2, win5_6.index t a * S1024x512.size a ≤ (i a).val ∧ (i a).val < win5_6.index t a * S1024x512.size a + S1024x512.size a := by
  show i ∈ ((View.whole main_v148).slice (win5_6.rect t)).set ↔ _
  rw [View.set_slice_whole, Rect.mem_set_unit]
  exact Iff.rfl

/-- Eight blocks of 1024 rows are the 8192 rows: every index is in the block of the point whose row block holds it. -/
theorem covered (i : S8192x512.Idx) :
    ∃ t : Fin cfg5.N, (cfg5.win 6).flush t = true ∧ i ∈ ((cfg5.win 6).blk t).view.set := by
  have hi0 : (i 0).val < 8192 := (i 0).isLt
  have hi1 : (i 1).val < 512 := (i 1).isLt
  obtain ⟨t, ht⟩ := index_onto ⟨(i 0).val / 1024, by omega⟩
  have q0 : win5_6.index t (0 : Fin 2) = (i 0).val / 1024 := congrFun ht 0
  have q1 : win5_6.index t (1 : Fin 2) = 0 := congrFun ht 1
  refine ⟨t, flush5_6 t, ?_⟩
  rw [mem_blk]
  intro a
  match a with
  | ⟨0, _⟩ => show win5_6.index t (0 : Fin 2) * 1024 ≤ (i 0).val ∧ (i 0).val < win5_6.index t (0 : Fin 2) * 1024 + 1024; omega
  | ⟨1, _⟩ => show win5_6.index t (1 : Fin 2) * 512 ≤ (i 1).val ∧ (i 1).val < win5_6.index t (1 : Fin 2) * 512 + 512; omega

/-- THE ARRAY after the region: the closed form of the arrays as the region finds them. -/
theorem final (c : Dev nD) :
    (dat5 (F := Ideal) V c).arrAt 6 cfg5.N = node (xArr V c) (aggArr V c) (u1Arr V c) (b1Arr V c) (u2Arr V c) (b2Arr V c) :=
  (dat5 (F := Ideal) V c).arrAt_eq_of_cover 6 (node (xArr V c) (aggArr V c) (u1Arr V c) (b1Arr V c) (u2Arr V c) (b2Arr V c))
    (fun t _ => flushed_eq V c t) (fun i => covered i)

/-- The same with the arrays the region finds named: the closed form of whatever they are. -/
theorem region_eq (c : Dev nD) (X AGG : FVec Ideal S8192x512 .f32) (U1 : FVec Ideal S512x512 .f32) (B1 : FVec Ideal S1x512 .f32)
    (U2 : FVec Ideal S512x512 .f32) (B2 : FVec Ideal S1x512 .f32)
    (h0 : V c main_v126 = X) (h1 : V c main_v137 = AGG) (h2 : V c main_v145 = U1) (h3 : V c main_v140 = B1)
    (h4 : V c main_v147 = U2) (h5 : V c main_v143 = B2) :
    (dat5 (F := Ideal) V c).arrAt 6 cfg5.N = node X AGG U1 B1 U2 B2 := by
  subst h0 h1 h2 h3 h4 h5
  exact final V c

/-- THE LAYER: the region's output array is the reference's node update of the same inputs. -/
theorem layer (c : Dev nD)
    (x1 : (⟨Cert.ReferenceIdeal.S8192x3, .f32⟩ : BufTy).Contents (Elt Ideal)) (x2 : (⟨Cert.ReferenceIdeal.S2x85342, .i32⟩ : BufTy).Contents (Elt Ideal)) (x3 x4 : (⟨Cert.ReferenceIdeal.S488691, .i32⟩ : BufTy).Contents (Elt Ideal)) (x6 : (⟨Cert.ReferenceIdeal.S64, .f32⟩ : BufTy).Contents (Elt Ideal)) (x7 : (⟨Cert.ReferenceIdeal.S1x32, .f32⟩ : BufTy).Contents (Elt Ideal)) (x8 : (⟨Cert.ReferenceIdeal.S32, .f32⟩ : BufTy).Contents (Elt Ideal)) (x9 : (⟨Cert.ReferenceIdeal.S32x32, .f32⟩ : BufTy).Contents (Elt Ideal)) (x10 : (⟨Cert.ReferenceIdeal.S32, .f32⟩ : BufTy).Contents (Elt Ideal)) (x11 : (⟨Cert.ReferenceIdeal.S4x96x512, .f32⟩ : BufTy).Contents (Elt Ideal)) (x12 : (⟨Cert.ReferenceIdeal.S4x512, .f32⟩ : BufTy).Contents (Elt Ideal)) (x13 : (⟨Cert.ReferenceIdeal.S4x512x512, .f32⟩ : BufTy).Contents (Elt Ideal)) (x14 : (⟨Cert.ReferenceIdeal.S4x512, .f32⟩ : BufTy).Contents (Elt Ideal)) (x15 : (⟨Cert.ReferenceIdeal.S4x512x512, .f32⟩ : BufTy).Contents (Elt Ideal)) (x16 : (⟨Cert.ReferenceIdeal.S4x512, .f32⟩ : BufTy).Contents (Elt Ideal))
    (xin : (⟨S8192x512, .f32⟩ : BufTy).Contents (Elt Ideal))
    (h0 : V c main_v126 = xin)
    (h1 : V c main_v137 = val_main_v154 (F := Ideal) x1 x2 x3 x4 x6 x7 x8 x9 x10 x11 x12)
    (h2 : V c main_v145 = val_main_v156 (F := Ideal) x13)
    (h3 : V c main_v140 = shapeCast S1x512 (val_main_v159 (F := Ideal) x14) shapeCasts_S512_S1x512)
    (h4 : V c main_v147 = val_main_v165 (F := Ideal) x15)
    (h5 : V c main_v143 = shapeCast S1x512 (val_main_v169 (F := Ideal) x16) shapeCasts_S512_S1x512) :
    (dat5 (F := Ideal) V c).arrAt 6 cfg5.N
      = (addf (addf xin (val_main_v166 (F := Ideal) x1 x2 x3 x4 x6 x7 x8 x9 x10 x11 x12 x13 x14 x15)) (val_main_v171 (F := Ideal) x16) : FVec Ideal S8192x512 .f32) := by
  exact (region_eq V c xin (val_main_v154 (F := Ideal) x1 x2 x3 x4 x6 x7 x8 x9 x10 x11 x12) (val_main_v156 (F := Ideal) x13)
      (shapeCast S1x512 (val_main_v159 (F := Ideal) x14) shapeCasts_S512_S1x512) (val_main_v165 (F := Ideal) x15)
      (shapeCast S1x512 (val_main_v169 (F := Ideal) x16) shapeCasts_S512_S1x512) h0 h1 h2 h3 h4 h5).trans
    (reference_eq x1 x2 x3 x4 x6 x7 x8 x9 x10 x11 x12 x13 x14 x15 x16 xin).symm

end Region

end Cert.KernelIdeal.Node5

end
-- ==== Proof.Layer1.lean ====
/-
  One message-passing layer of the kernel program, read through the fold of buffer contents. At the boundary before the
  layer's padding the buffers hold: the node states `xin`, the edges' source nodes, the edge features, this layer's
  edge weights and bias and its update weights. The layer pads the edge features with zero rows, multiplies them by the
  weights on the device (rows beyond the real edges are dropped again by the slice that follows), adds each edge's message
  into its source node, and updates the node states on the device:
  `xin + (max(agg · U1 + b1, 0) · U2 + b2)`, which is the reference's `(xin + max(agg · U1 + b1, 0) · U2) + b2`.
-/
import proofs.«430973_j37220186587498_2_alg».proof.Proof.Gen.KernelIdeal.Frame
import proofs.«430973_j37220186587498_2_alg».proof.Proof.ReadB
import proofs.«430973_j37220186587498_2_alg».proof.Proof.Carry
import proofs.«430973_j37220186587498_2_alg».proof.Proof.Edge4
import proofs.«430973_j37220186587498_2_alg».proof.Proof.Node5
import Idealize.ShloMosaic.Lib.StableHlo.Run

set_option maxRecDepth 16384

noncomputable section

namespace Cert.KernelIdeal.Layer1

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
local notation "a13" => m ((c.tc : Thread nD τ).loc main_arg13)
local notation "a14" => m ((c.tc : Thread nD τ).loc main_arg14)
local notation "a15" => m ((c.tc : Thread nD τ).loc main_arg15)
local notation "a16" => m ((c.tc : Thread nD τ).loc main_arg16)
set_option quotPrecheck true

/-- What the buffers hold at the boundary before the layer's padding. -/
structure Entry (xin : (⟨S8192x512, .f32⟩ : BufTy).Contents (Elt Ideal)) : Prop where
  x : W18 (F := Ideal) m ρ c (Proc.devRef .tc main_v126) = xin
  row : W18 (F := Ideal) m ρ c (Proc.devRef .tc main_v3) = val_main_v9 (F := Ideal) a2
  ef : W18 (F := Ideal) m ρ c (Proc.devRef .tc main_v104) = val_main_v114 (F := Ideal) a1 a2 a3 a4 a6 a7 a8 a9 a10
  w : W18 (F := Ideal) m ρ c (Proc.devRef .tc main_v131) = val_main_v145 (F := Ideal) a11
  b : W18 (F := Ideal) m ρ c (Proc.devRef .tc main_v129) = shapeCast S1x512 (val_main_v148 (F := Ideal) a12) shapeCasts_S512_S1x512
  z : W18 (F := Ideal) m ρ c (Proc.devRef .tc main_c_26) = constantI S_ 32 0#32
  p0 : W18 (F := Ideal) m ρ c (Proc.devRef .tc main_arg0) = a0
  p11 : W18 (F := Ideal) m ρ c (Proc.devRef .tc main_arg11) = a11
  p12 : W18 (F := Ideal) m ρ c (Proc.devRef .tc main_arg12) = a12
  u1 : W18 (F := Ideal) m ρ c (Proc.devRef .tc main_arg13) = a13
  b1 : W18 (F := Ideal) m ρ c (Proc.devRef .tc main_arg14) = a14
  u2 : W18 (F := Ideal) m ρ c (Proc.devRef .tc main_arg15) = a15
  b2 : W18 (F := Ideal) m ρ c (Proc.devRef .tc main_arg16) = a16

/-- A buffer that neither the padding, nor the two device regions, nor the host operations between them write holds
    at the layer's end what it held at its beginning. -/
theorem kept (r : Ref sig .tc) (h1 : r ∉ Carry.written_hostOps4_1) (h2 : ∀ w, Pipeline.arrRef spec4 w ≠ r)
    (h3 : r ∉ Carry.written_hostOps5) (h4 : ∀ w, Pipeline.arrRef spec5 w ≠ r) :
    W22 (F := Ideal) m ρ c (Proc.devRef .tc r) = W18 (F := Ideal) m ρ c (Proc.devRef .tc r) :=
  (W22_of_ne m ρ c r h4).trans ((Carry.keep_hostOps5 _ r h3).trans ((W20_of_ne m ρ c r h2).trans (Carry.keep_hostOps4_1 _ r h1)))

/-- The same, up to the second region's entry. -/
theorem kept16 (r : Ref sig .tc) (h1 : r ∉ Carry.written_hostOps4_1) (h2 : ∀ w, Pipeline.arrRef spec4 w ≠ r)
    (h3 : r ∉ Carry.written_hostOps5) :
    W21 (F := Ideal) m ρ c (Proc.devRef .tc r) = W18 (F := Ideal) m ρ c (Proc.devRef .tc r) :=
  (Carry.keep_hostOps5 _ r h3).trans ((W20_of_ne m ρ c r h2).trans (Carry.keep_hostOps4_1 _ r h1))

/-- The same, up to the first region's exit. -/
theorem kept15 (r : Ref sig .tc) (h1 : r ∉ Carry.written_hostOps4_1) (h2 : ∀ w, Pipeline.arrRef spec4 w ≠ r) :
    W20 (F := Ideal) m ρ c (Proc.devRef .tc r) = W18 (F := Ideal) m ρ c (Proc.devRef .tc r) :=
  (W20_of_ne m ρ c r h2).trans (Carry.keep_hostOps4_1 _ r h1)

variable {xin : (⟨S8192x512, .f32⟩ : BufTy).Contents (Elt Ideal)} (h : Entry m ρ c xin)
include h

/-- The edge features, padded with zero rows, at the first region's entry. -/
theorem padded : V19 (F := Ideal) m ρ c main_v132
    = pad S90000x96 ![0, 0] ![4658, 0] ![0, 0] (val_main_v114 (F := Ideal) a1 a2 a3 a4 a6 a7 a8 a9 a10) (sitofp (F := Ideal) .f32 (constantI S_ 32 0#32)) pads_S85342x96_S90000x96_046580_000 h_S_ := by
  show StableHlo.after hostOps4_1 (W18 (F := Ideal) m ρ c) (Proc.devRef .tc main_v132) = _
  have hef := h.ef
  have hz := h.z
  generalize W18 (F := Ideal) m ρ c = W at hef hz ⊢
  dsimp only [hostOps4_1]
  after_results_simp
  rw [hef, hz]
  rfl

/-- The messages of the real edges: the device's product, sliced, is the reference's. -/
theorem messages : extractStridedSlice S85342x512 ![0, 0] (W20 (F := Ideal) m ρ c (Proc.devRef .tc main_v133)) slices_S90000x512_S85342x512_0_0
    = val_main_v151 (F := Ideal) a1 a2 a3 a4 a6 a7 a8 a9 a10 a11 a12 := by
  have e111 : W20 (F := Ideal) m ρ c (Proc.devRef .tc main_v133) = (dat4 (F := Ideal) (V19 m ρ) c).arrAt 3 cfg4.N := W20_arr m ρ c 3
  rw [e111]
  exact Edge4.layer (V19 m ρ) c a1 a2 a3 a4 a6 a7 a8 a9 a10 a11 a12 (padded m ρ c h)
    ((Carry.keep_hostOps4_1 _ main_v131 (by decide)).trans h.w)
    ((Carry.keep_hostOps4_1 _ main_v129 (by decide)).trans h.b)

/-- Each node's sum of its edges' messages. -/
theorem aggregated : V21 (F := Ideal) m ρ c main_v137 = val_main_v154 (F := Ideal) a1 a2 a3 a4 a6 a7 a8 a9 a10 a11 a12 := by
  show StableHlo.after hostOps5 (W20 (F := Ideal) m ρ c) (Proc.devRef .tc main_v137) = _
  dsimp only [hostOps5]
  after_results_simp
  rw [messages m ρ c h, kept15 m ρ c main_v3 (by decide) (by decide), h.row]
  rfl

theorem weights1 : V21 (F := Ideal) m ρ c main_v145 = val_main_v156 (F := Ideal) a13 := by
  show StableHlo.after hostOps5 (W20 (F := Ideal) m ρ c) (Proc.devRef .tc main_v145) = _
  dsimp only [hostOps5]
  after_results_simp
  rw [kept15 m ρ c main_arg13 (by decide) (by decide), h.u1]
  rfl

theorem bias1 : V21 (F := Ideal) m ρ c main_v140 = shapeCast S1x512 (val_main_v159 (F := Ideal) a14) shapeCasts_S512_S1x512 := by
  show StableHlo.after hostOps5 (W20 (F := Ideal) m ρ c) (Proc.devRef .tc main_v140) = _
  dsimp only [hostOps5]
  after_results_simp
  rw [kept15 m ρ c main_arg14 (by decide) (by decide), h.b1]
  rfl

theorem weights2 : V21 (F := Ideal) m ρ c main_v147 = val_main_v165 (F := Ideal) a15 := by
  show StableHlo.after hostOps5 (W20 (F := Ideal) m ρ c) (Proc.devRef .tc main_v147) = _
  dsimp only [hostOps5]
  after_results_simp
  rw [kept15 m ρ c main_arg15 (by decide) (by decide), h.u2]
  rfl

theorem bias2 : V21 (F := Ideal) m ρ c main_v143 = shapeCast S1x512 (val_main_v169 (F := Ideal) a16) shapeCasts_S512_S1x512 := by
  show StableHlo.after hostOps5 (W20 (F := Ideal) m ρ c) (Proc.devRef .tc main_v143) = _
  dsimp only [hostOps5]
  after_results_simp
  rw [kept15 m ρ c main_arg16 (by decide) (by decide), h.b2]
  rfl

/-- THE LAYER: the node states after it. -/
theorem updated : W22 (F := Ideal) m ρ c (Proc.devRef .tc main_v148)
    = (addf (addf xin (val_main_v166 (F := Ideal) a1 a2 a3 a4 a6 a7 a8 a9 a10 a11 a12 a13 a14 a15)) (val_main_v171 (F := Ideal) a16) : FVec Ideal S8192x512 .f32) := by
  have e126 : W22 (F := Ideal) m ρ c (Proc.devRef .tc main_v148) = (dat5 (F := Ideal) (V21 m ρ) c).arrAt 6 cfg5.N := W22_arr m ρ c 6
  rw [e126]
  exact Node5.layer (V21 m ρ) c a1 a2 a3 a4 a6 a7 a8 a9 a10 a11 a12 a13 a14 a15 a16 xin
    ((kept16 m ρ c main_v126 (by decide) (by decide) (by decide)).trans h.x)
    (aggregated m ρ c h) (weights1 m ρ c h) (bias1 m ρ c h) (weights2 m ρ c h) (bias2 m ρ c h)

end Cert.KernelIdeal.Layer1

end
-- ==== Proof.Edge6.lean ====
import proofs.«430973_j37220186587498_2_alg».proof.Proof.Gen.KernelIdeal.Frame
import proofs.«430973_j37220186587498_2_alg».proof.Proof.ReadB
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

/-! # The edge layer: a row block of the padded edge features times the weight matrix, plus the bias row

The region computes, block of rows by block of rows, `out[r, j] = ∑ k, ef[r, k] * w[k, j] + b[0, j]` over the padded
edge-feature array; the host pads the features with zero rows before it and cuts the padding rows off after it. The
reference computes the same contraction and adds the bias broadcast along the rows. Over the extended reals the two
agree index by index. -/

set_option maxRecDepth 16384

noncomputable section

namespace Cert.KernelIdeal.Edge6

open Cert.KernelIdeal Cert.KernelIdeal.Gen Cert.ReferenceIdeal.Read
open Idealize.ShloMosaic Idealize.ShloMosaic.TcCoe Idealize.SL.Sem Idealize.ShloMosaic.ValueIdx
open Idealize.ShloMosaic.Pipeline (Dat Cfg Window)

/-! ## The body's arithmetic at an index -/

theorem zeroOffsets : (![0, 0] : Fin 2 → Nat) = fun _ => 0 := funext fun a => by fin_cases a <;> rfl

/-- The row coordinate of the left operand's index is the output's row. -/
theorem lhs_block_0 (i : S5000x512.Idx) (q : dot_S5000x96_S96x512_S5000x512_1_0_0_1_n_n.contr.Idx) :
    (dot_S5000x96_S96x512_S5000x512_1_0_0_1_n_n.lhsIdx i q 0).val = (i 0).val := by
  unfold DotDims.lhsIdx
  rw [dif_neg (show ¬(0 : Fin S5000x96.rank) ∈ dot_S5000x96_S96x512_S5000x512_1_0_0_1_n_n.lhsBatch by decide), dif_pos (show (0 : Fin S5000x96.rank) ∈ dot_S5000x96_S96x512_S5000x512_1_0_0_1_n_n.lhsNonContracting by decide)]
  rfl
/-- Its column coordinate is the contraction index. -/
theorem lhs_block_1 (i : S5000x512.Idx) (q : dot_S5000x96_S96x512_S5000x512_1_0_0_1_n_n.contr.Idx) :
    (dot_S5000x96_S96x512_S5000x512_1_0_0_1_n_n.lhsIdx i q 1).val = (q ⟨0, by decide⟩).val :=
  dot_S5000x96_S96x512_S5000x512_1_0_0_1_n_n.lhsIdx_val_of_single rfl i q
/-- The row coordinate of the right operand's index is the contraction index. -/
theorem rhs_block_0 (i : S5000x512.Idx) (q : dot_S5000x96_S96x512_S5000x512_1_0_0_1_n_n.contr.Idx) :
    (dot_S5000x96_S96x512_S5000x512_1_0_0_1_n_n.rhsIdx i q 0).val = (q ⟨0, by decide⟩).val :=
  dot_S5000x96_S96x512_S5000x512_1_0_0_1_n_n.rhsIdx_val_of_single rfl i q
/-- Its column coordinate is the output's column. -/
theorem rhs_block_1 (i : S5000x512.Idx) (q : dot_S5000x96_S96x512_S5000x512_1_0_0_1_n_n.contr.Idx) :
    (dot_S5000x96_S96x512_S5000x512_1_0_0_1_n_n.rhsIdx i q 1).val = (i 1).val := by
  unfold DotDims.rhsIdx
  rw [dif_neg (show ¬(1 : Fin S96x512.rank) ∈ dot_S5000x96_S96x512_S5000x512_1_0_0_1_n_n.rhsBatch by decide), dif_pos (show (1 : Fin S96x512.rank) ∈ dot_S5000x96_S96x512_S5000x512_1_0_0_1_n_n.rhsNonContracting by decide)]
  rfl

/-- The block product into the zero accumulator, read at an index: the sum over the contraction index (the narrowing
    of the operands to bf16 is the identity on the extended reals). -/
theorem blockProduct_apply (x : FVec Ideal S5000x96 .f32) (w : FVec Ideal S96x512 .f32) (j : S5000x512.Idx) :
    FloatOps.matmul dot_S5000x96_S96x512_S5000x512_1_0_0_1_n_n none (truncf .bf16 x bitsLt_bf16_f32) (truncf .bf16 w bitsLt_bf16_f32)
        (constant S5000x512 .f32 0x00000000#32) j
      = ∑ k : Fin 96, x (ix2 (j 0) k) * w (ix2 k (j 1)) := by
  rw [Ideal.matmul_constant_zero_apply, ← Equiv.sum_comp (ValueIdx.contrEquiv1 dot_S5000x96_S96x512_S5000x512_1_0_0_1_n_n 96 rfl rfl).symm]
  refine Finset.sum_congr rfl fun k _ => ?_
  have hk := ValueIdx.contrEquiv1_symm_val dot_S5000x96_S96x512_S5000x512_1_0_0_1_n_n 96 rfl rfl k
  have el : dot_S5000x96_S96x512_S5000x512_1_0_0_1_n_n.lhsIdx j ((ValueIdx.contrEquiv1 dot_S5000x96_S96x512_S5000x512_1_0_0_1_n_n 96 rfl rfl).symm k) = ix2 (j 0) k := funext fun a => Fin.ext (by
    match a with
    | ⟨0, _⟩ => exact lhs_block_0 _ _
    | ⟨1, _⟩ => exact (lhs_block_1 _ _).trans hk)
  have er : dot_S5000x96_S96x512_S5000x512_1_0_0_1_n_n.rhsIdx j ((ValueIdx.contrEquiv1 dot_S5000x96_S96x512_S5000x512_1_0_0_1_n_n 96 rfl rfl).symm k) = ix2 k (j 1) := funext fun a => Fin.ext (by
    match a with
    | ⟨0, _⟩ => exact (rhs_block_0 _ _).trans hk
    | ⟨1, _⟩ => exact rhs_block_1 _ _)
  rw [el, er]
  rfl

/-- The bias row broadcast down the block's rows, read at an index: the row's entry in that column. -/
theorem biasRows_apply (b : FVec Ideal S1x512 .f32) (j : S5000x512.Idx) :
    broadcastTo S5000x512 b broadcasts_S1x512_S5000x512 j = b (ix2 0 (j 1)) :=
  broadcastTo_apply b broadcasts_S1x512_S5000x512 j (ix2 0 (j 1)) (fun a => by
    match a with
    | ⟨0, _⟩ => rfl
    | ⟨1, _⟩ => rfl)

/-- THE BODY'S ARITHMETIC at an index of the block: the row of the feature block against the column of the weights,
    plus the bias in that column (the narrowing to bf16 is the identity on the extended reals). -/
theorem payload_apply (x : FVec Ideal S5000x96 .f32) (w : FVec Ideal S96x512 .f32) (b : FVec Ideal S1x512 .f32) (j : S5000x512.Idx) :
    k6_pay1 (F := Ideal) x w b j = (∑ k : Fin 96, x (ix2 (j 0) k) * w (ix2 k (j 1))) + b (ix2 0 (j 1)) := by
  unfold k6_pay1
  simp only [shapeCast_self]
  rw [ValueIdx.addf_apply, biasRows_apply]
  refine congrArg (· + b (ix2 0 (j 1))) ?_
  exact blockProduct_apply _ _ j

/-! ## The blocks: where each window's block sits in its array -/

/-- The printed index maps, decided over the grid: the feature window and the output window move with the point
    along the rows; the weights and the bias row are whole at every point. -/
theorem index_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Every row block of the output is some point's. -/
theorem index_onto : ∀ q : Fin 18, ∃ t : Fin cfg6.N, t.val = q.val :=
  (by decide +kernel : ∀ q : Fin 18, ∃ t : Fin grid6.N, t.val = q.val)

/-- An index of the output array is in point `t`'s block iff each coordinate is in the block's range on its axis. -/
theorem mem_outBlock (t : Fin cfg6.N) (i : S90000x512.Idx) :
    i ∈ ((cfg6.win 3).blk t).view.set ↔ ∀ a : Fin 2, win6_3.index t a * S5000x512.size a ≤ (i a).val ∧ (i a).val < win6_3.index t a * S5000x512.size a + S5000x512.size a := by
  show i ∈ ((View.whole main_v155).slice (win6_3.rect t)).set ↔ _
  rw [View.set_slice_whole, Rect.mem_set_unit]
  exact Iff.rfl

/-- The row blocks tile the output array: every index is in the block of the point its row falls in. -/
theorem outBlocks_cover (i : S90000x512.Idx) :
    ∃ t : Fin cfg6.N, (cfg6.win 3).flush t = true ∧ i ∈ ((cfg6.win 3).blk t).view.set := by
  have hi0 : (i 0).val < 90000 := (i 0).isLt
  have hi1 : (i 1).val < 512 := (i 1).isLt
  obtain ⟨t, ht⟩ := index_onto ⟨(i 0).val / 5000, by omega⟩
  have ht' : t.val = (i 0).val / 5000 := ht
  obtain ⟨-, -, -, -, -, -, e0, e1⟩ := index_facts t
  refine ⟨t, flush6_3 t, ?_⟩
  rw [mem_outBlock]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 512 ≤ (i 1).val ∧ (i 1).val < win6_3.index t (1 : Fin 2) * 512 + 512; omega

/-! ## The layer as one function of the arrays, and the host's pad, cut and reshape read at an index -/

/-- What the region's output array ends holding, as one function of the arrays it reads: each row of the padded
    features against each column of the weights, plus the bias in that column. -/
def edgeOut (ef : FVec Ideal S90000x96 .f32) (w : FVec Ideal S96x512 .f32) (b : FVec Ideal S1x512 .f32) : FVec Ideal S90000x512 .f32 :=
  fun i => (∑ k : Fin 96, ef (ix2 (i 0) k) * w (ix2 k (i 1))) + b (ix2 0 (i 1))

/-- A row of the features is below the padded array's row count. -/
theorem row_lt (r : Fin 85342) : r.val < 90000 := Nat.lt_trans r.isLt (by omega)

/-- The padded features read at a row of the features: the features there (the padding rows come after them). -/
theorem paddedRows_apply (ef : FVec Ideal S85342x96 .f32) (z : FVec Ideal S_ .f32) (r : Fin 85342) (k : Fin 96) :
    pad S90000x96 ![0, 0] ![4658, 0] ![0, 0] ef z pads_S85342x96_S90000x96_046580_000 h_S_ (ix2 ⟨r.val, row_lt r⟩ k) = ef (ix2 r k) :=
  pad_apply_of_inside ![0, 0] ![4658, 0] ![0, 0] ef z pads_S85342x96_S90000x96_046580_000 h_S_ (ix2 ⟨r.val, row_lt r⟩ k) (ix2 r k) (fun a => by
    match a with
    | ⟨0, _⟩ => show r.val = 0 + r.val * (0 + 1); omega
    | ⟨1, _⟩ => show k.val = 0 + k.val * (0 + 1); omega)

/-- The output with its padding rows cut off, read at an index: the output at the same row and column. -/
theorem keptRows_apply (G : FVec Ideal S90000x512 .f32) (r : Fin 85342) (q : Fin 512) :
    extractStridedSlice S85342x512 ![0, 0] G slices_S90000x512_S85342x512_0_0 (ix2 r q) = G (ix2 ⟨r.val, row_lt r⟩ q) :=
  extractStridedSlice_apply ![0, 0] G slices_S90000x512_S85342x512_0_0 (ix2 r q) (ix2 ⟨r.val, row_lt r⟩ q) (fun a => by
    match a with
    | ⟨0, _⟩ => show r.val = 0 + r.val; omega
    | ⟨1, _⟩ => show q.val = 0 + q.val; omega)

/-- THE HOST'S SIDE of the layer at an index: padding the features, the region's function, and cutting the padding
    rows off compose to the contraction over the features' own row, plus the bias vector's entry in that column. -/
theorem keptRows_edgeOut_apply (ef : FVec Ideal S85342x96 .f32) (z : FVec Ideal S_ .f32) (w : FVec Ideal S96x512 .f32)
    (b : FVec Ideal S512 .f32) (r : Fin 85342) (q : Fin 512) :
    extractStridedSlice S85342x512 ![0, 0]
        (edgeOut (pad S90000x96 ![0, 0] ![4658, 0] ![0, 0] ef z pads_S85342x96_S90000x96_046580_000 h_S_) w
          (shapeCast S1x512 b shapeCasts_S512_S1x512)) slices_S90000x512_S85342x512_0_0 (ix2 r q)
      = (∑ k : Fin 96, ef (ix2 r k) * w (ix2 k q)) + b (ix1 q) := by
  rw [keptRows_apply]
  show (∑ k : Fin 96, pad S90000x96 ![0, 0] ![4658, 0] ![0, 0] ef z pads_S85342x96_S90000x96_046580_000 h_S_ (ix2 ⟨r.val, row_lt r⟩ k) * w (ix2 k q))
      + shapeCast S1x512 b shapeCasts_S512_S1x512 (ix2 0 q) = _
  rw [shapeCast_a_1a_apply]
  refine congrArg (· + b (ix1 q)) (Finset.sum_congr rfl fun k _ => ?_)
  rw [paddedRows_apply]

/-! ## What each point writes back, and the array after the region -/

section Region

variable (V : (c : Dev nD) → (b : Ref sig .tc) → Buf (Elt Ideal) ((c : Thread nD τ).loc b))

/-- The padded features, the weights and the bias row as the region finds them. -/
abbrev featArr (c : Dev nD) : FVec Ideal S90000x96 .f32 := V c main_v154
abbrev weightArr (c : Dev nD) : FVec Ideal S96x512 .f32 := V c main_v153
abbrev biasArr (c : Dev nD) : FVec Ideal S1x512 .f32 := V c main_v151

/-- The blocks the body loads at a point. -/
abbrev featBlk (c : Dev nD) (t : Fin cfg6.N) : FVec Ideal S5000x96 .f32 := iblk6 (F := Ideal) V c 0 t
abbrev weightBlk (c : Dev nD) (t : Fin cfg6.N) : FVec Ideal S96x512 .f32 := iblk6 (F := Ideal) V c 1 t
abbrev biasBlk (c : Dev nD) (t : Fin cfg6.N) : FVec Ideal S1x512 .f32 := iblk6 (F := Ideal) V c 2 t

/-- The grid has 18 points. -/
theorem point_lt (t : Fin cfg6.N) : t.val < 18 := lt_of_lt_of_eq t.isLt N_6

/-- Point `t`'s feature block is rows `5000 t` to `5000 t + 4999` of the padded features. -/
theorem featBlk_apply (c : Dev nD) (t : Fin cfg6.N) (p : Fin 5000) (k : Fin 96) (hr : t.val * 5000 + p.val < 90000) :
    featBlk V c t (ix2 p k) = featArr V c (ix2 ⟨t.val * 5000 + p.val, hr⟩ k) := by
  obtain ⟨e0, e1, -⟩ := index_facts t
  show featArr V c (((cfg6.win 0).blk t).view.emb (ix2 p k)) = featArr V c (ix2 ⟨t.val * 5000 + p.val, hr⟩ k)
  refine congrArg (featArr V c) (funext fun a => Fin.ext ?_)
  match a with
  | ⟨0, _⟩ => show win6_0.index t (0 : Fin 2) * 5000 + 1 * p.val = t.val * 5000 + p.val; omega
  | ⟨1, _⟩ => show win6_0.index t (1 : Fin 2) * 96 + 1 * k.val = k.val; omega

/-- Every point's weight block is the whole weight matrix. -/
theorem weightBlk_apply (c : Dev nD) (t : Fin cfg6.N) (k : Fin 96) (q : Fin 512) :
    weightBlk V c t (ix2 k q) = weightArr V c (ix2 k q) := by
  obtain ⟨-, -, e0, e1, -⟩ := index_facts t
  show weightArr V c (((cfg6.win 1).blk t).view.emb (ix2 k q)) = weightArr V c (ix2 k q)
  refine congrArg (weightArr V c) (funext fun a => Fin.ext ?_)
  match a with
  | ⟨0, _⟩ => show win6_1.index t (0 : Fin 2) * 96 + 1 * k.val = k.val; omega
  | ⟨1, _⟩ => show win6_1.index t (1 : Fin 2) * 512 + 1 * q.val = q.val; omega

/-- Every point's bias block is the whole bias row. -/
theorem biasBlk_apply (c : Dev nD) (t : Fin cfg6.N) (q : Fin 512) :
    biasBlk V c t (ix2 0 q) = biasArr V c (ix2 0 q) := by
  obtain ⟨-, -, -, -, e0, e1, -⟩ := index_facts t
  show biasArr V c (((cfg6.win 2).blk t).view.emb (ix2 0 q)) = biasArr V c (ix2 0 q)
  refine congrArg (biasArr V c) (funext fun a => Fin.ext ?_)
  match a with
  | ⟨0, _⟩ => show win6_2.index t (0 : Fin 2) * 1 + 1 * 0 = 0; omega
  | ⟨1, _⟩ => show win6_2.index t (1 : Fin 2) * 512 + 1 * q.val = q.val; omega

/-- The body's arithmetic of point `t`'s blocks is block `t` of the layer's function of the arrays. -/
theorem payloadBlock_eq (c : Dev nD) (t : Fin cfg6.N) :
    k6_pay1 (F := Ideal) (featBlk V c t) (weightBlk V c t) (biasBlk V c t)
      = ((cfg6.win 3).blk t).view.read (Elt Ideal) (edgeOut (featArr V c) (weightArr V c) (biasArr V c)) := by
  funext j
  have ht := point_lt t
  have hj0 : (j 0).val < 5000 := (j 0).isLt
  have hj1 : (j 1).val < 512 := (j 1).isLt
  obtain ⟨-, -, -, -, -, -, e0, e1⟩ := index_facts t
  have hrow : t.val * 5000 + (j 0).val < 90000 := by omega
  have hemb : ((cfg6.win 3).blk t).view.emb j = ix2 ⟨t.val * 5000 + (j 0).val, hrow⟩ ⟨(j 1).val, hj1⟩ := by
    funext a; apply Fin.ext
    match a with
    | ⟨0, _⟩ => show win6_3.index t (0 : Fin 2) * 5000 + 1 * (j 0).val = t.val * 5000 + (j 0).val; omega
    | ⟨1, _⟩ => show win6_3.index t (1 : Fin 2) * 512 + 1 * (j 1).val = (j 1).val; omega
  show k6_pay1 (F := Ideal) (featBlk V c t) (weightBlk V c t) (biasBlk V c t) j
    = edgeOut (featArr V c) (weightArr V c) (biasArr V c) (((cfg6.win 3).blk t).view.emb j)
  rw [hemb]
  refine (payload_apply (featBlk V c t) (weightBlk V c t) (biasBlk V c t) j).trans ?_
  show _ = (∑ k : Fin 96, featArr V c (ix2 ⟨t.val * 5000 + (j 0).val, hrow⟩ k) * weightArr V c (ix2 k ⟨(j 1).val, hj1⟩))
    + biasArr V c (ix2 0 ⟨(j 1).val, hj1⟩)
  refine congrArg₂ (· + ·) (Finset.sum_congr rfl fun k _ => congrArg₂ (· * ·) ?_ ?_) ?_
  · exact featBlk_apply V c t ⟨(j 0).val, hj0⟩ k hrow
  · exact weightBlk_apply V c t k ⟨(j 1).val, hj1⟩
  · exact biasBlk_apply V c t ⟨(j 1).val, hj1⟩

/-- WHAT POINT `t` WRITES BACK is block `t` of the layer's function of the arrays as the region finds them. -/
theorem flushed_eq (c : Dev nD) (t : Fin cfg6.N) :
    (dat6 (F := Ideal) V c).flushed 3 t
      = ((cfg6.win 3).blk t).view.read (Elt Ideal) (edgeOut (featArr V c) (weightArr V c) (biasArr V c)) := by
  show (cfg6.win 3).cut (grid6.coords t) ((dat6 (F := Ideal) V c).after 3 t) = _
  rw [after6_3]
  unfold out6_3
  rw [View.canon_unit_zero zeroOffsets]
  simp only [View.ld_unit_zero (S := S5000x96) zeroOffsets, View.ld_unit_zero (S := S96x512) zeroOffsets,
    View.ld_unit_zero (S := S1x512) zeroOffsets]
  exact payloadBlock_eq V c t

/-- THE ARRAY after the region: the layer's function of the arrays the region found (the row blocks tile it). -/
theorem final (c : Dev nD) :
    (dat6 (F := Ideal) V c).arrAt 3 cfg6.N = edgeOut (featArr V c) (weightArr V c) (biasArr V c) :=
  (dat6 (F := Ideal) V c).arrAt_eq_of_cover 3 (edgeOut (featArr V c) (weightArr V c) (biasArr V c))
    (fun t _ => flushed_eq V c t) outBlocks_cover

end Region

/-! ## The reference's stage at an index, and the layer -/

/-- THE REFERENCE'S SIDE at an index: the contraction of the features' row with the weights' column, plus the bias
    vector's entry in that column (the bias broadcast along the rows, read back). -/
theorem reference_apply (x1 : (⟨Cert.ReferenceIdeal.S8192x3, .f32⟩ : BufTy).Contents (Elt Ideal))
    (x2 : (⟨Cert.ReferenceIdeal.S2x85342, .i32⟩ : BufTy).Contents (Elt Ideal))
    (x3 x4 : (⟨Cert.ReferenceIdeal.S488691, .i32⟩ : BufTy).Contents (Elt Ideal))
    (x6 : (⟨Cert.ReferenceIdeal.S64, .f32⟩ : BufTy).Contents (Elt Ideal))
    (x7 : (⟨Cert.ReferenceIdeal.S1x32, .f32⟩ : BufTy).Contents (Elt Ideal))
    (x8 : (⟨Cert.ReferenceIdeal.S32, .f32⟩ : BufTy).Contents (Elt Ideal))
    (x9 : (⟨Cert.ReferenceIdeal.S32x32, .f32⟩ : BufTy).Contents (Elt Ideal))
    (x10 : (⟨Cert.ReferenceIdeal.S32, .f32⟩ : BufTy).Contents (Elt Ideal))
    (x11 : (⟨Cert.ReferenceIdeal.S4x96x512, .f32⟩ : BufTy).Contents (Elt Ideal))
    (x12 : (⟨Cert.ReferenceIdeal.S4x512, .f32⟩ : BufTy).Contents (Elt Ideal))
    (r : Fin 85342) (q : Fin 512) :
    val_main_v180 (F := Ideal) x1 x2 x3 x4 x6 x7 x8 x9 x10 x11 x12 (ix2 r q)
      = (∑ k : Fin 96, val_main_v114 (F := Ideal) x1 x2 x3 x4 x6 x7 x8 x9 x10 (ix2 r k) * val_main_v174 (F := Ideal) x11 (ix2 k q))
        + val_main_v177 (F := Ideal) x12 (ix1 q) := by
  have el : ∀ k : Fin 96, lidx_main_v175 (ix2 r q) k = ix2 r k := fun k => funext fun a => by
    match a with
    | ⟨0, _⟩ => rfl
    | ⟨1, _⟩ => rfl
  have er : ∀ k : Fin 96, ridx_main_v175 (ix2 r q) k = ix2 k q := fun k => funext fun a => by
    match a with
    | ⟨0, _⟩ => rfl
    | ⟨1, _⟩ => rfl
  have eb : idx_main_v178 (idx_main_v179 (ix2 r q)) = ix1 q := funext fun a => by
    match a with
    | ⟨0, _⟩ => rfl
  rw [val_main_v180_apply, val_main_v175_apply, val_main_v179_apply, val_main_v178_apply, eb]
  simp only [el, er]
  rfl

/-- THE LAYER: the region's output array, with the padding rows cut off, is the reference's edge stage. -/
theorem layer (V : (c : Dev nD) → (b : Ref sig .tc) → Buf (Elt Ideal) ((c : Thread nD τ).loc b)) (c : Dev nD)
    (x1 : (⟨Cert.ReferenceIdeal.S8192x3, .f32⟩ : BufTy).Contents (Elt Ideal))
    (x2 : (⟨Cert.ReferenceIdeal.S2x85342, .i32⟩ : BufTy).Contents (Elt Ideal))
    (x3 x4 : (⟨Cert.ReferenceIdeal.S488691, .i32⟩ : BufTy).Contents (Elt Ideal))
    (x6 : (⟨Cert.ReferenceIdeal.S64, .f32⟩ : BufTy).Contents (Elt Ideal))
    (x7 : (⟨Cert.ReferenceIdeal.S1x32, .f32⟩ : BufTy).Contents (Elt Ideal))
    (x8 : (⟨Cert.ReferenceIdeal.S32, .f32⟩ : BufTy).Contents (Elt Ideal))
    (x9 : (⟨Cert.ReferenceIdeal.S32x32, .f32⟩ : BufTy).Contents (Elt Ideal))
    (x10 : (⟨Cert.ReferenceIdeal.S32, .f32⟩ : BufTy).Contents (Elt Ideal))
    (x11 : (⟨Cert.ReferenceIdeal.S4x96x512, .f32⟩ : BufTy).Contents (Elt Ideal))
    (x12 : (⟨Cert.ReferenceIdeal.S4x512, .f32⟩ : BufTy).Contents (Elt Ideal))
    (h0 : V c main_v154 = pad S90000x96 ![0, 0] ![4658, 0] ![0, 0] (val_main_v114 (F := Ideal) x1 x2 x3 x4 x6 x7 x8 x9 x10)
      (sitofp (F := Ideal) .f32 (constantI S_ 32 0#32)) pads_S85342x96_S90000x96_046580_000 h_S_)
    (h1 : V c main_v153 = val_main_v174 (F := Ideal) x11)
    (h2 : V c main_v151 = shapeCast S1x512 (val_main_v177 (F := Ideal) x12) shapeCasts_S512_S1x512) :
    extractStridedSlice S85342x512 ![0, 0] ((dat6 (F := Ideal) V c).arrAt 3 cfg6.N) slices_S90000x512_S85342x512_0_0
      = val_main_v180 (F := Ideal) x1 x2 x3 x4 x6 x7 x8 x9 x10 x11 x12 := by
  funext i
  obtain ⟨r, q, rfl⟩ : ∃ (r : Fin 85342) (q : Fin 512), i = ix2 r q := ⟨i 0, i 1, eq_ix2 i⟩
  rw [final V c]
  show extractStridedSlice S85342x512 ![0, 0] (edgeOut (V c main_v154) (V c main_v153) (V c main_v151))
    slices_S90000x512_S85342x512_0_0 (ix2 r q) = _
  rw [h0, h1, h2, keptRows_edgeOut_apply, reference_apply]

end Cert.KernelIdeal.Edge6

end
-- ==== Proof.Node7.lean ====
import proofs.«430973_j37220186587498_2_alg».proof.Proof.Gen.KernelIdeal.Frame
import proofs.«430973_j37220186587498_2_alg».proof.Proof.ReadB
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Node7

open Idealize.ShloMosaic Idealize.ShloMosaic.TcCoe Idealize.SL.Sem Idealize.ShloMosaic.StableHlo
open Idealize.ShloMosaic.Pipeline (Dat Cfg Window)
open Idealize.ShloMosaic.ValueIdx
open Cert.KernelIdeal Cert.KernelIdeal.Gen
open Cert.ReferenceIdeal.Read

/-! # The node update region is the reference's node update

The region computes, block of 1024 rows by block, `x + (relu (agg · U₁ + b₁) · U₂ + b₂)` of the `8192 × 512` arrays
`x` and `agg`; its eight blocks tile the array. The reference computes `(x + relu (agg · U₁ + b₁) · U₂) + b₂` on the
whole array. Over the extended reals the two are equal entry by entry: both products are the same finite sums, and
addition is associative. -/
/-! ## The node update of one row

Row `r` of the result is `x r + ((relu (agg r · U₁ + b₁)) · U₂ + b₂)`: two products with `512 × 512` matrices, a
rectified sum between them, and the row of `x` added. -/

/-- The two-layer perceptron of one row `a` of the aggregated messages, at output column `q`. -/
def mlp (u1 : FVec Ideal S512x512 .f32) (b1 : FVec Ideal S1x512 .f32) (u2 : FVec Ideal S512x512 .f32)
    (b2 : FVec Ideal S1x512 .f32) (a : Fin 512 → EReal) (q : Fin 512) : EReal :=
  (∑ k : Fin 512, max ((∑ l : Fin 512, a l * u1 (ix2 l k)) + b1 (ix2 (0 : Fin 1) k)) 0 * u2 (ix2 k q)) + b2 (ix2 (0 : Fin 1) q)

/-! ## The closed form of the region's result -/

/-- Entry `(r, q)` of the updated node array: the entry of `x` plus the perceptron of row `r` of `agg`. -/
def nodeAt (X AGG : FVec Ideal S8192x512 .f32) (U1 : FVec Ideal S512x512 .f32) (B1 : FVec Ideal S1x512 .f32)
    (U2 : FVec Ideal S512x512 .f32) (B2 : FVec Ideal S1x512 .f32) (r : Fin 8192) (q : Fin 512) : EReal :=
  X (ix2 r q) + mlp U1 B1 U2 B2 (fun l => AGG (ix2 r l)) q

/-- The updated node array, index by index. -/
def node (X AGG : FVec Ideal S8192x512 .f32) (U1 : FVec Ideal S512x512 .f32) (B1 : FVec Ideal S1x512 .f32)
    (U2 : FVec Ideal S512x512 .f32) (B2 : FVec Ideal S1x512 .f32) : FVec Ideal S8192x512 .f32 :=
  fun i => nodeAt X AGG U1 B1 U2 B2 (i 0) (i 1)

theorem node_apply (X AGG : FVec Ideal S8192x512 .f32) (U1 : FVec Ideal S512x512 .f32) (B1 : FVec Ideal S1x512 .f32)
    (U2 : FVec Ideal S512x512 .f32) (B2 : FVec Ideal S1x512 .f32) (r : Fin 8192) (q : Fin 512) :
    node X AGG U1 B1 U2 B2 (ix2 r q) = nodeAt X AGG U1 B1 U2 B2 r q := rfl
/-! ## The block product at an index -/

theorem lhs_block_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_block_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_block_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_block_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A block of 1024 rows times a `512 × 512` matrix, into the zero accumulator, at row `p` and column `q`: the sum
    over the contracted coordinate. -/
theorem blockProduct_apply {φ₁ φ₂ : FTy} (a : FVec Ideal S1024x512 φ₁) (b : FVec Ideal S512x512 φ₂) (p : Fin 1024) (q : Fin 512) :
    FloatOps.matmul dot_S1024x512_S512x512_S1024x512_1_0_0_1_n_n none a b (constant (F := Ideal) S1024x512 .f32 0x00000000#32) (ix2 p q)
      = ∑ k : Fin 512, a (ix2 p k) * b (ix2 k q) := by
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun d => Fin.ext (by
    match d with
    | ⟨0, _⟩ => exact lhs_block_0 _ _
    | ⟨1, _⟩ => exact (lhs_block_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun d => Fin.ext (by
    match d with
    | ⟨0, _⟩ => exact (rhs_block_0 _ _).trans hk
    | ⟨1, _⟩ => exact rhs_block_1 _ _)
  rw [el, er]

/-! ## The body's arithmetic at an index -/

/-- The rectified hidden layer of a block, at row `p` and hidden column `k`. -/
theorem hidden_apply {φ₁ φ₂ : FTy} (agg : FVec Ideal S1024x512 φ₁) (u1 : FVec Ideal S512x512 φ₂) (b1 : FVec Ideal S1x512 .f32)
    (p : Fin 1024) (k : Fin 512) :
    maximumf (addf (FloatOps.matmul dot_S1024x512_S512x512_S1024x512_1_0_0_1_n_n none agg u1 (constant (F := Ideal) S1024x512 .f32 0x00000000#32))
        (broadcastTo S1024x512 b1 broadcasts_S1x512_S1024x512))
      (broadcast S1024x512 (Scalar.ofBits (F := Ideal) .f32 0x00000000#32)) (ix2 p k)
      = max ((∑ l : Fin 512, agg (ix2 p l) * u1 (ix2 l k)) + b1 (ix2 (0 : Fin 1) k)) 0 := by
  rw [maximumf_apply, addf_apply, broadcast_apply, broadcastTo_1b_ab_apply, blockProduct_apply]
  exact congrArg (max _) Ideal.ofBits_zero_f32

/-- THE PAYLOAD AT AN INDEX: row `p` of the block of `x` plus the perceptron of row `p` of the block of `agg`. -/
theorem pay_apply (agg : Vec Ideal S1024x512 .f32) (u1 : Vec Ideal S512x512 .f32) (b1 : Vec Ideal S1x512 .f32)
    (u2 : Vec Ideal S512x512 .f32) (b2 : Vec Ideal S1x512 .f32) (x : Vec Ideal S1024x512 .f32) (p : Fin 1024) (q : Fin 512) :
    k7_pay1 (F := Ideal) agg u1 b1 u2 b2 x (ix2 p q) = x (ix2 p q) + mlp u1 b1 u2 b2 (fun l => agg (ix2 p l)) q := by
  unfold k7_pay1
  simp only [shapeCast_self]
  rw [addf_apply, addf_apply, broadcastTo_1b_ab_apply]
  simp only [matmul]
  rw [blockProduct_apply]
  unfold mlp
  refine congrArg (x (ix2 p q) + ·) (congrArg (· + b2 (ix2 (0 : Fin 1) q)) (Finset.sum_congr rfl fun k _ => ?_))
  rw [truncf_apply, truncf_apply, hidden_apply]
  rfl

/-- One entry of the body's payload is one entry of the closed form, when the loaded blocks are the arrays' rows and
    the weights are the arrays themselves. -/
theorem pay_node (X AGG : FVec Ideal S8192x512 .f32) (U1 : FVec Ideal S512x512 .f32) (B1 : FVec Ideal S1x512 .f32)
    (U2 : FVec Ideal S512x512 .f32) (B2 : FVec Ideal S1x512 .f32)
    (agg : Vec Ideal S1024x512 .f32) (u1 : Vec Ideal S512x512 .f32) (b1 : Vec Ideal S1x512 .f32)
    (u2 : Vec Ideal S512x512 .f32) (b2 : Vec Ideal S1x512 .f32) (x : Vec Ideal S1024x512 .f32)
    (y : S1024x512.Idx) (i : S8192x512.Idx)
    (hx : x y = X i)
    (hagg : ∀ l : Fin 512, agg (ix2 (y 0) l) = AGG (ix2 (i 0) l))
    (hcol : (y 1).val = (i 1).val)
    (hu1 : u1 = U1) (hb1 : b1 = B1) (hu2 : u2 = U2) (hb2 : b2 = B2) :
    k7_pay1 (F := Ideal) agg u1 b1 u2 b2 x y = node X AGG U1 B1 U2 B2 i := by
  subst hu1 hb1 hu2 hb2
  obtain ⟨p, q, rfl⟩ : ∃ (p : Fin 1024) (q : Fin 512), y = ix2 p q := ⟨y 0, y 1, eq_ix2 y⟩
  obtain ⟨r, q', rfl⟩ : ∃ (r : Fin 8192) (q' : Fin 512), i = ix2 r q' := ⟨i 0, i 1, eq_ix2 i⟩
  obtain rfl : q = q' := Fin.ext hcol
  rw [pay_apply, node_apply]
  unfold nodeAt
  rw [hx]
  exact congrArg (fun a => X (ix2 r q) + mlp u1 b1 u2 b2 a q) (funext fun l => hagg l)

/-! ## The reference's stages are the closed form

The reference adds the row of `x` to the second product first and the second bias afterwards; the kernel adds the bias
to the product first. Addition of extended reals is associative. -/

theorem lidx_v137 (r : Fin 8192) (q k : Fin 512) : lidx_main_v195 (ix2 r q) k = ix2 r k :=
  funext fun a => Fin.ext (by match a with | ⟨0, _⟩ => rfl | ⟨1, _⟩ => rfl)
theorem ridx_v137 (r : Fin 8192) (q k : Fin 512) : ridx_main_v195 (ix2 r q) k = ix2 k q :=
  funext fun a => Fin.ext (by match a with | ⟨0, _⟩ => rfl | ⟨1, _⟩ => rfl)
theorem lidx_v128 (r : Fin 8192) (k l : Fin 512) : lidx_main_v186 (ix2 r k) l = ix2 r l :=
  funext fun a => Fin.ext (by match a with | ⟨0, _⟩ => rfl | ⟨1, _⟩ => rfl)
theorem ridx_v128 (r : Fin 8192) (k l : Fin 512) : ridx_main_v186 (ix2 r k) l = ix2 l k :=
  funext fun a => Fin.ext (by match a with | ⟨0, _⟩ => rfl | ⟨1, _⟩ => rfl)
theorem idx_bias1 (r : Fin 8192) (k : Fin 512) : idx_main_v189 (idx_main_v190 (ix2 r k)) = ix1 k :=
  funext fun a => Fin.ext (by match a with | ⟨0, _⟩ => rfl)
theorem idx_bias2 (r : Fin 8192) (q : Fin 512) : idx_main_v199 (idx_main_v200 (ix2 r q)) = ix1 q :=
  funext fun a => Fin.ext (by match a with | ⟨0, _⟩ => rfl)

theorem reference_eq (x1 : (⟨Cert.ReferenceIdeal.S8192x3, .f32⟩ : BufTy).Contents (Elt Ideal)) (x2 : (⟨Cert.ReferenceIdeal.S2x85342, .i32⟩ : BufTy).Contents (Elt Ideal)) (x3 x4 : (⟨Cert.ReferenceIdeal.S488691, .i32⟩ : BufTy).Contents (Elt Ideal)) (x6 : (⟨Cert.ReferenceIdeal.S64, .f32⟩ : BufTy).Contents (Elt Ideal)) (x7 : (⟨Cert.ReferenceIdeal.S1x32, .f32⟩ : BufTy).Contents (Elt Ideal)) (x8 : (⟨Cert.ReferenceIdeal.S32, .f32⟩ : BufTy).Contents (Elt Ideal)) (x9 : (⟨Cert.ReferenceIdeal.S32x32, .f32⟩ : BufTy).Contents (Elt Ideal)) (x10 : (⟨Cert.ReferenceIdeal.S32, .f32⟩ : BufTy).Contents (Elt Ideal)) (x11 : (⟨Cert.ReferenceIdeal.S4x96x512, .f32⟩ : BufTy).Contents (Elt Ideal)) (x12 : (⟨Cert.ReferenceIdeal.S4x512, .f32⟩ : BufTy).Contents (Elt Ideal)) (x13 : (⟨Cert.ReferenceIdeal.S4x512x512, .f32⟩ : BufTy).Contents (Elt Ideal)) (x14 : (⟨Cert.ReferenceIdeal.S4x512, .f32⟩ : BufTy).Contents (Elt Ideal)) (x15 : (⟨Cert.ReferenceIdeal.S4x512x512, .f32⟩ : BufTy).Contents (Elt Ideal)) (x16 : (⟨Cert.ReferenceIdeal.S4x512, .f32⟩ : BufTy).Contents (Elt Ideal))
    (xin : (⟨S8192x512, .f32⟩ : BufTy).Contents (Elt Ideal)) :
    (addf (addf xin (val_main_v195 (F := Ideal) x1 x2 x3 x4 x6 x7 x8 x9 x10 x11 x12 x13 x14 x15)) (val_main_v200 (F := Ideal) x16) : FVec Ideal S8192x512 .f32)
      = node xin (val_main_v183 (F := Ideal) x1 x2 x3 x4 x6 x7 x8 x9 x10 x11 x12) (val_main_v185 (F := Ideal) x13)
          (shapeCast S1x512 (val_main_v188 (F := Ideal) x14) shapeCasts_S512_S1x512) (val_main_v194 (F := Ideal) x15)
          (shapeCast S1x512 (val_main_v198 (F := Ideal) x16) shapeCasts_S512_S1x512) := by
  funext i
  obtain ⟨r, q, rfl⟩ : ∃ (r : Fin 8192) (q : Fin 512), i = ix2 r q := ⟨i 0, i 1, eq_ix2 i⟩
  rw [node_apply, addf_apply, addf_apply, val_main_v195_apply, val_main_v200_apply, val_main_v199_apply, idx_bias2]
  unfold nodeAt mlp
  rw [add_assoc, shapeCast_a_1a_apply]
  refine congrArg (xin (ix2 r q) + ·) (congrArg (· + val_main_v198 (F := Ideal) x16 (ix1 q)) (Finset.sum_congr rfl fun k _ => ?_))
  rw [lidx_v137, ridx_v137, val_main_v192_apply, val_main_v191_apply, val_main_v186_apply, val_main_v190_apply, val_main_v189_apply,
    idx_bias1, val_main_call7_v0_apply, val_main_call7_cst_apply, shapeCast_a_1a_apply]
  simp only [lidx_v128, ridx_v128, Ideal.maximumf_def, Ideal.addf_def, Ideal.ofBits_def, Ideal.ofBits_zero_f32]

/-! ## From the blocks to the array -/

section Region
variable (V : (c : Dev nD) → (b : Ref sig .tc) → Buf (Elt Ideal) ((c : Thread nD τ).loc b))

/-- The arrays the region reads, as it finds them, each by its literal type. -/
abbrev xArr (c : Dev nD) : Vec Ideal S8192x512 .f32 := V c main_v148
abbrev aggArr (c : Dev nD) : Vec Ideal S8192x512 .f32 := V c main_v159
abbrev u1Arr (c : Dev nD) : Vec Ideal S512x512 .f32 := V c main_v167
abbrev b1Arr (c : Dev nD) : Vec Ideal S1x512 .f32 := V c main_v162
abbrev u2Arr (c : Dev nD) : Vec Ideal S512x512 .f32 := V c main_v169
abbrev b2Arr (c : Dev nD) : Vec Ideal S1x512 .f32 := V c main_v165

/-- The blocks the body loads at point `t`, each by its literal type. -/
abbrev xBlk (c : Dev nD) (t : Fin cfg7.N) : Vec Ideal S1024x512 .f32 := iblk7 V c 0 t
abbrev aggBlk (c : Dev nD) (t : Fin cfg7.N) : Vec Ideal S1024x512 .f32 := iblk7 V c 1 t
abbrev u1Blk (c : Dev nD) (t : Fin cfg7.N) : Vec Ideal S512x512 .f32 := iblk7 V c 2 t
abbrev b1Blk (c : Dev nD) (t : Fin cfg7.N) : Vec Ideal S1x512 .f32 := iblk7 V c 3 t
abbrev u2Blk (c : Dev nD) (t : Fin cfg7.N) : Vec Ideal S512x512 .f32 := iblk7 V c 4 t
abbrev b2Blk (c : Dev nD) (t : Fin cfg7.N) : Vec Ideal S1x512 .f32 := iblk7 V c 5 t

theorem zero_offsets : (![0, 0] : Fin 2 → Nat) = fun _ => 0 :=
  funext fun a => match a with | ⟨0, _⟩ => rfl | ⟨1, _⟩ => rfl

/-- The printed index maps, decided over the eight points: the blocks of `x` and of `agg` move with the output's block
    down the rows, the four weight windows stay at the origin, and the output's row block index is at most 7. -/
theorem index_facts : ∀ t : Fin cfg7.N,
    win7_0.index t (0 : Fin 2) = win7_6.index t (0 : Fin 2) ∧ win7_0.index t (1 : Fin 2) = 0
    ∧ win7_1.index t (0 : Fin 2) = win7_6.index t (0 : Fin 2) ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (1 : Fin 2) = 0 ∧ win7_6.index t (0 : Fin 2) ≤ 7 :=
  (by decide +kernel : ∀ t : Fin grid7.N, _)

/-- Every row block is some point's. -/
theorem index_onto : ∀ q0 : Fin 8, ∃ t : Fin cfg7.N, win7_6.index t = ![q0.val, 0] :=
  (by decide +kernel : ∀ q0 : Fin 8, ∃ t : Fin grid7.N, win7_6.index t = ![q0.val, 0])

/-- The block of `x` at point `t` is `x` where the output's block lies. -/
theorem xBlk_apply (c : Dev nD) (t : Fin cfg7.N) (j : S1024x512.Idx) :
    xBlk V c t j = xArr V c (((cfg7.win 6).blk t).view.emb j) := by
  obtain ⟨e00, e01, e10, e11, e20, e21, e30, e31, e40, e41, e50, e51, e61, e60⟩ := index_facts t
  show V c main_v148 (((cfg7.win 0).blk t).view.emb j) = V c main_v148 (((cfg7.win 6).blk t).view.emb j)
  refine congrArg (V c main_v148) (funext fun a => Fin.ext ?_)
  match a with
  | ⟨0, _⟩ => show win7_0.index t (0 : Fin 2) * 1024 + 1 * (j 0).val = win7_6.index t (0 : Fin 2) * 1024 + 1 * (j 0).val; omega
  | ⟨1, _⟩ => show win7_0.index t (1 : Fin 2) * 512 + 1 * (j 1).val = win7_6.index t (1 : Fin 2) * 512 + 1 * (j 1).val; omega

/-- Row `j 0` of the block of `agg` at point `t` is the row of `agg` the output's block has there. -/
theorem aggBlk_apply (c : Dev nD) (t : Fin cfg7.N) (j : S1024x512.Idx) (l : Fin 512) :
    aggBlk V c t (ix2 (j 0) l) = aggArr V c (ix2 ((((cfg7.win 6).blk t).view.emb j) 0) l) := by
  obtain ⟨e00, e01, e10, e11, e20, e21, e30, e31, e40, e41, e50, e51, e61, e60⟩ := index_facts t
  show V c main_v159 (((cfg7.win 1).blk t).view.emb (ix2 (j 0) l)) = V c main_v159 (ix2 ((((cfg7.win 6).blk t).view.emb j) 0) l)
  refine congrArg (V c main_v159) (funext fun a => Fin.ext ?_)
  match a with
  | ⟨0, _⟩ => show win7_1.index t (0 : Fin 2) * 1024 + 1 * (j 0).val = win7_6.index t (0 : Fin 2) * 1024 + 1 * (j 0).val; omega
  | ⟨1, _⟩ => show win7_1.index t (1 : Fin 2) * 512 + 1 * l.val = l.val; omega

/-- The column of an index of the output's block is the column inside the block. -/
theorem col_emb (t : Fin cfg7.N) (j : S1024x512.Idx) : (j 1).val = ((((cfg7.win 6).blk t).view.emb j) 1).val := by
  obtain ⟨e00, e01, e10, e11, e20, e21, e30, e31, e40, e41, e50, e51, e61, e60⟩ := index_facts t
  show (j 1).val = win7_6.index t (1 : Fin 2) * 512 + 1 * (j 1).val
  omega

/-- Each weight window's one block is its whole array. -/
theorem u1Blk_eq (c : Dev nD) (t : Fin cfg7.N) : u1Blk V c t = u1Arr V c := by
  obtain ⟨e00, e01, e10, e11, e20, e21, e30, e31, e40, e41, e50, e51, e61, e60⟩ := index_facts t
  funext y
  show V c main_v167 (((cfg7.win 2).blk t).view.emb y) = V c main_v167 y
  refine congrArg (V c main_v167) (funext fun a => Fin.ext ?_)
  match a with
  | ⟨0, _⟩ => show win7_2.index t (0 : Fin 2) * 512 + 1 * (y 0).val = (y 0).val; omega
  | ⟨1, _⟩ => show win7_2.index t (1 : Fin 2) * 512 + 1 * (y 1).val = (y 1).val; omega
theorem b1Blk_eq (c : Dev nD) (t : Fin cfg7.N) : b1Blk V c t = b1Arr V c := by
  obtain ⟨e00, e01, e10, e11, e20, e21, e30, e31, e40, e41, e50, e51, e61, e60⟩ := index_facts t
  funext y
  show V c main_v162 (((cfg7.win 3).blk t).view.emb y) = V c main_v162 y
  refine congrArg (V c main_v162) (funext fun a => Fin.ext ?_)
  match a with
  | ⟨0, _⟩ => show win7_3.index t (0 : Fin 2) * 1 + 1 * (y 0).val = (y 0).val; omega
  | ⟨1, _⟩ => show win7_3.index t (1 : Fin 2) * 512 + 1 * (y 1).val = (y 1).val; omega
theorem u2Blk_eq (c : Dev nD) (t : Fin cfg7.N) : u2Blk V c t = u2Arr V c := by
  obtain ⟨e00, e01, e10, e11, e20, e21, e30, e31, e40, e41, e50, e51, e61, e60⟩ := index_facts t
  funext y
  show V c main_v169 (((cfg7.win 4).blk t).view.emb y) = V c main_v169 y
  refine congrArg (V c main_v169) (funext fun a => Fin.ext ?_)
  match a with
  | ⟨0, _⟩ => show win7_4.index t (0 : Fin 2) * 512 + 1 * (y 0).val = (y 0).val; omega
  | ⟨1, _⟩ => show win7_4.index t (1 : Fin 2) * 512 + 1 * (y 1).val = (y 1).val; omega
theorem b2Blk_eq (c : Dev nD) (t : Fin cfg7.N) : b2Blk V c t = b2Arr V c := by
  obtain ⟨e00, e01, e10, e11, e20, e21, e30, e31, e40, e41, e50, e51, e61, e60⟩ := index_facts t
  funext y
  show V c main_v165 (((cfg7.win 5).blk t).view.emb y) = V c main_v165 y
  refine congrArg (V c main_v165) (funext fun a => Fin.ext ?_)
  match a with
  | ⟨0, _⟩ => show win7_5.index t (0 : Fin 2) * 1 + 1 * (y 0).val = (y 0).val; omega
  | ⟨1, _⟩ => show win7_5.index t (1 : Fin 2) * 512 + 1 * (y 1).val = (y 1).val; omega

/-- WHAT POINT `t` WRITES BACK is block `t` of the closed form of the arrays as the region finds them. -/
theorem flushed_eq (c : Dev nD) (t : Fin cfg7.N) :
    (dat7 (F := Ideal) V c).flushed 6 t
      = ((cfg7.win 6).blk t).view.read (Elt Ideal) (node (xArr V c) (aggArr V c) (u1Arr V c) (b1Arr V c) (u2Arr V c) (b2Arr V c)) := by
  show (cfg7.win 6).cut (grid7.coords t) ((dat7 (F := Ideal) V c).after 6 t) = _
  rw [after7_6]
  unfold out7_6
  rw [View.canon_unit_zero zero_offsets]
  simp only [View.ld_unit_zero (S := S1024x512) zero_offsets, View.ld_unit_zero (S := S512x512) zero_offsets, View.ld_unit_zero (S := S1x512) zero_offsets]
  funext j
  show k7_pay1 (F := Ideal) (aggBlk V c t) (u1Blk V c t) (b1Blk V c t) (u2Blk V c t) (b2Blk V c t) (xBlk V c t) j
    = node (xArr V c) (aggArr V c) (u1Arr V c) (b1Arr V c) (u2Arr V c) (b2Arr V c) (((cfg7.win 6).blk t).view.emb j)
  exact pay_node (xArr V c) (aggArr V c) (u1Arr V c) (b1Arr V c) (u2Arr V c) (b2Arr V c)
    (aggBlk V c t) (u1Blk V c t) (b1Blk V c t) (u2Blk V c t) (b2Blk V c t) (xBlk V c t) j (((cfg7.win 6).blk t).view.emb j)
    (xBlk_apply V c t j) (fun l => aggBlk_apply V c t j l) (col_emb t j)
    (u1Blk_eq V c t) (b1Blk_eq V c t) (u2Blk_eq V c t) (b2Blk_eq V c t)

/-- An index of the array is in point `t`'s block iff each coordinate is in the block's range on its axis. -/
theorem mem_blk (t : Fin cfg7.N) (i : S8192x512.Idx) :
    i ∈ ((cfg7.win 6).blk t).view.set ↔ ∀ a : Fin 2, win7_6.index t a * S1024x512.size a ≤ (i a).val ∧ (i a).val < win7_6.index t a * S1024x512.size a + S1024x512.size a := by
  show i ∈ ((View.whole main_v170).slice (win7_6.rect t)).set ↔ _
  rw [View.set_slice_whole, Rect.mem_set_unit]
  exact Iff.rfl

/-- Eight blocks of 1024 rows are the 8192 rows: every index is in the block of the point whose row block holds it. -/
theorem covered (i : S8192x512.Idx) :
    ∃ t : Fin cfg7.N, (cfg7.win 6).flush t = true ∧ i ∈ ((cfg7.win 6).blk t).view.set := by
  have hi0 : (i 0).val < 8192 := (i 0).isLt
  have hi1 : (i 1).val < 512 := (i 1).isLt
  obtain ⟨t, ht⟩ := index_onto ⟨(i 0).val / 1024, by omega⟩
  have q0 : win7_6.index t (0 : Fin 2) = (i 0).val / 1024 := congrFun ht 0
  have q1 : win7_6.index t (1 : Fin 2) = 0 := congrFun ht 1
  refine ⟨t, flush7_6 t, ?_⟩
  rw [mem_blk]
  intro a
  match a with
  | ⟨0, _⟩ => show win7_6.index t (0 : Fin 2) * 1024 ≤ (i 0).val ∧ (i 0).val < win7_6.index t (0 : Fin 2) * 1024 + 1024; omega
  | ⟨1, _⟩ => show win7_6.index t (1 : Fin 2) * 512 ≤ (i 1).val ∧ (i 1).val < win7_6.index t (1 : Fin 2) * 512 + 512; omega

/-- THE ARRAY after the region: the closed form of the arrays as the region finds them. -/
theorem final (c : Dev nD) :
    (dat7 (F := Ideal) V c).arrAt 6 cfg7.N = node (xArr V c) (aggArr V c) (u1Arr V c) (b1Arr V c) (u2Arr V c) (b2Arr V c) :=
  (dat7 (F := Ideal) V c).arrAt_eq_of_cover 6 (node (xArr V c) (aggArr V c) (u1Arr V c) (b1Arr V c) (u2Arr V c) (b2Arr V c))
    (fun t _ => flushed_eq V c t) (fun i => covered i)

/-- The same with the arrays the region finds named: the closed form of whatever they are. -/
theorem region_eq (c : Dev nD) (X AGG : FVec Ideal S8192x512 .f32) (U1 : FVec Ideal S512x512 .f32) (B1 : FVec Ideal S1x512 .f32)
    (U2 : FVec Ideal S512x512 .f32) (B2 : FVec Ideal S1x512 .f32)
    (h0 : V c main_v148 = X) (h1 : V c main_v159 = AGG) (h2 : V c main_v167 = U1) (h3 : V c main_v162 = B1)
    (h4 : V c main_v169 = U2) (h5 : V c main_v165 = B2) :
    (dat7 (F := Ideal) V c).arrAt 6 cfg7.N = node X AGG U1 B1 U2 B2 := by
  subst h0 h1 h2 h3 h4 h5
  exact final V c

/-- THE LAYER: the region's output array is the reference's node update of the same inputs. -/
theorem layer (c : Dev nD)
    (x1 : (⟨Cert.ReferenceIdeal.S8192x3, .f32⟩ : BufTy).Contents (Elt Ideal)) (x2 : (⟨Cert.ReferenceIdeal.S2x85342, .i32⟩ : BufTy).Contents (Elt Ideal)) (x3 x4 : (⟨Cert.ReferenceIdeal.S488691, .i32⟩ : BufTy).Contents (Elt Ideal)) (x6 : (⟨Cert.ReferenceIdeal.S64, .f32⟩ : BufTy).Contents (Elt Ideal)) (x7 : (⟨Cert.ReferenceIdeal.S1x32, .f32⟩ : BufTy).Contents (Elt Ideal)) (x8 : (⟨Cert.ReferenceIdeal.S32, .f32⟩ : BufTy).Contents (Elt Ideal)) (x9 : (⟨Cert.ReferenceIdeal.S32x32, .f32⟩ : BufTy).Contents (Elt Ideal)) (x10 : (⟨Cert.ReferenceIdeal.S32, .f32⟩ : BufTy).Contents (Elt Ideal)) (x11 : (⟨Cert.ReferenceIdeal.S4x96x512, .f32⟩ : BufTy).Contents (Elt Ideal)) (x12 : (⟨Cert.ReferenceIdeal.S4x512, .f32⟩ : BufTy).Contents (Elt Ideal)) (x13 : (⟨Cert.ReferenceIdeal.S4x512x512, .f32⟩ : BufTy).Contents (Elt Ideal)) (x14 : (⟨Cert.ReferenceIdeal.S4x512, .f32⟩ : BufTy).Contents (Elt Ideal)) (x15 : (⟨Cert.ReferenceIdeal.S4x512x512, .f32⟩ : BufTy).Contents (Elt Ideal)) (x16 : (⟨Cert.ReferenceIdeal.S4x512, .f32⟩ : BufTy).Contents (Elt Ideal))
    (xin : (⟨S8192x512, .f32⟩ : BufTy).Contents (Elt Ideal))
    (h0 : V c main_v148 = xin)
    (h1 : V c main_v159 = val_main_v183 (F := Ideal) x1 x2 x3 x4 x6 x7 x8 x9 x10 x11 x12)
    (h2 : V c main_v167 = val_main_v185 (F := Ideal) x13)
    (h3 : V c main_v162 = shapeCast S1x512 (val_main_v188 (F := Ideal) x14) shapeCasts_S512_S1x512)
    (h4 : V c main_v169 = val_main_v194 (F := Ideal) x15)
    (h5 : V c main_v165 = shapeCast S1x512 (val_main_v198 (F := Ideal) x16) shapeCasts_S512_S1x512) :
    (dat7 (F := Ideal) V c).arrAt 6 cfg7.N
      = (addf (addf xin (val_main_v195 (F := Ideal) x1 x2 x3 x4 x6 x7 x8 x9 x10 x11 x12 x13 x14 x15)) (val_main_v200 (F := Ideal) x16) : FVec Ideal S8192x512 .f32) := by
  exact (region_eq V c xin (val_main_v183 (F := Ideal) x1 x2 x3 x4 x6 x7 x8 x9 x10 x11 x12) (val_main_v185 (F := Ideal) x13)
      (shapeCast S1x512 (val_main_v188 (F := Ideal) x14) shapeCasts_S512_S1x512) (val_main_v194 (F := Ideal) x15)
      (shapeCast S1x512 (val_main_v198 (F := Ideal) x16) shapeCasts_S512_S1x512) h0 h1 h2 h3 h4 h5).trans
    (reference_eq x1 x2 x3 x4 x6 x7 x8 x9 x10 x11 x12 x13 x14 x15 x16 xin).symm

end Region

end Cert.KernelIdeal.Node7

end
-- ==== Proof.Layer2.lean ====
/-
  One message-passing layer of the kernel program, read through the fold of buffer contents. At the boundary before the
  layer's padding the buffers hold: the node states `xin`, the edges' source nodes, the edge features, this layer's
  edge weights and bias and its update weights. The layer pads the edge features with zero rows, multiplies them by the
  weights on the device (rows beyond the real edges are dropped again by the slice that follows), adds each edge's message
  into its source node, and updates the node states on the device:
  `xin + (max(agg · U1 + b1, 0) · U2 + b2)`, which is the reference's `(xin + max(agg · U1 + b1, 0) · U2) + b2`.
-/
import proofs.«430973_j37220186587498_2_alg».proof.Proof.Gen.KernelIdeal.Frame
import proofs.«430973_j37220186587498_2_alg».proof.Proof.ReadB
import proofs.«430973_j37220186587498_2_alg».proof.Proof.Carry
import proofs.«430973_j37220186587498_2_alg».proof.Proof.Edge6
import proofs.«430973_j37220186587498_2_alg».proof.Proof.Node7
import Idealize.ShloMosaic.Lib.StableHlo.Run

set_option maxRecDepth 16384

noncomputable section

namespace Cert.KernelIdeal.Layer2

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
local notation "a13" => m ((c.tc : Thread nD τ).loc main_arg13)
local notation "a14" => m ((c.tc : Thread nD τ).loc main_arg14)
local notation "a15" => m ((c.tc : Thread nD τ).loc main_arg15)
local notation "a16" => m ((c.tc : Thread nD τ).loc main_arg16)
set_option quotPrecheck true

/-- What the buffers hold at the boundary before the layer's padding. -/
structure Entry (xin : (⟨S8192x512, .f32⟩ : BufTy).Contents (Elt Ideal)) : Prop where
  x : W23 (F := Ideal) m ρ c (Proc.devRef .tc main_v148) = xin
  row : W23 (F := Ideal) m ρ c (Proc.devRef .tc main_v3) = val_main_v9 (F := Ideal) a2
  ef : W23 (F := Ideal) m ρ c (Proc.devRef .tc main_v104) = val_main_v114 (F := Ideal) a1 a2 a3 a4 a6 a7 a8 a9 a10
  w : W23 (F := Ideal) m ρ c (Proc.devRef .tc main_v153) = val_main_v174 (F := Ideal) a11
  b : W23 (F := Ideal) m ρ c (Proc.devRef .tc main_v151) = shapeCast S1x512 (val_main_v177 (F := Ideal) a12) shapeCasts_S512_S1x512
  z : W23 (F := Ideal) m ρ c (Proc.devRef .tc main_c_28) = constantI S_ 32 0#32
  p0 : W23 (F := Ideal) m ρ c (Proc.devRef .tc main_arg0) = a0
  p11 : W23 (F := Ideal) m ρ c (Proc.devRef .tc main_arg11) = a11
  p12 : W23 (F := Ideal) m ρ c (Proc.devRef .tc main_arg12) = a12
  u1 : W23 (F := Ideal) m ρ c (Proc.devRef .tc main_arg13) = a13
  b1 : W23 (F := Ideal) m ρ c (Proc.devRef .tc main_arg14) = a14
  u2 : W23 (F := Ideal) m ρ c (Proc.devRef .tc main_arg15) = a15
  b2 : W23 (F := Ideal) m ρ c (Proc.devRef .tc main_arg16) = a16

/-- A buffer that neither the padding, nor the two device regions, nor the host operations between them write holds
    at the layer's end what it held at its beginning. -/
theorem kept (r : Ref sig .tc) (h1 : r ∉ Carry.written_hostOps6_1) (h2 : ∀ w, Pipeline.arrRef spec6 w ≠ r)
    (h3 : r ∉ Carry.written_hostOps7) (h4 : ∀ w, Pipeline.arrRef spec7 w ≠ r) :
    W27 (F := Ideal) m ρ c (Proc.devRef .tc r) = W23 (F := Ideal) m ρ c (Proc.devRef .tc r) :=
  (W27_of_ne m ρ c r h4).trans ((Carry.keep_hostOps7 _ r h3).trans ((W25_of_ne m ρ c r h2).trans (Carry.keep_hostOps6_1 _ r h1)))

/-- The same, up to the second region's entry. -/
theorem kept16 (r : Ref sig .tc) (h1 : r ∉ Carry.written_hostOps6_1) (h2 : ∀ w, Pipeline.arrRef spec6 w ≠ r)
    (h3 : r ∉ Carry.written_hostOps7) :
    W26 (F := Ideal) m ρ c (Proc.devRef .tc r) = W23 (F := Ideal) m ρ c (Proc.devRef .tc r) :=
  (Carry.keep_hostOps7 _ r h3).trans ((W25_of_ne m ρ c r h2).trans (Carry.keep_hostOps6_1 _ r h1))

/-- The same, up to the first region's exit. -/
theorem kept15 (r : Ref sig .tc) (h1 : r ∉ Carry.written_hostOps6_1) (h2 : ∀ w, Pipeline.arrRef spec6 w ≠ r) :
    W25 (F := Ideal) m ρ c (Proc.devRef .tc r) = W23 (F := Ideal) m ρ c (Proc.devRef .tc r) :=
  (W25_of_ne m ρ c r h2).trans (Carry.keep_hostOps6_1 _ r h1)

variable {xin : (⟨S8192x512, .f32⟩ : BufTy).Contents (Elt Ideal)} (h : Entry m ρ c xin)
include h

/-- The edge features, padded with zero rows, at the first region's entry. -/
theorem padded : V24 (F := Ideal) m ρ c main_v154
    = pad S90000x96 ![0, 0] ![4658, 0] ![0, 0] (val_main_v114 (F := Ideal) a1 a2 a3 a4 a6 a7 a8 a9 a10) (sitofp (F := Ideal) .f32 (constantI S_ 32 0#32)) pads_S85342x96_S90000x96_046580_000 h_S_ := by
  show StableHlo.after hostOps6_1 (W23 (F := Ideal) m ρ c) (Proc.devRef .tc main_v154) = _
  have hef := h.ef
  have hz := h.z
  generalize W23 (F := Ideal) m ρ c = W at hef hz ⊢
  dsimp only [hostOps6_1]
  after_results_simp
  rw [hef, hz]
  rfl

/-- The messages of the real edges: the device's product, sliced, is the reference's. -/
theorem messages : extractStridedSlice S85342x512 ![0, 0] (W25 (F := Ideal) m ρ c (Proc.devRef .tc main_v155)) slices_S90000x512_S85342x512_0_0
    = val_main_v180 (F := Ideal) a1 a2 a3 a4 a6 a7 a8 a9 a10 a11 a12 := by
  have e111 : W25 (F := Ideal) m ρ c (Proc.devRef .tc main_v155) = (dat6 (F := Ideal) (V24 m ρ) c).arrAt 3 cfg6.N := W25_arr m ρ c 3
  rw [e111]
  exact Edge6.layer (V24 m ρ) c a1 a2 a3 a4 a6 a7 a8 a9 a10 a11 a12 (padded m ρ c h)
    ((Carry.keep_hostOps6_1 _ main_v153 (by decide)).trans h.w)
    ((Carry.keep_hostOps6_1 _ main_v151 (by decide)).trans h.b)

/-- Each node's sum of its edges' messages. -/
theorem aggregated : V26 (F := Ideal) m ρ c main_v159 = val_main_v183 (F := Ideal) a1 a2 a3 a4 a6 a7 a8 a9 a10 a11 a12 := by
  show StableHlo.after hostOps7 (W25 (F := Ideal) m ρ c) (Proc.devRef .tc main_v159) = _
  dsimp only [hostOps7]
  after_results_simp
  rw [messages m ρ c h, kept15 m ρ c main_v3 (by decide) (by decide), h.row]
  rfl

theorem weights1 : V26 (F := Ideal) m ρ c main_v167 = val_main_v185 (F := Ideal) a13 := by
  show StableHlo.after hostOps7 (W25 (F := Ideal) m ρ c) (Proc.devRef .tc main_v167) = _
  dsimp only [hostOps7]
  after_results_simp
  rw [kept15 m ρ c main_arg13 (by decide) (by decide), h.u1]
  rfl

theorem bias1 : V26 (F := Ideal) m ρ c main_v162 = shapeCast S1x512 (val_main_v188 (F := Ideal) a14) shapeCasts_S512_S1x512 := by
  show StableHlo.after hostOps7 (W25 (F := Ideal) m ρ c) (Proc.devRef .tc main_v162) = _
  dsimp only [hostOps7]
  after_results_simp
  rw [kept15 m ρ c main_arg14 (by decide) (by decide), h.b1]
  rfl

theorem weights2 : V26 (F := Ideal) m ρ c main_v169 = val_main_v194 (F := Ideal) a15 := by
  show StableHlo.after hostOps7 (W25 (F := Ideal) m ρ c) (Proc.devRef .tc main_v169) = _
  dsimp only [hostOps7]
  after_results_simp
  rw [kept15 m ρ c main_arg15 (by decide) (by decide), h.u2]
  rfl

theorem bias2 : V26 (F := Ideal) m ρ c main_v165 = shapeCast S1x512 (val_main_v198 (F := Ideal) a16) shapeCasts_S512_S1x512 := by
  show StableHlo.after hostOps7 (W25 (F := Ideal) m ρ c) (Proc.devRef .tc main_v165) = _
  dsimp only [hostOps7]
  after_results_simp
  rw [kept15 m ρ c main_arg16 (by decide) (by decide), h.b2]
  rfl

/-- THE LAYER: the node states after it. -/
theorem updated : W27 (F := Ideal) m ρ c (Proc.devRef .tc main_v170)
    = (addf (addf xin (val_main_v195 (F := Ideal) a1 a2 a3 a4 a6 a7 a8 a9 a10 a11 a12 a13 a14 a15)) (val_main_v200 (F := Ideal) a16) : FVec Ideal S8192x512 .f32) := by
  have e126 : W27 (F := Ideal) m ρ c (Proc.devRef .tc main_v170) = (dat7 (F := Ideal) (V26 m ρ) c).arrAt 6 cfg7.N := W27_arr m ρ c 6
  rw [e126]
  exact Node7.layer (V26 m ρ) c a1 a2 a3 a4 a6 a7 a8 a9 a10 a11 a12 a13 a14 a15 a16 xin
    ((kept16 m ρ c main_v148 (by decide) (by decide) (by decide)).trans h.x)
    (aggregated m ρ c h) (weights1 m ρ c h) (bias1 m ρ c h) (weights2 m ρ c h) (bias2 m ρ c h)

end Cert.KernelIdeal.Layer2

end
-- ==== Proof.Edge8.lean ====
import proofs.«430973_j37220186587498_2_alg».proof.Proof.Gen.KernelIdeal.Frame
import proofs.«430973_j37220186587498_2_alg».proof.Proof.ReadB
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

/-! # The edge layer: a row block of the padded edge features times the weight matrix, plus the bias row

The region computes, block of rows by block of rows, `out[r, j] = ∑ k, ef[r, k] * w[k, j] + b[0, j]` over the padded
edge-feature array; the host pads the features with zero rows before it and cuts the padding rows off after it. The
reference computes the same contraction and adds the bias broadcast along the rows. Over the extended reals the two
agree index by index. -/

set_option maxRecDepth 16384

noncomputable section

namespace Cert.KernelIdeal.Edge8

open Cert.KernelIdeal Cert.KernelIdeal.Gen Cert.ReferenceIdeal.Read
open Idealize.ShloMosaic Idealize.ShloMosaic.TcCoe Idealize.SL.Sem Idealize.ShloMosaic.ValueIdx
open Idealize.ShloMosaic.Pipeline (Dat Cfg Window)

/-! ## The body's arithmetic at an index -/

theorem zeroOffsets : (![0, 0] : Fin 2 → Nat) = fun _ => 0 := funext fun a => by fin_cases a <;> rfl

/-- The row coordinate of the left operand's index is the output's row. -/
theorem lhs_block_0 (i : S5000x512.Idx) (q : dot_S5000x96_S96x512_S5000x512_1_0_0_1_n_n.contr.Idx) :
    (dot_S5000x96_S96x512_S5000x512_1_0_0_1_n_n.lhsIdx i q 0).val = (i 0).val := by
  unfold DotDims.lhsIdx
  rw [dif_neg (show ¬(0 : Fin S5000x96.rank) ∈ dot_S5000x96_S96x512_S5000x512_1_0_0_1_n_n.lhsBatch by decide), dif_pos (show (0 : Fin S5000x96.rank) ∈ dot_S5000x96_S96x512_S5000x512_1_0_0_1_n_n.lhsNonContracting by decide)]
  rfl
/-- Its column coordinate is the contraction index. -/
theorem lhs_block_1 (i : S5000x512.Idx) (q : dot_S5000x96_S96x512_S5000x512_1_0_0_1_n_n.contr.Idx) :
    (dot_S5000x96_S96x512_S5000x512_1_0_0_1_n_n.lhsIdx i q 1).val = (q ⟨0, by decide⟩).val :=
  dot_S5000x96_S96x512_S5000x512_1_0_0_1_n_n.lhsIdx_val_of_single rfl i q
/-- The row coordinate of the right operand's index is the contraction index. -/
theorem rhs_block_0 (i : S5000x512.Idx) (q : dot_S5000x96_S96x512_S5000x512_1_0_0_1_n_n.contr.Idx) :
    (dot_S5000x96_S96x512_S5000x512_1_0_0_1_n_n.rhsIdx i q 0).val = (q ⟨0, by decide⟩).val :=
  dot_S5000x96_S96x512_S5000x512_1_0_0_1_n_n.rhsIdx_val_of_single rfl i q
/-- Its column coordinate is the output's column. -/
theorem rhs_block_1 (i : S5000x512.Idx) (q : dot_S5000x96_S96x512_S5000x512_1_0_0_1_n_n.contr.Idx) :
    (dot_S5000x96_S96x512_S5000x512_1_0_0_1_n_n.rhsIdx i q 1).val = (i 1).val := by
  unfold DotDims.rhsIdx
  rw [dif_neg (show ¬(1 : Fin S96x512.rank) ∈ dot_S5000x96_S96x512_S5000x512_1_0_0_1_n_n.rhsBatch by decide), dif_pos (show (1 : Fin S96x512.rank) ∈ dot_S5000x96_S96x512_S5000x512_1_0_0_1_n_n.rhsNonContracting by decide)]
  rfl

/-- The block product into the zero accumulator, read at an index: the sum over the contraction index (the narrowing
    of the operands to bf16 is the identity on the extended reals). -/
theorem blockProduct_apply (x : FVec Ideal S5000x96 .f32) (w : FVec Ideal S96x512 .f32) (j : S5000x512.Idx) :
    FloatOps.matmul dot_S5000x96_S96x512_S5000x512_1_0_0_1_n_n none (truncf .bf16 x bitsLt_bf16_f32) (truncf .bf16 w bitsLt_bf16_f32)
        (constant S5000x512 .f32 0x00000000#32) j
      = ∑ k : Fin 96, x (ix2 (j 0) k) * w (ix2 k (j 1)) := by
  rw [Ideal.matmul_constant_zero_apply, ← Equiv.sum_comp (ValueIdx.contrEquiv1 dot_S5000x96_S96x512_S5000x512_1_0_0_1_n_n 96 rfl rfl).symm]
  refine Finset.sum_congr rfl fun k _ => ?_
  have hk := ValueIdx.contrEquiv1_symm_val dot_S5000x96_S96x512_S5000x512_1_0_0_1_n_n 96 rfl rfl k
  have el : dot_S5000x96_S96x512_S5000x512_1_0_0_1_n_n.lhsIdx j ((ValueIdx.contrEquiv1 dot_S5000x96_S96x512_S5000x512_1_0_0_1_n_n 96 rfl rfl).symm k) = ix2 (j 0) k := funext fun a => Fin.ext (by
    match a with
    | ⟨0, _⟩ => exact lhs_block_0 _ _
    | ⟨1, _⟩ => exact (lhs_block_1 _ _).trans hk)
  have er : dot_S5000x96_S96x512_S5000x512_1_0_0_1_n_n.rhsIdx j ((ValueIdx.contrEquiv1 dot_S5000x96_S96x512_S5000x512_1_0_0_1_n_n 96 rfl rfl).symm k) = ix2 k (j 1) := funext fun a => Fin.ext (by
    match a with
    | ⟨0, _⟩ => exact (rhs_block_0 _ _).trans hk
    | ⟨1, _⟩ => exact rhs_block_1 _ _)
  rw [el, er]
  rfl

/-- The bias row broadcast down the block's rows, read at an index: the row's entry in that column. -/
theorem biasRows_apply (b : FVec Ideal S1x512 .f32) (j : S5000x512.Idx) :
    broadcastTo S5000x512 b broadcasts_S1x512_S5000x512 j = b (ix2 0 (j 1)) :=
  broadcastTo_apply b broadcasts_S1x512_S5000x512 j (ix2 0 (j 1)) (fun a => by
    match a with
    | ⟨0, _⟩ => rfl
    | ⟨1, _⟩ => rfl)

/-- THE BODY'S ARITHMETIC at an index of the block: the row of the feature block against the column of the weights,
    plus the bias in that column (the narrowing to bf16 is the identity on the extended reals). -/
theorem payload_apply (x : FVec Ideal S5000x96 .f32) (w : FVec Ideal S96x512 .f32) (b : FVec Ideal S1x512 .f32) (j : S5000x512.Idx) :
    k8_pay1 (F := Ideal) x w b j = (∑ k : Fin 96, x (ix2 (j 0) k) * w (ix2 k (j 1))) + b (ix2 0 (j 1)) := by
  unfold k8_pay1
  simp only [shapeCast_self]
  rw [ValueIdx.addf_apply, biasRows_apply]
  refine congrArg (· + b (ix2 0 (j 1))) ?_
  exact blockProduct_apply _ _ j

/-! ## The blocks: where each window's block sits in its array -/

/-- The printed index maps, decided over the grid: the feature window and the output window move with the point
    along the rows; the weights and the bias row are whole at every point. -/
theorem index_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- Every row block of the output is some point's. -/
theorem index_onto : ∀ q : Fin 18, ∃ t : Fin cfg8.N, t.val = q.val :=
  (by decide +kernel : ∀ q : Fin 18, ∃ t : Fin grid8.N, t.val = q.val)

/-- An index of the output array is in point `t`'s block iff each coordinate is in the block's range on its axis. -/
theorem mem_outBlock (t : Fin cfg8.N) (i : S90000x512.Idx) :
    i ∈ ((cfg8.win 3).blk t).view.set ↔ ∀ a : Fin 2, win8_3.index t a * S5000x512.size a ≤ (i a).val ∧ (i a).val < win8_3.index t a * S5000x512.size a + S5000x512.size a := by
  show i ∈ ((View.whole main_v177).slice (win8_3.rect t)).set ↔ _
  rw [View.set_slice_whole, Rect.mem_set_unit]
  exact Iff.rfl

/-- The row blocks tile the output array: every index is in the block of the point its row falls in. -/
theorem outBlocks_cover (i : S90000x512.Idx) :
    ∃ t : Fin cfg8.N, (cfg8.win 3).flush t = true ∧ i ∈ ((cfg8.win 3).blk t).view.set := by
  have hi0 : (i 0).val < 90000 := (i 0).isLt
  have hi1 : (i 1).val < 512 := (i 1).isLt
  obtain ⟨t, ht⟩ := index_onto ⟨(i 0).val / 5000, by omega⟩
  have ht' : t.val = (i 0).val / 5000 := ht
  obtain ⟨-, -, -, -, -, -, e0, e1⟩ := index_facts t
  refine ⟨t, flush8_3 t, ?_⟩
  rw [mem_outBlock]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 512 ≤ (i 1).val ∧ (i 1).val < win8_3.index t (1 : Fin 2) * 512 + 512; omega

/-! ## The layer as one function of the arrays, and the host's pad, cut and reshape read at an index -/

/-- What the region's output array ends holding, as one function of the arrays it reads: each row of the padded
    features against each column of the weights, plus the bias in that column. -/
def edgeOut (ef : FVec Ideal S90000x96 .f32) (w : FVec Ideal S96x512 .f32) (b : FVec Ideal S1x512 .f32) : FVec Ideal S90000x512 .f32 :=
  fun i => (∑ k : Fin 96, ef (ix2 (i 0) k) * w (ix2 k (i 1))) + b (ix2 0 (i 1))

/-- A row of the features is below the padded array's row count. -/
theorem row_lt (r : Fin 85342) : r.val < 90000 := Nat.lt_trans r.isLt (by omega)

/-- The padded features read at a row of the features: the features there (the padding rows come after them). -/
theorem paddedRows_apply (ef : FVec Ideal S85342x96 .f32) (z : FVec Ideal S_ .f32) (r : Fin 85342) (k : Fin 96) :
    pad S90000x96 ![0, 0] ![4658, 0] ![0, 0] ef z pads_S85342x96_S90000x96_046580_000 h_S_ (ix2 ⟨r.val, row_lt r⟩ k) = ef (ix2 r k) :=
  pad_apply_of_inside ![0, 0] ![4658, 0] ![0, 0] ef z pads_S85342x96_S90000x96_046580_000 h_S_ (ix2 ⟨r.val, row_lt r⟩ k) (ix2 r k) (fun a => by
    match a with
    | ⟨0, _⟩ => show r.val = 0 + r.val * (0 + 1); omega
    | ⟨1, _⟩ => show k.val = 0 + k.val * (0 + 1); omega)

/-- The output with its padding rows cut off, read at an index: the output at the same row and column. -/
theorem keptRows_apply (G : FVec Ideal S90000x512 .f32) (r : Fin 85342) (q : Fin 512) :
    extractStridedSlice S85342x512 ![0, 0] G slices_S90000x512_S85342x512_0_0 (ix2 r q) = G (ix2 ⟨r.val, row_lt r⟩ q) :=
  extractStridedSlice_apply ![0, 0] G slices_S90000x512_S85342x512_0_0 (ix2 r q) (ix2 ⟨r.val, row_lt r⟩ q) (fun a => by
    match a with
    | ⟨0, _⟩ => show r.val = 0 + r.val; omega
    | ⟨1, _⟩ => show q.val = 0 + q.val; omega)

/-- THE HOST'S SIDE of the layer at an index: padding the features, the region's function, and cutting the padding
    rows off compose to the contraction over the features' own row, plus the bias vector's entry in that column. -/
theorem keptRows_edgeOut_apply (ef : FVec Ideal S85342x96 .f32) (z : FVec Ideal S_ .f32) (w : FVec Ideal S96x512 .f32)
    (b : FVec Ideal S512 .f32) (r : Fin 85342) (q : Fin 512) :
    extractStridedSlice S85342x512 ![0, 0]
        (edgeOut (pad S90000x96 ![0, 0] ![4658, 0] ![0, 0] ef z pads_S85342x96_S90000x96_046580_000 h_S_) w
          (shapeCast S1x512 b shapeCasts_S512_S1x512)) slices_S90000x512_S85342x512_0_0 (ix2 r q)
      = (∑ k : Fin 96, ef (ix2 r k) * w (ix2 k q)) + b (ix1 q) := by
  rw [keptRows_apply]
  show (∑ k : Fin 96, pad S90000x96 ![0, 0] ![4658, 0] ![0, 0] ef z pads_S85342x96_S90000x96_046580_000 h_S_ (ix2 ⟨r.val, row_lt r⟩ k) * w (ix2 k q))
      + shapeCast S1x512 b shapeCasts_S512_S1x512 (ix2 0 q) = _
  rw [shapeCast_a_1a_apply]
  refine congrArg (· + b (ix1 q)) (Finset.sum_congr rfl fun k _ => ?_)
  rw [paddedRows_apply]

/-! ## What each point writes back, and the array after the region -/

section Region

variable (V : (c : Dev nD) → (b : Ref sig .tc) → Buf (Elt Ideal) ((c : Thread nD τ).loc b))

/-- The padded features, the weights and the bias row as the region finds them. -/
abbrev featArr (c : Dev nD) : FVec Ideal S90000x96 .f32 := V c main_v176
abbrev weightArr (c : Dev nD) : FVec Ideal S96x512 .f32 := V c main_v175
abbrev biasArr (c : Dev nD) : FVec Ideal S1x512 .f32 := V c main_v173

/-- The blocks the body loads at a point. -/
abbrev featBlk (c : Dev nD) (t : Fin cfg8.N) : FVec Ideal S5000x96 .f32 := iblk8 (F := Ideal) V c 0 t
abbrev weightBlk (c : Dev nD) (t : Fin cfg8.N) : FVec Ideal S96x512 .f32 := iblk8 (F := Ideal) V c 1 t
abbrev biasBlk (c : Dev nD) (t : Fin cfg8.N) : FVec Ideal S1x512 .f32 := iblk8 (F := Ideal) V c 2 t

/-- The grid has 18 points. -/
theorem point_lt (t : Fin cfg8.N) : t.val < 18 := lt_of_lt_of_eq t.isLt N_8

/-- Point `t`'s feature block is rows `5000 t` to `5000 t + 4999` of the padded features. -/
theorem featBlk_apply (c : Dev nD) (t : Fin cfg8.N) (p : Fin 5000) (k : Fin 96) (hr : t.val * 5000 + p.val < 90000) :
    featBlk V c t (ix2 p k) = featArr V c (ix2 ⟨t.val * 5000 + p.val, hr⟩ k) := by
  obtain ⟨e0, e1, -⟩ := index_facts t
  show featArr V c (((cfg8.win 0).blk t).view.emb (ix2 p k)) = featArr V c (ix2 ⟨t.val * 5000 + p.val, hr⟩ k)
  refine congrArg (featArr V c) (funext fun a => Fin.ext ?_)
  match a with
  | ⟨0, _⟩ => show win8_0.index t (0 : Fin 2) * 5000 + 1 * p.val = t.val * 5000 + p.val; omega
  | ⟨1, _⟩ => show win8_0.index t (1 : Fin 2) * 96 + 1 * k.val = k.val; omega

/-- Every point's weight block is the whole weight matrix. -/
theorem weightBlk_apply (c : Dev nD) (t : Fin cfg8.N) (k : Fin 96) (q : Fin 512) :
    weightBlk V c t (ix2 k q) = weightArr V c (ix2 k q) := by
  obtain ⟨-, -, e0, e1, -⟩ := index_facts t
  show weightArr V c (((cfg8.win 1).blk t).view.emb (ix2 k q)) = weightArr V c (ix2 k q)
  refine congrArg (weightArr V c) (funext fun a => Fin.ext ?_)
  match a with
  | ⟨0, _⟩ => show win8_1.index t (0 : Fin 2) * 96 + 1 * k.val = k.val; omega
  | ⟨1, _⟩ => show win8_1.index t (1 : Fin 2) * 512 + 1 * q.val = q.val; omega

/-- Every point's bias block is the whole bias row. -/
theorem biasBlk_apply (c : Dev nD) (t : Fin cfg8.N) (q : Fin 512) :
    biasBlk V c t (ix2 0 q) = biasArr V c (ix2 0 q) := by
  obtain ⟨-, -, -, -, e0, e1, -⟩ := index_facts t
  show biasArr V c (((cfg8.win 2).blk t).view.emb (ix2 0 q)) = biasArr V c (ix2 0 q)
  refine congrArg (biasArr V c) (funext fun a => Fin.ext ?_)
  match a with
  | ⟨0, _⟩ => show win8_2.index t (0 : Fin 2) * 1 + 1 * 0 = 0; omega
  | ⟨1, _⟩ => show win8_2.index t (1 : Fin 2) * 512 + 1 * q.val = q.val; omega

/-- The body's arithmetic of point `t`'s blocks is block `t` of the layer's function of the arrays. -/
theorem payloadBlock_eq (c : Dev nD) (t : Fin cfg8.N) :
    k8_pay1 (F := Ideal) (featBlk V c t) (weightBlk V c t) (biasBlk V c t)
      = ((cfg8.win 3).blk t).view.read (Elt Ideal) (edgeOut (featArr V c) (weightArr V c) (biasArr V c)) := by
  funext j
  have ht := point_lt t
  have hj0 : (j 0).val < 5000 := (j 0).isLt
  have hj1 : (j 1).val < 512 := (j 1).isLt
  obtain ⟨-, -, -, -, -, -, e0, e1⟩ := index_facts t
  have hrow : t.val * 5000 + (j 0).val < 90000 := by omega
  have hemb : ((cfg8.win 3).blk t).view.emb j = ix2 ⟨t.val * 5000 + (j 0).val, hrow⟩ ⟨(j 1).val, hj1⟩ := by
    funext a; apply Fin.ext
    match a with
    | ⟨0, _⟩ => show win8_3.index t (0 : Fin 2) * 5000 + 1 * (j 0).val = t.val * 5000 + (j 0).val; omega
    | ⟨1, _⟩ => show win8_3.index t (1 : Fin 2) * 512 + 1 * (j 1).val = (j 1).val; omega
  show k8_pay1 (F := Ideal) (featBlk V c t) (weightBlk V c t) (biasBlk V c t) j
    = edgeOut (featArr V c) (weightArr V c) (biasArr V c) (((cfg8.win 3).blk t).view.emb j)
  rw [hemb]
  refine (payload_apply (featBlk V c t) (weightBlk V c t) (biasBlk V c t) j).trans ?_
  show _ = (∑ k : Fin 96, featArr V c (ix2 ⟨t.val * 5000 + (j 0).val, hrow⟩ k) * weightArr V c (ix2 k ⟨(j 1).val, hj1⟩))
    + biasArr V c (ix2 0 ⟨(j 1).val, hj1⟩)
  refine congrArg₂ (· + ·) (Finset.sum_congr rfl fun k _ => congrArg₂ (· * ·) ?_ ?_) ?_
  · exact featBlk_apply V c t ⟨(j 0).val, hj0⟩ k hrow
  · exact weightBlk_apply V c t k ⟨(j 1).val, hj1⟩
  · exact biasBlk_apply V c t ⟨(j 1).val, hj1⟩

/-- WHAT POINT `t` WRITES BACK is block `t` of the layer's function of the arrays as the region finds them. -/
theorem flushed_eq (c : Dev nD) (t : Fin cfg8.N) :
    (dat8 (F := Ideal) V c).flushed 3 t
      = ((cfg8.win 3).blk t).view.read (Elt Ideal) (edgeOut (featArr V c) (weightArr V c) (biasArr V c)) := by
  show (cfg8.win 3).cut (grid8.coords t) ((dat8 (F := Ideal) V c).after 3 t) = _
  rw [after8_3]
  unfold out8_3
  rw [View.canon_unit_zero zeroOffsets]
  simp only [View.ld_unit_zero (S := S5000x96) zeroOffsets, View.ld_unit_zero (S := S96x512) zeroOffsets,
    View.ld_unit_zero (S := S1x512) zeroOffsets]
  exact payloadBlock_eq V c t

/-- THE ARRAY after the region: the layer's function of the arrays the region found (the row blocks tile it). -/
theorem final (c : Dev nD) :
    (dat8 (F := Ideal) V c).arrAt 3 cfg8.N = edgeOut (featArr V c) (weightArr V c) (biasArr V c) :=
  (dat8 (F := Ideal) V c).arrAt_eq_of_cover 3 (edgeOut (featArr V c) (weightArr V c) (biasArr V c))
    (fun t _ => flushed_eq V c t) outBlocks_cover

end Region

/-! ## The reference's stage at an index, and the layer -/

/-- THE REFERENCE'S SIDE at an index: the contraction of the features' row with the weights' column, plus the bias
    vector's entry in that column (the bias broadcast along the rows, read back). -/
theorem reference_apply (x1 : (⟨Cert.ReferenceIdeal.S8192x3, .f32⟩ : BufTy).Contents (Elt Ideal))
    (x2 : (⟨Cert.ReferenceIdeal.S2x85342, .i32⟩ : BufTy).Contents (Elt Ideal))
    (x3 x4 : (⟨Cert.ReferenceIdeal.S488691, .i32⟩ : BufTy).Contents (Elt Ideal))
    (x6 : (⟨Cert.ReferenceIdeal.S64, .f32⟩ : BufTy).Contents (Elt Ideal))
    (x7 : (⟨Cert.ReferenceIdeal.S1x32, .f32⟩ : BufTy).Contents (Elt Ideal))
    (x8 : (⟨Cert.ReferenceIdeal.S32, .f32⟩ : BufTy).Contents (Elt Ideal))
    (x9 : (⟨Cert.ReferenceIdeal.S32x32, .f32⟩ : BufTy).Contents (Elt Ideal))
    (x10 : (⟨Cert.ReferenceIdeal.S32, .f32⟩ : BufTy).Contents (Elt Ideal))
    (x11 : (⟨Cert.ReferenceIdeal.S4x96x512, .f32⟩ : BufTy).Contents (Elt Ideal))
    (x12 : (⟨Cert.ReferenceIdeal.S4x512, .f32⟩ : BufTy).Contents (Elt Ideal))
    (r : Fin 85342) (q : Fin 512) :
    val_main_v209 (F := Ideal) x1 x2 x3 x4 x6 x7 x8 x9 x10 x11 x12 (ix2 r q)
      = (∑ k : Fin 96, val_main_v114 (F := Ideal) x1 x2 x3 x4 x6 x7 x8 x9 x10 (ix2 r k) * val_main_v203 (F := Ideal) x11 (ix2 k q))
        + val_main_v206 (F := Ideal) x12 (ix1 q) := by
  have el : ∀ k : Fin 96, lidx_main_v204 (ix2 r q) k = ix2 r k := fun k => funext fun a => by
    match a with
    | ⟨0, _⟩ => rfl
    | ⟨1, _⟩ => rfl
  have er : ∀ k : Fin 96, ridx_main_v204 (ix2 r q) k = ix2 k q := fun k => funext fun a => by
    match a with
    | ⟨0, _⟩ => rfl
    | ⟨1, _⟩ => rfl
  have eb : idx_main_v207 (idx_main_v208 (ix2 r q)) = ix1 q := funext fun a => by
    match a with
    | ⟨0, _⟩ => rfl
  rw [val_main_v209_apply, val_main_v204_apply, val_main_v208_apply, val_main_v207_apply, eb]
  simp only [el, er]
  rfl

/-- THE LAYER: the region's output array, with the padding rows cut off, is the reference's edge stage. -/
theorem layer (V : (c : Dev nD) → (b : Ref sig .tc) → Buf (Elt Ideal) ((c : Thread nD τ).loc b)) (c : Dev nD)
    (x1 : (⟨Cert.ReferenceIdeal.S8192x3, .f32⟩ : BufTy).Contents (Elt Ideal))
    (x2 : (⟨Cert.ReferenceIdeal.S2x85342, .i32⟩ : BufTy).Contents (Elt Ideal))
    (x3 x4 : (⟨Cert.ReferenceIdeal.S488691, .i32⟩ : BufTy).Contents (Elt Ideal))
    (x6 : (⟨Cert.ReferenceIdeal.S64, .f32⟩ : BufTy).Contents (Elt Ideal))
    (x7 : (⟨Cert.ReferenceIdeal.S1x32, .f32⟩ : BufTy).Contents (Elt Ideal))
    (x8 : (⟨Cert.ReferenceIdeal.S32, .f32⟩ : BufTy).Contents (Elt Ideal))
    (x9 : (⟨Cert.ReferenceIdeal.S32x32, .f32⟩ : BufTy).Contents (Elt Ideal))
    (x10 : (⟨Cert.ReferenceIdeal.S32, .f32⟩ : BufTy).Contents (Elt Ideal))
    (x11 : (⟨Cert.ReferenceIdeal.S4x96x512, .f32⟩ : BufTy).Contents (Elt Ideal))
    (x12 : (⟨Cert.ReferenceIdeal.S4x512, .f32⟩ : BufTy).Contents (Elt Ideal))
    (h0 : V c main_v176 = pad S90000x96 ![0, 0] ![4658, 0] ![0, 0] (val_main_v114 (F := Ideal) x1 x2 x3 x4 x6 x7 x8 x9 x10)
      (sitofp (F := Ideal) .f32 (constantI S_ 32 0#32)) pads_S85342x96_S90000x96_046580_000 h_S_)
    (h1 : V c main_v175 = val_main_v203 (F := Ideal) x11)
    (h2 : V c main_v173 = shapeCast S1x512 (val_main_v206 (F := Ideal) x12) shapeCasts_S512_S1x512) :
    extractStridedSlice S85342x512 ![0, 0] ((dat8 (F := Ideal) V c).arrAt 3 cfg8.N) slices_S90000x512_S85342x512_0_0
      = val_main_v209 (F := Ideal) x1 x2 x3 x4 x6 x7 x8 x9 x10 x11 x12 := by
  funext i
  obtain ⟨r, q, rfl⟩ : ∃ (r : Fin 85342) (q : Fin 512), i = ix2 r q := ⟨i 0, i 1, eq_ix2 i⟩
  rw [final V c]
  show extractStridedSlice S85342x512 ![0, 0] (edgeOut (V c main_v176) (V c main_v175) (V c main_v173))
    slices_S90000x512_S85342x512_0_0 (ix2 r q) = _
  rw [h0, h1, h2, keptRows_edgeOut_apply, reference_apply]

end Cert.KernelIdeal.Edge8

end
-- ==== Proof.Node9.lean ====
import proofs.«430973_j37220186587498_2_alg».proof.Proof.Gen.KernelIdeal.Frame
import proofs.«430973_j37220186587498_2_alg».proof.Proof.ReadB
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Node9

open Idealize.ShloMosaic Idealize.ShloMosaic.TcCoe Idealize.SL.Sem Idealize.ShloMosaic.StableHlo
open Idealize.ShloMosaic.Pipeline (Dat Cfg Window)
open Idealize.ShloMosaic.ValueIdx
open Cert.KernelIdeal Cert.KernelIdeal.Gen
open Cert.ReferenceIdeal.Read

/-! # The node update region is the reference's node update

The region computes, block of 1024 rows by block, `x + (relu (agg · U₁ + b₁) · U₂ + b₂)` of the `8192 × 512` arrays
`x` and `agg`; its eight blocks tile the array. The reference computes `(x + relu (agg · U₁ + b₁) · U₂) + b₂` on the
whole array. Over the extended reals the two are equal entry by entry: both products are the same finite sums, and
addition is associative. -/
/-! ## The node update of one row

Row `r` of the result is `x r + ((relu (agg r · U₁ + b₁)) · U₂ + b₂)`: two products with `512 × 512` matrices, a
rectified sum between them, and the row of `x` added. -/

/-- The two-layer perceptron of one row `a` of the aggregated messages, at output column `q`. -/
def mlp (u1 : FVec Ideal S512x512 .f32) (b1 : FVec Ideal S1x512 .f32) (u2 : FVec Ideal S512x512 .f32)
    (b2 : FVec Ideal S1x512 .f32) (a : Fin 512 → EReal) (q : Fin 512) : EReal :=
  (∑ k : Fin 512, max ((∑ l : Fin 512, a l * u1 (ix2 l k)) + b1 (ix2 (0 : Fin 1) k)) 0 * u2 (ix2 k q)) + b2 (ix2 (0 : Fin 1) q)

/-! ## The closed form of the region's result -/

/-- Entry `(r, q)` of the updated node array: the entry of `x` plus the perceptron of row `r` of `agg`. -/
def nodeAt (X AGG : FVec Ideal S8192x512 .f32) (U1 : FVec Ideal S512x512 .f32) (B1 : FVec Ideal S1x512 .f32)
    (U2 : FVec Ideal S512x512 .f32) (B2 : FVec Ideal S1x512 .f32) (r : Fin 8192) (q : Fin 512) : EReal :=
  X (ix2 r q) + mlp U1 B1 U2 B2 (fun l => AGG (ix2 r l)) q

/-- The updated node array, index by index. -/
def node (X AGG : FVec Ideal S8192x512 .f32) (U1 : FVec Ideal S512x512 .f32) (B1 : FVec Ideal S1x512 .f32)
    (U2 : FVec Ideal S512x512 .f32) (B2 : FVec Ideal S1x512 .f32) : FVec Ideal S8192x512 .f32 :=
  fun i => nodeAt X AGG U1 B1 U2 B2 (i 0) (i 1)

theorem node_apply (X AGG : FVec Ideal S8192x512 .f32) (U1 : FVec Ideal S512x512 .f32) (B1 : FVec Ideal S1x512 .f32)
    (U2 : FVec Ideal S512x512 .f32) (B2 : FVec Ideal S1x512 .f32) (r : Fin 8192) (q : Fin 512) :
    node X AGG U1 B1 U2 B2 (ix2 r q) = nodeAt X AGG U1 B1 U2 B2 r q := rfl
/-! ## The block product at an index -/

theorem lhs_block_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_block_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_block_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_block_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A block of 1024 rows times a `512 × 512` matrix, into the zero accumulator, at row `p` and column `q`: the sum
    over the contracted coordinate. -/
theorem blockProduct_apply {φ₁ φ₂ : FTy} (a : FVec Ideal S1024x512 φ₁) (b : FVec Ideal S512x512 φ₂) (p : Fin 1024) (q : Fin 512) :
    FloatOps.matmul dot_S1024x512_S512x512_S1024x512_1_0_0_1_n_n none a b (constant (F := Ideal) S1024x512 .f32 0x00000000#32) (ix2 p q)
      = ∑ k : Fin 512, a (ix2 p k) * b (ix2 k q) := by
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun d => Fin.ext (by
    match d with
    | ⟨0, _⟩ => exact lhs_block_0 _ _
    | ⟨1, _⟩ => exact (lhs_block_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun d => Fin.ext (by
    match d with
    | ⟨0, _⟩ => exact (rhs_block_0 _ _).trans hk
    | ⟨1, _⟩ => exact rhs_block_1 _ _)
  rw [el, er]

/-! ## The body's arithmetic at an index -/

/-- The rectified hidden layer of a block, at row `p` and hidden column `k`. -/
theorem hidden_apply {φ₁ φ₂ : FTy} (agg : FVec Ideal S1024x512 φ₁) (u1 : FVec Ideal S512x512 φ₂) (b1 : FVec Ideal S1x512 .f32)
    (p : Fin 1024) (k : Fin 512) :
    maximumf (addf (FloatOps.matmul dot_S1024x512_S512x512_S1024x512_1_0_0_1_n_n none agg u1 (constant (F := Ideal) S1024x512 .f32 0x00000000#32))
        (broadcastTo S1024x512 b1 broadcasts_S1x512_S1024x512))
      (broadcast S1024x512 (Scalar.ofBits (F := Ideal) .f32 0x00000000#32)) (ix2 p k)
      = max ((∑ l : Fin 512, agg (ix2 p l) * u1 (ix2 l k)) + b1 (ix2 (0 : Fin 1) k)) 0 := by
  rw [maximumf_apply, addf_apply, broadcast_apply, broadcastTo_1b_ab_apply, blockProduct_apply]
  exact congrArg (max _) Ideal.ofBits_zero_f32

/-- THE PAYLOAD AT AN INDEX: row `p` of the block of `x` plus the perceptron of row `p` of the block of `agg`. -/
theorem pay_apply (agg : Vec Ideal S1024x512 .f32) (u1 : Vec Ideal S512x512 .f32) (b1 : Vec Ideal S1x512 .f32)
    (u2 : Vec Ideal S512x512 .f32) (b2 : Vec Ideal S1x512 .f32) (x : Vec Ideal S1024x512 .f32) (p : Fin 1024) (q : Fin 512) :
    k9_pay1 (F := Ideal) agg u1 b1 u2 b2 x (ix2 p q) = x (ix2 p q) + mlp u1 b1 u2 b2 (fun l => agg (ix2 p l)) q := by
  unfold k9_pay1
  simp only [shapeCast_self]
  rw [addf_apply, addf_apply, broadcastTo_1b_ab_apply]
  simp only [matmul]
  rw [blockProduct_apply]
  unfold mlp
  refine congrArg (x (ix2 p q) + ·) (congrArg (· + b2 (ix2 (0 : Fin 1) q)) (Finset.sum_congr rfl fun k _ => ?_))
  rw [truncf_apply, truncf_apply, hidden_apply]
  rfl

/-- One entry of the body's payload is one entry of the closed form, when the loaded blocks are the arrays' rows and
    the weights are the arrays themselves. -/
theorem pay_node (X AGG : FVec Ideal S8192x512 .f32) (U1 : FVec Ideal S512x512 .f32) (B1 : FVec Ideal S1x512 .f32)
    (U2 : FVec Ideal S512x512 .f32) (B2 : FVec Ideal S1x512 .f32)
    (agg : Vec Ideal S1024x512 .f32) (u1 : Vec Ideal S512x512 .f32) (b1 : Vec Ideal S1x512 .f32)
    (u2 : Vec Ideal S512x512 .f32) (b2 : Vec Ideal S1x512 .f32) (x : Vec Ideal S1024x512 .f32)
    (y : S1024x512.Idx) (i : S8192x512.Idx)
    (hx : x y = X i)
    (hagg : ∀ l : Fin 512, agg (ix2 (y 0) l) = AGG (ix2 (i 0) l))
    (hcol : (y 1).val = (i 1).val)
    (hu1 : u1 = U1) (hb1 : b1 = B1) (hu2 : u2 = U2) (hb2 : b2 = B2) :
    k9_pay1 (F := Ideal) agg u1 b1 u2 b2 x y = node X AGG U1 B1 U2 B2 i := by
  subst hu1 hb1 hu2 hb2
  obtain ⟨p, q, rfl⟩ : ∃ (p : Fin 1024) (q : Fin 512), y = ix2 p q := ⟨y 0, y 1, eq_ix2 y⟩
  obtain ⟨r, q', rfl⟩ : ∃ (r : Fin 8192) (q' : Fin 512), i = ix2 r q' := ⟨i 0, i 1, eq_ix2 i⟩
  obtain rfl : q = q' := Fin.ext hcol
  rw [pay_apply, node_apply]
  unfold nodeAt
  rw [hx]
  exact congrArg (fun a => X (ix2 r q) + mlp u1 b1 u2 b2 a q) (funext fun l => hagg l)

/-! ## The reference's stages are the closed form

The reference adds the row of `x` to the second product first and the second bias afterwards; the kernel adds the bias
to the product first. Addition of extended reals is associative. -/

theorem lidx_v137 (r : Fin 8192) (q k : Fin 512) : lidx_main_v224 (ix2 r q) k = ix2 r k :=
  funext fun a => Fin.ext (by match a with | ⟨0, _⟩ => rfl | ⟨1, _⟩ => rfl)
theorem ridx_v137 (r : Fin 8192) (q k : Fin 512) : ridx_main_v224 (ix2 r q) k = ix2 k q :=
  funext fun a => Fin.ext (by match a with | ⟨0, _⟩ => rfl | ⟨1, _⟩ => rfl)
theorem lidx_v128 (r : Fin 8192) (k l : Fin 512) : lidx_main_v215 (ix2 r k) l = ix2 r l :=
  funext fun a => Fin.ext (by match a with | ⟨0, _⟩ => rfl | ⟨1, _⟩ => rfl)
theorem ridx_v128 (r : Fin 8192) (k l : Fin 512) : ridx_main_v215 (ix2 r k) l = ix2 l k :=
  funext fun a => Fin.ext (by match a with | ⟨0, _⟩ => rfl | ⟨1, _⟩ => rfl)
theorem idx_bias1 (r : Fin 8192) (k : Fin 512) : idx_main_v218 (idx_main_v219 (ix2 r k)) = ix1 k :=
  funext fun a => Fin.ext (by match a with | ⟨0, _⟩ => rfl)
theorem idx_bias2 (r : Fin 8192) (q : Fin 512) : idx_main_v228 (idx_main_v229 (ix2 r q)) = ix1 q :=
  funext fun a => Fin.ext (by match a with | ⟨0, _⟩ => rfl)

theorem reference_eq (x1 : (⟨Cert.ReferenceIdeal.S8192x3, .f32⟩ : BufTy).Contents (Elt Ideal)) (x2 : (⟨Cert.ReferenceIdeal.S2x85342, .i32⟩ : BufTy).Contents (Elt Ideal)) (x3 x4 : (⟨Cert.ReferenceIdeal.S488691, .i32⟩ : BufTy).Contents (Elt Ideal)) (x6 : (⟨Cert.ReferenceIdeal.S64, .f32⟩ : BufTy).Contents (Elt Ideal)) (x7 : (⟨Cert.ReferenceIdeal.S1x32, .f32⟩ : BufTy).Contents (Elt Ideal)) (x8 : (⟨Cert.ReferenceIdeal.S32, .f32⟩ : BufTy).Contents (Elt Ideal)) (x9 : (⟨Cert.ReferenceIdeal.S32x32, .f32⟩ : BufTy).Contents (Elt Ideal)) (x10 : (⟨Cert.ReferenceIdeal.S32, .f32⟩ : BufTy).Contents (Elt Ideal)) (x11 : (⟨Cert.ReferenceIdeal.S4x96x512, .f32⟩ : BufTy).Contents (Elt Ideal)) (x12 : (⟨Cert.ReferenceIdeal.S4x512, .f32⟩ : BufTy).Contents (Elt Ideal)) (x13 : (⟨Cert.ReferenceIdeal.S4x512x512, .f32⟩ : BufTy).Contents (Elt Ideal)) (x14 : (⟨Cert.ReferenceIdeal.S4x512, .f32⟩ : BufTy).Contents (Elt Ideal)) (x15 : (⟨Cert.ReferenceIdeal.S4x512x512, .f32⟩ : BufTy).Contents (Elt Ideal)) (x16 : (⟨Cert.ReferenceIdeal.S4x512, .f32⟩ : BufTy).Contents (Elt Ideal))
    (xin : (⟨S8192x512, .f32⟩ : BufTy).Contents (Elt Ideal)) :
    (addf (addf xin (val_main_v224 (F := Ideal) x1 x2 x3 x4 x6 x7 x8 x9 x10 x11 x12 x13 x14 x15)) (val_main_v229 (F := Ideal) x16) : FVec Ideal S8192x512 .f32)
      = node xin (val_main_v212 (F := Ideal) x1 x2 x3 x4 x6 x7 x8 x9 x10 x11 x12) (val_main_v214 (F := Ideal) x13)
          (shapeCast S1x512 (val_main_v217 (F := Ideal) x14) shapeCasts_S512_S1x512) (val_main_v223 (F := Ideal) x15)
          (shapeCast S1x512 (val_main_v227 (F := Ideal) x16) shapeCasts_S512_S1x512) := by
  funext i
  obtain ⟨r, q, rfl⟩ : ∃ (r : Fin 8192) (q : Fin 512), i = ix2 r q := ⟨i 0, i 1, eq_ix2 i⟩
  rw [node_apply, addf_apply, addf_apply, val_main_v224_apply, val_main_v229_apply, val_main_v228_apply, idx_bias2]
  unfold nodeAt mlp
  rw [add_assoc, shapeCast_a_1a_apply]
  refine congrArg (xin (ix2 r q) + ·) (congrArg (· + val_main_v227 (F := Ideal) x16 (ix1 q)) (Finset.sum_congr rfl fun k _ => ?_))
  rw [lidx_v137, ridx_v137, val_main_v221_apply, val_main_v220_apply, val_main_v215_apply, val_main_v219_apply, val_main_v218_apply,
    idx_bias1, val_main_call8_v0_apply, val_main_call8_cst_apply, shapeCast_a_1a_apply]
  simp only [lidx_v128, ridx_v128, Ideal.maximumf_def, Ideal.addf_def, Ideal.ofBits_def, Ideal.ofBits_zero_f32]

/-! ## From the blocks to the array -/

section Region
variable (V : (c : Dev nD) → (b : Ref sig .tc) → Buf (Elt Ideal) ((c : Thread nD τ).loc b))

/-- The arrays the region reads, as it finds them, each by its literal type. -/
abbrev xArr (c : Dev nD) : Vec Ideal S8192x512 .f32 := V c main_v170
abbrev aggArr (c : Dev nD) : Vec Ideal S8192x512 .f32 := V c main_v181
abbrev u1Arr (c : Dev nD) : Vec Ideal S512x512 .f32 := V c main_v189
abbrev b1Arr (c : Dev nD) : Vec Ideal S1x512 .f32 := V c main_v184
abbrev u2Arr (c : Dev nD) : Vec Ideal S512x512 .f32 := V c main_v191
abbrev b2Arr (c : Dev nD) : Vec Ideal S1x512 .f32 := V c main_v187

/-- The blocks the body loads at point `t`, each by its literal type. -/
abbrev xBlk (c : Dev nD) (t : Fin cfg9.N) : Vec Ideal S1024x512 .f32 := iblk9 V c 0 t
abbrev aggBlk (c : Dev nD) (t : Fin cfg9.N) : Vec Ideal S1024x512 .f32 := iblk9 V c 1 t
abbrev u1Blk (c : Dev nD) (t : Fin cfg9.N) : Vec Ideal S512x512 .f32 := iblk9 V c 2 t
abbrev b1Blk (c : Dev nD) (t : Fin cfg9.N) : Vec Ideal S1x512 .f32 := iblk9 V c 3 t
abbrev u2Blk (c : Dev nD) (t : Fin cfg9.N) : Vec Ideal S512x512 .f32 := iblk9 V c 4 t
abbrev b2Blk (c : Dev nD) (t : Fin cfg9.N) : Vec Ideal S1x512 .f32 := iblk9 V c 5 t

theorem zero_offsets : (![0, 0] : Fin 2 → Nat) = fun _ => 0 :=
  funext fun a => match a with | ⟨0, _⟩ => rfl | ⟨1, _⟩ => rfl

/-- The printed index maps, decided over the eight points: the blocks of `x` and of `agg` move with the output's block
    down the rows, the four weight windows stay at the origin, and the output's row block index is at most 7. -/
theorem index_facts : ∀ t : Fin cfg9.N,
    win9_0.index t (0 : Fin 2) = win9_6.index t (0 : Fin 2) ∧ win9_0.index t (1 : Fin 2) = 0
    ∧ win9_1.index t (0 : Fin 2) = win9_6.index t (0 : Fin 2) ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (1 : Fin 2) = 0 ∧ win9_6.index t (0 : Fin 2) ≤ 7 :=
  (by decide +kernel : ∀ t : Fin grid9.N, _)

/-- Every row block is some point's. -/
theorem index_onto : ∀ q0 : Fin 8, ∃ t : Fin cfg9.N, win9_6.index t = ![q0.val, 0] :=
  (by decide +kernel : ∀ q0 : Fin 8, ∃ t : Fin grid9.N, win9_6.index t = ![q0.val, 0])

/-- The block of `x` at point `t` is `x` where the output's block lies. -/
theorem xBlk_apply (c : Dev nD) (t : Fin cfg9.N) (j : S1024x512.Idx) :
    xBlk V c t j = xArr V c (((cfg9.win 6).blk t).view.emb j) := by
  obtain ⟨e00, e01, e10, e11, e20, e21, e30, e31, e40, e41, e50, e51, e61, e60⟩ := index_facts t
  show V c main_v170 (((cfg9.win 0).blk t).view.emb j) = V c main_v170 (((cfg9.win 6).blk t).view.emb j)
  refine congrArg (V c main_v170) (funext fun a => Fin.ext ?_)
  match a with
  | ⟨0, _⟩ => show win9_0.index t (0 : Fin 2) * 1024 + 1 * (j 0).val = win9_6.index t (0 : Fin 2) * 1024 + 1 * (j 0).val; omega
  | ⟨1, _⟩ => show win9_0.index t (1 : Fin 2) * 512 + 1 * (j 1).val = win9_6.index t (1 : Fin 2) * 512 + 1 * (j 1).val; omega

/-- Row `j 0` of the block of `agg` at point `t` is the row of `agg` the output's block has there. -/
theorem aggBlk_apply (c : Dev nD) (t : Fin cfg9.N) (j : S1024x512.Idx) (l : Fin 512) :
    aggBlk V c t (ix2 (j 0) l) = aggArr V c (ix2 ((((cfg9.win 6).blk t).view.emb j) 0) l) := by
  obtain ⟨e00, e01, e10, e11, e20, e21, e30, e31, e40, e41, e50, e51, e61, e60⟩ := index_facts t
  show V c main_v181 (((cfg9.win 1).blk t).view.emb (ix2 (j 0) l)) = V c main_v181 (ix2 ((((cfg9.win 6).blk t).view.emb j) 0) l)
  refine congrArg (V c main_v181) (funext fun a => Fin.ext ?_)
  match a with
  | ⟨0, _⟩ => show win9_1.index t (0 : Fin 2) * 1024 + 1 * (j 0).val = win9_6.index t (0 : Fin 2) * 1024 + 1 * (j 0).val; omega
  | ⟨1, _⟩ => show win9_1.index t (1 : Fin 2) * 512 + 1 * l.val = l.val; omega

/-- The column of an index of the output's block is the column inside the block. -/
theorem col_emb (t : Fin cfg9.N) (j : S1024x512.Idx) : (j 1).val = ((((cfg9.win 6).blk t).view.emb j) 1).val := by
  obtain ⟨e00, e01, e10, e11, e20, e21, e30, e31, e40, e41, e50, e51, e61, e60⟩ := index_facts t
  show (j 1).val = win9_6.index t (1 : Fin 2) * 512 + 1 * (j 1).val
  omega

/-- Each weight window's one block is its whole array. -/
theorem u1Blk_eq (c : Dev nD) (t : Fin cfg9.N) : u1Blk V c t = u1Arr V c := by
  obtain ⟨e00, e01, e10, e11, e20, e21, e30, e31, e40, e41, e50, e51, e61, e60⟩ := index_facts t
  funext y
  show V c main_v189 (((cfg9.win 2).blk t).view.emb y) = V c main_v189 y
  refine congrArg (V c main_v189) (funext fun a => Fin.ext ?_)
  match a with
  | ⟨0, _⟩ => show win9_2.index t (0 : Fin 2) * 512 + 1 * (y 0).val = (y 0).val; omega
  | ⟨1, _⟩ => show win9_2.index t (1 : Fin 2) * 512 + 1 * (y 1).val = (y 1).val; omega
theorem b1Blk_eq (c : Dev nD) (t : Fin cfg9.N) : b1Blk V c t = b1Arr V c := by
  obtain ⟨e00, e01, e10, e11, e20, e21, e30, e31, e40, e41, e50, e51, e61, e60⟩ := index_facts t
  funext y
  show V c main_v184 (((cfg9.win 3).blk t).view.emb y) = V c main_v184 y
  refine congrArg (V c main_v184) (funext fun a => Fin.ext ?_)
  match a with
  | ⟨0, _⟩ => show win9_3.index t (0 : Fin 2) * 1 + 1 * (y 0).val = (y 0).val; omega
  | ⟨1, _⟩ => show win9_3.index t (1 : Fin 2) * 512 + 1 * (y 1).val = (y 1).val; omega
theorem u2Blk_eq (c : Dev nD) (t : Fin cfg9.N) : u2Blk V c t = u2Arr V c := by
  obtain ⟨e00, e01, e10, e11, e20, e21, e30, e31, e40, e41, e50, e51, e61, e60⟩ := index_facts t
  funext y
  show V c main_v191 (((cfg9.win 4).blk t).view.emb y) = V c main_v191 y
  refine congrArg (V c main_v191) (funext fun a => Fin.ext ?_)
  match a with
  | ⟨0, _⟩ => show win9_4.index t (0 : Fin 2) * 512 + 1 * (y 0).val = (y 0).val; omega
  | ⟨1, _⟩ => show win9_4.index t (1 : Fin 2) * 512 + 1 * (y 1).val = (y 1).val; omega
theorem b2Blk_eq (c : Dev nD) (t : Fin cfg9.N) : b2Blk V c t = b2Arr V c := by
  obtain ⟨e00, e01, e10, e11, e20, e21, e30, e31, e40, e41, e50, e51, e61, e60⟩ := index_facts t
  funext y
  show V c main_v187 (((cfg9.win 5).blk t).view.emb y) = V c main_v187 y
  refine congrArg (V c main_v187) (funext fun a => Fin.ext ?_)
  match a with
  | ⟨0, _⟩ => show win9_5.index t (0 : Fin 2) * 1 + 1 * (y 0).val = (y 0).val; omega
  | ⟨1, _⟩ => show win9_5.index t (1 : Fin 2) * 512 + 1 * (y 1).val = (y 1).val; omega

/-- WHAT POINT `t` WRITES BACK is block `t` of the closed form of the arrays as the region finds them. -/
theorem flushed_eq (c : Dev nD) (t : Fin cfg9.N) :
    (dat9 (F := Ideal) V c).flushed 6 t
      = ((cfg9.win 6).blk t).view.read (Elt Ideal) (node (xArr V c) (aggArr V c) (u1Arr V c) (b1Arr V c) (u2Arr V c) (b2Arr V c)) := by
  show (cfg9.win 6).cut (grid9.coords t) ((dat9 (F := Ideal) V c).after 6 t) = _
  rw [after9_6]
  unfold out9_6
  rw [View.canon_unit_zero zero_offsets]
  simp only [View.ld_unit_zero (S := S1024x512) zero_offsets, View.ld_unit_zero (S := S512x512) zero_offsets, View.ld_unit_zero (S := S1x512) zero_offsets]
  funext j
  show k9_pay1 (F := Ideal) (aggBlk V c t) (u1Blk V c t) (b1Blk V c t) (u2Blk V c t) (b2Blk V c t) (xBlk V c t) j
    = node (xArr V c) (aggArr V c) (u1Arr V c) (b1Arr V c) (u2Arr V c) (b2Arr V c) (((cfg9.win 6).blk t).view.emb j)
  exact pay_node (xArr V c) (aggArr V c) (u1Arr V c) (b1Arr V c) (u2Arr V c) (b2Arr V c)
    (aggBlk V c t) (u1Blk V c t) (b1Blk V c t) (u2Blk V c t) (b2Blk V c t) (xBlk V c t) j (((cfg9.win 6).blk t).view.emb j)
    (xBlk_apply V c t j) (fun l => aggBlk_apply V c t j l) (col_emb t j)
    (u1Blk_eq V c t) (b1Blk_eq V c t) (u2Blk_eq V c t) (b2Blk_eq V c t)

/-- An index of the array is in point `t`'s block iff each coordinate is in the block's range on its axis. -/
theorem mem_blk (t : Fin cfg9.N) (i : S8192x512.Idx) :
    i ∈ ((cfg9.win 6).blk t).view.set ↔ ∀ a : Fin 2, win9_6.index t a * S1024x512.size a ≤ (i a).val ∧ (i a).val < win9_6.index t a * S1024x512.size a + S1024x512.size a := by
  show i ∈ ((View.whole main_v192).slice (win9_6.rect t)).set ↔ _
  rw [View.set_slice_whole, Rect.mem_set_unit]
  exact Iff.rfl

/-- Eight blocks of 1024 rows are the 8192 rows: every index is in the block of the point whose row block holds it. -/
theorem covered (i : S8192x512.Idx) :
    ∃ t : Fin cfg9.N, (cfg9.win 6).flush t = true ∧ i ∈ ((cfg9.win 6).blk t).view.set := by
  have hi0 : (i 0).val < 8192 := (i 0).isLt
  have hi1 : (i 1).val < 512 := (i 1).isLt
  obtain ⟨t, ht⟩ := index_onto ⟨(i 0).val / 1024, by omega⟩
  have q0 : win9_6.index t (0 : Fin 2) = (i 0).val / 1024 := congrFun ht 0
  have q1 : win9_6.index t (1 : Fin 2) = 0 := congrFun ht 1
  refine ⟨t, flush9_6 t, ?_⟩
  rw [mem_blk]
  intro a
  match a with
  | ⟨0, _⟩ => show win9_6.index t (0 : Fin 2) * 1024 ≤ (i 0).val ∧ (i 0).val < win9_6.index t (0 : Fin 2) * 1024 + 1024; omega
  | ⟨1, _⟩ => show win9_6.index t (1 : Fin 2) * 512 ≤ (i 1).val ∧ (i 1).val < win9_6.index t (1 : Fin 2) * 512 + 512; omega

/-- THE ARRAY after the region: the closed form of the arrays as the region finds them. -/
theorem final (c : Dev nD) :
    (dat9 (F := Ideal) V c).arrAt 6 cfg9.N = node (xArr V c) (aggArr V c) (u1Arr V c) (b1Arr V c) (u2Arr V c) (b2Arr V c) :=
  (dat9 (F := Ideal) V c).arrAt_eq_of_cover 6 (node (xArr V c) (aggArr V c) (u1Arr V c) (b1Arr V c) (u2Arr V c) (b2Arr V c))
    (fun t _ => flushed_eq V c t) (fun i => covered i)

/-- The same with the arrays the region finds named: the closed form of whatever they are. -/
theorem region_eq (c : Dev nD) (X AGG : FVec Ideal S8192x512 .f32) (U1 : FVec Ideal S512x512 .f32) (B1 : FVec Ideal S1x512 .f32)
    (U2 : FVec Ideal S512x512 .f32) (B2 : FVec Ideal S1x512 .f32)
    (h0 : V c main_v170 = X) (h1 : V c main_v181 = AGG) (h2 : V c main_v189 = U1) (h3 : V c main_v184 = B1)
    (h4 : V c main_v191 = U2) (h5 : V c main_v187 = B2) :
    (dat9 (F := Ideal) V c).arrAt 6 cfg9.N = node X AGG U1 B1 U2 B2 := by
  subst h0 h1 h2 h3 h4 h5
  exact final V c

/-- THE LAYER: the region's output array is the reference's node update of the same inputs. -/
theorem layer (c : Dev nD)
    (x1 : (⟨Cert.ReferenceIdeal.S8192x3, .f32⟩ : BufTy).Contents (Elt Ideal)) (x2 : (⟨Cert.ReferenceIdeal.S2x85342, .i32⟩ : BufTy).Contents (Elt Ideal)) (x3 x4 : (⟨Cert.ReferenceIdeal.S488691, .i32⟩ : BufTy).Contents (Elt Ideal)) (x6 : (⟨Cert.ReferenceIdeal.S64, .f32⟩ : BufTy).Contents (Elt Ideal)) (x7 : (⟨Cert.ReferenceIdeal.S1x32, .f32⟩ : BufTy).Contents (Elt Ideal)) (x8 : (⟨Cert.ReferenceIdeal.S32, .f32⟩ : BufTy).Contents (Elt Ideal)) (x9 : (⟨Cert.ReferenceIdeal.S32x32, .f32⟩ : BufTy).Contents (Elt Ideal)) (x10 : (⟨Cert.ReferenceIdeal.S32, .f32⟩ : BufTy).Contents (Elt Ideal)) (x11 : (⟨Cert.ReferenceIdeal.S4x96x512, .f32⟩ : BufTy).Contents (Elt Ideal)) (x12 : (⟨Cert.ReferenceIdeal.S4x512, .f32⟩ : BufTy).Contents (Elt Ideal)) (x13 : (⟨Cert.ReferenceIdeal.S4x512x512, .f32⟩ : BufTy).Contents (Elt Ideal)) (x14 : (⟨Cert.ReferenceIdeal.S4x512, .f32⟩ : BufTy).Contents (Elt Ideal)) (x15 : (⟨Cert.ReferenceIdeal.S4x512x512, .f32⟩ : BufTy).Contents (Elt Ideal)) (x16 : (⟨Cert.ReferenceIdeal.S4x512, .f32⟩ : BufTy).Contents (Elt Ideal))
    (xin : (⟨S8192x512, .f32⟩ : BufTy).Contents (Elt Ideal))
    (h0 : V c main_v170 = xin)
    (h1 : V c main_v181 = val_main_v212 (F := Ideal) x1 x2 x3 x4 x6 x7 x8 x9 x10 x11 x12)
    (h2 : V c main_v189 = val_main_v214 (F := Ideal) x13)
    (h3 : V c main_v184 = shapeCast S1x512 (val_main_v217 (F := Ideal) x14) shapeCasts_S512_S1x512)
    (h4 : V c main_v191 = val_main_v223 (F := Ideal) x15)
    (h5 : V c main_v187 = shapeCast S1x512 (val_main_v227 (F := Ideal) x16) shapeCasts_S512_S1x512) :
    (dat9 (F := Ideal) V c).arrAt 6 cfg9.N
      = (addf (addf xin (val_main_v224 (F := Ideal) x1 x2 x3 x4 x6 x7 x8 x9 x10 x11 x12 x13 x14 x15)) (val_main_v229 (F := Ideal) x16) : FVec Ideal S8192x512 .f32) := by
  exact (region_eq V c xin (val_main_v212 (F := Ideal) x1 x2 x3 x4 x6 x7 x8 x9 x10 x11 x12) (val_main_v214 (F := Ideal) x13)
      (shapeCast S1x512 (val_main_v217 (F := Ideal) x14) shapeCasts_S512_S1x512) (val_main_v223 (F := Ideal) x15)
      (shapeCast S1x512 (val_main_v227 (F := Ideal) x16) shapeCasts_S512_S1x512) h0 h1 h2 h3 h4 h5).trans
    (reference_eq x1 x2 x3 x4 x6 x7 x8 x9 x10 x11 x12 x13 x14 x15 x16 xin).symm

end Region

end Cert.KernelIdeal.Node9

end
-- ==== Proof.Layer3.lean ====
/-
  One message-passing layer of the kernel program, read through the fold of buffer contents. At the boundary before the
  layer's padding the buffers hold: the node states `xin`, the edges' source nodes, the edge features, this layer's
  edge weights and bias and its update weights. The layer pads the edge features with zero rows, multiplies them by the
  weights on the device (rows beyond the real edges are dropped again by the slice that follows), adds each edge's message
  into its source node, and updates the node states on the device:
  `xin + (max(agg · U1 + b1, 0) · U2 + b2)`, which is the reference's `(xin + max(agg · U1 + b1, 0) · U2) + b2`.
-/
import proofs.«430973_j37220186587498_2_alg».proof.Proof.Gen.KernelIdeal.Frame
import proofs.«430973_j37220186587498_2_alg».proof.Proof.ReadB
import proofs.«430973_j37220186587498_2_alg».proof.Proof.Carry
import proofs.«430973_j37220186587498_2_alg».proof.Proof.Edge8
import proofs.«430973_j37220186587498_2_alg».proof.Proof.Node9
import Idealize.ShloMosaic.Lib.StableHlo.Run

set_option maxRecDepth 16384

noncomputable section

namespace Cert.KernelIdeal.Layer3

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
local notation "a13" => m ((c.tc : Thread nD τ).loc main_arg13)
local notation "a14" => m ((c.tc : Thread nD τ).loc main_arg14)
local notation "a15" => m ((c.tc : Thread nD τ).loc main_arg15)
local notation "a16" => m ((c.tc : Thread nD τ).loc main_arg16)
set_option quotPrecheck true

/-- What the buffers hold at the boundary before the layer's padding. -/
structure Entry (xin : (⟨S8192x512, .f32⟩ : BufTy).Contents (Elt Ideal)) : Prop where
  x : W28 (F := Ideal) m ρ c (Proc.devRef .tc main_v170) = xin
  row : W28 (F := Ideal) m ρ c (Proc.devRef .tc main_v3) = val_main_v9 (F := Ideal) a2
  ef : W28 (F := Ideal) m ρ c (Proc.devRef .tc main_v104) = val_main_v114 (F := Ideal) a1 a2 a3 a4 a6 a7 a8 a9 a10
  w : W28 (F := Ideal) m ρ c (Proc.devRef .tc main_v175) = val_main_v203 (F := Ideal) a11
  b : W28 (F := Ideal) m ρ c (Proc.devRef .tc main_v173) = shapeCast S1x512 (val_main_v206 (F := Ideal) a12) shapeCasts_S512_S1x512
  z : W28 (F := Ideal) m ρ c (Proc.devRef .tc main_c_30) = constantI S_ 32 0#32
  p0 : W28 (F := Ideal) m ρ c (Proc.devRef .tc main_arg0) = a0
  p11 : W28 (F := Ideal) m ρ c (Proc.devRef .tc main_arg11) = a11
  p12 : W28 (F := Ideal) m ρ c (Proc.devRef .tc main_arg12) = a12
  u1 : W28 (F := Ideal) m ρ c (Proc.devRef .tc main_arg13) = a13
  b1 : W28 (F := Ideal) m ρ c (Proc.devRef .tc main_arg14) = a14
  u2 : W28 (F := Ideal) m ρ c (Proc.devRef .tc main_arg15) = a15
  b2 : W28 (F := Ideal) m ρ c (Proc.devRef .tc main_arg16) = a16

/-- A buffer that neither the padding, nor the two device regions, nor the host operations between them write holds
    at the layer's end what it held at its beginning. -/
theorem kept (r : Ref sig .tc) (h1 : r ∉ Carry.written_hostOps8_1) (h2 : ∀ w, Pipeline.arrRef spec8 w ≠ r)
    (h3 : r ∉ Carry.written_hostOps9) (h4 : ∀ w, Pipeline.arrRef spec9 w ≠ r) :
    W32 (F := Ideal) m ρ c (Proc.devRef .tc r) = W28 (F := Ideal) m ρ c (Proc.devRef .tc r) :=
  (W32_of_ne m ρ c r h4).trans ((Carry.keep_hostOps9 _ r h3).trans ((W30_of_ne m ρ c r h2).trans (Carry.keep_hostOps8_1 _ r h1)))

/-- The same, up to the second region's entry. -/
theorem kept16 (r : Ref sig .tc) (h1 : r ∉ Carry.written_hostOps8_1) (h2 : ∀ w, Pipeline.arrRef spec8 w ≠ r)
    (h3 : r ∉ Carry.written_hostOps9) :
    W31 (F := Ideal) m ρ c (Proc.devRef .tc r) = W28 (F := Ideal) m ρ c (Proc.devRef .tc r) :=
  (Carry.keep_hostOps9 _ r h3).trans ((W30_of_ne m ρ c r h2).trans (Carry.keep_hostOps8_1 _ r h1))

/-- The same, up to the first region's exit. -/
theorem kept15 (r : Ref sig .tc) (h1 : r ∉ Carry.written_hostOps8_1) (h2 : ∀ w, Pipeline.arrRef spec8 w ≠ r) :
    W30 (F := Ideal) m ρ c (Proc.devRef .tc r) = W28 (F := Ideal) m ρ c (Proc.devRef .tc r) :=
  (W30_of_ne m ρ c r h2).trans (Carry.keep_hostOps8_1 _ r h1)

variable {xin : (⟨S8192x512, .f32⟩ : BufTy).Contents (Elt Ideal)} (h : Entry m ρ c xin)
include h

/-- The edge features, padded with zero rows, at the first region's entry. -/
theorem padded : V29 (F := Ideal) m ρ c main_v176
    = pad S90000x96 ![0, 0] ![4658, 0] ![0, 0] (val_main_v114 (F := Ideal) a1 a2 a3 a4 a6 a7 a8 a9 a10) (sitofp (F := Ideal) .f32 (constantI S_ 32 0#32)) pads_S85342x96_S90000x96_046580_000 h_S_ := by
  show StableHlo.after hostOps8_1 (W28 (F := Ideal) m ρ c) (Proc.devRef .tc main_v176) = _
  have hef := h.ef
  have hz := h.z
  generalize W28 (F := Ideal) m ρ c = W at hef hz ⊢
  dsimp only [hostOps8_1]
  after_results_simp
  rw [hef, hz]
  rfl

/-- The messages of the real edges: the device's product, sliced, is the reference's. -/
theorem messages : extractStridedSlice S85342x512 ![0, 0] (W30 (F := Ideal) m ρ c (Proc.devRef .tc main_v177)) slices_S90000x512_S85342x512_0_0
    = val_main_v209 (F := Ideal) a1 a2 a3 a4 a6 a7 a8 a9 a10 a11 a12 := by
  have e111 : W30 (F := Ideal) m ρ c (Proc.devRef .tc main_v177) = (dat8 (F := Ideal) (V29 m ρ) c).arrAt 3 cfg8.N := W30_arr m ρ c 3
  rw [e111]
  exact Edge8.layer (V29 m ρ) c a1 a2 a3 a4 a6 a7 a8 a9 a10 a11 a12 (padded m ρ c h)
    ((Carry.keep_hostOps8_1 _ main_v175 (by decide)).trans h.w)
    ((Carry.keep_hostOps8_1 _ main_v173 (by decide)).trans h.b)

/-- Each node's sum of its edges' messages. -/
theorem aggregated : V31 (F := Ideal) m ρ c main_v181 = val_main_v212 (F := Ideal) a1 a2 a3 a4 a6 a7 a8 a9 a10 a11 a12 := by
  show StableHlo.after hostOps9 (W30 (F := Ideal) m ρ c) (Proc.devRef .tc main_v181) = _
  dsimp only [hostOps9]
  after_results_simp
  rw [messages m ρ c h, kept15 m ρ c main_v3 (by decide) (by decide), h.row]
  rfl

theorem weights1 : V31 (F := Ideal) m ρ c main_v189 = val_main_v214 (F := Ideal) a13 := by
  show StableHlo.after hostOps9 (W30 (F := Ideal) m ρ c) (Proc.devRef .tc main_v189) = _
  dsimp only [hostOps9]
  after_results_simp
  rw [kept15 m ρ c main_arg13 (by decide) (by decide), h.u1]
  rfl

theorem bias1 : V31 (F := Ideal) m ρ c main_v184 = shapeCast S1x512 (val_main_v217 (F := Ideal) a14) shapeCasts_S512_S1x512 := by
  show StableHlo.after hostOps9 (W30 (F := Ideal) m ρ c) (Proc.devRef .tc main_v184) = _
  dsimp only [hostOps9]
  after_results_simp
  rw [kept15 m ρ c main_arg14 (by decide) (by decide), h.b1]
  rfl

theorem weights2 : V31 (F := Ideal) m ρ c main_v191 = val_main_v223 (F := Ideal) a15 := by
  show StableHlo.after hostOps9 (W30 (F := Ideal) m ρ c) (Proc.devRef .tc main_v191) = _
  dsimp only [hostOps9]
  after_results_simp
  rw [kept15 m ρ c main_arg15 (by decide) (by decide), h.u2]
  rfl

theorem bias2 : V31 (F := Ideal) m ρ c main_v187 = shapeCast S1x512 (val_main_v227 (F := Ideal) a16) shapeCasts_S512_S1x512 := by
  show StableHlo.after hostOps9 (W30 (F := Ideal) m ρ c) (Proc.devRef .tc main_v187) = _
  dsimp only [hostOps9]
  after_results_simp
  rw [kept15 m ρ c main_arg16 (by decide) (by decide), h.b2]
  rfl

/-- THE LAYER: the node states after it. -/
theorem updated : W32 (F := Ideal) m ρ c (Proc.devRef .tc main_v192)
    = (addf (addf xin (val_main_v224 (F := Ideal) a1 a2 a3 a4 a6 a7 a8 a9 a10 a11 a12 a13 a14 a15)) (val_main_v229 (F := Ideal) a16) : FVec Ideal S8192x512 .f32) := by
  have e126 : W32 (F := Ideal) m ρ c (Proc.devRef .tc main_v192) = (dat9 (F := Ideal) (V31 m ρ) c).arrAt 6 cfg9.N := W32_arr m ρ c 6
  rw [e126]
  exact Node9.layer (V31 m ρ) c a1 a2 a3 a4 a6 a7 a8 a9 a10 a11 a12 a13 a14 a15 a16 xin
    ((kept16 m ρ c main_v170 (by decide) (by decide) (by decide)).trans h.x)
    (aggregated m ρ c h) (weights1 m ρ c h) (bias1 m ρ c h) (weights2 m ρ c h) (bias2 m ρ c h)

end Cert.KernelIdeal.Layer3

end
-- ==== Proof.ChainZ.lean ====
/-
  The four message-passing layers in a row, and the two results. Each layer starts from the previous layer's node
  states (which the reference computes by the same operations in the same order), the unchanged edge features and
  source nodes, and its own slices of the weight arrays. The program returns the last node states, reshaped, and the
  mask of the zero tokens.
-/
import proofs.«430973_j37220186587498_2_alg».proof.Proof.Gen.KernelIdeal.Frame
import proofs.«430973_j37220186587498_2_alg».proof.Proof.ReadB
import proofs.«430973_j37220186587498_2_alg».proof.Proof.Carry
import proofs.«430973_j37220186587498_2_alg».proof.Proof.Layer0
import proofs.«430973_j37220186587498_2_alg».proof.Proof.Layer1
import proofs.«430973_j37220186587498_2_alg».proof.Proof.Layer2
import proofs.«430973_j37220186587498_2_alg».proof.Proof.Layer3
import Idealize.ShloMosaic.Lib.StableHlo.Run

set_option maxRecDepth 16384
set_option quotPrecheck false

noncomputable section

namespace Cert.KernelIdeal.ChainZ

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
local notation "a13" => m ((c.tc : Thread nD τ).loc main_arg13)
local notation "a14" => m ((c.tc : Thread nD τ).loc main_arg14)
local notation "a15" => m ((c.tc : Thread nD τ).loc main_arg15)
local notation "a16" => m ((c.tc : Thread nD τ).loc main_arg16)

/-- The node states after layer 0 are the reference's. -/
theorem states1 {xin : (⟨S8192x512, .f32⟩ : BufTy).Contents (Elt Ideal)} (h : Layer0.Entry m ρ c xin)
    (hx : xin = val_main_v7 (F := Ideal) a0 a5) :
    W17 (F := Ideal) m ρ c (Proc.devRef .tc main_v126) = val_main_v143 (F := Ideal) a0 a1 a2 a3 a4 a5 a6 a7 a8 a9 a10 a11 a12 a13 a14 a15 a16 := by
  rw [Layer0.updated m ρ c h, hx]
  rfl

/-- What layer 1 starts from: the previous layer's node states, the edges' source nodes and the edge features as they
    were, and this layer's slices of the weights. -/
theorem entry1 {xin : (⟨S8192x512, .f32⟩ : BufTy).Contents (Elt Ideal)} (h : Layer0.Entry m ρ c xin)
    (hx : xin = val_main_v7 (F := Ideal) a0 a5) :
    Layer1.Entry m ρ c (val_main_v143 (F := Ideal) a0 a1 a2 a3 a4 a5 a6 a7 a8 a9 a10 a11 a12 a13 a14 a15 a16) where
  x := (Carry.keep_hostOps4 _ main_v126 (by decide)).trans (states1 m ρ c h hx)
  row := (Carry.keep_hostOps4 _ main_v3 (by decide)).trans ((Layer0.kept m ρ c main_v3 (by decide) (by decide) (by decide) (by decide)).trans h.row)
  ef := (Carry.keep_hostOps4 _ main_v104 (by decide)).trans ((Layer0.kept m ρ c main_v104 (by decide) (by decide) (by decide) (by decide)).trans h.ef)
  w := by
    show StableHlo.after hostOps4 (W17 (F := Ideal) m ρ c) (Proc.devRef .tc main_v131) = _
    dsimp only [hostOps4]
    after_results_simp
    rw [(Layer0.kept m ρ c main_arg11 (by decide) (by decide) (by decide) (by decide)).trans h.p11]
    rfl
  b := by
    show StableHlo.after hostOps4 (W17 (F := Ideal) m ρ c) (Proc.devRef .tc main_v129) = _
    dsimp only [hostOps4]
    after_results_simp
    rw [(Layer0.kept m ρ c main_arg12 (by decide) (by decide) (by decide) (by decide)).trans h.p12]
    rfl
  z := by
    show StableHlo.after hostOps4 (W17 (F := Ideal) m ρ c) (Proc.devRef .tc main_c_26) = _
    dsimp only [hostOps4]
    after_results_simp
  p0 := (Carry.keep_hostOps4 _ main_arg0 (by decide)).trans ((Layer0.kept m ρ c main_arg0 (by decide) (by decide) (by decide) (by decide)).trans h.p0)
  p11 := (Carry.keep_hostOps4 _ main_arg11 (by decide)).trans ((Layer0.kept m ρ c main_arg11 (by decide) (by decide) (by decide) (by decide)).trans h.p11)
  p12 := (Carry.keep_hostOps4 _ main_arg12 (by decide)).trans ((Layer0.kept m ρ c main_arg12 (by decide) (by decide) (by decide) (by decide)).trans h.p12)
  u1 := (Carry.keep_hostOps4 _ main_arg13 (by decide)).trans ((Layer0.kept m ρ c main_arg13 (by decide) (by decide) (by decide) (by decide)).trans h.u1)
  b1 := (Carry.keep_hostOps4 _ main_arg14 (by decide)).trans ((Layer0.kept m ρ c main_arg14 (by decide) (by decide) (by decide) (by decide)).trans h.b1)
  u2 := (Carry.keep_hostOps4 _ main_arg15 (by decide)).trans ((Layer0.kept m ρ c main_arg15 (by decide) (by decide) (by decide) (by decide)).trans h.u2)
  b2 := (Carry.keep_hostOps4 _ main_arg16 (by decide)).trans ((Layer0.kept m ρ c main_arg16 (by decide) (by decide) (by decide) (by decide)).trans h.b2)

/-- The node states after layer 1 are the reference's. -/
theorem states2 {xin : (⟨S8192x512, .f32⟩ : BufTy).Contents (Elt Ideal)} (h : Layer1.Entry m ρ c xin)
    (hx : xin = val_main_v143 (F := Ideal) a0 a1 a2 a3 a4 a5 a6 a7 a8 a9 a10 a11 a12 a13 a14 a15 a16) :
    W22 (F := Ideal) m ρ c (Proc.devRef .tc main_v148) = val_main_v172 (F := Ideal) a0 a1 a2 a3 a4 a5 a6 a7 a8 a9 a10 a11 a12 a13 a14 a15 a16 := by
  rw [Layer1.updated m ρ c h, hx]
  rfl

/-- What layer 2 starts from: the previous layer's node states, the edges' source nodes and the edge features as they
    were, and this layer's slices of the weights. -/
theorem entry2 {xin : (⟨S8192x512, .f32⟩ : BufTy).Contents (Elt Ideal)} (h : Layer1.Entry m ρ c xin)
    (hx : xin = val_main_v143 (F := Ideal) a0 a1 a2 a3 a4 a5 a6 a7 a8 a9 a10 a11 a12 a13 a14 a15 a16) :
    Layer2.Entry m ρ c (val_main_v172 (F := Ideal) a0 a1 a2 a3 a4 a5 a6 a7 a8 a9 a10 a11 a12 a13 a14 a15 a16) where
  x := (Carry.keep_hostOps6 _ main_v148 (by decide)).trans (states2 m ρ c h hx)
  row := (Carry.keep_hostOps6 _ main_v3 (by decide)).trans ((Layer1.kept m ρ c main_v3 (by decide) (by decide) (by decide) (by decide)).trans h.row)
  ef := (Carry.keep_hostOps6 _ main_v104 (by decide)).trans ((Layer1.kept m ρ c main_v104 (by decide) (by decide) (by decide) (by decide)).trans h.ef)
  w := by
    show StableHlo.after hostOps6 (W22 (F := Ideal) m ρ c) (Proc.devRef .tc main_v153) = _
    dsimp only [hostOps6]
    after_results_simp
    rw [(Layer1.kept m ρ c main_arg11 (by decide) (by decide) (by decide) (by decide)).trans h.p11]
    rfl
  b := by
    show StableHlo.after hostOps6 (W22 (F := Ideal) m ρ c) (Proc.devRef .tc main_v151) = _
    dsimp only [hostOps6]
    after_results_simp
    rw [(Layer1.kept m ρ c main_arg12 (by decide) (by decide) (by decide) (by decide)).trans h.p12]
    rfl
  z := by
    show StableHlo.after hostOps6 (W22 (F := Ideal) m ρ c) (Proc.devRef .tc main_c_28) = _
    dsimp only [hostOps6]
    after_results_simp
  p0 := (Carry.keep_hostOps6 _ main_arg0 (by decide)).trans ((Layer1.kept m ρ c main_arg0 (by decide) (by decide) (by decide) (by decide)).trans h.p0)
  p11 := (Carry.keep_hostOps6 _ main_arg11 (by decide)).trans ((Layer1.kept m ρ c main_arg11 (by decide) (by decide) (by decide) (by decide)).trans h.p11)
  p12 := (Carry.keep_hostOps6 _ main_arg12 (by decide)).trans ((Layer1.kept m ρ c main_arg12 (by decide) (by decide) (by decide) (by decide)).trans h.p12)
  u1 := (Carry.keep_hostOps6 _ main_arg13 (by decide)).trans ((Layer1.kept m ρ c main_arg13 (by decide) (by decide) (by decide) (by decide)).trans h.u1)
  b1 := (Carry.keep_hostOps6 _ main_arg14 (by decide)).trans ((Layer1.kept m ρ c main_arg14 (by decide) (by decide) (by decide) (by decide)).trans h.b1)
  u2 := (Carry.keep_hostOps6 _ main_arg15 (by decide)).trans ((Layer1.kept m ρ c main_arg15 (by decide) (by decide) (by decide) (by decide)).trans h.u2)
  b2 := (Carry.keep_hostOps6 _ main_arg16 (by decide)).trans ((Layer1.kept m ρ c main_arg16 (by decide) (by decide) (by decide) (by decide)).trans h.b2)

/-- The node states after layer 2 are the reference's. -/
theorem states3 {xin : (⟨S8192x512, .f32⟩ : BufTy).Contents (Elt Ideal)} (h : Layer2.Entry m ρ c xin)
    (hx : xin = val_main_v172 (F := Ideal) a0 a1 a2 a3 a4 a5 a6 a7 a8 a9 a10 a11 a12 a13 a14 a15 a16) :
    W27 (F := Ideal) m ρ c (Proc.devRef .tc main_v170) = val_main_v201 (F := Ideal) a0 a1 a2 a3 a4 a5 a6 a7 a8 a9 a10 a11 a12 a13 a14 a15 a16 := by
  rw [Layer2.updated m ρ c h, hx]
  rfl

/-- What layer 3 starts from: the previous layer's node states, the edges' source nodes and the edge features as they
    were, and this layer's slices of the weights. -/
theorem entry3 {xin : (⟨S8192x512, .f32⟩ : BufTy).Contents (Elt Ideal)} (h : Layer2.Entry m ρ c xin)
    (hx : xin = val_main_v172 (F := Ideal) a0 a1 a2 a3 a4 a5 a6 a7 a8 a9 a10 a11 a12 a13 a14 a15 a16) :
    Layer3.Entry m ρ c (val_main_v201 (F := Ideal) a0 a1 a2 a3 a4 a5 a6 a7 a8 a9 a10 a11 a12 a13 a14 a15 a16) where
  x := (Carry.keep_hostOps8 _ main_v170 (by decide)).trans (states3 m ρ c h hx)
  row := (Carry.keep_hostOps8 _ main_v3 (by decide)).trans ((Layer2.kept m ρ c main_v3 (by decide) (by decide) (by decide) (by decide)).trans h.row)
  ef := (Carry.keep_hostOps8 _ main_v104 (by decide)).trans ((Layer2.kept m ρ c main_v104 (by decide) (by decide) (by decide) (by decide)).trans h.ef)
  w := by
    show StableHlo.after hostOps8 (W27 (F := Ideal) m ρ c) (Proc.devRef .tc main_v175) = _
    dsimp only [hostOps8]
    after_results_simp
    rw [(Layer2.kept m ρ c main_arg11 (by decide) (by decide) (by decide) (by decide)).trans h.p11]
    rfl
  b := by
    show StableHlo.after hostOps8 (W27 (F := Ideal) m ρ c) (Proc.devRef .tc main_v173) = _
    dsimp only [hostOps8]
    after_results_simp
    rw [(Layer2.kept m ρ c main_arg12 (by decide) (by decide) (by decide) (by decide)).trans h.p12]
    rfl
  z := by
    show StableHlo.after hostOps8 (W27 (F := Ideal) m ρ c) (Proc.devRef .tc main_c_30) = _
    dsimp only [hostOps8]
    after_results_simp
  p0 := (Carry.keep_hostOps8 _ main_arg0 (by decide)).trans ((Layer2.kept m ρ c main_arg0 (by decide) (by decide) (by decide) (by decide)).trans h.p0)
  p11 := (Carry.keep_hostOps8 _ main_arg11 (by decide)).trans ((Layer2.kept m ρ c main_arg11 (by decide) (by decide) (by decide) (by decide)).trans h.p11)
  p12 := (Carry.keep_hostOps8 _ main_arg12 (by decide)).trans ((Layer2.kept m ρ c main_arg12 (by decide) (by decide) (by decide) (by decide)).trans h.p12)
  u1 := (Carry.keep_hostOps8 _ main_arg13 (by decide)).trans ((Layer2.kept m ρ c main_arg13 (by decide) (by decide) (by decide) (by decide)).trans h.u1)
  b1 := (Carry.keep_hostOps8 _ main_arg14 (by decide)).trans ((Layer2.kept m ρ c main_arg14 (by decide) (by decide) (by decide) (by decide)).trans h.b1)
  u2 := (Carry.keep_hostOps8 _ main_arg15 (by decide)).trans ((Layer2.kept m ρ c main_arg15 (by decide) (by decide) (by decide) (by decide)).trans h.u2)
  b2 := (Carry.keep_hostOps8 _ main_arg16 (by decide)).trans ((Layer2.kept m ρ c main_arg16 (by decide) (by decide) (by decide) (by decide)).trans h.b2)

/-- THE FIRST RESULT: the node states after the fourth layer, reshaped, are the reference's. -/
theorem result {xin : (⟨S8192x512, .f32⟩ : BufTy).Contents (Elt Ideal)} (h : Layer3.Entry m ρ c xin)
    (hx : xin = val_main_v201 (F := Ideal) a0 a1 a2 a3 a4 a5 a6 a7 a8 a9 a10 a11 a12 a13 a14 a15 a16) :
    W33 (F := Ideal) m ρ c (Proc.devRef .tc main_v195) = val_main_v233 (F := Ideal) a0 a1 a2 a3 a4 a5 a6 a7 a8 a9 a10 a11 a12 a13 a14 a15 a16 := by
  show StableHlo.after hostOps10 (W32 (F := Ideal) m ρ c) (Proc.devRef .tc main_v195) = _
  dsimp only [hostOps10]
  after_results_simp
  rw [Layer3.updated m ρ c h, hx]
  rfl

/-- THE SECOND RESULT: the mask of the zero tokens. -/
theorem mask {xin : (⟨S8192x512, .f32⟩ : BufTy).Contents (Elt Ideal)} (h : Layer3.Entry m ρ c xin) :
    W33 (F := Ideal) m ρ c (Proc.devRef .tc main_v194) = val_main_v232 (F := Ideal) a0 := by
  show StableHlo.after hostOps10 (W32 (F := Ideal) m ρ c) (Proc.devRef .tc main_v194) = _
  dsimp only [hostOps10]
  after_results_simp
  rw [(Layer3.kept m ρ c main_arg0 (by decide) (by decide) (by decide) (by decide)).trans h.p0]
  rfl

end Cert.KernelIdeal.ChainZ

end
-- ==== Proof.lean ====
/-
  The kernel program embeds the tokens by a one-hot product, computes the triplets' angle features and, four times,
  the edges' messages and the nodes' updates on the device, with the gathers, the scatter-sums and the radial basis on
  the host; the reference does everything on the host. At the extended reals a change of float format is the identity,
  a product into a zero accumulator is the host's contraction, rows added as padding are dropped again, and the one
  regrouping, `x + (d + b) = (x + d) + b`, holds for every extended real: so the two programs return the same arrays
  whenever every token lies inside the embedding table, which is what the precondition adds to finiteness (outside it
  the reference's row gather wraps and clamps where the kernel's one-hot row is zero).
  The two kernel frames are the generated ones; `preserves` has no entry. The reference's run ends every buffer at the
  fold of its operations over the launch contents (Proof/RunB.lean), and that fold, read chunk by chunk, is the
  reference's stage functions of the arguments (Proof/FoldB.lean): its frame and its two results. The value claim runs
  the kernel program through the fold of its segments' contents (Proof/KRun.lean) and reads that fold stage by stage
  (Proof/ChainA.lean, Proof/Layer0.lean … Layer3.lean, Proof/ChainZ.lean) against the same stage functions.
-/
import proofs.«430973_j37220186587498_2_alg».proof.Proof.Gen.Kernel
import proofs.«430973_j37220186587498_2_alg».proof.Proof.Gen.Kernel.Frame
import proofs.«430973_j37220186587498_2_alg».proof.Proof.Gen.KernelIdeal
import proofs.«430973_j37220186587498_2_alg».proof.Proof.Gen.KernelIdeal.Frame
import proofs.«430973_j37220186587498_2_alg».proof.Proof.Gen.ReferenceIdeal
import proofs.«430973_j37220186587498_2_alg».proof.Proof.Gen.Pre_finite_inputs
import proofs.«430973_j37220186587498_2_alg».proof.Proof.RunB
import proofs.«430973_j37220186587498_2_alg».proof.Proof.ReadB
import proofs.«430973_j37220186587498_2_alg».proof.Proof.FoldB
import proofs.«430973_j37220186587498_2_alg».proof.Proof.KRun
import proofs.«430973_j37220186587498_2_alg».proof.Proof.TokOk
import proofs.«430973_j37220186587498_2_alg».proof.Proof.PreTok
import proofs.«430973_j37220186587498_2_alg».proof.Proof.ChainA
import proofs.«430973_j37220186587498_2_alg».proof.Proof.ChainZ
import proofs.«430973_j37220186587498_2_alg».proof.Defs
import Idealize.ShloMosaic.Adequacy
import Idealize.ShloMosaic.Init

set_option maxRecDepth 16384

noncomputable section

namespace Cert.Proof

open Idealize.ShloMosaic Idealize.ShloMosaic.TcCoe Idealize.SL.Sem

/-- The reference program runs, and leaves in every buffer what its operations, folded in order over the launch
    contents, leave there; in particular its argument arrays, which no operation writes, end as launched. -/
theorem frame_reference : @Cert.frame_ReferenceIdeal Cert.ReferenceIdeal.Gen.facts Cert.Pre_finite_inputs.Gen.facts :=
  fun m ρ _ => (θ_run Cert.ReferenceIdeal.defs _ _).mono (fun r h c =>
    ⟨(h c Cert.ReferenceIdeal.main_arg0).trans (Cert.ReferenceIdeal.FoldB.fold_keep _ Cert.ReferenceIdeal.main_arg0 (by decide)),
      (h c Cert.ReferenceIdeal.main_arg1).trans (Cert.ReferenceIdeal.FoldB.fold_keep _ Cert.ReferenceIdeal.main_arg1 (by decide)),
      (h c Cert.ReferenceIdeal.main_arg2).trans (Cert.ReferenceIdeal.FoldB.fold_keep _ Cert.ReferenceIdeal.main_arg2 (by decide)),
      (h c Cert.ReferenceIdeal.main_arg3).trans (Cert.ReferenceIdeal.FoldB.fold_keep _ Cert.ReferenceIdeal.main_arg3 (by decide)),
      (h c Cert.ReferenceIdeal.main_arg4).trans (Cert.ReferenceIdeal.FoldB.fold_keep _ Cert.ReferenceIdeal.main_arg4 (by decide)),
      (h c Cert.ReferenceIdeal.main_arg5).trans (Cert.ReferenceIdeal.FoldB.fold_keep _ Cert.ReferenceIdeal.main_arg5 (by decide)),
      (h c Cert.ReferenceIdeal.main_arg6).trans (Cert.ReferenceIdeal.FoldB.fold_keep _ Cert.ReferenceIdeal.main_arg6 (by decide)),
      (h c Cert.ReferenceIdeal.main_arg7).trans (Cert.ReferenceIdeal.FoldB.fold_keep _ Cert.ReferenceIdeal.main_arg7 (by decide)),
      (h c Cert.ReferenceIdeal.main_arg8).trans (Cert.ReferenceIdeal.FoldB.fold_keep _ Cert.ReferenceIdeal.main_arg8 (by decide)),
      (h c Cert.ReferenceIdeal.main_arg9).trans (Cert.ReferenceIdeal.FoldB.fold_keep _ Cert.ReferenceIdeal.main_arg9 (by decide)),
      (h c Cert.ReferenceIdeal.main_arg10).trans (Cert.ReferenceIdeal.FoldB.fold_keep _ Cert.ReferenceIdeal.main_arg10 (by decide)),
      (h c Cert.ReferenceIdeal.main_arg11).trans (Cert.ReferenceIdeal.FoldB.fold_keep _ Cert.ReferenceIdeal.main_arg11 (by decide)),
      (h c Cert.ReferenceIdeal.main_arg12).trans (Cert.ReferenceIdeal.FoldB.fold_keep _ Cert.ReferenceIdeal.main_arg12 (by decide)),
      (h c Cert.ReferenceIdeal.main_arg13).trans (Cert.ReferenceIdeal.FoldB.fold_keep _ Cert.ReferenceIdeal.main_arg13 (by decide)),
      (h c Cert.ReferenceIdeal.main_arg14).trans (Cert.ReferenceIdeal.FoldB.fold_keep _ Cert.ReferenceIdeal.main_arg14 (by decide)),
      (h c Cert.ReferenceIdeal.main_arg15).trans (Cert.ReferenceIdeal.FoldB.fold_keep _ Cert.ReferenceIdeal.main_arg15 (by decide)),
      (h c Cert.ReferenceIdeal.main_arg16).trans (Cert.ReferenceIdeal.FoldB.fold_keep _ Cert.ReferenceIdeal.main_arg16 (by decide))⟩)
    (Cert.ReferenceIdeal.ValueB.run_raw (F := Ideal) m ρ)

/-- Both programs end with the same two arrays: the kernel program's fold read stage by stage is the reference's fold
    read stage by stage. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W33 (F := Ideal) m ρ c (Proc.devRef .tc Cert.KernelIdeal.main_v195),
    fun c => Cert.KernelIdeal.Gen.W33 (F := Ideal) m ρ c (Proc.devRef .tc Cert.KernelIdeal.main_v194),
    Cert.KernelIdeal.Gen.run_results (F := Ideal) m ρ, ?_⟩
  refine (θ_run Cert.ReferenceIdeal.defs _ _).mono (fun r h c =>
    ⟨(h c Cert.ReferenceIdeal.main_v233).trans ?_, (h c Cert.ReferenceIdeal.main_v232).trans ?_,
      (h c Cert.ReferenceIdeal.main_arg0).trans (Cert.ReferenceIdeal.FoldB.fold_keep _ Cert.ReferenceIdeal.main_arg0 (by decide)),
      (h c Cert.ReferenceIdeal.main_arg1).trans (Cert.ReferenceIdeal.FoldB.fold_keep _ Cert.ReferenceIdeal.main_arg1 (by decide)),
      (h c Cert.ReferenceIdeal.main_arg2).trans (Cert.ReferenceIdeal.FoldB.fold_keep _ Cert.ReferenceIdeal.main_arg2 (by decide)),
      (h c Cert.ReferenceIdeal.main_arg3).trans (Cert.ReferenceIdeal.FoldB.fold_keep _ Cert.ReferenceIdeal.main_arg3 (by decide)),
      (h c Cert.ReferenceIdeal.main_arg4).trans (Cert.ReferenceIdeal.FoldB.fold_keep _ Cert.ReferenceIdeal.main_arg4 (by decide)),
      (h c Cert.ReferenceIdeal.main_arg5).trans (Cert.ReferenceIdeal.FoldB.fold_keep _ Cert.ReferenceIdeal.main_arg5 (by decide)),
      (h c Cert.ReferenceIdeal.main_arg6).trans (Cert.ReferenceIdeal.FoldB.fold_keep _ Cert.ReferenceIdeal.main_arg6 (by decide)),
      (h c Cert.ReferenceIdeal.main_arg7).trans (Cert.ReferenceIdeal.FoldB.fold_keep _ Cert.ReferenceIdeal.main_arg7 (by decide)),
      (h c Cert.ReferenceIdeal.main_arg8).trans (Cert.ReferenceIdeal.FoldB.fold_keep _ Cert.ReferenceIdeal.main_arg8 (by decide)),
      (h c Cert.ReferenceIdeal.main_arg9).trans (Cert.ReferenceIdeal.FoldB.fold_keep _ Cert.ReferenceIdeal.main_arg9 (by decide)),
      (h c Cert.ReferenceIdeal.main_arg10).trans (Cert.ReferenceIdeal.FoldB.fold_keep _ Cert.ReferenceIdeal.main_arg10 (by decide)),
      (h c Cert.ReferenceIdeal.main_arg11).trans (Cert.ReferenceIdeal.FoldB.fold_keep _ Cert.ReferenceIdeal.main_arg11 (by decide)),
      (h c Cert.ReferenceIdeal.main_arg12).trans (Cert.ReferenceIdeal.FoldB.fold_keep _ Cert.ReferenceIdeal.main_arg12 (by decide)),
      (h c Cert.ReferenceIdeal.main_arg13).trans (Cert.ReferenceIdeal.FoldB.fold_keep _ Cert.ReferenceIdeal.main_arg13 (by decide)),
      (h c Cert.ReferenceIdeal.main_arg14).trans (Cert.ReferenceIdeal.FoldB.fold_keep _ Cert.ReferenceIdeal.main_arg14 (by decide)),
      (h c Cert.ReferenceIdeal.main_arg15).trans (Cert.ReferenceIdeal.FoldB.fold_keep _ Cert.ReferenceIdeal.main_arg15 (by decide)),
      (h c Cert.ReferenceIdeal.main_arg16).trans (Cert.ReferenceIdeal.FoldB.fold_keep _ Cert.ReferenceIdeal.main_arg16 (by decide))⟩)
    (Cert.ReferenceIdeal.ValueB.run_raw (F := Ideal) m' ρ')
  · have hr := Cert.KernelIdeal.PreTok.tokOk_of_pre m hpre c
    have h0 := Cert.KernelIdeal.ChainA.entry0 m ρ c hr
    have h1 := Cert.KernelIdeal.ChainZ.entry1 m ρ c h0 rfl
    have h2 := Cert.KernelIdeal.ChainZ.entry2 m ρ c h1 rfl
    have h3 := Cert.KernelIdeal.ChainZ.entry3 m ρ c h2 rfl
    have R := (Cert.KernelIdeal.ChainZ.result m ρ c h3 rfl).symm
    obtain ⟨e0, e1, e2, e3, e4, e5, e6, e7, e8, e9, e10, e11, e12, e13, e14, e15, e16⟩ := hagree c
    rw [← e0, ← e1, ← e2, ← e3, ← e4, ← e5, ← e6, ← e7, ← e8, ← e9, ← e10, ← e11, ← e12, ← e13, ← e14, ← e15, ← e16] at R
    exact (Cert.ReferenceIdeal.FoldB.fold_v233 _).trans R
  · have hr := Cert.KernelIdeal.PreTok.tokOk_of_pre m hpre c
    have h0 := Cert.KernelIdeal.ChainA.entry0 m ρ c hr
    have h1 := Cert.KernelIdeal.ChainZ.entry1 m ρ c h0 rfl
    have h2 := Cert.KernelIdeal.ChainZ.entry2 m ρ c h1 rfl
    have h3 := Cert.KernelIdeal.ChainZ.entry3 m ρ c h2 rfl
    have M := (Cert.KernelIdeal.ChainZ.mask m ρ c h3).symm
    rw [← (hagree c).1] at M
    exact (Cert.ReferenceIdeal.FoldB.fold_v232 _).trans M

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
